-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S512x256 : Shape := ⟨2, ![512, 256]⟩
abbrev S1x256 : Shape := ⟨2, ![1, 256]⟩
abbrev S15x1x256 : Shape := ⟨3, ![15, 1, 256]⟩
abbrev S15 : Shape := ⟨1, ![15]⟩
abbrev S_ : Shape := ⟨0, ![]⟩
abbrev S256 : Shape := ⟨1, ![256]⟩
abbrev S1 : Shape := ⟨1, ![1]⟩
abbrev S1x1x256 : Shape := ⟨3, ![1, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S15x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v206 : BitVec 32 := Scalar.addi v2 c1_i32_139
  let c16_i32_140 : BitVec 32 := 16#32
  let c0_i32_141 : BitVec 32 := 0#32
  let v207 : BitVec 1 := Scalar.cmpi .eq c16_i32_140 c0_i32_141
  let c1_i32_142 : BitVec 32 := 1#32
  let v208 : BitVec 32 := Scalar.select v207 c1_i32_142 c16_i32_140
  let v209 : BitVec 32 := Scalar.remsi v206 v208
  let c0_i32_144 : BitVec 32 := 0#32
  let v211 : BitVec 1 := Scalar.cmpi .slt v209 c0_i32_144
  let c0_i32_145 : BitVec 32 := 0#32
  let v212 : BitVec 1 := Scalar.cmpi .slt v208 c0_i32_145
  let v213 : BitVec 1 := Scalar.xori v211 v212
  let c0_i32_143 : BitVec 32 := 0#32
  let v210 : BitVec 1 := Scalar.cmpi .ne v209 c0_i32_143
  let v214 : BitVec 1 := Scalar.andi v213 v210
  let v215 : BitVec 32 := Scalar.addi v209 v208
  let v216 : BitVec 32 := Scalar.select v214 v215 v209
  let c1_i32_149 : BitVec 32 := 1#32
  let v217 : BitVec 32 := Scalar.muli v216 c1_i32_149
  let v218 : BitVec 32 := Scalar.addi c0_i32_150 v217
  v218.toNat
def k0_dev17 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_153 : BitVec 32 := 2#32
  let v225 : BitVec 32 := Scalar.addi v2 c2_i32_153
  let c16_i32_154 : BitVec 32 := 16#32
  let c0_i32_155 : BitVec 32 := 0#32
  let v226 : BitVec 1 := Scalar.cmpi .eq c16_i32_154 c0_i32_155
  let c1_i32_156 : BitVec 32 := 1#32
  let v227 : BitVec 32 := Scalar.select v226 c1_i32_156 c16_i32_154
  let v228 : BitVec 32 := Scalar.remsi v225 v227
  let c0_i32_158 : BitVec 32 := 0#32
  let v230 : BitVec 1 := Scalar.cmpi .slt v228 c0_i32_158
  let c0_i32_159 : BitVec 32 := 0#32
  let v231 : BitVec 1 := Scalar.cmpi .slt v227 c0_i32_159
  let v232 : BitVec 1 := Scalar.xori v230 v231
  let c0_i32_157 : BitVec 32 := 0#32
  let v229 : BitVec 1 := Scalar.cmpi .ne v228 c0_i32_157
  let v233 : BitVec 1 := Scalar.andi v232 v229
  let v234 : BitVec 32 := Scalar.addi v228 v227
  let v235 : BitVec 32 := Scalar.select v233 v234 v228
  let c1_i32_163 : BitVec 32 := 1#32
  let v236 : BitVec 32 := Scalar.muli v235 c1_i32_163
  let v237 : BitVec 32 := Scalar.addi c0_i32_164 v236
  v237.toNat
def k0_dev18 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_167 : BitVec 32 := 3#32
  let v244 : BitVec 32 := Scalar.addi v2 c3_i32_167
  let c16_i32_168 : BitVec 32 := 16#32
  let c0_i32_169 : BitVec 32 := 0#32
  let v245 : BitVec 1 := Scalar.cmpi .eq c16_i32_168 c0_i32_169
  let c1_i32_170 : BitVec 32 := 1#32
  let v246 : BitVec 32 := Scalar.select v245 c1_i32_170 c16_i32_168
  let v247 : BitVec 32 := Scalar.remsi v244 v246
  let c0_i32_172 : BitVec 32 := 0#32
  let v249 : BitVec 1 := Scalar.cmpi .slt v247 c0_i32_172
  let c0_i32_173 : BitVec 32 := 0#32
  let v250 : BitVec 1 := Scalar.cmpi .slt v246 c0_i32_173
  let v251 : BitVec 1 := Scalar.xori v249 v250
  let c0_i32_171 : BitVec 32 := 0#32
  let v248 : BitVec 1 := Scalar.cmpi .ne v247 c0_i32_171
  let v252 : BitVec 1 := Scalar.andi v251 v248
  let v253 : BitVec 32 := Scalar.addi v247 v246
  let v254 : BitVec 32 := Scalar.select v252 v253 v247
  let c1_i32_177 : BitVec 32 := 1#32
  let v255 : BitVec 32 := Scalar.muli v254 c1_i32_177
  let v256 : BitVec 32 := Scalar.addi c0_i32_178 v255
  v256.toNat
def k0_dev19 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_181 : BitVec 32 := 4#32
  let v263 : BitVec 32 := Scalar.addi v2 c4_i32_181
  let c16_i32_182 : BitVec 32 := 16#32
  let c0_i32_183 : BitVec 32 := 0#32
  let v264 : BitVec 1 := Scalar.cmpi .eq c16_i32_182 c0_i32_183
  let c1_i32_184 : BitVec 32 := 1#32
  let v265 : BitVec 32 := Scalar.select v264 c1_i32_184 c16_i32_182
  let v266 : BitVec 32 := Scalar.remsi v263 v265
  let c0_i32_186 : BitVec 32 := 0#32
  let v268 : BitVec 1 := Scalar.cmpi .slt v266 c0_i32_186
  let c0_i32_187 : BitVec 32 := 0#32
  let v269 : BitVec 1 := Scalar.cmpi .slt v265 c0_i32_187
  let v270 : BitVec 1 := Scalar.xori v268 v269
  let c0_i32_185 : BitVec 32 := 0#32
  let v267 : BitVec 1 := Scalar.cmpi .ne v266 c0_i32_185
  let v271 : BitVec 1 := Scalar.andi v270 v267
  let v272 : BitVec 32 := Scalar.addi v266 v265
  let v273 : BitVec 32 := Scalar.select v271 v272 v266
  let c1_i32_191 : BitVec 32 := 1#32
  let v274 : BitVec 32 := Scalar.muli v273 c1_i32_191
  let v275 : BitVec 32 := Scalar.addi c0_i32_192 v274
  v275.toNat
def k0_dev20 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_195 : BitVec 32 := 5#32
  let v282 : BitVec 32 := Scalar.addi v2 c5_i32_195
  let c16_i32_196 : BitVec 32 := 16#32
  let c0_i32_197 : BitVec 32 := 0#32
  let v283 : BitVec 1 := Scalar.cmpi .eq c16_i32_196 c0_i32_197
  let c1_i32_198 : BitVec 32 := 1#32
  let v284 : BitVec 32 := Scalar.select v283 c1_i32_198 c16_i32_196
  let v285 : BitVec 32 := Scalar.remsi v282 v284
  let c0_i32_200 : BitVec 32 := 0#32
  let v287 : BitVec 1 := Scalar.cmpi .slt v285 c0_i32_200
  let c0_i32_201 : BitVec 32 := 0#32
  let v288 : BitVec 1 := Scalar.cmpi .slt v284 c0_i32_201
  let v289 : BitVec 1 := Scalar.xori v287 v288
  let c0_i32_199 : BitVec 32 := 0#32
  let v286 : BitVec 1 := Scalar.cmpi .ne v285 c0_i32_199
  let v290 : BitVec 1 := Scalar.andi v289 v286
  let v291 : BitVec 32 := Scalar.addi v285 v284
  let v292 : BitVec 32 := Scalar.select v290 v291 v285
  let c1_i32_205 : BitVec 32 := 1#32
  let v293 : BitVec 32 := Scalar.muli v292 c1_i32_205
  let v294 : BitVec 32 := Scalar.addi c0_i32_206 v293
  v294.toNat
def k0_dev21 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_209 : BitVec 32 := 6#32
  let v301 : BitVec 32 := Scalar.addi v2 c6_i32_209
  let c16_i32_210 : BitVec 32 := 16#32
  let c0_i32_211 : BitVec 32 := 0#32
  let v302 : BitVec 1 := Scalar.cmpi .eq c16_i32_210 c0_i32_211
  let c1_i32_212 : BitVec 32 := 1#32
  let v303 : BitVec 32 := Scalar.select v302 c1_i32_212 c16_i32_210
  let v304 : BitVec 32 := Scalar.remsi v301 v303
  let c0_i32_214 : BitVec 32 := 0#32
  let v306 : BitVec 1 := Scalar.cmpi .slt v304 c0_i32_214
  let c0_i32_215 : BitVec 32 := 0#32
  let v307 : BitVec 1 := Scalar.cmpi .slt v303 c0_i32_215
  let v308 : BitVec 1 := Scalar.xori v306 v307
  let c0_i32_213 : BitVec 32 := 0#32
  let v305 : BitVec 1 := Scalar.cmpi .ne v304 c0_i32_213
  let v309 : BitVec 1 := Scalar.andi v308 v305
  let v310 : BitVec 32 := Scalar.addi v304 v303
  let v311 : BitVec 32 := Scalar.select v309 v310 v304
  let c1_i32_219 : BitVec 32 := 1#32
  let v312 : BitVec 32 := Scalar.muli v311 c1_i32_219
  let v313 : BitVec 32 := Scalar.addi c0_i32_220 v312
  v313.toNat
def k0_dev22 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_223 : BitVec 32 := 7#32
  let v320 : BitVec 32 := Scalar.addi v2 c7_i32_223
  let c16_i32_224 : BitVec 32 := 16#32
  let c0_i32_225 : BitVec 32 := 0#32
  let v321 : BitVec 1 := Scalar.cmpi .eq c16_i32_224 c0_i32_225
  let c1_i32_226 : BitVec 32 := 1#32
  let v322 : BitVec 32 := Scalar.select v321 c1_i32_226 c16_i32_224
  let v323 : BitVec 32 := Scalar.remsi v320 v322
  let c0_i32_228 : BitVec 32 := 0#32
  let v325 : BitVec 1 := Scalar.cmpi .slt v323 c0_i32_228
  let c0_i32_229 : BitVec 32 := 0#32
  let v326 : BitVec 1 := Scalar.cmpi .slt v322 c0_i32_229
  let v327 : BitVec 1 := Scalar.xori v325 v326
  let c0_i32_227 : BitVec 32 := 0#32
  let v324 : BitVec 1 := Scalar.cmpi .ne v323 c0_i32_227
  let v328 : BitVec 1 := Scalar.andi v327 v324
  let v329 : BitVec 32 := Scalar.addi v323 v322
  let v330 : BitVec 32 := Scalar.select v328 v329 v323
  let c1_i32_233 : BitVec 32 := 1#32
  let v331 : BitVec 32 := Scalar.muli v330 c1_i32_233
  let v332 : BitVec 32 := Scalar.addi c0_i32_234 v331
  v332.toNat
def k0_dev23 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_237 : BitVec 32 := 8#32
  let v339 : BitVec 32 := Scalar.addi v2 c8_i32_237
  let c16_i32_238 : BitVec 32 := 16#32
  let c0_i32_239 : BitVec 32 := 0#32
  let v340 : BitVec 1 := Scalar.cmpi .eq c16_i32_238 c0_i32_239
  let c1_i32_240 : BitVec 32 := 1#32
  let v341 : BitVec 32 := Scalar.select v340 c1_i32_240 c16_i32_238
  let v342 : BitVec 32 := Scalar.remsi v339 v341
  let c0_i32_242 : BitVec 32 := 0#32
  let v344 : BitVec 1 := Scalar.cmpi .slt v342 c0_i32_242
  let c0_i32_243 : BitVec 32 := 0#32
  let v345 : BitVec 1 := Scalar.cmpi .slt v341 c0_i32_243
  let v346 : BitVec 1 := Scalar.xori v344 v345
  let c0_i32_241 : BitVec 32 := 0#32
  let v343 : BitVec 1 := Scalar.cmpi .ne v342 c0_i32_241
  let v347 : BitVec 1 := Scalar.andi v346 v343
  let v348 : BitVec 32 := Scalar.addi v342 v341
  let v349 : BitVec 32 := Scalar.select v347 v348 v342
  let c1_i32_247 : BitVec 32 := 1#32
  let v350 : BitVec 32 := Scalar.muli v349 c1_i32_247
  let v351 : BitVec 32 := Scalar.addi c0_i32_248 v350
  v351.toNat
def k0_dev24 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_251 : BitVec 32 := 9#32
  let v358 : BitVec 32 := Scalar.addi v2 c9_i32_251
  let c16_i32_252 : BitVec 32 := 16#32
  let c0_i32_253 : BitVec 32 := 0#32
  let v359 : BitVec 1 := Scalar.cmpi .eq c16_i32_252 c0_i32_253
  let c1_i32_254 : BitVec 32 := 1#32
  let v360 : BitVec 32 := Scalar.select v359 c1_i32_254 c16_i32_252
  let v361 : BitVec 32 := Scalar.remsi v358 v360
  let c0_i32_256 : BitVec 32 := 0#32
  let v363 : BitVec 1 := Scalar.cmpi .slt v361 c0_i32_256
  let c0_i32_257 : BitVec 32 := 0#32
  let v364 : BitVec 1 := Scalar.cmpi .slt v360 c0_i32_257
  let v365 : BitVec 1 := Scalar.xori v363 v364
  let c0_i32_255 : BitVec 32 := 0#32
  let v362 : BitVec 1 := Scalar.cmpi .ne v361 c0_i32_255
  let v366 : BitVec 1 := Scalar.andi v365 v362
  let v367 : BitVec 32 := Scalar.addi v361 v360
  let v368 : BitVec 32 := Scalar.select v366 v367 v361
  let c1_i32_261 : BitVec 32 := 1#32
  let v369 : BitVec 32 := Scalar.muli v368 c1_i32_261
  let v370 : BitVec 32 := Scalar.addi c0_i32_262 v369
  v370.toNat
def k0_dev25 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_265 : BitVec 32 := 10#32
  let v377 : BitVec 32 := Scalar.addi v2 c10_i32_265
  let c16_i32_266 : BitVec 32 := 16#32
  let c0_i32_267 : BitVec 32 := 0#32
  let v378 : BitVec 1 := Scalar.cmpi .eq c16_i32_266 c0_i32_267
  let c1_i32_268 : BitVec 32 := 1#32
  let v379 : BitVec 32 := Scalar.select v378 c1_i32_268 c16_i32_266
  let v380 : BitVec 32 := Scalar.remsi v377 v379
  let c0_i32_270 : BitVec 32 := 0#32
  let v382 : BitVec 1 := Scalar.cmpi .slt v380 c0_i32_270
  let c0_i32_271 : BitVec 32 := 0#32
  let v383 : BitVec 1 := Scalar.cmpi .slt v379 c0_i32_271
  let v384 : BitVec 1 := Scalar.xori v382 v383
  let c0_i32_269 : BitVec 32 := 0#32
  let v381 : BitVec 1 := Scalar.cmpi .ne v380 c0_i32_269
  let v385 : BitVec 1 := Scalar.andi v384 v381
  let v386 : BitVec 32 := Scalar.addi v380 v379
  let v387 : BitVec 32 := Scalar.select v385 v386 v380
  let c1_i32_275 : BitVec 32 := 1#32
  let v388 : BitVec 32 := Scalar.muli v387 c1_i32_275
  let v389 : BitVec 32 := Scalar.addi c0_i32_276 v388
  v389.toNat
def k0_dev26 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_279 : BitVec 32 := 11#32
  let v396 : BitVec 32 := Scalar.addi v2 c11_i32_279
  let c16_i32_280 : BitVec 32 := 16#32
  let c0_i32_281 : BitVec 32 := 0#32
  let v397 : BitVec 1 := Scalar.cmpi .eq c16_i32_280 c0_i32_281
  let c1_i32_282 : BitVec 32 := 1#32
  let v398 : BitVec 32 := Scalar.select v397 c1_i32_282 c16_i32_280
  let v399 : BitVec 32 := Scalar.remsi v396 v398
  let c0_i32_284 : BitVec 32 := 0#32
  let v401 : BitVec 1 := Scalar.cmpi .slt v399 c0_i32_284
  let c0_i32_285 : BitVec 32 := 0#32
  let v402 : BitVec 1 := Scalar.cmpi .slt v398 c0_i32_285
  let v403 : BitVec 1 := Scalar.xori v401 v402
  let c0_i32_283 : BitVec 32 := 0#32
  let v400 : BitVec 1 := Scalar.cmpi .ne v399 c0_i32_283
  let v404 : BitVec 1 := Scalar.andi v403 v400
  let v405 : BitVec 32 := Scalar.addi v399 v398
  let v406 : BitVec 32 := Scalar.select v404 v405 v399
  let c1_i32_289 : BitVec 32 := 1#32
  let v407 : BitVec 32 := Scalar.muli v406 c1_i32_289
  let v408 : BitVec 32 := Scalar.addi c0_i32_290 v407
  v408.toNat
def k0_dev27 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_293 : BitVec 32 := 12#32
  let v415 : BitVec 32 := Scalar.addi v2 c12_i32_293
  let c16_i32_294 : BitVec 32 := 16#32
  let c0_i32_295 : BitVec 32 := 0#32
  let v416 : BitVec 1 := Scalar.cmpi .eq c16_i32_294 c0_i32_295
  let c1_i32_296 : BitVec 32 := 1#32
  let v417 : BitVec 32 := Scalar.select v416 c1_i32_296 c16_i32_294
  let v418 : BitVec 32 := Scalar.remsi v415 v417
  let c0_i32_298 : BitVec 32 := 0#32
  let v420 : BitVec 1 := Scalar.cmpi .slt v418 c0_i32_298
  let c0_i32_299 : BitVec 32 := 0#32
  let v421 : BitVec 1 := Scalar.cmpi .slt v417 c0_i32_299
  let v422 : BitVec 1 := Scalar.xori v420 v421
  let c0_i32_297 : BitVec 32 := 0#32
  let v419 : BitVec 1 := Scalar.cmpi .ne v418 c0_i32_297
  let v423 : BitVec 1 := Scalar.andi v422 v419
  let v424 : BitVec 32 := Scalar.addi v418 v417
  let v425 : BitVec 32 := Scalar.select v423 v424 v418
  let c1_i32_303 : BitVec 32 := 1#32
  let v426 : BitVec 32 := Scalar.muli v425 c1_i32_303
  let v427 : BitVec 32 := Scalar.addi c0_i32_304 v426
  v427.toNat
def k0_dev28 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_307 : BitVec 32 := 13#32
  let v434 : BitVec 32 := Scalar.addi v2 c13_i32_307
  let c16_i32_308 : BitVec 32 := 16#32
  let c0_i32_309 : BitVec 32 := 0#32
  let v435 : BitVec 1 := Scalar.cmpi .eq c16_i32_308 c0_i32_309
  let c1_i32_310 : BitVec 32 := 1#32
  let v436 : BitVec 32 := Scalar.select v435 c1_i32_310 c16_i32_308
  let v437 : BitVec 32 := Scalar.remsi v434 v436
  let c0_i32_312 : BitVec 32 := 0#32
  let v439 : BitVec 1 := Scalar.cmpi .slt v437 c0_i32_312
  let c0_i32_313 : BitVec 32 := 0#32
  let v440 : BitVec 1 := Scalar.cmpi .slt v436 c0_i32_313
  let v441 : BitVec 1 := Scalar.xori v439 v440
  let c0_i32_311 : BitVec 32 := 0#32
  let v438 : BitVec 1 := Scalar.cmpi .ne v437 c0_i32_311
  let v442 : BitVec 1 := Scalar.andi v441 v438
  let v443 : BitVec 32 := Scalar.addi v437 v436
  let v444 : BitVec 32 := Scalar.select v442 v443 v437
  let c1_i32_317 : BitVec 32 := 1#32
  let v445 : BitVec 32 := Scalar.muli v444 c1_i32_317
  let v446 : BitVec 32 := Scalar.addi c0_i32_318 v445
  v446.toNat
def k0_dev29 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_321 : BitVec 32 := 14#32
  let v453 : BitVec 32 := Scalar.addi v2 c14_i32_321
  let c16_i32_322 : BitVec 32 := 16#32
  let c0_i32_323 : BitVec 32 := 0#32
  let v454 : BitVec 1 := Scalar.cmpi .eq c16_i32_322 c0_i32_323
  let c1_i32_324 : BitVec 32 := 1#32
  let v455 : BitVec 32 := Scalar.select v454 c1_i32_324 c16_i32_322
  let v456 : BitVec 32 := Scalar.remsi v453 v455
  let c0_i32_326 : BitVec 32 := 0#32
  let v458 : BitVec 1 := Scalar.cmpi .slt v456 c0_i32_326
  let c0_i32_327 : BitVec 32 := 0#32
  let v459 : BitVec 1 := Scalar.cmpi .slt v455 c0_i32_327
  let v460 : BitVec 1 := Scalar.xori v458 v459
  let c0_i32_325 : BitVec 32 := 0#32
  let v457 : BitVec 1 := Scalar.cmpi .ne v456 c0_i32_325
  let v461 : BitVec 1 := Scalar.andi v460 v457
  let v462 : BitVec 32 := Scalar.addi v456 v455
  let v463 : BitVec 32 := Scalar.select v461 v462 v456
  let c1_i32_331 : BitVec 32 := 1#32
  let v464 : BitVec 32 := Scalar.muli v463 c1_i32_331
  let v465 : BitVec 32 := Scalar.addi c0_i32_332 v464
  v465.toNat
def k0_dev30 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_335 : BitVec 32 := 15#32
  let v472 : BitVec 32 := Scalar.addi v2 c15_i32_335
  let c16_i32_336 : BitVec 32 := 16#32
  let c0_i32_337 : BitVec 32 := 0#32
  let v473 : BitVec 1 := Scalar.cmpi .eq c16_i32_336 c0_i32_337
  let c1_i32_338 : BitVec 32 := 1#32
  let v474 : BitVec 32 := Scalar.select v473 c1_i32_338 c16_i32_336
  let v475 : BitVec 32 := Scalar.remsi v472 v474
  let c0_i32_340 : BitVec 32 := 0#32
  let v477 : BitVec 1 := Scalar.cmpi .slt v475 c0_i32_340
  let c0_i32_341 : BitVec 32 := 0#32
  let v478 : BitVec 1 := Scalar.cmpi .slt v474 c0_i32_341
  let v479 : BitVec 1 := Scalar.xori v477 v478
  let c0_i32_339 : BitVec 32 := 0#32
  let v476 : BitVec 1 := Scalar.cmpi .ne v475 c0_i32_339
  let v480 : BitVec 1 := Scalar.andi v479 v476
  let v481 : BitVec 32 := Scalar.addi v475 v474
  let v482 : BitVec 32 := Scalar.select v480 v481 v475
  let c1_i32_345 : BitVec 32 := 1#32
  let v483 : BitVec 32 := Scalar.muli v482 c1_i32_345
  let v484 : BitVec 32 := Scalar.addi c0_i32_346 v483
  v484.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hamt_15 : (15#32 : BitVec 32).msb = false
  inb_S15_S1_0 : ∀ a, (![0] : Fin 1 → Nat) a + S1.size a ≤ S15.size a
  squeezes_S1_S_ : S1.Squeezes S_
  inb_S15_S1_14 : ∀ a, (![14] : Fin 1 → Nat) a + S1.size a ≤ S15.size a
  inb_S15x1x256_S1x1x256_14_0_0 : ∀ a, (![14, 0, 0] : Fin 3 → Nat) a + S1x1x256.size a ≤ S15x1x256.size a
  squeezes_S1x1x256_S1x256 : S1x1x256.Squeezes S1x256
  inb_S15_S1_1 : ∀ a, (![1] : Fin 1 → Nat) a + S1.size a ≤ S15.size a
  inb_S15_S1_13 : ∀ a, (![13] : Fin 1 → Nat) a + S1.size a ≤ S15.size a
  inb_S15x1x256_S1x1x256_13_0_0 : ∀ a, (![13, 0, 0] : Fin 3 → Nat) a + S1x1x256.size a ≤ S15x1x256.size a
  inb_S15_S1_2 : ∀ a, (![2] : Fin 1 → Nat) a + S1.size a ≤ S15.size a
  inb_S15_S1_12 : ∀ a, (![12] : Fin 1 → Nat) a + S1.size a ≤ S15.size a
  inb_S15x1x256_S1x1x256_12_0_0 : ∀ a, (![12, 0, 0] : Fin 3 → Nat) a + S1x1x256.size a ≤ S15x1x256.size a
  inb_S15_S1_3 : ∀ a, (![3] : Fin 1 → Nat) a + S1.size a ≤ S15.size a
  inb_S15_S1_11 : ∀ a, (![11] : Fin 1 → Nat) a + S1.size a ≤ S15.size a
  inb_S15x1x256_S1x1x256_11_0_0 : ∀ a, (![11, 0, 0] : Fin 3 → Nat) a + S1x1x256.size a ≤ S15x1x256.size a
  inb_S15_S1_4 : ∀ a, (![4] : Fin 1 → Nat) a + S1.size a ≤ S15.size a
  inb_S15_S1_10 : ∀ a, (![10] : Fin 1 → Nat) a + S1.size a ≤ S15.size a
  inb_S15x1x256_S1x1x256_10_0_0 : ∀ a, (![10, 0, 0] : Fin 3 → Nat) a + S1x1x256.size a ≤ S15x1x256.size a
  inb_S15_S1_5 : ∀ a, (![5] : Fin 1 → Nat) a + S1.size a ≤ S15.size a
  inb_S15_S1_9 : ∀ a, (![9] : Fin 1 → Nat) a + S1.size a ≤ S15.size a
  inb_S15x1x256_S1x1x256_9_0_0 : ∀ a, (![9, 0, 0] : Fin 3 → Nat) a + S1x1x256.size a ≤ S15x1x256.size a
  inb_S15_S1_6 : ∀ a, (![6] : Fin 1 → Nat) a + S1.size a ≤ S15.size a
  inb_S15_S1_8 : ∀ a, (![8] : Fin 1 → Nat) a + S1.size a ≤ S15.size a
  inb_S15x1x256_S1x1x256_8_0_0 : ∀ a, (![8, 0, 0] : Fin 3 → Nat) a + S1x1x256.size a ≤ S15x1x256.size a
  inb_S15_S1_7 : ∀ a, (![7] : Fin 1 → Nat) a + S1.size a ≤ S15.size a
  inb_S15x1x256_S1x1x256_7_0_0 : ∀ a, (![7, 0, 0] : Fin 3 → Nat) a + S1x1x256.size a ≤ S15x1x256.size a
  inb_S15x1x256_S1x1x256_6_0_0 : ∀ a, (![6, 0, 0] : Fin 3 → Nat) a + S1x1x256.size a ≤ S15x1x256.size a
  inb_S15x1x256_S1x1x256_5_0_0 : ∀ a, (![5, 0, 0] : Fin 3 → Nat) a + S1x1x256.size a ≤ S15x1x256.size a
  inb_S15x1x256_S1x1x256_4_0_0 : ∀ a, (![4, 0, 0] : Fin 3 → Nat) a + S1x1x256.size a ≤ S15x1x256.size a
  inb_S15x1x256_S1x1x256_3_0_0 : ∀ a, (![3, 0, 0] : Fin 3 → Nat) a + S1x1x256.size a ≤ S15x1x256.size a
  inb_S15x1x256_S1x1x256_2_0_0 : ∀ a, (![2, 0, 0] : Fin 3 → Nat) a + S1x1x256.size a ≤ S15x1x256.size a
  inb_S15x1x256_S1x1x256_1_0_0 : ∀ a, (![1, 0, 0] : Fin 3 → Nat) a + S1x1x256.size a ≤ S15x1x256.size a
  inb_S15x1x256_S1x1x256_0_0_0 : ∀ a, (![0, 0, 0] : Fin 3 → Nat) a + S1x1x256.size a ≤ S15x1x256.size a
  inb_S15x1x256_S15x1x256_0_0_0 : ∀ a, (![0, 0, 0] : Fin 3 → Nat) a + S15x1x256.size a ≤ S15x1x256.size a
  h_S15x1x256 : 0 < S15x1x256.numel
  reduces_S15x1x256_S1x256 : S15x1x256.Reduces [0] S1x256
  hcc0_scratch2 : 2 + S15.numel ≤ 32
  hcc0_scratch3 : 17 + S15.numel ≤ 32
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch2 : DmaSems sig S15 := SemArray.consecutive 2 S15 hcc0_scratch2
abbrev cc0_scratch3 : DmaSems sig S15 := SemArray.consecutive 17 S15 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S_, .f32⟩
  | .hbm, ⟨2, _⟩ => ⟨S256, .f32⟩
  | .hbm, ⟨3, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.KernelIdealRing.lean ====
/-
  The sixteen devices as a ring: `off c e` is the device `e` places after `c`. Every peer the kernel
  addresses is such a device: its `e`-th barrier signal goes to `off c e`, and its `d`-th remote copy goes to
  `off c d` (both for offsets 1 to 15), which is what the printed chains `(me + d) mod 16` compute on each
  of the sixteen device ids.
-/
import proofs.«900922_g7700000000000923_dist_max_ax0_shard0_i_m512_n256_v7x_i16_bf16_1_alg».proof.Proof.Gen.KernelIdeal

namespace Cert.KernelIdeal.Ring

open Cert.KernelIdeal Cert.KernelIdeal.Gen Idealize.ShloMosaic

/-- The device `e` places after `c` round the ring. -/
def off (c : Dev nD) (e : Nat) : Dev nD := ⟨(c.val + e) % 16, Nat.mod_lt _ (by decide)⟩

theorem off_val (c : Dev nD) (e : Nat) : (off c e).val = (c.val + e) % 16 := rfl

/-- Going `a` places and then `b` is going `a + b`. -/
theorem off_off (c : Dev nD) (a b : Nat) : off (off c a) b = off c (a + b) := by
  apply Fin.ext; simp only [off_val]; omega

/-- Sixteen places round is back home. -/
theorem off_sixteen (c : Dev nD) : off c 16 = c := by
  apply Fin.ext; have hc : c.val < 16 := c.isLt; simp only [off_val]; omega

theorem off_zero (c : Dev nD) : off c 0 = c := by
  apply Fin.ext; have hc : c.val < 16 := c.isLt; simp only [off_val]; omega

/-- Going `e` places and then `16 - e` is back home. -/
theorem off_back (c : Dev nD) (e : Nat) (he : e ≤ 16) : off (off c e) (16 - e) = c := by
  rw [off_off, show e + (16 - e) = 16 by omega, off_sixteen]

/-- Going `e` places is a bijection of the devices (its inverse: `16 - e mod 16` places). -/
def offEquiv (e : Nat) : Dev nD ≃ Dev nD where
  toFun c := off c e
  invFun c := off c (16 - e % 16)
  left_inv c := by apply Fin.ext; have hc : c.val < 16 := c.isLt; simp only [off_val]; omega
  right_inv c := by apply Fin.ext; have hc : c.val < 16 := c.isLt; simp only [off_val]; omega

/-- A device is never its own peer at an offset 1 to 15. -/
theorem off_ne (c : Dev nD) (e : Nat) (h0 : 0 < e) (h1 : e < 16) : off c e ≠ c := by
  intro h; have h' := congrArg Fin.val h; have hc : c.val < 16 := c.isLt; simp only [off_val] at h'; omega

/-- Two offsets below 16 reach the same device only if equal. -/
theorem off_inj (c : Dev nD) (a b : Nat) (ha : a < 16) (hb : b < 16) (h : off c a = off c b) : a = b := by
  have h' := congrArg Fin.val h; have hc : c.val < 16 := c.isLt; simp only [off_val] at h'; omega

/-! ## The printed device chains -/

theorem sig1_eq (c : Dev nD) : (⟨k0_dev1 c, k0_dev1_lt c⟩ : Dev nD) = off c 1 := by revert c; decide +kernel
theorem sig2_eq (c : Dev nD) : (⟨k0_dev2 c, k0_dev2_lt c⟩ : Dev nD) = off c 2 := by revert c; decide +kernel
theorem sig3_eq (c : Dev nD) : (⟨k0_dev3 c, k0_dev3_lt c⟩ : Dev nD) = off c 3 := by revert c; decide +kernel
theorem sig4_eq (c : Dev nD) : (⟨k0_dev4 c, k0_dev4_lt c⟩ : Dev nD) = off c 4 := by revert c; decide +kernel
theorem sig5_eq (c : Dev nD) : (⟨k0_dev5 c, k0_dev5_lt c⟩ : Dev nD) = off c 5 := by revert c; decide +kernel
theorem sig6_eq (c : Dev nD) : (⟨k0_dev6 c, k0_dev6_lt c⟩ : Dev nD) = off c 6 := by revert c; decide +kernel
theorem sig7_eq (c : Dev nD) : (⟨k0_dev7 c, k0_dev7_lt c⟩ : Dev nD) = off c 7 := by revert c; decide +kernel
theorem sig8_eq (c : Dev nD) : (⟨k0_dev8 c, k0_dev8_lt c⟩ : Dev nD) = off c 8 := by revert c; decide +kernel
theorem sig9_eq (c : Dev nD) : (⟨k0_dev9 c, k0_dev9_lt c⟩ : Dev nD) = off c 9 := by revert c; decide +kernel
theorem sig10_eq (c : Dev nD) : (⟨k0_dev10 c, k0_dev10_lt c⟩ : Dev nD) = off c 10 := by revert c; decide +kernel
theorem sig11_eq (c : Dev nD) : (⟨k0_dev11 c, k0_dev11_lt c⟩ : Dev nD) = off c 11 := by revert c; decide +kernel
theorem sig12_eq (c : Dev nD) : (⟨k0_dev12 c, k0_dev12_lt c⟩ : Dev nD) = off c 12 := by revert c; decide +kernel
theorem sig13_eq (c : Dev nD) : (⟨k0_dev13 c, k0_dev13_lt c⟩ : Dev nD) = off c 13 := by revert c; decide +kernel
theorem sig14_eq (c : Dev nD) : (⟨k0_dev14 c, k0_dev14_lt c⟩ : Dev nD) = off c 14 := by revert c; decide +kernel
theorem sig15_eq (c : Dev nD) : (⟨k0_dev15 c, k0_dev15_lt c⟩ : Dev nD) = off c 15 := by revert c; decide +kernel
theorem cpy1_eq (c : Dev nD) : (⟨k0_dev16 c, k0_dev16_lt c⟩ : Dev nD) = off c 1 := by revert c; decide +kernel
theorem cpy2_eq (c : Dev nD) : (⟨k0_dev17 c, k0_dev17_lt c⟩ : Dev nD) = off c 2 := by revert c; decide +kernel
theorem cpy3_eq (c : Dev nD) : (⟨k0_dev18 c, k0_dev18_lt c⟩ : Dev nD) = off c 3 := by revert c; decide +kernel
theorem cpy4_eq (c : Dev nD) : (⟨k0_dev19 c, k0_dev19_lt c⟩ : Dev nD) = off c 4 := by revert c; decide +kernel
theorem cpy5_eq (c : Dev nD) : (⟨k0_dev20 c, k0_dev20_lt c⟩ : Dev nD) = off c 5 := by revert c; decide +kernel
theorem cpy6_eq (c : Dev nD) : (⟨k0_dev21 c, k0_dev21_lt c⟩ : Dev nD) = off c 6 := by revert c; decide +kernel
theorem cpy7_eq (c : Dev nD) : (⟨k0_dev22 c, k0_dev22_lt c⟩ : Dev nD) = off c 7 := by revert c; decide +kernel
theorem cpy8_eq (c : Dev nD) : (⟨k0_dev23 c, k0_dev23_lt c⟩ : Dev nD) = off c 8 := by revert c; decide +kernel
theorem cpy9_eq (c : Dev nD) : (⟨k0_dev24 c, k0_dev24_lt c⟩ : Dev nD) = off c 9 := by revert c; decide +kernel
theorem cpy10_eq (c : Dev nD) : (⟨k0_dev25 c, k0_dev25_lt c⟩ : Dev nD) = off c 10 := by revert c; decide +kernel
theorem cpy11_eq (c : Dev nD) : (⟨k0_dev26 c, k0_dev26_lt c⟩ : Dev nD) = off c 11 := by revert c; decide +kernel
theorem cpy12_eq (c : Dev nD) : (⟨k0_dev27 c, k0_dev27_lt c⟩ : Dev nD) = off c 12 := by revert c; decide +kernel
theorem cpy13_eq (c : Dev nD) : (⟨k0_dev28 c, k0_dev28_lt c⟩ : Dev nD) = off c 13 := by revert c; decide +kernel
theorem cpy14_eq (c : Dev nD) : (⟨k0_dev29 c, k0_dev29_lt c⟩ : Dev nD) = off c 14 := by revert c; decide +kernel
theorem cpy15_eq (c : Dev nD) : (⟨k0_dev30 c, k0_dev30_lt c⟩ : Dev nD) = off c 15 := by revert c; decide +kernel

end Cert.KernelIdeal.Ring
-- ==== Proof.KernelIdealVals.lean ====
/-
  What the kernel computes, as pure functions of the sixteen devices' blocks of `x`: each device's partial
  result (the column maxima of its own 512 rows), what its receive buffer holds once every peer's partial
  result has landed (slot `s` holds that of the device `s + 1` places after it), and its result: the
  maximum of its own partial result and of the fifteen received ones.
-/
import proofs.«900922_g7700000000000923_dist_max_ax0_shard0_i_m512_n256_v7x_i16_bf16_1_alg».proof.Proof.Gen.KernelIdeal.Skeleton
import proofs.«900922_g7700000000000923_dist_max_ax0_shard0_i_m512_n256_v7x_i16_bf16_1_alg».proof.Proof.KernelIdealRing
import Idealize.ShloMosaic.Lib.ValueIdx

noncomputable section

namespace Cert.KernelIdeal.Vals

open Cert.KernelIdeal Cert.KernelIdeal.Gen Cert.KernelIdeal.Ring Idealize.ShloMosaic Idealize.ShloMosaic.ValueIdx

variable {F : FTy → Type} [FloatOps F]

/-- One device's partial result: the column maxima of its own 512 rows. -/
def accOf (x : Vec F S512x256 .f32) : Vec F S1x256 .f32 := k0_pay1 x

/-- A device's receive buffer once all fifteen rows have landed: slot `s` holds the partial result of the
    device `s + 1` places after it. -/
def commOf (a : Dev nD → Vec F S1x256 .f32) (c : Dev nD) : Vec F S15x1x256 .f32 :=
  fun i => a (off c ((i 0).val + 1)) (ix2 (i 1) (i 2))

/-- A device's result: the maximum of its own partial result and the fifteen received ones. -/
def outOf (X : Dev nD → Vec F S512x256 .f32) (c : Dev nD) : Vec F S1x256 .f32 :=
  k0_pay2 (accOf (X c)) (commOf (fun d => accOf (X d)) c)

end Cert.KernelIdeal.Vals

end
-- ==== Proof.KernelIdealSched.lean ====
/-
  The protocol of the sixteen-device maximum, as rounds of duties on semaphores.

  Every device owns 31 semaphores: the barrier semaphore, fifteen send semaphores and fifteen receive
  semaphores. Each has one round. Device `c`'s barrier semaphore is signalled one unit by each of the
  fifteen other devices: the signal numbered `j + 1` of the device `p` with `off p (j + 1) = c`, which
  hands `c` slot `j` of `p`'s receive buffer, the slot `c`'s own partial result is to be copied into.
  Send semaphore `k` of `c` is credited once, when copy `k + 1` has read `c`'s partial result, and hands
  back the share of it the copy was lent. Receive semaphore `s` of `c` is credited once, when the copy
  from the device `s + 1` places after `c` has landed in slot `s`, and hands `c` that slot holding that
  device's partial result.
-/
import proofs.«900922_g7700000000000923_dist_max_ax0_shard0_i_m512_n256_v7x_i16_bf16_1_alg».proof.Proof.KernelIdealVals
import proofs.«900922_g7700000000000923_dist_max_ax0_shard0_i_m512_n256_v7x_i16_bf16_1_alg».proof.Proof.Gen.KernelIdeal.Launch
import proofs.«900922_g7700000000000923_dist_max_ax0_shard0_i_m512_n256_v7x_i16_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Sched

open Cert.KernelIdeal Cert.KernelIdeal.Gen Cert.KernelIdeal.Ring Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The memrefs and semaphores -/

abbrev xM : Memref sig .tc .vmem S512x256 .f32 := Memref.whole cc0_stg0_0
abbrev oM : Memref sig .tc .vmem S1x256 .f32 := Memref.whole cc0_stg1_0
abbrev aM : Memref sig .tc .vmem S1x256 .f32 := Memref.whole cc0_scratch0
abbrev cM : Memref sig .tc .vmem S15x1x256 .f32 := Memref.whole cc0_scratch1

theorem inbSlot (s : Fin 15) : ∀ a, (![s.val, 0, 0] : Fin 3 → Nat) a + S1x1x256.size a ≤ S15x1x256.size a := by
  intro a; have := s.isLt
  match a with
  | ⟨0, _⟩ => show s.val + 1 ≤ 15; omega
  | ⟨1, _⟩ => show 0 + 1 ≤ 1; omega
  | ⟨2, _⟩ => show 0 + 256 ≤ 256; omega

/-- Slot `s` of the receive buffer: row `s` of the [15, 1, 256] scratch, as a [1, 256] memref. -/
abbrev slotM (s : Fin 15) : Memref sig .tc .vmem S1x256 .f32 :=
  ((cM.slice (Rect.unit (s := S15x1x256) ![s.val, 0, 0] S1x1x256.size (inbSlot s)) (fun _ => rfl)).squeeze S1x256 Gen.squeezes_S1x1x256_S1x256)

theorem inbSem (k : Fin 15) : ∀ a, (![k.val] : Fin 1 → Nat) a + S1.size a ≤ S15.size a := by
  intro a; have := k.isLt
  match a with
  | ⟨0, _⟩ => show k.val + 1 ≤ 15; omega

/-- The runtime's barrier semaphore (unscoped), the fifteen send and the fifteen receive DMA semaphores (scoped). -/
abbrev barS : Sem sig := (SemArray.scalar (sig.barrier 0 rfl) : Sems sig S_).sem
abbrev sendS (k : Fin 15) : DmaSem sig := ((cc0_scratch2.slice (Rect.unit (s := S15) ![k.val] S1.size (inbSem k))).squeeze S_ Gen.squeezes_S1_S_).sem
abbrev recvS (s : Fin 15) : DmaSem sig := ((cc0_scratch3.slice (Rect.unit (s := S15) ![s.val] S1.size (inbSem s))).squeeze S_ Gen.squeezes_S1_S_).sem

abbrev barCell (c : Dev nD) : GSem nD τ sig := ((c : Thread nD τ), .reg barS)
abbrev sendCell (c : Dev nD) (k : Fin 15) : GSem nD τ sig := ((c : Thread nD τ), .dma (sendS k))
abbrev recvCell (c : Dev nD) (s : Fin 15) : GSem nD τ sig := ((c : Thread nD τ), .dma (recvS s))

theorem sendS_val (k : Fin 15) : (sendS k).val = 2 + k.val := by
  revert k; decide
theorem recvS_val (s : Fin 15) : (recvS s).val = 17 + s.val := by
  revert s; decide

/-- One row's transfer credit. -/
abbrev N : ℕ := (aM : Memref sig .tc .vmem S1x256 .f32).view.dmaCredit
theorem N_pos : 0 < N := View.dmaCredit_pos _ (by decide)

theorem slot_amount (s : Fin 15) : (slotM s : Memref sig .tc .vmem S1x256 .f32).view.amount (.dma (recvS s)) = N := rfl

/-! ## The shares of the partial result lent to the fifteen copies -/

/-- What is left of the full share after `k` copies have each been lent a share. -/
def rem : ℕ → PosShare TreeShare
  | 0 => fullShare
  | k + 1 => (rem k).right
/-- The share lent to copy `k + 1`. -/
def shr (k : ℕ) : PosShare TreeShare := (rem k).left

/-! ## Contents -/

/-- Device `c`'s block of `x`, as its staging buffer holds it. -/
def xblk (c : Dev nD) : (cc0_stg0_0 : Ref sig .tc).ty.Contents (Elt F) :=
  (win0_0.blk (0 : Fin 1)).view.read (Elt F) (m ((c : Thread nD τ).loc main_arg0))
/-- Its partial result, what its receive buffer ends holding, and its result. -/
def accV (c : Dev nD) : (cc0_scratch0 : Ref sig .tc).ty.Contents (Elt F) := accOf (xblk m c)
def commV (c : Dev nD) : (cc0_scratch1 : Ref sig .tc).ty.Contents (Elt F) := commOf (fun d => accOf (xblk m d)) c
def outV (c : Dev nD) : (cc0_stg1_0 : Ref sig .tc).ty.Contents (Elt F) := outOf (fun d => xblk m d) c

/-- The partial-result buffer of device `c` at share `q`; slot `s` of its receive buffer. -/
def accPts (c : Dev nD) (q : PosShare TreeShare) (f : Buf (Elt F) ((aM : Memref sig .tc .vmem S1x256 .f32).view.loc (c : Thread nD τ))) : sProp 𝕄 :=
  (aM : Memref sig .tc .vmem S1x256 .f32).view.loc (c : Thread nD τ) ↦[(aM : Memref sig .tc .vmem S1x256 .f32).view.set]{q} f
def slotPts (c : Dev nD) (s : Fin 15) (f : Buf (Elt F) ((slotM s : Memref sig .tc .vmem S1x256 .f32).view.loc (c : Thread nD τ))) : sProp 𝕄 :=
  (slotM s : Memref sig .tc .vmem S1x256 .f32).view.loc (c : Thread nD τ) ↦[(slotM s : Memref sig .tc .vmem S1x256 .f32).view.set]{fullShare} f

/-- The share left after `k` loans is the next loan and what is left after it. -/
theorem accPts_split (c : Dev nD) (k : ℕ) (f : Buf (Elt F) ((aM : Memref sig .tc .vmem S1x256 .f32).view.loc (c : Thread nD τ))) :
    (accPts c (rem k) f : sProp 𝕄) ⊣⊢ iprop(accPts c (shr k) f ∗ accPts c (rem (k + 1)) f) :=
  pointsTo_share (PosShare.mem_left_op_right (rem k))

/-! ## The schedule -/

/-- What a semaphore is in the protocol. -/
inductive Role where
  | bar | send (k : Fin 15) | recv (s : Fin 15) | other

def roleOf : SemLoc sig → Role
  | .reg s => if s = barS then .bar else .other
  | .dma q => if h : 2 ≤ q.val ∧ q.val < 17 then .send ⟨q.val - 2, by omega⟩
      else if h' : 17 ≤ q.val ∧ q.val < 32 then .recv ⟨q.val - 17, by omega⟩ else .other

theorem role_bar : roleOf (.reg barS) = .bar := by rw [roleOf, if_pos rfl]
theorem role_send (k : Fin 15) : roleOf (.dma (sendS k)) = .send k := by
  have h := sendS_val k; have hk := k.isLt
  rw [roleOf, dif_pos (show 2 ≤ (sendS k).val ∧ (sendS k).val < 17 by omega)]
  exact congrArg Role.send (Fin.ext (by show (sendS k).val - 2 = k.val; omega))
theorem role_recv (s : Fin 15) : roleOf (.dma (recvS s)) = .recv s := by
  have h := recvS_val s; have hs := s.isLt
  rw [roleOf, dif_neg (show ¬(2 ≤ (recvS s).val ∧ (recvS s).val < 17) by omega), dif_pos (show 17 ≤ (recvS s).val ∧ (recvS s).val < 32 by omega)]
  exact congrArg Role.recv (Fin.ext (by show (recvS s).val - 17 = s.val; omega))

/-- Signal `j + 1` of the device whose `(j + 1)`-th peer is `c` hands `c` that device's slot `j`. -/
def barPay (c : Dev nD) (j : Fin 15) : sProp 𝕄 := iprop(∃ f, slotPts (off c (15 - j.val)) j f)
def sendPay (c : Dev nD) (k : Fin 15) : sProp 𝕄 := accPts c (shr k.val) (accV m c)
def recvPay (c : Dev nD) (s : Fin 15) : sProp 𝕄 := slotPts c s (commV m c)

/-- One round: a barrier semaphore has fifteen duties of one unit; a send or receive semaphore one duty of a row's credit. -/
def sched : Rounds.Schedule (GSem nD τ sig) (Fin 15) 𝕄 where
  duties g r := if r = 0 ∧ g.1.2 = .tc then (match roleOf g.2 with | .bar => Finset.univ | .send _ => {0} | .recv _ => {0} | .other => ∅) else ∅
  unitless _ := False
  amount g _ _ := match roleOf g.2 with | .bar => 1 | _ => N
  payload g _ d := match roleOf g.2 with
    | .bar => barPay g.1.1 d
    | .send k => sendPay m g.1.1 k
    | .recv s => recvPay m g.1.1 s
    | .other => iprop(emp)
  amount_pos g _ _ _ := by
    cases roleOf g.2 <;> first | exact Nat.one_pos | exact N_pos

instance sched_payload_storable (g : GSem nD τ sig) (r : ℕ) (d : Fin 15) :
    BI.Storable (upEmb : UEmb _ 𝕄) ((sched (F := F) m).payload g r d) := by
  show BI.Storable upEmb (match roleOf g.2 with
    | .bar => barPay g.1.1 d | .send k => sendPay m g.1.1 k | .recv s => recvPay m g.1.1 s | .other => iprop(emp))
  unfold barPay sendPay recvPay accPts slotPts
  split <;> infer_instance

section Tables
variable (c : Dev nD)

theorem duties_bar : (sched (F := F) m).duties (barCell c) 0 = Finset.univ := by dsimp only [sched]; rw [if_pos ⟨rfl, rfl⟩, role_bar]
theorem duties_send (k : Fin 15) : (sched (F := F) m).duties (sendCell c k) 0 = {0} := by dsimp only [sched]; rw [if_pos ⟨rfl, rfl⟩, role_send]
theorem duties_recv (s : Fin 15) : (sched (F := F) m).duties (recvCell c s) 0 = {0} := by dsimp only [sched]; rw [if_pos ⟨rfl, rfl⟩, role_recv]
theorem duties_later (g : GSem nD τ sig) : ∀ r, 1 ≤ r → (sched (F := F) m).duties g r = ∅ :=
  fun r hr => by dsimp only [sched]; rw [if_neg fun h => by omega]

theorem amount_bar (d : Fin 15) : (sched (F := F) m).amount (barCell c) 0 d = 1 := by dsimp only [sched]; rw [role_bar]
theorem amount_send (k d : Fin 15) : (sched (F := F) m).amount (sendCell c k) 0 d = N := by dsimp only [sched]; rw [role_send]
theorem amount_recv (s d : Fin 15) : (sched (F := F) m).amount (recvCell c s) 0 d = N := by dsimp only [sched]; rw [role_recv]

theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send (k : Fin 15) : (sched (F := F) m).expect (sendCell c k) 0 = N := by
  unfold Schedule.expect Schedule.amountOf; rw [duties_send, Finset.sum_singleton, amount_send]
theorem expect_recv (s : Fin 15) : (sched (F := F) m).expect (recvCell c s) 0 = N := by
  unfold Schedule.expect Schedule.amountOf; rw [duties_recv, Finset.sum_singleton, amount_recv]

theorem payload_bar (j : Fin 15) : (sched (F := F) m).payload (barCell c) 0 j = barPay c j := by dsimp only [sched]; rw [role_bar]
theorem payload_send (k d : Fin 15) : (sched (F := F) m).payload (sendCell c k) 0 d = sendPay m c k := by dsimp only [sched]; rw [role_send]
theorem payload_recv (s d : Fin 15) : (sched (F := F) m).payload (recvCell c s) 0 d = recvPay m c s := by dsimp only [sched]; rw [role_recv]

/-- A whole round's payloads, no duty taken yet. -/
theorem rest_bar : bigSep ((sched (F := F) m).duties (barCell c) 0 \ ∅) (fun d => (sched (F := F) m).payload (barCell c) 0 d)
    = bigSep Finset.univ (fun j : Fin 15 => (barPay c j : sProp 𝕄)) := by
  rw [Finset.sdiff_empty, duties_bar]; exact bigSep_congr fun j _ => payload_bar m c j
theorem rest_send (k : Fin 15) : bigSep ((sched (F := F) m).duties (sendCell c k) 0 \ ∅) (fun d => (sched (F := F) m).payload (sendCell c k) 0 d) = sendPay m c k := by
  rw [Finset.sdiff_empty, duties_send, bigSep_singleton, payload_send]
theorem rest_recv (s : Fin 15) : bigSep ((sched (F := F) m).duties (recvCell c s) 0 \ ∅) (fun d => (sched (F := F) m).payload (recvCell c s) 0 d) = recvPay m c s := by
  rw [Finset.sdiff_empty, duties_recv, bigSep_singleton, payload_recv]

end Tables

/-! ## What each device owes at launch; the levels -/

/-- The slot index `n` as a `Fin 15` (for `n < 15` itself). -/
abbrev fin15 (n : ℕ) : Fin 15 := ⟨n % 15, Nat.mod_lt _ (by decide)⟩

/-- The copies' debts, stacked so that the copy issued first is the last summand: copy `d` (to the device `d`
    places on, into its slot `15 - d`) owes that slot's receive semaphore a row's credit. -/
def Ocp (c : Dev nD) : ℕ → CellTallies nD τ sig Unit
  | 0 => 0
  | n + 1 => Ocp c n + tallyAt (recvCell (off c (15 - n)) (fin15 n)) () N
/-- On top of them the signals' debts, the signal issued first last: signal `e` owes the barrier semaphore of the
    device `e` places on one unit. -/
def Osg (c : Dev nD) : ℕ → CellTallies nD τ sig Unit
  | 0 => Ocp c 15
  | n + 1 => Osg c n + tallyAt (barCell (off c (15 - n))) () 1
/-- All a device owes when the kernel starts. -/
def O₀ (c : Dev nD) : CellTallies nD τ sig Unit := Osg c 15

def L (g : GSem nD τ sig) : Finset Unit := if g.1.2 = .tc then {()} else ∅
/-- Barrier semaphores at level 1, receive semaphores at 2 (a device waits on its barrier still owing copies),
    everything else at 0. -/
def lv (g : GSem nD τ sig) (_ : Unit) : ℕ := match roleOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [role_bar]
theorem lv_send (c : Dev nD) (k : Fin 15) (u : Unit) : lv (sendCell c k) u = 0 := by dsimp only [lv]; rw [role_send]
theorem lv_recv (c : Dev nD) (s : Fin 15) (u : Unit) : lv (recvCell c s) u = 2 := by dsimp only [lv]; rw [role_recv]

/-! ## What a device's body starts from and what it leaves -/

/-- A semaphore's invariant, at whatever name the launch allocated it. -/
def inv (g : GSem nD τ sig) : sProp 𝕄 := iprop(∃ κ : ℕ, cellInv ER (sched m) κ g)

instance inv_persistent (g : GSem nD τ sig) : BI.Persistent (inv (F := F) m g) := by unfold inv; infer_instance

/-- The slot device `c`'s copy `j + 1` writes on the device `j + 1` places on: slot `14 - j`. -/
abbrev peerSlot (j : Fin 15) : Fin 15 := ⟨14 - j.val, by omega⟩

/-- The invariants device `c`'s body opens: its own 31 semaphores', and for each of its fifteen peers the
    peer's barrier semaphore's (it signals it) and one of the peer's receive semaphores' (its copy credits it). -/
def invs (c : Dev nD) : sProp 𝕄 :=
  iprop(inv m (barCell c) ∗ (bigSep Finset.univ fun k : Fin 15 => inv m (sendCell c k)) ∗ (bigSep Finset.univ fun s : Fin 15 => inv m (recvCell c s))
    ∗ (bigSep Finset.univ fun j : Fin 15 => inv m (barCell (off c (j.val + 1))))
    ∗ (bigSep Finset.univ fun j : Fin 15 => inv m (recvCell (off c (j.val + 1)) (peerSlot j))))

instance invs_persistent (c : Dev nD) : BI.Persistent (invs (F := F) m c) := by unfold invs; infer_instance

/-- That round 0 of every semaphore device `c` pays into is reached. -/
def reacheds (c : Dev nD) : sProp 𝕄 :=
  iprop((bigSep Finset.univ fun j : Fin 15 => reached ER (barCell (off c (j.val + 1))) 0)
    ∗ (bigSep Finset.univ fun j : Fin 15 => reached ER (recvCell (off c (j.val + 1)) (peerSlot j)) 0)
    ∗ (bigSep Finset.univ fun k : Fin 15 => reached ER (sendCell c k) 0))

instance reacheds_persistent (c : Dev nD) : BI.Persistent (reacheds (F := F) c) := by unfold reacheds; infer_instance

/-- Device `c`'s positions on its own 31 semaphores. -/
def positions (c : Dev nD) : sProp 𝕄 :=
  iprop(atPos ER (barCell c) 0 ∅ 0 ∗ (bigSep Finset.univ fun k : Fin 15 => atPos ER (sendCell c k) 0 ∅ 0)
    ∗ (bigSep Finset.univ fun s : Fin 15 => atPos ER (recvCell c s) 0 ∅ 0))

/-- The tokens of the duties device `c` pays: signal `j + 1` pays duty `j` of the barrier semaphore of the device
    `j + 1` places on; copy `j + 1` pays that device's receive semaphore `14 - j` and `c`'s own send semaphore `j`. -/
def payToks (c : Dev nD) : sProp 𝕄 :=
  iprop((bigSep Finset.univ fun j : Fin 15 => dutyTok ER (barCell (off c (j.val + 1))) 0 j)
    ∗ (bigSep Finset.univ fun j : Fin 15 => dutyTok ER (recvCell (off c (j.val + 1)) (peerSlot j)) 0 (0 : Fin 15))
    ∗ (bigSep Finset.univ fun k : Fin 15 => dutyTok ER (sendCell c k) 0 (0 : Fin 15)))

/-- The protocol's ghost state device `c` starts from. -/
def ghost (c : Dev nD) : sProp 𝕄 := iprop(invs m c ∗ reacheds c ∗ positions c ∗ payToks c)

/-- What device `c`'s body starts from besides its buffers: that, the credit of the fifteen units its barrier wait
    consumes and of the fifteen rows its receive waits consume, and the level facts. -/
def start (c : Dev nD) : sProp 𝕄 :=
  iprop(ghost m c ∗ cred (tallyAt (barCell c) () 15) ∗ (bigSep Finset.univ fun s : Fin 15 => cred (tallyAt (recvCell c s) () N)) ∗ levAts L lv)

/-- The two scratch buffers whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the point: the scratch buffers whole again, the thirty own semaphores at zero, closed (the barrier
    semaphore is the runtime's: nothing to hand back). -/
def Φ₁ (c : Dev nD) : sProp 𝕄 :=
  iprop(scratch c ∗ (bigSep Finset.univ fun k : Fin 15 => semVal (sendCell c k) 0) ∗ (bigSep Finset.univ fun s : Fin 15 => semVal (recvCell c s) 0))

/-- The pipeline's proof data: the input window holds the device's block, the output window ends holding its result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m c
    | ⟨1, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The final arrays -/

/-- The arrays after the run, as the proof data names them. -/
def finalA (c : Dev nD) (w : Fin cfg0.W) : Buf (Elt F) ((cfg0.win w).arr.view.loc (c : Thread nD τ)) := (dats m ρ 0 c).arrAt w cfg0.N

/-- Every device's two arrays end at those contents. -/
def QC : PUnit × MemSt nD τ sig (Elt F) → Prop := fun r =>
  ∀ c : Dev nD, ∀ w : Fin cfg0.W, r.2.mem ((cfg0.win w).arr.view.loc (c : Thread nD τ)) = finalA m ρ c w

end Cert.KernelIdeal.Sched

end
-- ==== Proof.LibDeal.lean ====
/-
  Three general facts for a launch on a mesh.

  A separating conjunction over a finite index may be read along an injection, the summands outside its range
  dropped; a doubly indexed one may have its outer index permuted separately for each inner index (every token moves
  from its owner to the device that pays it); and when every device owes one tally to a semaphore of a peer, the
  semaphore depending on the device, the launch deals each device the matching credit on the semaphore its payer names.
-/
import Idealize.ShloMosaic.Lib.Pipeline.Launch
import Idealize.ShloMosaic.Lib.Tactic

noncomputable section

namespace Cert.LibDeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section BigOp

universe u
variable {M : Type u} [URA M]

/-- Along an injection: the summands at its values are kept, the others dropped. -/
theorem bigSep_pick {I J : Type} [Fintype I] [Fintype J] [DecidableEq J] (f : I → J) (hf : Function.Injective f)
    (Φ : J → sProp M) : bigSep Finset.univ Φ ⊢ bigSep Finset.univ fun i => Φ (f i) := by
  have e : bigSep ((Finset.univ : Finset I).map ⟨f, hf⟩) Φ = bigSep Finset.univ fun i => Φ (f i) := bigSep_map ⟨f, hf⟩
  rw [← e]
  exact bigSep_subset (Finset.subset_univ _)

/-- The outer index permuted separately for each inner index. -/
theorem bigSep_deal {α J : Type} [Fintype α] [Fintype J] (e : J → α ≃ α) (Φ : α → J → sProp M) :
    (bigSep Finset.univ fun c => bigSep Finset.univ fun j => Φ c j)
      = bigSep Finset.univ fun c => bigSep Finset.univ fun j => Φ (e j c) j := by
  rw [bigSep_univ_comm Φ, bigSep_univ_comm (fun c j => Φ (e j c) j)]
  exact bigSep_congr fun j _ => bigSep_univ_equiv (e j) (fun c => Φ c j)

/-- The same with the permutations given as maps with inverses. -/
theorem bigSep_deal_fn {α J : Type} [Fintype α] [Fintype J] (f finv : J → α → α) (h1 : ∀ j c, f j (finv j c) = c)
    (h2 : ∀ j c, finv j (f j c) = c) (Φ : α → J → sProp M) :
    (bigSep Finset.univ fun c => bigSep Finset.univ fun j => Φ c j)
      = bigSep Finset.univ fun c => bigSep Finset.univ fun j => Φ (f j c) j :=
  bigSep_deal (fun j => ⟨f j, finv j, h2 j, h1 j⟩) Φ

end BigOp

section Credit

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Every device `d` owing one tally on semaphore `sm d` of device `f d`, `f` a bijection of the devices, the launch
    deals device `c` the matching credit on the semaphore its payer `finv c` names. -/
theorem launchCred_tallyAt_dep (sm : Dev nD → SemLoc sig) (f finv : Dev nD → Dev nD) (h1 : ∀ c, f (finv c) = c)
    (h2 : ∀ d, finv (f d) = d) (ι : Ix) (n : ℕ) (c : Dev nD) :
    (Pipeline.launchCred (fun d => tallyAt (((f d).tc : Thread nD τ), sm d) ι n) c : sProp 𝕄)
      ⊢ cred (tallyAt ((c.tc : Thread nD τ), sm (finv c)) ι n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d).tc : Thread nD τ), sm d) (Finsupp.single ι n) ((c.tc : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

end Credit

/-- info: 'Cert.LibDeal.launchCred_tallyAt_dep' depends on axioms: [propext, Classical.choice, Quot.sound] -/
#guard_msgs in #print axioms launchCred_tallyAt_dep

end Cert.LibDeal

end
-- ==== Proof.KernelIdealCred.lean ====
/-
  The credit each device is dealt at launch, and why its waits are allowed.

  Summed over the sixteen devices, what they owe device `c`'s barrier semaphore is fifteen units (one from
  each other device) and what they owe each of its receive semaphores is one row's credit (from the one
  device that copies into that slot): that is the credit `c` starts with. A device waits on its barrier
  semaphore (level 1) while it still owes copies to receive semaphores (level 2), and on staging and receive
  semaphores while it owes nothing, so every wait is below everything the waiter owes.
-/
import proofs.«900922_g7700000000000923_dist_max_ax0_shard0_i_m512_n256_v7x_i16_bf16_1_alg».proof.Proof.KernelIdealSched
import proofs.«900922_g7700000000000923_dist_max_ax0_shard0_i_m512_n256_v7x_i16_bf16_1_alg».proof.Proof.LibDeal

noncomputable section

namespace Cert.KernelIdeal.Cred

open Cert.KernelIdeal Cert.KernelIdeal.Gen Cert.KernelIdeal.Ring Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a device's debts lie

  Everything a device owes is owed to a receive semaphore (a copy's debt) or to a barrier semaphore (a signal's). -/

/-- A copy's debt lies on a receive semaphore. -/
theorem Ocp_pos {c : Dev nD} : ∀ {n : ℕ} {g : GSem nD τ sig} {u : Unit}, 0 < Ocp c n g u →
    ∃ k, k < n ∧ g = recvCell (off c (15 - k)) (fin15 k)
  | 0, _, _, h => absurd h (Nat.lt_irrefl 0)
  | n + 1, g, u, h => by
    rcases Pipeline.add_pos_cases (show 0 < (Ocp c n + tallyAt (recvCell (off c (15 - n)) (fin15 n)) () N) g u from h) with h1 | h2
    · obtain ⟨k, hk, e⟩ := Ocp_pos h1
      exact ⟨k, Nat.lt_succ_of_lt hk, e⟩
    · exact ⟨n, Nat.lt_succ_self n, (Pipeline.tallyAt_pos h2).1⟩

/-- With the signals' debts on top: a receive semaphore or a barrier semaphore. -/
theorem Osg_pos {c : Dev nD} : ∀ {n : ℕ} {g : GSem nD τ sig} {u : Unit}, 0 < Osg c n g u →
    (∃ k, k < 15 ∧ g = recvCell (off c (15 - k)) (fin15 k)) ∨ (∃ k, k < n ∧ g = barCell (off c (15 - k)))
  | 0, _, _, h => Or.inl (Ocp_pos h)
  | n + 1, g, u, h => by
    rcases Pipeline.add_pos_cases (show 0 < (Osg c n + tallyAt (barCell (off c (15 - n))) () 1) g u from h) with h1 | h2
    · rcases Osg_pos h1 with h' | ⟨k, hk, e⟩
      · exact Or.inl h'
      · exact Or.inr ⟨k, Nat.lt_succ_of_lt hk, e⟩
    · exact Or.inr ⟨n, Nat.lt_succ_self n, (Pipeline.tallyAt_pos h2).1⟩

/-- All a device owes at launch lies on receive semaphores and barrier semaphores. -/
theorem O₀_pos {c : Dev nD} {g : GSem nD τ sig} {u : Unit} (h : 0 < O₀ c g u) :
    (∃ (d : Dev nD) (s : Fin 15), g = recvCell d s) ∨ (∃ d : Dev nD, g = barCell d) := by
  rcases Osg_pos (show 0 < Osg c 15 g u from h) with ⟨k, _, e⟩ | ⟨k, _, e⟩
  · exact Or.inl ⟨_, _, e⟩
  · exact Or.inr ⟨_, e⟩

/-! ## The levels of the waits -/

/-- The two staging semaphores are neither barrier nor receive semaphores: level 0. -/
theorem lv_stage (t : Thread nD τ) (q : DmaSem sig) (hq : q.val < 2) (u : Unit) : lv (t, .dma q) u = 0 := by
  have hr : roleOf (.dma q : SemLoc sig) = .other := by
    rw [roleOf, dif_neg (by omega), dif_neg (by omega)]
  dsimp only [lv]; rw [hr]

/-- A wait on a staging semaphore is allowed owing everything owed at launch, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨d, s, rfl⟩ | ⟨d, rfl⟩
        · rw [L_tc]; exact Finset.mem_singleton_self _
        · rw [L_tc]; exact Finset.mem_singleton_self _)
      (fun p hp => by rw [Finset.mem_singleton.mp hp]; exact le_of_eq (lv_stage _ q hq ()))
      (fun g u hg => by
        rcases O₀_pos hg with ⟨d, s, rfl⟩ | ⟨d, rfl⟩
        · rw [lv_recv]; decide
        · rw [lv_bar]; decide)
  · rw [MayWait_zero]; iintro -; iempintro

/-! ## The credit dealt at launch

  Going a fixed number of places round the ring is a bijection of the devices, so when every device owes one
  tally to the same semaphore of the device that many places on, each device is dealt exactly that tally's
  credit on its own semaphore. The debts are stacked one such family at a time. -/

/-- Going `16 - e` places and then `e` is back home. -/
theorem off_there (c : Dev nD) (e : ℕ) (he : e ≤ 16) : off (off c (16 - e)) e = c := by
  rw [off_off, show 16 - e + e = 16 by omega, off_sixteen]

/-- The copies into slot `n`: each device is dealt a row's credit on its receive semaphore `n`. -/
theorem launch_cp (c : Dev nD) (n : ℕ) (hn : n < 15) :
    (Pipeline.launchCred (fun d => tallyAt (recvCell (off d (15 - n)) (fin15 n)) () N) c : sProp 𝕄)
      ⊢ cred (tallyAt (recvCell c (fin15 n)) () N) :=
  Pipeline.launchCred_tallyAt (.dma (recvS (fin15 n))) (fun d => off d (15 - n)) (fun d => off d (16 - (15 - n)))
    (fun d => off_there d (15 - n) (by omega)) (fun d => off_back d (15 - n) (by omega)) () N c

/-- The signals to the device `15 - n` places on: each device is dealt one unit on its barrier semaphore. -/
theorem launch_sg (c : Dev nD) (n : ℕ) (hn : n < 15) :
    (Pipeline.launchCred (fun d => tallyAt (barCell (off d (15 - n))) () 1) c : sProp 𝕄)
      ⊢ cred (tallyAt (barCell c) () 1) :=
  Pipeline.launchCred_tallyAt (.reg barS) (fun d => off d (15 - n)) (fun d => off d (16 - (15 - n)))
    (fun d => off_there d (15 - n) (by omega)) (fun d => off_back d (15 - n) (by omega)) () 1 c

/-- The first `n` families of copies deal each device a row's credit on its receive semaphores below `n`. -/
theorem launch_Ocp (c : Dev nD) : ∀ n : ℕ, n ≤ 15 →
    (Pipeline.launchCred (fun d => Ocp d n) c : sProp 𝕄)
      ⊢ bigSep (Finset.univ.filter fun s : Fin 15 => s.val < n) fun s => cred (tallyAt (recvCell c s) () N)
  | 0, _ => by
    rw [show (fun d : Dev nD => Ocp d 0) = fun _ => (0 : CellTallies nD τ sig Unit) from rfl, Pipeline.launchCred_zero,
      Finset.filter_false_of_mem (fun s _ => Nat.not_lt_zero _), bigSep_empty]
    exact Entails.of_eq rfl
  | n + 1, hn => by
    have ih := launch_Ocp c n (by omega)
    have hv : (fin15 n).val = n := Nat.mod_eq_of_lt (by omega)
    have hs : (Finset.univ.filter fun s : Fin 15 => s.val < n + 1)
        = insert (fin15 n) (Finset.univ.filter fun s : Fin 15 => s.val < n) := by
      ext s
      simp only [Finset.mem_filter, Finset.mem_univ, true_and, Finset.mem_insert]
      constructor
      · intro h
        by_cases e : s.val = n
        · exact Or.inl (Fin.ext (by rw [hv]; exact e))
        · exact Or.inr (by omega)
      · rintro (rfl | h)
        · omega
        · omega
    have hni : fin15 n ∉ Finset.univ.filter fun s : Fin 15 => s.val < n := by
      rw [Finset.mem_filter]; rintro ⟨_, h⟩; omega
    rw [show (fun d : Dev nD => Ocp d (n + 1)) = fun d => Ocp d n + tallyAt (recvCell (off d (15 - n)) (fin15 n)) () N from rfl,
      Pipeline.launchCred_add, hs,
      show bigSep (insert (fin15 n) (Finset.univ.filter fun s : Fin 15 => s.val < n)) (fun s => (cred (tallyAt (recvCell c s) () N) : sProp 𝕄))
        = iprop(cred (tallyAt (recvCell c (fin15 n)) () N) ∗ bigSep (Finset.univ.filter fun s : Fin 15 => s.val < n) fun s => cred (tallyAt (recvCell c s) () N))
        from bigSep_insert hni]
    iintro ⟨H1, H2⟩
    isplitl [H2]
    · iapply (launch_cp (F := F) c n (by omega)); iexact H2
    · iapply ih; iexact H1

/-- On top of the copies' credit, the first `n` families of signals deal each device `n` units on its barrier semaphore. -/
theorem launch_Osg (c : Dev nD) : ∀ n : ℕ, n ≤ 15 →
    (Pipeline.launchCred (fun d => Osg d n) c : sProp 𝕄)
      ⊢ iprop(Pipeline.launchCred (fun d => Ocp d 15) c ∗ cred (tallyAt (barCell c) () n))
  | 0, _ => by
    rw [show (fun d : Dev nD => Osg d 0) = fun d => Ocp d 15 from rfl, tallyAt_zero, cred_zero]
    iintro H
    isplitl [H]
    · iexact H
    · iempintro
  | n + 1, hn => by
    have ih := launch_Osg c n (by omega)
    rw [show (fun d : Dev nD => Osg d (n + 1)) = fun d => Osg d n + tallyAt (barCell (off d (15 - n))) () 1 from rfl,
      Pipeline.launchCred_add,
      show (tallyAt (barCell c) () (n + 1) : CellTallies nD τ sig Unit) = tallyAt (barCell c) () n + tallyAt (barCell c) () 1
        from (tallyAt_add _ _ _ _).symm]
    iintro ⟨H1, H2⟩
    ihave H1' := ih $$ H1
    icases H1' with ⟨Hc, Hb⟩
    isplitl [Hc]
    · iexact Hc
    · iapply (cred_add _ _).2
      isplitl [Hb]
      · iexact Hb
      · iapply (launch_sg (F := F) c n (by omega)); iexact H2

/-- The launch credit of device `c`: fifteen units on its barrier semaphore, a row's credit on each receive semaphore. -/
theorem creds (c : Dev nD) :
    (Pipeline.launchCred O₀ c : sProp 𝕄) ⊢ iprop(cred (tallyAt (barCell c) () 15) ∗ bigSep Finset.univ fun s : Fin 15 => cred (tallyAt (recvCell c s) () N)) := by
  have h15 : (Pipeline.launchCred (fun d => Ocp d 15) c : sProp 𝕄)
      ⊢ bigSep Finset.univ fun s : Fin 15 => cred (tallyAt (recvCell c s) () N) := by
    have h := launch_Ocp (F := F) c 15 le_rfl
    rwa [Finset.filter_true_of_mem (fun s _ => s.isLt)] at h
  refine (launch_Osg (F := F) c 15 le_rfl).trans ?_
  iintro ⟨H1, H2⟩
  isplitl [H2]
  · iexact H2
  · iapply h15; iexact H1

/-- At its barrier wait a device owes its fifteen copies only: receive semaphores, above its barrier semaphore. -/
theorem mayWait_bar (c : Dev nD) :
    (levAts L lv : sProp 𝕄) ⊢ MayWait (c : Thread nD τ) (.reg barS) () (Ocp c 15) :=
  MayOwe.of_cut (L := L) (lev := lv) 1
    (fun p hp => by rw [Finset.mem_singleton.mp hp, L_tc]; exact Finset.mem_singleton_self _)
    (fun g u hg => by obtain ⟨k, _, rfl⟩ := Ocp_pos hg; rw [L_tc]; exact Finset.mem_singleton_self _)
    (fun p hp => by rw [Finset.mem_singleton.mp hp]; exact le_of_eq (lv_bar c ()))
    (fun g u hg => by obtain ⟨k, _, rfl⟩ := Ocp_pos hg; rw [lv_recv]; decide)

/-- The pipeline's own waits on the staging semaphores are allowed, owing everything (before the body) or nothing (after). -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- info: 'Cert.KernelIdeal.Cred.creds' depends on axioms: [propext, Classical.choice, Quot.sound] -/
#guard_msgs in #print axioms creds

/-- info: 'Cert.KernelIdeal.Cred.mayWait_bar' depends on axioms: [propext, Classical.choice, Quot.sound] -/
#guard_msgs in #print axioms mayWait_bar

/-- info: 'Cert.KernelIdeal.Cred.waits' depends on axioms: [propext, Classical.choice, Quot.sound] -/
#guard_msgs in #print axioms waits

end Cert.KernelIdeal.Cred

end
-- ==== Proof.KernelIdealSlots.lean ====
/-
  The receive buffer and its fifteen slots.

  Slot `s` is row `s` of the [15, 1, 256] buffer: the slots are pairwise disjoint and together are the whole
  buffer, so holding the buffer is holding its fifteen slots. A row copied into slot `s` of a device from
  the device `s + 1` places after it leaves, on that slot's elements, exactly what the buffer is to hold
  there in the end, whatever the slot held before.
-/
import proofs.«900922_g7700000000000923_dist_max_ax0_shard0_i_m512_n256_v7x_i16_bf16_1_alg».proof.Proof.KernelIdealSched
import Idealize.ShloMosaic.Lib.Pipeline.Value
import Idealize.ShloMosaic.Lib.ValueLayout

noncomputable section

namespace Cert.KernelIdeal.Slots

open Cert.KernelIdeal Cert.KernelIdeal.Gen Cert.KernelIdeal.Ring Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## A row of the receive buffer, squeezed -/

/-- The elements under slot `s` are those of the rectangle that is row `s` of the buffer. -/
theorem slot_set (s : Fin 15) :
    (slotM s : Memref sig .tc .vmem S1x256 .f32).view.set
      = (Rect.unit (s := S15x1x256) ![s.val, 0, 0] S1x1x256.size (inbSlot s)).set :=
  (View.set_reshape _ _).trans (View.set_slice_whole _ _)

/-- An index of the receive buffer lies under slot `s` exactly when its leading coordinate is `s`. -/
theorem mem_slot (s : Fin 15) (i : S15x1x256.Idx) :
    i ∈ (slotM s : Memref sig .tc .vmem S1x256 .f32).view.set ↔ (i 0).val = s.val := by
  rw [slot_set, Rect.mem_set_unit]
  constructor
  · intro h
    have h0 := h 0
    have e0 : (![s.val, 0, 0] : Fin 3 → ℕ) 0 = s.val := rfl
    have e1 : S1x1x256.size 0 = 1 := rfl
    rw [e0, e1] at h0
    omega
  · intro h a
    match a with
    | ⟨0, _⟩ =>
      show s.val ≤ (i 0).val ∧ (i 0).val < s.val + 1
      omega
    | ⟨1, _⟩ =>
      show 0 ≤ (i 1).val ∧ (i 1).val < 0 + 1
      have := (i 1).isLt
      have e : S15x1x256.size 1 = 1 := rfl
      omega
    | ⟨2, _⟩ =>
      show 0 ≤ (i 2).val ∧ (i 2).val < 0 + 256
      have := (i 2).isLt
      have e : S15x1x256.size 2 = 256 := rfl
      omega

/-- Row `k` of a view of shape `[n, 1, b]`, taken as a rectangle and squeezed to `[1, b]`, places its index
    `(u, y)` where the view places `(k, u, y)`. -/
theorem emb_row_squeeze {κ : Kind} {sp : Space} {e : EltTy} {n b : ℕ} (v : View sig κ sp ⟨3, ![n, 1, b]⟩ e) (k : Fin n)
    (inb : ∀ a, (![k.val, 0, 0] : Fin 3 → ℕ) a + (![1, 1, b] : Fin 3 → ℕ) a ≤ (⟨3, ![n, 1, b]⟩ : Shape).size a)
    (h : (⟨2, ![1, b]⟩ : Shape).numel = (⟨3, ![1, 1, b]⟩ : Shape).numel) (u : Fin 1) (y : Fin b) :
    ((v.slice (Rect.unit (s := ⟨3, ![n, 1, b]⟩) ![k.val, 0, 0] ![1, 1, b] inb)).reshape ⟨2, ![1, b]⟩ h).emb (ix2 u y)
      = v.emb (ix3 k u y) := by
  show v.emb ((Rect.unit (s := ⟨3, ![n, 1, b]⟩) ![k.val, 0, 0] ![1, 1, b] inb).emb
      (Shape.reshapeEquiv (s := ⟨3, ![1, 1, b]⟩) (s' := ⟨2, ![1, b]⟩) h (ix2 u y))) = v.emb (ix3 k u y)
  rw [reshapeEquiv_ix2_1ab h u y]
  congr 1
  funext a
  match a with
  | ⟨0, _⟩ => exact Fin.ext (show k.val + 1 * 0 = k.val by omega)
  | ⟨1, _⟩ => exact Fin.ext (show 0 + 1 * u.val = u.val by omega)
  | ⟨2, _⟩ => exact Fin.ext (show 0 + 1 * y.val = y.val by omega)

/-- Where slot `s` places its index `(u, y)`: at `(s, u, y)`. -/
theorem slot_emb (s : Fin 15) (u : Fin 1) (y : Fin 256) :
    ((slotM s : Memref sig .tc .vmem S1x256 .f32).view.emb (ix2 u y) : S15x1x256.Idx) = ix3 s u y :=
  emb_row_squeeze (View.whole cc0_scratch1 : View sig .tc .vmem S15x1x256 .f32) s (inbSlot s) squeezes_S1x1x256_S1x256.numel_eq u y

/-- The receive buffer whole at contents `f` is its fifteen slots, each at `f`. -/
theorem comm_cut (c : Dev nD) (f : Buf (Elt F) ((c : Thread nD τ).loc cc0_scratch1)) :
    ((((c : Thread nD τ).loc cc0_scratch1) ↦{fullShare} f) : sProp 𝕄) = bigSep Finset.univ fun s : Fin 15 => slotPts c s f := by
  -- distinct slots share no element: their indices differ in the leading coordinate
  have hD : ∀ s ∈ (Finset.univ : Finset (Fin 15)), ∀ s' ∈ (Finset.univ : Finset (Fin 15)), s ≠ s' →
      Disjoint ((slotM s : Memref sig .tc .vmem S1x256 .f32).view.set : Finset (Idx ((c : Thread nD τ).loc cc0_scratch1)))
        (slotM s' : Memref sig .tc .vmem S1x256 .f32).view.set := by
    intro s _ s' _ hne
    refine Finset.disjoint_left.mpr fun i hi hi' => hne (Fin.ext ?_)
    rw [← (mem_slot s i).mp hi, (mem_slot s' i).mp hi']
  have key := pointsTo_biUnion (Ix := Unit) (Val := Elt F) (Name := ℕ) (U := UU) (Lvl := ℕ)
      (ℓ := (c : Thread nD τ).loc cc0_scratch1) (q := fullShare) (f := f) (Finset.univ : Finset (Fin 15))
      (fun s => ((slotM s : Memref sig .tc .vmem S1x256 .f32).view.set : Finset (Idx ((c : Thread nD τ).loc cc0_scratch1)))) hD
  refine Eq.trans (congrArg (fun I => ((((c : Thread nD τ).loc cc0_scratch1) ↦[I]{fullShare} f) : sProp 𝕄)) ?_) key
  -- every index lies in the slot its leading coordinate names
  refine (Finset.eq_univ_of_forall fun i => Finset.mem_biUnion.mpr ⟨⟨(i 0).val, (i 0).isLt⟩, Finset.mem_univ _, ?_⟩).symm
  exact (mem_slot _ i).mpr rfl

/-- The row of the device `s + 1` places after `c'`, copied whole into slot `s` of `c'` over any contents `fd`,
    leaves the slot holding what `c'`'s receive buffer ends holding there. -/
theorem landed_eq (c' : Dev nD) (s : Fin 15) (fd : Buf (Elt F) ((slotM s : Memref sig .tc .vmem S1x256 .f32).view.loc (c' : Thread nD τ))) :
    (((slotM s : Memref sig .tc .vmem S1x256 .f32).view.loc (c' : Thread nD τ) ↦[(slotM s : Memref sig .tc .vmem S1x256 .f32).view.set]{fullShare}
        ((slotM s : Memref sig .tc .vmem S1x256 .f32).view.write (Elt F) fd ((aM : Memref sig .tc .vmem S1x256 .f32).view.read (Elt F) (accV m (off c' (s.val + 1)))) Finset.univ)) : sProp 𝕄)
      = slotPts c' s (commV m c') := by
  unfold slotPts
  refine pointsTo_congr fun i hi => ?_
  obtain ⟨x, rfl⟩ := View.exists_emb_of_mem_set _ hi
  rw [View.write_emb_of_mem _ _ (Finset.mem_univ x)]
  refine (cast_eq _ _).trans ?_
  -- the row read whole is the partial result itself
  have hread : (aM : Memref sig .tc .vmem S1x256 .f32).view.read (Elt F) (accV m (off c' (s.val + 1))) = accV m (off c' (s.val + 1)) :=
    View.read_whole _ _
  rw [hread]
  -- the slot places `(u, y)` at `(s, u, y)`, where the buffer is to hold the device `s + 1` places on's value at `(u, y)`
  obtain ⟨u, y, rfl⟩ : ∃ u y, x = ix2 u y := ⟨x 0, x 1, eq_ix2 x⟩
  show accOf (xblk m (off c' (s.val + 1))) (ix2 u y)
      = commOf (fun d => accOf (xblk m d)) c' ((slotM s : Memref sig .tc .vmem S1x256 .f32).view.emb (ix2 u y))
  rw [slot_emb s u y]
  rfl

/-- info: 'Cert.KernelIdeal.Slots.comm_cut' depends on axioms: [propext, Classical.choice, Quot.sound] -/
#guard_msgs in #print axioms comm_cut

/-- info: 'Cert.KernelIdeal.Slots.landed_eq' depends on axioms: [propext, Classical.choice, Quot.sound] -/
#guard_msgs in #print axioms landed_eq

end Cert.KernelIdeal.Slots

end
-- ==== Proof.KernelIdealSteps.lean ====
/-
  One remote copy of a device's partial result into a peer's slot, as a step of the protocol.

  Copy `j + 1` of device `c` reads `c`'s partial result, of which it was lent a share, and writes slot `14 - j`
  of the device `j + 1` places on. When the partial result has been read, `c`'s send semaphore `j` is credited
  and the share comes back; when the row has landed, the peer's receive semaphore `14 - j` is credited and the
  peer is handed the slot, which then holds what its receive buffer is to hold there in the end: the partial
  result of the device `15 - j` places after the peer, which is `c`. The full share of the partial result
  divides into the fifteen shares lent to the copies and a rest.
-/
import proofs.«900922_g7700000000000923_dist_max_ax0_shard0_i_m512_n256_v7x_i16_bf16_1_alg».proof.Proof.KernelIdealSched
import proofs.«900922_g7700000000000923_dist_max_ax0_shard0_i_m512_n256_v7x_i16_bf16_1_alg».proof.Proof.KernelIdealSlots
import Idealize.ShloMosaic.Lib.Pipeline.Launch
import Idealize.ShloMosaic.Lib.Tactic

noncomputable section

namespace Cert.KernelIdeal.Steps

open Cert.KernelIdeal Cert.KernelIdeal.Gen Cert.KernelIdeal.Ring Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device reached from the peer `j + 1` places on by the offset of slot `14 - j` is the sender itself. -/
theorem off_peer (c : Dev nD) (j : Fin 15) : off (off c (j.val + 1)) ((peerSlot j).val + 1) = c := by
  have hj := j.isLt
  rw [off_off, show j.val + 1 + ((peerSlot j).val + 1) = 16 by show j.val + 1 + (14 - j.val + 1) = 16; omega, off_sixteen]

/-- Copy `j + 1` of device `c`, addressed to `n`, the device `j + 1` places on: from the two semaphores' invariants, the
    lent share of the partial result, the peer's slot at any contents, the copy's debt among what `c` owes and the two
    duties' tokens, it goes on owing the rest and holding the send semaphore's credit. -/
theorem wp_copy (c n : Dev nD) (j : Fin 15) (hn : n = off c (j.val + 1))
    {hsc : (slotM (peerSlot j) : Memref sig (Dev.tc n : Thread nD τ).2.kind .vmem S1x256 .f32).view.ref.isScScratch = false}
    {hsrc : (aM : Memref sig .tc .vmem S1x256 .f32).view.WordExact} {hdst : (slotM (peerSlot j) : Memref sig .tc .vmem S1x256 .f32).view.WordExact}
    {hsem : DmaTarget.Typed .vmem (.dma (recvS (peerSlot j))) (.remote (Dev.tc n : Thread nD τ) (slotM (peerSlot j) : Memref sig .tc .vmem S1x256 .f32) (.dma (sendS j)) hsc)}
    {α : Type} {Q : α → sProp 𝕄} {k : PUnit → Prog (TpuEff nD τ sig (Elt F) Λ₀ .tc) α} (κ₁ κ₂ : ℕ)
    (fn : Buf (Elt F) ((slotM (peerSlot j) : Memref sig .tc .vmem S1x256 .f32).view.loc (off c (j.val + 1) : Thread nD τ)))
    (O : CellTallies nD τ sig Unit) (W : Waits sig Unit) :
    iprop(cellInv ER (sched m) κ₁ (sendCell c j) ∗ cellInv ER (sched m) κ₂ (recvCell (off c (j.val + 1)) (peerSlot j))
        ∗ accPts c (shr j.val) (accV m c) ∗ slotPts (off c (j.val + 1)) (peerSlot j) fn
        ∗ owes (c : Thread nD τ) (O + tallyAt (recvCell (off c (j.val + 1)) (peerSlot j)) () N) W
        ∗ dutyTok ER (sendCell c j) 0 (0 : Fin 15) ∗ reached ER (sendCell c j) 0
        ∗ dutyTok ER (recvCell (off c (j.val + 1)) (peerSlot j)) 0 (0 : Fin 15) ∗ reached ER (recvCell (off c (j.val + 1)) (peerSlot j)) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (peerSlot j)) (.dma (sendS j)) hsc) (.dma (recvS (peerSlot j))) hsrc hdst hsem) k) Q) := by
  subst hn
  unfold accPts slotPts
  exact Rounds.wp_send_pointsTo 𝒱₀ ER (sched m) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () N (slot_amount _) (amount_send m c j 0) (amount_recv m _ _ 0) O rfl (W := W)
    (by rw [payload_send]; exact BI.Entails.refl _)
    (by
      rw [payload_recv]; unfold recvPay
      rw [← Slots.landed_eq m (off c (j.val + 1)) (peerSlot j) fn, off_peer])

/-- The full share of the partial result is the fifteen shares lent to the copies and what is left after them. -/
theorem acc_shares (c : Dev nD) (f : Buf (Elt F) ((aM : Memref sig .tc .vmem S1x256 .f32).view.loc (c : Thread nD τ))) :
    (accPts c fullShare f : sProp 𝕄) ⊣⊢ iprop(accPts c (shr 0) f ∗ accPts c (shr 1) f ∗ accPts c (shr 2) f ∗ accPts c (shr 3) f ∗ accPts c (shr 4) f ∗ accPts c (shr 5) f ∗ accPts c (shr 6) f ∗ accPts c (shr 7) f ∗ accPts c (shr 8) f ∗ accPts c (shr 9) f ∗ accPts c (shr 10) f ∗ accPts c (shr 11) f ∗ accPts c (shr 12) f ∗ accPts c (shr 13) f ∗ accPts c (shr 14) f ∗ accPts c (rem 15) f) :=
  (accPts_split c 0 f).trans (sep_congr_right ((accPts_split c 1 f).trans (sep_congr_right ((accPts_split c 2 f).trans (sep_congr_right ((accPts_split c 3 f).trans (sep_congr_right ((accPts_split c 4 f).trans (sep_congr_right ((accPts_split c 5 f).trans (sep_congr_right ((accPts_split c 6 f).trans (sep_congr_right ((accPts_split c 7 f).trans (sep_congr_right ((accPts_split c 8 f).trans (sep_congr_right ((accPts_split c 9 f).trans (sep_congr_right ((accPts_split c 10 f).trans (sep_congr_right ((accPts_split c 11 f).trans (sep_congr_right ((accPts_split c 12 f).trans (sep_congr_right ((accPts_split c 13 f).trans (sep_congr_right (accPts_split c 14 f))))))))))))))))))))))))))))

/-- info: 'Cert.KernelIdeal.Steps.wp_copy' depends on axioms: [propext, Classical.choice, Quot.sound] -/
#guard_msgs in #print axioms wp_copy

/-- info: 'Cert.KernelIdeal.Steps.acc_shares' depends on axioms: [propext, Classical.choice, Quot.sound] -/
#guard_msgs in #print axioms acc_shares

end Cert.KernelIdeal.Steps

end
-- ==== Proof.KernelIdealBody.lean ====
/-
  One device's body, from the protocol's ghost state to the end of the kernel.

  Device `c` cuts its receive buffer into its fifteen slots and signals each peer's barrier semaphore, handing
  the peer `j + 1` places on its slot `j` (the slot that peer's row is to land in). It stores its partial result,
  the column maxima of its block, and waits for the fifteen units of its own barrier semaphore, still owing its
  fifteen copies: the round's payloads are the fifteen peers' slots its own row goes into. The partial result is
  then lent in fifteen shares, one to each copy, a sixteenth kept to read it. Copy `j + 1` goes to the peer
  `j + 1` places on, into its slot `14 - j`: it pays the duty of that slot's receive semaphore, whose payload is the
  slot holding what that peer's receive buffer is to hold there (the row of the device `15 - j` places after that
  peer, which is `c`), and the duty of `c`'s send semaphore `j`, whose payload is the lent share. The fifteen
  receive waits bring the fifteen slots, each at what the receive buffer is to hold: joined, the buffer whole at
  every peer's partial result. The result is stored: the maximum of the own partial result and the fifteen
  received rows. The fifteen send waits bring the shares back, and the partial-result buffer is whole again. The
  thirty own semaphores, their one round consumed, close.
-/
import proofs.«900922_g7700000000000923_dist_max_ax0_shard0_i_m512_n256_v7x_i16_bf16_1_alg».proof.Proof.KernelIdealSched
import proofs.«900922_g7700000000000923_dist_max_ax0_shard0_i_m512_n256_v7x_i16_bf16_1_alg».proof.Proof.KernelIdealCred
import proofs.«900922_g7700000000000923_dist_max_ax0_shard0_i_m512_n256_v7x_i16_bf16_1_alg».proof.Proof.KernelIdealSlots
import proofs.«900922_g7700000000000923_dist_max_ax0_shard0_i_m512_n256_v7x_i16_bf16_1_alg».proof.Proof.KernelIdealSteps
import proofs.«900922_g7700000000000923_dist_max_ax0_shard0_i_m512_n256_v7x_i16_bf16_1_alg».proof.Proof.Gen.KernelIdeal.Skeleton
import proofs.«900922_g7700000000000923_dist_max_ax0_shard0_i_m512_n256_v7x_i16_bf16_1_alg».proof.Proof.Gen.KernelIdeal.Launch
import proofs.«900922_g7700000000000923_dist_max_ax0_shard0_i_m512_n256_v7x_i16_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Ring Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem val0 : (((0 : Fin 15) : Fin 15) : ℕ) = 0 := rfl
theorem val1 : (((1 : Fin 15) : Fin 15) : ℕ) = 1 := rfl
theorem val2 : (((2 : Fin 15) : Fin 15) : ℕ) = 2 := rfl
theorem val3 : (((3 : Fin 15) : Fin 15) : ℕ) = 3 := rfl
theorem val4 : (((4 : Fin 15) : Fin 15) : ℕ) = 4 := rfl
theorem val5 : (((5 : Fin 15) : Fin 15) : ℕ) = 5 := rfl
theorem val6 : (((6 : Fin 15) : Fin 15) : ℕ) = 6 := rfl
theorem val7 : (((7 : Fin 15) : Fin 15) : ℕ) = 7 := rfl
theorem val8 : (((8 : Fin 15) : Fin 15) : ℕ) = 8 := rfl
theorem val9 : (((9 : Fin 15) : Fin 15) : ℕ) = 9 := rfl
theorem val10 : (((10 : Fin 15) : Fin 15) : ℕ) = 10 := rfl
theorem val11 : (((11 : Fin 15) : Fin 15) : ℕ) = 11 := rfl
theorem val12 : (((12 : Fin 15) : Fin 15) : ℕ) = 12 := rfl
theorem val13 : (((13 : Fin 15) : Fin 15) : ℕ) = 13 := rfl
theorem val14 : (((14 : Fin 15) : Fin 15) : ℕ) = 14 := rfl
theorem ps0 : peerSlot (0 : Fin 15) = (14 : Fin 15) := rfl
theorem ps1 : peerSlot (1 : Fin 15) = (13 : Fin 15) := rfl
theorem ps2 : peerSlot (2 : Fin 15) = (12 : Fin 15) := rfl
theorem ps3 : peerSlot (3 : Fin 15) = (11 : Fin 15) := rfl
theorem ps4 : peerSlot (4 : Fin 15) = (10 : Fin 15) := rfl
theorem ps5 : peerSlot (5 : Fin 15) = (9 : Fin 15) := rfl
theorem ps6 : peerSlot (6 : Fin 15) = (8 : Fin 15) := rfl
theorem ps7 : peerSlot (7 : Fin 15) = (7 : Fin 15) := rfl
theorem ps8 : peerSlot (8 : Fin 15) = (6 : Fin 15) := rfl
theorem ps9 : peerSlot (9 : Fin 15) = (5 : Fin 15) := rfl
theorem ps10 : peerSlot (10 : Fin 15) = (4 : Fin 15) := rfl
theorem ps11 : peerSlot (11 : Fin 15) = (3 : Fin 15) := rfl
theorem ps12 : peerSlot (12 : Fin 15) = (2 : Fin 15) := rfl
theorem ps13 : peerSlot (13 : Fin 15) = (1 : Fin 15) := rfl
theorem ps14 : peerSlot (14 : Fin 15) = (0 : Fin 15) := rfl
theorem f15_0 : fin15 0 = (0 : Fin 15) := rfl
theorem f15_1 : fin15 1 = (1 : Fin 15) := rfl
theorem f15_2 : fin15 2 = (2 : Fin 15) := rfl
theorem f15_3 : fin15 3 = (3 : Fin 15) := rfl
theorem f15_4 : fin15 4 = (4 : Fin 15) := rfl
theorem f15_5 : fin15 5 = (5 : Fin 15) := rfl
theorem f15_6 : fin15 6 = (6 : Fin 15) := rfl
theorem f15_7 : fin15 7 = (7 : Fin 15) := rfl
theorem f15_8 : fin15 8 = (8 : Fin 15) := rfl
theorem f15_9 : fin15 9 = (9 : Fin 15) := rfl
theorem f15_10 : fin15 10 = (10 : Fin 15) := rfl
theorem f15_11 : fin15 11 = (11 : Fin 15) := rfl
theorem f15_12 : fin15 12 = (12 : Fin 15) := rfl
theorem f15_13 : fin15 13 = (13 : Fin 15) := rfl
theorem f15_14 : fin15 14 = (14 : Fin 15) := rfl
theorem payload_bar_lit0 (c : Dev nD) : (sched (F := F) m).payload (barCell (off c 1)) 0 (0 : Fin 15) = iprop(∃ f, slotPts c (0 : Fin 15) f) := by
  rw [payload_bar]; unfold barPay; rw [show off (off c 1) (15 - ((0 : Fin 15) : ℕ)) = c from off_back c 1 (by decide)]
theorem payload_bar_lit1 (c : Dev nD) : (sched (F := F) m).payload (barCell (off c 2)) 0 (1 : Fin 15) = iprop(∃ f, slotPts c (1 : Fin 15) f) := by
  rw [payload_bar]; unfold barPay; rw [show off (off c 2) (15 - ((1 : Fin 15) : ℕ)) = c from off_back c 2 (by decide)]
theorem payload_bar_lit2 (c : Dev nD) : (sched (F := F) m).payload (barCell (off c 3)) 0 (2 : Fin 15) = iprop(∃ f, slotPts c (2 : Fin 15) f) := by
  rw [payload_bar]; unfold barPay; rw [show off (off c 3) (15 - ((2 : Fin 15) : ℕ)) = c from off_back c 3 (by decide)]
theorem payload_bar_lit3 (c : Dev nD) : (sched (F := F) m).payload (barCell (off c 4)) 0 (3 : Fin 15) = iprop(∃ f, slotPts c (3 : Fin 15) f) := by
  rw [payload_bar]; unfold barPay; rw [show off (off c 4) (15 - ((3 : Fin 15) : ℕ)) = c from off_back c 4 (by decide)]
theorem payload_bar_lit4 (c : Dev nD) : (sched (F := F) m).payload (barCell (off c 5)) 0 (4 : Fin 15) = iprop(∃ f, slotPts c (4 : Fin 15) f) := by
  rw [payload_bar]; unfold barPay; rw [show off (off c 5) (15 - ((4 : Fin 15) : ℕ)) = c from off_back c 5 (by decide)]
theorem payload_bar_lit5 (c : Dev nD) : (sched (F := F) m).payload (barCell (off c 6)) 0 (5 : Fin 15) = iprop(∃ f, slotPts c (5 : Fin 15) f) := by
  rw [payload_bar]; unfold barPay; rw [show off (off c 6) (15 - ((5 : Fin 15) : ℕ)) = c from off_back c 6 (by decide)]
theorem payload_bar_lit6 (c : Dev nD) : (sched (F := F) m).payload (barCell (off c 7)) 0 (6 : Fin 15) = iprop(∃ f, slotPts c (6 : Fin 15) f) := by
  rw [payload_bar]; unfold barPay; rw [show off (off c 7) (15 - ((6 : Fin 15) : ℕ)) = c from off_back c 7 (by decide)]
theorem payload_bar_lit7 (c : Dev nD) : (sched (F := F) m).payload (barCell (off c 8)) 0 (7 : Fin 15) = iprop(∃ f, slotPts c (7 : Fin 15) f) := by
  rw [payload_bar]; unfold barPay; rw [show off (off c 8) (15 - ((7 : Fin 15) : ℕ)) = c from off_back c 8 (by decide)]
theorem payload_bar_lit8 (c : Dev nD) : (sched (F := F) m).payload (barCell (off c 9)) 0 (8 : Fin 15) = iprop(∃ f, slotPts c (8 : Fin 15) f) := by
  rw [payload_bar]; unfold barPay; rw [show off (off c 9) (15 - ((8 : Fin 15) : ℕ)) = c from off_back c 9 (by decide)]
theorem payload_bar_lit9 (c : Dev nD) : (sched (F := F) m).payload (barCell (off c 10)) 0 (9 : Fin 15) = iprop(∃ f, slotPts c (9 : Fin 15) f) := by
  rw [payload_bar]; unfold barPay; rw [show off (off c 10) (15 - ((9 : Fin 15) : ℕ)) = c from off_back c 10 (by decide)]
theorem payload_bar_lit10 (c : Dev nD) : (sched (F := F) m).payload (barCell (off c 11)) 0 (10 : Fin 15) = iprop(∃ f, slotPts c (10 : Fin 15) f) := by
  rw [payload_bar]; unfold barPay; rw [show off (off c 11) (15 - ((10 : Fin 15) : ℕ)) = c from off_back c 11 (by decide)]
theorem payload_bar_lit11 (c : Dev nD) : (sched (F := F) m).payload (barCell (off c 12)) 0 (11 : Fin 15) = iprop(∃ f, slotPts c (11 : Fin 15) f) := by
  rw [payload_bar]; unfold barPay; rw [show off (off c 12) (15 - ((11 : Fin 15) : ℕ)) = c from off_back c 12 (by decide)]
theorem payload_bar_lit12 (c : Dev nD) : (sched (F := F) m).payload (barCell (off c 13)) 0 (12 : Fin 15) = iprop(∃ f, slotPts c (12 : Fin 15) f) := by
  rw [payload_bar]; unfold barPay; rw [show off (off c 13) (15 - ((12 : Fin 15) : ℕ)) = c from off_back c 13 (by decide)]
theorem payload_bar_lit13 (c : Dev nD) : (sched (F := F) m).payload (barCell (off c 14)) 0 (13 : Fin 15) = iprop(∃ f, slotPts c (13 : Fin 15) f) := by
  rw [payload_bar]; unfold barPay; rw [show off (off c 14) (15 - ((13 : Fin 15) : ℕ)) = c from off_back c 14 (by decide)]
theorem payload_bar_lit14 (c : Dev nD) : (sched (F := F) m).payload (barCell (off c 15)) 0 (14 : Fin 15) = iprop(∃ f, slotPts c (14 : Fin 15) f) := by
  rw [payload_bar]; unfold barPay; rw [show off (off c 15) (15 - ((14 : Fin 15) : ℕ)) = c from off_back c 15 (by decide)]

theorem view_eq (c : Dev nD) (b : Ref sig .tc) (f : Buf (Elt F) (((c : Dev nD) : Thread nD τ).loc b)) :
    ((((c : Thread nD τ).loc b) ↦{fullShare} f) : sProp 𝕄)
      = ((Memref.whole b : Memref sig .tc _ _ _).view.loc (c : Thread nD τ) ↦[(Memref.whole b : Memref sig .tc _ _ _).view.set]{fullShare} f) := by
  rw [show (Memref.whole b : Memref sig .tc _ _ _).view.set = Finset.univ from View.set_whole _]

theorem hz2 : (![0, 0] : Fin 2 → Nat) = fun _ => 0 := funext fun a => by fin_cases a <;> rfl

/-- The stored partial result: the column maxima of the device's block. -/
theorem acc_stored (c : Dev nD) (fa0 : Buf (Elt F) ((c : Thread nD τ).loc cc0_scratch0))
    (i1 : ∀ a, (![0, 0] : Fin 2 → Nat) a + S1x256.size a ≤ S1x256.size a) (i2 : ∀ a, (![0, 0] : Fin 2 → Nat) a + S512x256.size a ≤ S512x256.size a) :
    (aM : Memref sig .tc .vmem S1x256 .f32).view.writes (Elt F) fa0
      [⟨Rect.unit (s := S1x256) ![0, 0] S1x256.size i1, k0_pay1 (View.readAt (Elt F) (xM : Memref sig .tc .vmem S512x256 .f32).view (Rect.unit (s := S512x256) ![0, 0] S512x256.size i2).toLoadRect (xblk m c))⟩]
      = accV m c := by
  have e1 : View.readAt (Elt F) (xM : Memref sig .tc .vmem S512x256 .f32).view (Rect.unit (s := S512x256) ![0, 0] S512x256.size i2).toLoadRect (xblk m c) = xblk m c :=
    Memref.readAt_unit_zero (Elt F) cc0_stg0_0 hz2 i2 (xblk m c)
  rw [View.writes_singleton, e1]
  exact Memref.write_access_unit_zero_univ (Elt F) cc0_scratch0 hz2 i1 fa0 _

theorem payload_send_lit0 (c : Dev nD) (d : Fin 15) : (sched (F := F) m).payload (sendCell c (0 : Fin 15)) 0 d
    = ((aM : Memref sig .tc .vmem S1x256 .f32).view.loc (c : Thread nD τ) ↦[(aM : Memref sig .tc .vmem S1x256 .f32).view.set]{shr 0} accV m c) := by
  rw [payload_send]; rfl
theorem payload_send_lit1 (c : Dev nD) (d : Fin 15) : (sched (F := F) m).payload (sendCell c (1 : Fin 15)) 0 d
    = ((aM : Memref sig .tc .vmem S1x256 .f32).view.loc (c : Thread nD τ) ↦[(aM : Memref sig .tc .vmem S1x256 .f32).view.set]{shr 1} accV m c) := by
  rw [payload_send]; rfl
theorem payload_send_lit2 (c : Dev nD) (d : Fin 15) : (sched (F := F) m).payload (sendCell c (2 : Fin 15)) 0 d
    = ((aM : Memref sig .tc .vmem S1x256 .f32).view.loc (c : Thread nD τ) ↦[(aM : Memref sig .tc .vmem S1x256 .f32).view.set]{shr 2} accV m c) := by
  rw [payload_send]; rfl
theorem payload_send_lit3 (c : Dev nD) (d : Fin 15) : (sched (F := F) m).payload (sendCell c (3 : Fin 15)) 0 d
    = ((aM : Memref sig .tc .vmem S1x256 .f32).view.loc (c : Thread nD τ) ↦[(aM : Memref sig .tc .vmem S1x256 .f32).view.set]{shr 3} accV m c) := by
  rw [payload_send]; rfl
theorem payload_send_lit4 (c : Dev nD) (d : Fin 15) : (sched (F := F) m).payload (sendCell c (4 : Fin 15)) 0 d
    = ((aM : Memref sig .tc .vmem S1x256 .f32).view.loc (c : Thread nD τ) ↦[(aM : Memref sig .tc .vmem S1x256 .f32).view.set]{shr 4} accV m c) := by
  rw [payload_send]; rfl
theorem payload_send_lit5 (c : Dev nD) (d : Fin 15) : (sched (F := F) m).payload (sendCell c (5 : Fin 15)) 0 d
    = ((aM : Memref sig .tc .vmem S1x256 .f32).view.loc (c : Thread nD τ) ↦[(aM : Memref sig .tc .vmem S1x256 .f32).view.set]{shr 5} accV m c) := by
  rw [payload_send]; rfl
theorem payload_send_lit6 (c : Dev nD) (d : Fin 15) : (sched (F := F) m).payload (sendCell c (6 : Fin 15)) 0 d
    = ((aM : Memref sig .tc .vmem S1x256 .f32).view.loc (c : Thread nD τ) ↦[(aM : Memref sig .tc .vmem S1x256 .f32).view.set]{shr 6} accV m c) := by
  rw [payload_send]; rfl
theorem payload_send_lit7 (c : Dev nD) (d : Fin 15) : (sched (F := F) m).payload (sendCell c (7 : Fin 15)) 0 d
    = ((aM : Memref sig .tc .vmem S1x256 .f32).view.loc (c : Thread nD τ) ↦[(aM : Memref sig .tc .vmem S1x256 .f32).view.set]{shr 7} accV m c) := by
  rw [payload_send]; rfl
theorem payload_send_lit8 (c : Dev nD) (d : Fin 15) : (sched (F := F) m).payload (sendCell c (8 : Fin 15)) 0 d
    = ((aM : Memref sig .tc .vmem S1x256 .f32).view.loc (c : Thread nD τ) ↦[(aM : Memref sig .tc .vmem S1x256 .f32).view.set]{shr 8} accV m c) := by
  rw [payload_send]; rfl
theorem payload_send_lit9 (c : Dev nD) (d : Fin 15) : (sched (F := F) m).payload (sendCell c (9 : Fin 15)) 0 d
    = ((aM : Memref sig .tc .vmem S1x256 .f32).view.loc (c : Thread nD τ) ↦[(aM : Memref sig .tc .vmem S1x256 .f32).view.set]{shr 9} accV m c) := by
  rw [payload_send]; rfl
theorem payload_send_lit10 (c : Dev nD) (d : Fin 15) : (sched (F := F) m).payload (sendCell c (10 : Fin 15)) 0 d
    = ((aM : Memref sig .tc .vmem S1x256 .f32).view.loc (c : Thread nD τ) ↦[(aM : Memref sig .tc .vmem S1x256 .f32).view.set]{shr 10} accV m c) := by
  rw [payload_send]; rfl
theorem payload_send_lit11 (c : Dev nD) (d : Fin 15) : (sched (F := F) m).payload (sendCell c (11 : Fin 15)) 0 d
    = ((aM : Memref sig .tc .vmem S1x256 .f32).view.loc (c : Thread nD τ) ↦[(aM : Memref sig .tc .vmem S1x256 .f32).view.set]{shr 11} accV m c) := by
  rw [payload_send]; rfl
theorem payload_send_lit12 (c : Dev nD) (d : Fin 15) : (sched (F := F) m).payload (sendCell c (12 : Fin 15)) 0 d
    = ((aM : Memref sig .tc .vmem S1x256 .f32).view.loc (c : Thread nD τ) ↦[(aM : Memref sig .tc .vmem S1x256 .f32).view.set]{shr 12} accV m c) := by
  rw [payload_send]; rfl
theorem payload_send_lit13 (c : Dev nD) (d : Fin 15) : (sched (F := F) m).payload (sendCell c (13 : Fin 15)) 0 d
    = ((aM : Memref sig .tc .vmem S1x256 .f32).view.loc (c : Thread nD τ) ↦[(aM : Memref sig .tc .vmem S1x256 .f32).view.set]{shr 13} accV m c) := by
  rw [payload_send]; rfl
theorem payload_send_lit14 (c : Dev nD) (d : Fin 15) : (sched (F := F) m).payload (sendCell c (14 : Fin 15)) 0 d
    = ((aM : Memref sig .tc .vmem S1x256 .f32).view.loc (c : Thread nD τ) ↦[(aM : Memref sig .tc .vmem S1x256 .f32).view.set]{shr 14} accV m c) := by
  rw [payload_send]; rfl
theorem payload_recv_lit0 (c : Dev nD) (d : Fin 15) : (sched (F := F) m).payload (recvCell c (0 : Fin 15)) 0 d
    = ((slotM (0 : Fin 15) : Memref sig .tc .vmem S1x256 .f32).view.loc (c : Thread nD τ) ↦[(slotM (0 : Fin 15) : Memref sig .tc .vmem S1x256 .f32).view.set]{fullShare} commV m c) := by
  rw [payload_recv]; rfl
theorem payload_recv_lit1 (c : Dev nD) (d : Fin 15) : (sched (F := F) m).payload (recvCell c (1 : Fin 15)) 0 d
    = ((slotM (1 : Fin 15) : Memref sig .tc .vmem S1x256 .f32).view.loc (c : Thread nD τ) ↦[(slotM (1 : Fin 15) : Memref sig .tc .vmem S1x256 .f32).view.set]{fullShare} commV m c) := by
  rw [payload_recv]; rfl
theorem payload_recv_lit2 (c : Dev nD) (d : Fin 15) : (sched (F := F) m).payload (recvCell c (2 : Fin 15)) 0 d
    = ((slotM (2 : Fin 15) : Memref sig .tc .vmem S1x256 .f32).view.loc (c : Thread nD τ) ↦[(slotM (2 : Fin 15) : Memref sig .tc .vmem S1x256 .f32).view.set]{fullShare} commV m c) := by
  rw [payload_recv]; rfl
theorem payload_recv_lit3 (c : Dev nD) (d : Fin 15) : (sched (F := F) m).payload (recvCell c (3 : Fin 15)) 0 d
    = ((slotM (3 : Fin 15) : Memref sig .tc .vmem S1x256 .f32).view.loc (c : Thread nD τ) ↦[(slotM (3 : Fin 15) : Memref sig .tc .vmem S1x256 .f32).view.set]{fullShare} commV m c) := by
  rw [payload_recv]; rfl
theorem payload_recv_lit4 (c : Dev nD) (d : Fin 15) : (sched (F := F) m).payload (recvCell c (4 : Fin 15)) 0 d
    = ((slotM (4 : Fin 15) : Memref sig .tc .vmem S1x256 .f32).view.loc (c : Thread nD τ) ↦[(slotM (4 : Fin 15) : Memref sig .tc .vmem S1x256 .f32).view.set]{fullShare} commV m c) := by
  rw [payload_recv]; rfl
theorem payload_recv_lit5 (c : Dev nD) (d : Fin 15) : (sched (F := F) m).payload (recvCell c (5 : Fin 15)) 0 d
    = ((slotM (5 : Fin 15) : Memref sig .tc .vmem S1x256 .f32).view.loc (c : Thread nD τ) ↦[(slotM (5 : Fin 15) : Memref sig .tc .vmem S1x256 .f32).view.set]{fullShare} commV m c) := by
  rw [payload_recv]; rfl
theorem payload_recv_lit6 (c : Dev nD) (d : Fin 15) : (sched (F := F) m).payload (recvCell c (6 : Fin 15)) 0 d
    = ((slotM (6 : Fin 15) : Memref sig .tc .vmem S1x256 .f32).view.loc (c : Thread nD τ) ↦[(slotM (6 : Fin 15) : Memref sig .tc .vmem S1x256 .f32).view.set]{fullShare} commV m c) := by
  rw [payload_recv]; rfl
theorem payload_recv_lit7 (c : Dev nD) (d : Fin 15) : (sched (F := F) m).payload (recvCell c (7 : Fin 15)) 0 d
    = ((slotM (7 : Fin 15) : Memref sig .tc .vmem S1x256 .f32).view.loc (c : Thread nD τ) ↦[(slotM (7 : Fin 15) : Memref sig .tc .vmem S1x256 .f32).view.set]{fullShare} commV m c) := by
  rw [payload_recv]; rfl
theorem payload_recv_lit8 (c : Dev nD) (d : Fin 15) : (sched (F := F) m).payload (recvCell c (8 : Fin 15)) 0 d
    = ((slotM (8 : Fin 15) : Memref sig .tc .vmem S1x256 .f32).view.loc (c : Thread nD τ) ↦[(slotM (8 : Fin 15) : Memref sig .tc .vmem S1x256 .f32).view.set]{fullShare} commV m c) := by
  rw [payload_recv]; rfl
theorem payload_recv_lit9 (c : Dev nD) (d : Fin 15) : (sched (F := F) m).payload (recvCell c (9 : Fin 15)) 0 d
    = ((slotM (9 : Fin 15) : Memref sig .tc .vmem S1x256 .f32).view.loc (c : Thread nD τ) ↦[(slotM (9 : Fin 15) : Memref sig .tc .vmem S1x256 .f32).view.set]{fullShare} commV m c) := by
  rw [payload_recv]; rfl
theorem payload_recv_lit10 (c : Dev nD) (d : Fin 15) : (sched (F := F) m).payload (recvCell c (10 : Fin 15)) 0 d
    = ((slotM (10 : Fin 15) : Memref sig .tc .vmem S1x256 .f32).view.loc (c : Thread nD τ) ↦[(slotM (10 : Fin 15) : Memref sig .tc .vmem S1x256 .f32).view.set]{fullShare} commV m c) := by
  rw [payload_recv]; rfl
theorem payload_recv_lit11 (c : Dev nD) (d : Fin 15) : (sched (F := F) m).payload (recvCell c (11 : Fin 15)) 0 d
    = ((slotM (11 : Fin 15) : Memref sig .tc .vmem S1x256 .f32).view.loc (c : Thread nD τ) ↦[(slotM (11 : Fin 15) : Memref sig .tc .vmem S1x256 .f32).view.set]{fullShare} commV m c) := by
  rw [payload_recv]; rfl
theorem payload_recv_lit12 (c : Dev nD) (d : Fin 15) : (sched (F := F) m).payload (recvCell c (12 : Fin 15)) 0 d
    = ((slotM (12 : Fin 15) : Memref sig .tc .vmem S1x256 .f32).view.loc (c : Thread nD τ) ↦[(slotM (12 : Fin 15) : Memref sig .tc .vmem S1x256 .f32).view.set]{fullShare} commV m c) := by
  rw [payload_recv]; rfl
theorem payload_recv_lit13 (c : Dev nD) (d : Fin 15) : (sched (F := F) m).payload (recvCell c (13 : Fin 15)) 0 d
    = ((slotM (13 : Fin 15) : Memref sig .tc .vmem S1x256 .f32).view.loc (c : Thread nD τ) ↦[(slotM (13 : Fin 15) : Memref sig .tc .vmem S1x256 .f32).view.set]{fullShare} commV m c) := by
  rw [payload_recv]; rfl
theorem payload_recv_lit14 (c : Dev nD) (d : Fin 15) : (sched (F := F) m).payload (recvCell c (14 : Fin 15)) 0 d
    = ((slotM (14 : Fin 15) : Memref sig .tc .vmem S1x256 .f32).view.loc (c : Thread nD τ) ↦[(slotM (14 : Fin 15) : Memref sig .tc .vmem S1x256 .f32).view.set]{fullShare} commV m c) := by
  rw [payload_recv]; rfl

/-- The receive buffer whole is its fifteen slots, listed. -/
theorem comm_split (c : Dev nD) (f : Buf (Elt F) ((c : Thread nD τ).loc cc0_scratch1)) :
    ((((c : Thread nD τ).loc cc0_scratch1) ↦{fullShare} f) : sProp 𝕄) ⊢ iprop(slotPts c (0 : Fin 15) f ∗ slotPts c (1 : Fin 15) f ∗ slotPts c (2 : Fin 15) f ∗ slotPts c (3 : Fin 15) f ∗ slotPts c (4 : Fin 15) f ∗ slotPts c (5 : Fin 15) f ∗ slotPts c (6 : Fin 15) f ∗ slotPts c (7 : Fin 15) f ∗ slotPts c (8 : Fin 15) f ∗ slotPts c (9 : Fin 15) f ∗ slotPts c (10 : Fin 15) f ∗ slotPts c (11 : Fin 15) f ∗ slotPts c (12 : Fin 15) f ∗ slotPts c (13 : Fin 15) f ∗ slotPts c (14 : Fin 15) f) := by
  rw [Slots.comm_cut, bigSep_fin15]

theorem comm_join (c : Dev nD) (f : Buf (Elt F) ((c : Thread nD τ).loc cc0_scratch1)) :
    (iprop(slotPts c (0 : Fin 15) f ∗ slotPts c (1 : Fin 15) f ∗ slotPts c (2 : Fin 15) f ∗ slotPts c (3 : Fin 15) f ∗ slotPts c (4 : Fin 15) f ∗ slotPts c (5 : Fin 15) f ∗ slotPts c (6 : Fin 15) f ∗ slotPts c (7 : Fin 15) f ∗ slotPts c (8 : Fin 15) f ∗ slotPts c (9 : Fin 15) f ∗ slotPts c (10 : Fin 15) f ∗ slotPts c (11 : Fin 15) f ∗ slotPts c (12 : Fin 15) f ∗ slotPts c (13 : Fin 15) f ∗ slotPts c (14 : Fin 15) f) : sProp 𝕄)
      ⊢ ((cM : Memref sig .tc .vmem S15x1x256 .f32).view.loc (c : Thread nD τ) ↦[(cM : Memref sig .tc .vmem S15x1x256 .f32).view.set]{fullShare} f) := by
  rw [← view_eq (F := F) c cc0_scratch1 f, Slots.comm_cut, bigSep_fin15]

/-- The barrier round's fifteen payloads, listed: slot `j` of the device `15 - j` places on. -/
theorem bar_payloads (c : Dev nD) :
    (bigSep Finset.univ (fun d : Fin 15 => (sched (F := F) m).payload (barCell c) 0 d) : sProp 𝕄)
      ⊢ iprop((∃ f, slotPts (off c 15) (0 : Fin 15) f) ∗ (∃ f, slotPts (off c 14) (1 : Fin 15) f) ∗ (∃ f, slotPts (off c 13) (2 : Fin 15) f) ∗ (∃ f, slotPts (off c 12) (3 : Fin 15) f) ∗ (∃ f, slotPts (off c 11) (4 : Fin 15) f) ∗ (∃ f, slotPts (off c 10) (5 : Fin 15) f) ∗ (∃ f, slotPts (off c 9) (6 : Fin 15) f) ∗ (∃ f, slotPts (off c 8) (7 : Fin 15) f) ∗ (∃ f, slotPts (off c 7) (8 : Fin 15) f) ∗ (∃ f, slotPts (off c 6) (9 : Fin 15) f) ∗ (∃ f, slotPts (off c 5) (10 : Fin 15) f) ∗ (∃ f, slotPts (off c 4) (11 : Fin 15) f) ∗ (∃ f, slotPts (off c 3) (12 : Fin 15) f) ∗ (∃ f, slotPts (off c 2) (13 : Fin 15) f) ∗ (∃ f, slotPts (off c 1) (14 : Fin 15) f)) := by
  rw [bigSep_congr (s := Finset.univ) fun j _ => payload_bar (F := F) m c j, bigSep_fin15]; exact BI.Entails.refl _

theorem wp_copy_lit0 (c n : Dev nD) (hn : n = off c 1)
    {hsc : (slotM (14 : Fin 15) : Memref sig (Dev.tc n : Thread nD τ).2.kind .vmem S1x256 .f32).view.ref.isScScratch = false}
    {hsrc : (aM : Memref sig .tc .vmem S1x256 .f32).view.WordExact} {hdst : (slotM (14 : Fin 15) : Memref sig .tc .vmem S1x256 .f32).view.WordExact}
    {hsem : DmaTarget.Typed .vmem (.dma (recvS (14 : Fin 15))) (.remote (Dev.tc n : Thread nD τ) (slotM (14 : Fin 15) : Memref sig .tc .vmem S1x256 .f32) (.dma (sendS (0 : Fin 15))) hsc)}
    {α : Type} {Q : α → sProp 𝕄} {k : PUnit → Prog (TpuEff nD τ sig (Elt F) Λ₀ .tc) α} (κ₁ κ₂ : ℕ)
    (fn : Buf (Elt F) ((slotM (14 : Fin 15) : Memref sig .tc .vmem S1x256 .f32).view.loc (off c 1 : Thread nD τ)))
    (O : CellTallies nD τ sig Unit) (W : Waits sig Unit) :
    iprop(cellInv ER (sched m) κ₁ (sendCell c (0 : Fin 15)) ∗ cellInv ER (sched m) κ₂ (recvCell (off c 1) (14 : Fin 15))
        ∗ accPts c (shr 0) (accV m c) ∗ slotPts (off c 1) (14 : Fin 15) fn
        ∗ owes (c : Thread nD τ) (O + tallyAt (recvCell (off c 1) (14 : Fin 15)) () N) W
        ∗ dutyTok ER (sendCell c (0 : Fin 15)) 0 (0 : Fin 15) ∗ reached ER (sendCell c (0 : Fin 15)) 0
        ∗ dutyTok ER (recvCell (off c 1) (14 : Fin 15)) 0 (0 : Fin 15) ∗ reached ER (recvCell (off c 1) (14 : Fin 15)) 0)
      ⊢ iprop(((cred (tallyAt (sendCell c (0 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (14 : Fin 15)) (.dma (sendS (0 : Fin 15))) hsc) (.dma (recvS (14 : Fin 15))) hsrc hdst hsem) k) Q) :=
  Steps.wp_copy (F := F) m c n (0 : Fin 15) hn κ₁ κ₂ fn O W

theorem wp_copy_lit1 (c n : Dev nD) (hn : n = off c 2)
    {hsc : (slotM (13 : Fin 15) : Memref sig (Dev.tc n : Thread nD τ).2.kind .vmem S1x256 .f32).view.ref.isScScratch = false}
    {hsrc : (aM : Memref sig .tc .vmem S1x256 .f32).view.WordExact} {hdst : (slotM (13 : Fin 15) : Memref sig .tc .vmem S1x256 .f32).view.WordExact}
    {hsem : DmaTarget.Typed .vmem (.dma (recvS (13 : Fin 15))) (.remote (Dev.tc n : Thread nD τ) (slotM (13 : Fin 15) : Memref sig .tc .vmem S1x256 .f32) (.dma (sendS (1 : Fin 15))) hsc)}
    {α : Type} {Q : α → sProp 𝕄} {k : PUnit → Prog (TpuEff nD τ sig (Elt F) Λ₀ .tc) α} (κ₁ κ₂ : ℕ)
    (fn : Buf (Elt F) ((slotM (13 : Fin 15) : Memref sig .tc .vmem S1x256 .f32).view.loc (off c 2 : Thread nD τ)))
    (O : CellTallies nD τ sig Unit) (W : Waits sig Unit) :
    iprop(cellInv ER (sched m) κ₁ (sendCell c (1 : Fin 15)) ∗ cellInv ER (sched m) κ₂ (recvCell (off c 2) (13 : Fin 15))
        ∗ accPts c (shr 1) (accV m c) ∗ slotPts (off c 2) (13 : Fin 15) fn
        ∗ owes (c : Thread nD τ) (O + tallyAt (recvCell (off c 2) (13 : Fin 15)) () N) W
        ∗ dutyTok ER (sendCell c (1 : Fin 15)) 0 (0 : Fin 15) ∗ reached ER (sendCell c (1 : Fin 15)) 0
        ∗ dutyTok ER (recvCell (off c 2) (13 : Fin 15)) 0 (0 : Fin 15) ∗ reached ER (recvCell (off c 2) (13 : Fin 15)) 0)
      ⊢ iprop(((cred (tallyAt (sendCell c (1 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (13 : Fin 15)) (.dma (sendS (1 : Fin 15))) hsc) (.dma (recvS (13 : Fin 15))) hsrc hdst hsem) k) Q) :=
  Steps.wp_copy (F := F) m c n (1 : Fin 15) hn κ₁ κ₂ fn O W

theorem wp_copy_lit2 (c n : Dev nD) (hn : n = off c 3)
    {hsc : (slotM (12 : Fin 15) : Memref sig (Dev.tc n : Thread nD τ).2.kind .vmem S1x256 .f32).view.ref.isScScratch = false}
    {hsrc : (aM : Memref sig .tc .vmem S1x256 .f32).view.WordExact} {hdst : (slotM (12 : Fin 15) : Memref sig .tc .vmem S1x256 .f32).view.WordExact}
    {hsem : DmaTarget.Typed .vmem (.dma (recvS (12 : Fin 15))) (.remote (Dev.tc n : Thread nD τ) (slotM (12 : Fin 15) : Memref sig .tc .vmem S1x256 .f32) (.dma (sendS (2 : Fin 15))) hsc)}
    {α : Type} {Q : α → sProp 𝕄} {k : PUnit → Prog (TpuEff nD τ sig (Elt F) Λ₀ .tc) α} (κ₁ κ₂ : ℕ)
    (fn : Buf (Elt F) ((slotM (12 : Fin 15) : Memref sig .tc .vmem S1x256 .f32).view.loc (off c 3 : Thread nD τ)))
    (O : CellTallies nD τ sig Unit) (W : Waits sig Unit) :
    iprop(cellInv ER (sched m) κ₁ (sendCell c (2 : Fin 15)) ∗ cellInv ER (sched m) κ₂ (recvCell (off c 3) (12 : Fin 15))
        ∗ accPts c (shr 2) (accV m c) ∗ slotPts (off c 3) (12 : Fin 15) fn
        ∗ owes (c : Thread nD τ) (O + tallyAt (recvCell (off c 3) (12 : Fin 15)) () N) W
        ∗ dutyTok ER (sendCell c (2 : Fin 15)) 0 (0 : Fin 15) ∗ reached ER (sendCell c (2 : Fin 15)) 0
        ∗ dutyTok ER (recvCell (off c 3) (12 : Fin 15)) 0 (0 : Fin 15) ∗ reached ER (recvCell (off c 3) (12 : Fin 15)) 0)
      ⊢ iprop(((cred (tallyAt (sendCell c (2 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (12 : Fin 15)) (.dma (sendS (2 : Fin 15))) hsc) (.dma (recvS (12 : Fin 15))) hsrc hdst hsem) k) Q) :=
  Steps.wp_copy (F := F) m c n (2 : Fin 15) hn κ₁ κ₂ fn O W

theorem wp_copy_lit3 (c n : Dev nD) (hn : n = off c 4)
    {hsc : (slotM (11 : Fin 15) : Memref sig (Dev.tc n : Thread nD τ).2.kind .vmem S1x256 .f32).view.ref.isScScratch = false}
    {hsrc : (aM : Memref sig .tc .vmem S1x256 .f32).view.WordExact} {hdst : (slotM (11 : Fin 15) : Memref sig .tc .vmem S1x256 .f32).view.WordExact}
    {hsem : DmaTarget.Typed .vmem (.dma (recvS (11 : Fin 15))) (.remote (Dev.tc n : Thread nD τ) (slotM (11 : Fin 15) : Memref sig .tc .vmem S1x256 .f32) (.dma (sendS (3 : Fin 15))) hsc)}
    {α : Type} {Q : α → sProp 𝕄} {k : PUnit → Prog (TpuEff nD τ sig (Elt F) Λ₀ .tc) α} (κ₁ κ₂ : ℕ)
    (fn : Buf (Elt F) ((slotM (11 : Fin 15) : Memref sig .tc .vmem S1x256 .f32).view.loc (off c 4 : Thread nD τ)))
    (O : CellTallies nD τ sig Unit) (W : Waits sig Unit) :
    iprop(cellInv ER (sched m) κ₁ (sendCell c (3 : Fin 15)) ∗ cellInv ER (sched m) κ₂ (recvCell (off c 4) (11 : Fin 15))
        ∗ accPts c (shr 3) (accV m c) ∗ slotPts (off c 4) (11 : Fin 15) fn
        ∗ owes (c : Thread nD τ) (O + tallyAt (recvCell (off c 4) (11 : Fin 15)) () N) W
        ∗ dutyTok ER (sendCell c (3 : Fin 15)) 0 (0 : Fin 15) ∗ reached ER (sendCell c (3 : Fin 15)) 0
        ∗ dutyTok ER (recvCell (off c 4) (11 : Fin 15)) 0 (0 : Fin 15) ∗ reached ER (recvCell (off c 4) (11 : Fin 15)) 0)
      ⊢ iprop(((cred (tallyAt (sendCell c (3 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (11 : Fin 15)) (.dma (sendS (3 : Fin 15))) hsc) (.dma (recvS (11 : Fin 15))) hsrc hdst hsem) k) Q) :=
  Steps.wp_copy (F := F) m c n (3 : Fin 15) hn κ₁ κ₂ fn O W

theorem wp_copy_lit4 (c n : Dev nD) (hn : n = off c 5)
    {hsc : (slotM (10 : Fin 15) : Memref sig (Dev.tc n : Thread nD τ).2.kind .vmem S1x256 .f32).view.ref.isScScratch = false}
    {hsrc : (aM : Memref sig .tc .vmem S1x256 .f32).view.WordExact} {hdst : (slotM (10 : Fin 15) : Memref sig .tc .vmem S1x256 .f32).view.WordExact}
    {hsem : DmaTarget.Typed .vmem (.dma (recvS (10 : Fin 15))) (.remote (Dev.tc n : Thread nD τ) (slotM (10 : Fin 15) : Memref sig .tc .vmem S1x256 .f32) (.dma (sendS (4 : Fin 15))) hsc)}
    {α : Type} {Q : α → sProp 𝕄} {k : PUnit → Prog (TpuEff nD τ sig (Elt F) Λ₀ .tc) α} (κ₁ κ₂ : ℕ)
    (fn : Buf (Elt F) ((slotM (10 : Fin 15) : Memref sig .tc .vmem S1x256 .f32).view.loc (off c 5 : Thread nD τ)))
    (O : CellTallies nD τ sig Unit) (W : Waits sig Unit) :
    iprop(cellInv ER (sched m) κ₁ (sendCell c (4 : Fin 15)) ∗ cellInv ER (sched m) κ₂ (recvCell (off c 5) (10 : Fin 15))
        ∗ accPts c (shr 4) (accV m c) ∗ slotPts (off c 5) (10 : Fin 15) fn
        ∗ owes (c : Thread nD τ) (O + tallyAt (recvCell (off c 5) (10 : Fin 15)) () N) W
        ∗ dutyTok ER (sendCell c (4 : Fin 15)) 0 (0 : Fin 15) ∗ reached ER (sendCell c (4 : Fin 15)) 0
        ∗ dutyTok ER (recvCell (off c 5) (10 : Fin 15)) 0 (0 : Fin 15) ∗ reached ER (recvCell (off c 5) (10 : Fin 15)) 0)
      ⊢ iprop(((cred (tallyAt (sendCell c (4 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (10 : Fin 15)) (.dma (sendS (4 : Fin 15))) hsc) (.dma (recvS (10 : Fin 15))) hsrc hdst hsem) k) Q) :=
  Steps.wp_copy (F := F) m c n (4 : Fin 15) hn κ₁ κ₂ fn O W

theorem wp_copy_lit5 (c n : Dev nD) (hn : n = off c 6)
    {hsc : (slotM (9 : Fin 15) : Memref sig (Dev.tc n : Thread nD τ).2.kind .vmem S1x256 .f32).view.ref.isScScratch = false}
    {hsrc : (aM : Memref sig .tc .vmem S1x256 .f32).view.WordExact} {hdst : (slotM (9 : Fin 15) : Memref sig .tc .vmem S1x256 .f32).view.WordExact}
    {hsem : DmaTarget.Typed .vmem (.dma (recvS (9 : Fin 15))) (.remote (Dev.tc n : Thread nD τ) (slotM (9 : Fin 15) : Memref sig .tc .vmem S1x256 .f32) (.dma (sendS (5 : Fin 15))) hsc)}
    {α : Type} {Q : α → sProp 𝕄} {k : PUnit → Prog (TpuEff nD τ sig (Elt F) Λ₀ .tc) α} (κ₁ κ₂ : ℕ)
    (fn : Buf (Elt F) ((slotM (9 : Fin 15) : Memref sig .tc .vmem S1x256 .f32).view.loc (off c 6 : Thread nD τ)))
    (O : CellTallies nD τ sig Unit) (W : Waits sig Unit) :
    iprop(cellInv ER (sched m) κ₁ (sendCell c (5 : Fin 15)) ∗ cellInv ER (sched m) κ₂ (recvCell (off c 6) (9 : Fin 15))
        ∗ accPts c (shr 5) (accV m c) ∗ slotPts (off c 6) (9 : Fin 15) fn
        ∗ owes (c : Thread nD τ) (O + tallyAt (recvCell (off c 6) (9 : Fin 15)) () N) W
        ∗ dutyTok ER (sendCell c (5 : Fin 15)) 0 (0 : Fin 15) ∗ reached ER (sendCell c (5 : Fin 15)) 0
        ∗ dutyTok ER (recvCell (off c 6) (9 : Fin 15)) 0 (0 : Fin 15) ∗ reached ER (recvCell (off c 6) (9 : Fin 15)) 0)
      ⊢ iprop(((cred (tallyAt (sendCell c (5 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (9 : Fin 15)) (.dma (sendS (5 : Fin 15))) hsc) (.dma (recvS (9 : Fin 15))) hsrc hdst hsem) k) Q) :=
  Steps.wp_copy (F := F) m c n (5 : Fin 15) hn κ₁ κ₂ fn O W

theorem wp_copy_lit6 (c n : Dev nD) (hn : n = off c 7)
    {hsc : (slotM (8 : Fin 15) : Memref sig (Dev.tc n : Thread nD τ).2.kind .vmem S1x256 .f32).view.ref.isScScratch = false}
    {hsrc : (aM : Memref sig .tc .vmem S1x256 .f32).view.WordExact} {hdst : (slotM (8 : Fin 15) : Memref sig .tc .vmem S1x256 .f32).view.WordExact}
    {hsem : DmaTarget.Typed .vmem (.dma (recvS (8 : Fin 15))) (.remote (Dev.tc n : Thread nD τ) (slotM (8 : Fin 15) : Memref sig .tc .vmem S1x256 .f32) (.dma (sendS (6 : Fin 15))) hsc)}
    {α : Type} {Q : α → sProp 𝕄} {k : PUnit → Prog (TpuEff nD τ sig (Elt F) Λ₀ .tc) α} (κ₁ κ₂ : ℕ)
    (fn : Buf (Elt F) ((slotM (8 : Fin 15) : Memref sig .tc .vmem S1x256 .f32).view.loc (off c 7 : Thread nD τ)))
    (O : CellTallies nD τ sig Unit) (W : Waits sig Unit) :
    iprop(cellInv ER (sched m) κ₁ (sendCell c (6 : Fin 15)) ∗ cellInv ER (sched m) κ₂ (recvCell (off c 7) (8 : Fin 15))
        ∗ accPts c (shr 6) (accV m c) ∗ slotPts (off c 7) (8 : Fin 15) fn
        ∗ owes (c : Thread nD τ) (O + tallyAt (recvCell (off c 7) (8 : Fin 15)) () N) W
        ∗ dutyTok ER (sendCell c (6 : Fin 15)) 0 (0 : Fin 15) ∗ reached ER (sendCell c (6 : Fin 15)) 0
        ∗ dutyTok ER (recvCell (off c 7) (8 : Fin 15)) 0 (0 : Fin 15) ∗ reached ER (recvCell (off c 7) (8 : Fin 15)) 0)
      ⊢ iprop(((cred (tallyAt (sendCell c (6 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (8 : Fin 15)) (.dma (sendS (6 : Fin 15))) hsc) (.dma (recvS (8 : Fin 15))) hsrc hdst hsem) k) Q) :=
  Steps.wp_copy (F := F) m c n (6 : Fin 15) hn κ₁ κ₂ fn O W

theorem wp_copy_lit7 (c n : Dev nD) (hn : n = off c 8)
    {hsc : (slotM (7 : Fin 15) : Memref sig (Dev.tc n : Thread nD τ).2.kind .vmem S1x256 .f32).view.ref.isScScratch = false}
    {hsrc : (aM : Memref sig .tc .vmem S1x256 .f32).view.WordExact} {hdst : (slotM (7 : Fin 15) : Memref sig .tc .vmem S1x256 .f32).view.WordExact}
    {hsem : DmaTarget.Typed .vmem (.dma (recvS (7 : Fin 15))) (.remote (Dev.tc n : Thread nD τ) (slotM (7 : Fin 15) : Memref sig .tc .vmem S1x256 .f32) (.dma (sendS (7 : Fin 15))) hsc)}
    {α : Type} {Q : α → sProp 𝕄} {k : PUnit → Prog (TpuEff nD τ sig (Elt F) Λ₀ .tc) α} (κ₁ κ₂ : ℕ)
    (fn : Buf (Elt F) ((slotM (7 : Fin 15) : Memref sig .tc .vmem S1x256 .f32).view.loc (off c 8 : Thread nD τ)))
    (O : CellTallies nD τ sig Unit) (W : Waits sig Unit) :
    iprop(cellInv ER (sched m) κ₁ (sendCell c (7 : Fin 15)) ∗ cellInv ER (sched m) κ₂ (recvCell (off c 8) (7 : Fin 15))
        ∗ accPts c (shr 7) (accV m c) ∗ slotPts (off c 8) (7 : Fin 15) fn
        ∗ owes (c : Thread nD τ) (O + tallyAt (recvCell (off c 8) (7 : Fin 15)) () N) W
        ∗ dutyTok ER (sendCell c (7 : Fin 15)) 0 (0 : Fin 15) ∗ reached ER (sendCell c (7 : Fin 15)) 0
        ∗ dutyTok ER (recvCell (off c 8) (7 : Fin 15)) 0 (0 : Fin 15) ∗ reached ER (recvCell (off c 8) (7 : Fin 15)) 0)
      ⊢ iprop(((cred (tallyAt (sendCell c (7 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (7 : Fin 15)) (.dma (sendS (7 : Fin 15))) hsc) (.dma (recvS (7 : Fin 15))) hsrc hdst hsem) k) Q) :=
  Steps.wp_copy (F := F) m c n (7 : Fin 15) hn κ₁ κ₂ fn O W

theorem wp_copy_lit8 (c n : Dev nD) (hn : n = off c 9)
    {hsc : (slotM (6 : Fin 15) : Memref sig (Dev.tc n : Thread nD τ).2.kind .vmem S1x256 .f32).view.ref.isScScratch = false}
    {hsrc : (aM : Memref sig .tc .vmem S1x256 .f32).view.WordExact} {hdst : (slotM (6 : Fin 15) : Memref sig .tc .vmem S1x256 .f32).view.WordExact}
    {hsem : DmaTarget.Typed .vmem (.dma (recvS (6 : Fin 15))) (.remote (Dev.tc n : Thread nD τ) (slotM (6 : Fin 15) : Memref sig .tc .vmem S1x256 .f32) (.dma (sendS (8 : Fin 15))) hsc)}
    {α : Type} {Q : α → sProp 𝕄} {k : PUnit → Prog (TpuEff nD τ sig (Elt F) Λ₀ .tc) α} (κ₁ κ₂ : ℕ)
    (fn : Buf (Elt F) ((slotM (6 : Fin 15) : Memref sig .tc .vmem S1x256 .f32).view.loc (off c 9 : Thread nD τ)))
    (O : CellTallies nD τ sig Unit) (W : Waits sig Unit) :
    iprop(cellInv ER (sched m) κ₁ (sendCell c (8 : Fin 15)) ∗ cellInv ER (sched m) κ₂ (recvCell (off c 9) (6 : Fin 15))
        ∗ accPts c (shr 8) (accV m c) ∗ slotPts (off c 9) (6 : Fin 15) fn
        ∗ owes (c : Thread nD τ) (O + tallyAt (recvCell (off c 9) (6 : Fin 15)) () N) W
        ∗ dutyTok ER (sendCell c (8 : Fin 15)) 0 (0 : Fin 15) ∗ reached ER (sendCell c (8 : Fin 15)) 0
        ∗ dutyTok ER (recvCell (off c 9) (6 : Fin 15)) 0 (0 : Fin 15) ∗ reached ER (recvCell (off c 9) (6 : Fin 15)) 0)
      ⊢ iprop(((cred (tallyAt (sendCell c (8 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (6 : Fin 15)) (.dma (sendS (8 : Fin 15))) hsc) (.dma (recvS (6 : Fin 15))) hsrc hdst hsem) k) Q) :=
  Steps.wp_copy (F := F) m c n (8 : Fin 15) hn κ₁ κ₂ fn O W

theorem wp_copy_lit9 (c n : Dev nD) (hn : n = off c 10)
    {hsc : (slotM (5 : Fin 15) : Memref sig (Dev.tc n : Thread nD τ).2.kind .vmem S1x256 .f32).view.ref.isScScratch = false}
    {hsrc : (aM : Memref sig .tc .vmem S1x256 .f32).view.WordExact} {hdst : (slotM (5 : Fin 15) : Memref sig .tc .vmem S1x256 .f32).view.WordExact}
    {hsem : DmaTarget.Typed .vmem (.dma (recvS (5 : Fin 15))) (.remote (Dev.tc n : Thread nD τ) (slotM (5 : Fin 15) : Memref sig .tc .vmem S1x256 .f32) (.dma (sendS (9 : Fin 15))) hsc)}
    {α : Type} {Q : α → sProp 𝕄} {k : PUnit → Prog (TpuEff nD τ sig (Elt F) Λ₀ .tc) α} (κ₁ κ₂ : ℕ)
    (fn : Buf (Elt F) ((slotM (5 : Fin 15) : Memref sig .tc .vmem S1x256 .f32).view.loc (off c 10 : Thread nD τ)))
    (O : CellTallies nD τ sig Unit) (W : Waits sig Unit) :
    iprop(cellInv ER (sched m) κ₁ (sendCell c (9 : Fin 15)) ∗ cellInv ER (sched m) κ₂ (recvCell (off c 10) (5 : Fin 15))
        ∗ accPts c (shr 9) (accV m c) ∗ slotPts (off c 10) (5 : Fin 15) fn
        ∗ owes (c : Thread nD τ) (O + tallyAt (recvCell (off c 10) (5 : Fin 15)) () N) W
        ∗ dutyTok ER (sendCell c (9 : Fin 15)) 0 (0 : Fin 15) ∗ reached ER (sendCell c (9 : Fin 15)) 0
        ∗ dutyTok ER (recvCell (off c 10) (5 : Fin 15)) 0 (0 : Fin 15) ∗ reached ER (recvCell (off c 10) (5 : Fin 15)) 0)
      ⊢ iprop(((cred (tallyAt (sendCell c (9 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (5 : Fin 15)) (.dma (sendS (9 : Fin 15))) hsc) (.dma (recvS (5 : Fin 15))) hsrc hdst hsem) k) Q) :=
  Steps.wp_copy (F := F) m c n (9 : Fin 15) hn κ₁ κ₂ fn O W

theorem wp_copy_lit10 (c n : Dev nD) (hn : n = off c 11)
    {hsc : (slotM (4 : Fin 15) : Memref sig (Dev.tc n : Thread nD τ).2.kind .vmem S1x256 .f32).view.ref.isScScratch = false}
    {hsrc : (aM : Memref sig .tc .vmem S1x256 .f32).view.WordExact} {hdst : (slotM (4 : Fin 15) : Memref sig .tc .vmem S1x256 .f32).view.WordExact}
    {hsem : DmaTarget.Typed .vmem (.dma (recvS (4 : Fin 15))) (.remote (Dev.tc n : Thread nD τ) (slotM (4 : Fin 15) : Memref sig .tc .vmem S1x256 .f32) (.dma (sendS (10 : Fin 15))) hsc)}
    {α : Type} {Q : α → sProp 𝕄} {k : PUnit → Prog (TpuEff nD τ sig (Elt F) Λ₀ .tc) α} (κ₁ κ₂ : ℕ)
    (fn : Buf (Elt F) ((slotM (4 : Fin 15) : Memref sig .tc .vmem S1x256 .f32).view.loc (off c 11 : Thread nD τ)))
    (O : CellTallies nD τ sig Unit) (W : Waits sig Unit) :
    iprop(cellInv ER (sched m) κ₁ (sendCell c (10 : Fin 15)) ∗ cellInv ER (sched m) κ₂ (recvCell (off c 11) (4 : Fin 15))
        ∗ accPts c (shr 10) (accV m c) ∗ slotPts (off c 11) (4 : Fin 15) fn
        ∗ owes (c : Thread nD τ) (O + tallyAt (recvCell (off c 11) (4 : Fin 15)) () N) W
        ∗ dutyTok ER (sendCell c (10 : Fin 15)) 0 (0 : Fin 15) ∗ reached ER (sendCell c (10 : Fin 15)) 0
        ∗ dutyTok ER (recvCell (off c 11) (4 : Fin 15)) 0 (0 : Fin 15) ∗ reached ER (recvCell (off c 11) (4 : Fin 15)) 0)
      ⊢ iprop(((cred (tallyAt (sendCell c (10 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (4 : Fin 15)) (.dma (sendS (10 : Fin 15))) hsc) (.dma (recvS (4 : Fin 15))) hsrc hdst hsem) k) Q) :=
  Steps.wp_copy (F := F) m c n (10 : Fin 15) hn κ₁ κ₂ fn O W

theorem wp_copy_lit11 (c n : Dev nD) (hn : n = off c 12)
    {hsc : (slotM (3 : Fin 15) : Memref sig (Dev.tc n : Thread nD τ).2.kind .vmem S1x256 .f32).view.ref.isScScratch = false}
    {hsrc : (aM : Memref sig .tc .vmem S1x256 .f32).view.WordExact} {hdst : (slotM (3 : Fin 15) : Memref sig .tc .vmem S1x256 .f32).view.WordExact}
    {hsem : DmaTarget.Typed .vmem (.dma (recvS (3 : Fin 15))) (.remote (Dev.tc n : Thread nD τ) (slotM (3 : Fin 15) : Memref sig .tc .vmem S1x256 .f32) (.dma (sendS (11 : Fin 15))) hsc)}
    {α : Type} {Q : α → sProp 𝕄} {k : PUnit → Prog (TpuEff nD τ sig (Elt F) Λ₀ .tc) α} (κ₁ κ₂ : ℕ)
    (fn : Buf (Elt F) ((slotM (3 : Fin 15) : Memref sig .tc .vmem S1x256 .f32).view.loc (off c 12 : Thread nD τ)))
    (O : CellTallies nD τ sig Unit) (W : Waits sig Unit) :
    iprop(cellInv ER (sched m) κ₁ (sendCell c (11 : Fin 15)) ∗ cellInv ER (sched m) κ₂ (recvCell (off c 12) (3 : Fin 15))
        ∗ accPts c (shr 11) (accV m c) ∗ slotPts (off c 12) (3 : Fin 15) fn
        ∗ owes (c : Thread nD τ) (O + tallyAt (recvCell (off c 12) (3 : Fin 15)) () N) W
        ∗ dutyTok ER (sendCell c (11 : Fin 15)) 0 (0 : Fin 15) ∗ reached ER (sendCell c (11 : Fin 15)) 0
        ∗ dutyTok ER (recvCell (off c 12) (3 : Fin 15)) 0 (0 : Fin 15) ∗ reached ER (recvCell (off c 12) (3 : Fin 15)) 0)
      ⊢ iprop(((cred (tallyAt (sendCell c (11 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (3 : Fin 15)) (.dma (sendS (11 : Fin 15))) hsc) (.dma (recvS (3 : Fin 15))) hsrc hdst hsem) k) Q) :=
  Steps.wp_copy (F := F) m c n (11 : Fin 15) hn κ₁ κ₂ fn O W

theorem wp_copy_lit12 (c n : Dev nD) (hn : n = off c 13)
    {hsc : (slotM (2 : Fin 15) : Memref sig (Dev.tc n : Thread nD τ).2.kind .vmem S1x256 .f32).view.ref.isScScratch = false}
    {hsrc : (aM : Memref sig .tc .vmem S1x256 .f32).view.WordExact} {hdst : (slotM (2 : Fin 15) : Memref sig .tc .vmem S1x256 .f32).view.WordExact}
    {hsem : DmaTarget.Typed .vmem (.dma (recvS (2 : Fin 15))) (.remote (Dev.tc n : Thread nD τ) (slotM (2 : Fin 15) : Memref sig .tc .vmem S1x256 .f32) (.dma (sendS (12 : Fin 15))) hsc)}
    {α : Type} {Q : α → sProp 𝕄} {k : PUnit → Prog (TpuEff nD τ sig (Elt F) Λ₀ .tc) α} (κ₁ κ₂ : ℕ)
    (fn : Buf (Elt F) ((slotM (2 : Fin 15) : Memref sig .tc .vmem S1x256 .f32).view.loc (off c 13 : Thread nD τ)))
    (O : CellTallies nD τ sig Unit) (W : Waits sig Unit) :
    iprop(cellInv ER (sched m) κ₁ (sendCell c (12 : Fin 15)) ∗ cellInv ER (sched m) κ₂ (recvCell (off c 13) (2 : Fin 15))
        ∗ accPts c (shr 12) (accV m c) ∗ slotPts (off c 13) (2 : Fin 15) fn
        ∗ owes (c : Thread nD τ) (O + tallyAt (recvCell (off c 13) (2 : Fin 15)) () N) W
        ∗ dutyTok ER (sendCell c (12 : Fin 15)) 0 (0 : Fin 15) ∗ reached ER (sendCell c (12 : Fin 15)) 0
        ∗ dutyTok ER (recvCell (off c 13) (2 : Fin 15)) 0 (0 : Fin 15) ∗ reached ER (recvCell (off c 13) (2 : Fin 15)) 0)
      ⊢ iprop(((cred (tallyAt (sendCell c (12 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (2 : Fin 15)) (.dma (sendS (12 : Fin 15))) hsc) (.dma (recvS (2 : Fin 15))) hsrc hdst hsem) k) Q) :=
  Steps.wp_copy (F := F) m c n (12 : Fin 15) hn κ₁ κ₂ fn O W

theorem wp_copy_lit13 (c n : Dev nD) (hn : n = off c 14)
    {hsc : (slotM (1 : Fin 15) : Memref sig (Dev.tc n : Thread nD τ).2.kind .vmem S1x256 .f32).view.ref.isScScratch = false}
    {hsrc : (aM : Memref sig .tc .vmem S1x256 .f32).view.WordExact} {hdst : (slotM (1 : Fin 15) : Memref sig .tc .vmem S1x256 .f32).view.WordExact}
    {hsem : DmaTarget.Typed .vmem (.dma (recvS (1 : Fin 15))) (.remote (Dev.tc n : Thread nD τ) (slotM (1 : Fin 15) : Memref sig .tc .vmem S1x256 .f32) (.dma (sendS (13 : Fin 15))) hsc)}
    {α : Type} {Q : α → sProp 𝕄} {k : PUnit → Prog (TpuEff nD τ sig (Elt F) Λ₀ .tc) α} (κ₁ κ₂ : ℕ)
    (fn : Buf (Elt F) ((slotM (1 : Fin 15) : Memref sig .tc .vmem S1x256 .f32).view.loc (off c 14 : Thread nD τ)))
    (O : CellTallies nD τ sig Unit) (W : Waits sig Unit) :
    iprop(cellInv ER (sched m) κ₁ (sendCell c (13 : Fin 15)) ∗ cellInv ER (sched m) κ₂ (recvCell (off c 14) (1 : Fin 15))
        ∗ accPts c (shr 13) (accV m c) ∗ slotPts (off c 14) (1 : Fin 15) fn
        ∗ owes (c : Thread nD τ) (O + tallyAt (recvCell (off c 14) (1 : Fin 15)) () N) W
        ∗ dutyTok ER (sendCell c (13 : Fin 15)) 0 (0 : Fin 15) ∗ reached ER (sendCell c (13 : Fin 15)) 0
        ∗ dutyTok ER (recvCell (off c 14) (1 : Fin 15)) 0 (0 : Fin 15) ∗ reached ER (recvCell (off c 14) (1 : Fin 15)) 0)
      ⊢ iprop(((cred (tallyAt (sendCell c (13 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (1 : Fin 15)) (.dma (sendS (13 : Fin 15))) hsc) (.dma (recvS (1 : Fin 15))) hsrc hdst hsem) k) Q) :=
  Steps.wp_copy (F := F) m c n (13 : Fin 15) hn κ₁ κ₂ fn O W

theorem wp_copy_lit14 (c n : Dev nD) (hn : n = off c 15)
    {hsc : (slotM (0 : Fin 15) : Memref sig (Dev.tc n : Thread nD τ).2.kind .vmem S1x256 .f32).view.ref.isScScratch = false}
    {hsrc : (aM : Memref sig .tc .vmem S1x256 .f32).view.WordExact} {hdst : (slotM (0 : Fin 15) : Memref sig .tc .vmem S1x256 .f32).view.WordExact}
    {hsem : DmaTarget.Typed .vmem (.dma (recvS (0 : Fin 15))) (.remote (Dev.tc n : Thread nD τ) (slotM (0 : Fin 15) : Memref sig .tc .vmem S1x256 .f32) (.dma (sendS (14 : Fin 15))) hsc)}
    {α : Type} {Q : α → sProp 𝕄} {k : PUnit → Prog (TpuEff nD τ sig (Elt F) Λ₀ .tc) α} (κ₁ κ₂ : ℕ)
    (fn : Buf (Elt F) ((slotM (0 : Fin 15) : Memref sig .tc .vmem S1x256 .f32).view.loc (off c 15 : Thread nD τ)))
    (O : CellTallies nD τ sig Unit) (W : Waits sig Unit) :
    iprop(cellInv ER (sched m) κ₁ (sendCell c (14 : Fin 15)) ∗ cellInv ER (sched m) κ₂ (recvCell (off c 15) (0 : Fin 15))
        ∗ accPts c (shr 14) (accV m c) ∗ slotPts (off c 15) (0 : Fin 15) fn
        ∗ owes (c : Thread nD τ) (O + tallyAt (recvCell (off c 15) (0 : Fin 15)) () N) W
        ∗ dutyTok ER (sendCell c (14 : Fin 15)) 0 (0 : Fin 15) ∗ reached ER (sendCell c (14 : Fin 15)) 0
        ∗ dutyTok ER (recvCell (off c 15) (0 : Fin 15)) 0 (0 : Fin 15) ∗ reached ER (recvCell (off c 15) (0 : Fin 15)) 0)
      ⊢ iprop(((cred (tallyAt (sendCell c (14 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (0 : Fin 15)) (.dma (sendS (14 : Fin 15))) hsc) (.dma (recvS (0 : Fin 15))) hsrc hdst hsem) k) Q) :=
  Steps.wp_copy (F := F) m c n (14 : Fin 15) hn κ₁ κ₂ fn O W

theorem comm_join_raw (c : Dev nD) (f : Buf (Elt F) ((c : Thread nD τ).loc cc0_scratch1)) :
    (iprop(((slotM (0 : Fin 15) : Memref sig .tc .vmem S1x256 .f32).view.loc (c : Thread nD τ) ↦[(slotM (0 : Fin 15) : Memref sig .tc .vmem S1x256 .f32).view.set]{fullShare} f) ∗ ((slotM (1 : Fin 15) : Memref sig .tc .vmem S1x256 .f32).view.loc (c : Thread nD τ) ↦[(slotM (1 : Fin 15) : Memref sig .tc .vmem S1x256 .f32).view.set]{fullShare} f) ∗ ((slotM (2 : Fin 15) : Memref sig .tc .vmem S1x256 .f32).view.loc (c : Thread nD τ) ↦[(slotM (2 : Fin 15) : Memref sig .tc .vmem S1x256 .f32).view.set]{fullShare} f) ∗ ((slotM (3 : Fin 15) : Memref sig .tc .vmem S1x256 .f32).view.loc (c : Thread nD τ) ↦[(slotM (3 : Fin 15) : Memref sig .tc .vmem S1x256 .f32).view.set]{fullShare} f) ∗ ((slotM (4 : Fin 15) : Memref sig .tc .vmem S1x256 .f32).view.loc (c : Thread nD τ) ↦[(slotM (4 : Fin 15) : Memref sig .tc .vmem S1x256 .f32).view.set]{fullShare} f) ∗ ((slotM (5 : Fin 15) : Memref sig .tc .vmem S1x256 .f32).view.loc (c : Thread nD τ) ↦[(slotM (5 : Fin 15) : Memref sig .tc .vmem S1x256 .f32).view.set]{fullShare} f) ∗ ((slotM (6 : Fin 15) : Memref sig .tc .vmem S1x256 .f32).view.loc (c : Thread nD τ) ↦[(slotM (6 : Fin 15) : Memref sig .tc .vmem S1x256 .f32).view.set]{fullShare} f) ∗ ((slotM (7 : Fin 15) : Memref sig .tc .vmem S1x256 .f32).view.loc (c : Thread nD τ) ↦[(slotM (7 : Fin 15) : Memref sig .tc .vmem S1x256 .f32).view.set]{fullShare} f) ∗ ((slotM (8 : Fin 15) : Memref sig .tc .vmem S1x256 .f32).view.loc (c : Thread nD τ) ↦[(slotM (8 : Fin 15) : Memref sig .tc .vmem S1x256 .f32).view.set]{fullShare} f) ∗ ((slotM (9 : Fin 15) : Memref sig .tc .vmem S1x256 .f32).view.loc (c : Thread nD τ) ↦[(slotM (9 : Fin 15) : Memref sig .tc .vmem S1x256 .f32).view.set]{fullShare} f) ∗ ((slotM (10 : Fin 15) : Memref sig .tc .vmem S1x256 .f32).view.loc (c : Thread nD τ) ↦[(slotM (10 : Fin 15) : Memref sig .tc .vmem S1x256 .f32).view.set]{fullShare} f) ∗ ((slotM (11 : Fin 15) : Memref sig .tc .vmem S1x256 .f32).view.loc (c : Thread nD τ) ↦[(slotM (11 : Fin 15) : Memref sig .tc .vmem S1x256 .f32).view.set]{fullShare} f) ∗ ((slotM (12 : Fin 15) : Memref sig .tc .vmem S1x256 .f32).view.loc (c : Thread nD τ) ↦[(slotM (12 : Fin 15) : Memref sig .tc .vmem S1x256 .f32).view.set]{fullShare} f) ∗ ((slotM (13 : Fin 15) : Memref sig .tc .vmem S1x256 .f32).view.loc (c : Thread nD τ) ↦[(slotM (13 : Fin 15) : Memref sig .tc .vmem S1x256 .f32).view.set]{fullShare} f) ∗ ((slotM (14 : Fin 15) : Memref sig .tc .vmem S1x256 .f32).view.loc (c : Thread nD τ) ↦[(slotM (14 : Fin 15) : Memref sig .tc .vmem S1x256 .f32).view.set]{fullShare} f)) : sProp 𝕄)
      ⊢ ((cM : Memref sig .tc .vmem S15x1x256 .f32).view.loc (c : Thread nD τ) ↦[(cM : Memref sig .tc .vmem S15x1x256 .f32).view.set]{fullShare} f) :=
  comm_join (F := F) c f

/-- A device's own send or receive semaphore, its one round consumed, closes: its counter at zero is the device's again. -/
theorem close_cell (g : GSem nD τ sig) (κ : ℕ) :
    iprop(cellInv ER (sched (F := F) m) κ g ∗ atPos ER g 1 ∅ 0) ⊢ (iprop(|={Set.univ}=> semVal g 0) : sProp 𝕄) :=
  Rounds.cell_close ER (sched m) (Set.mem_univ κ) (fun h => h) (R := 1) (duties_later m g)

theorem hz3 : (![0, 0, 0] : Fin 3 → Nat) = fun _ => 0 := funext fun a => by fin_cases a <;> rfl

/-- The stored result: the maximum of the device's partial result and of the fifteen received rows. -/
theorem out_stored (c : Dev nD) (g1 : Buf (Elt F) ((c : Thread nD τ).loc cc0_stg1_0))
    (i1 : ∀ a, (![0, 0] : Fin 2 → Nat) a + S1x256.size a ≤ S1x256.size a)
    (i3 : ∀ a, (![0, 0, 0] : Fin 3 → Nat) a + S15x1x256.size a ≤ S15x1x256.size a) :
    (oM : Memref sig .tc .vmem S1x256 .f32).view.writes (Elt F) g1
      [⟨Rect.unit (s := S1x256) ![0, 0] S1x256.size i1,
        k0_pay2 (View.readAt (Elt F) (aM : Memref sig .tc .vmem S1x256 .f32).view (Rect.unit (s := S1x256) ![0, 0] S1x256.size i1).toLoadRect (accV m c))
          (View.readAt (Elt F) (cM : Memref sig .tc .vmem S15x1x256 .f32).view (Rect.unit (s := S15x1x256) ![0, 0, 0] S15x1x256.size i3).toLoadRect (commV m c))⟩]
      = outV m c := by
  have e1 : View.readAt (Elt F) (aM : Memref sig .tc .vmem S1x256 .f32).view (Rect.unit (s := S1x256) ![0, 0] S1x256.size i1).toLoadRect (accV m c) = accV m c :=
    Memref.readAt_unit_zero (Elt F) cc0_scratch0 hz2 i1 (accV m c)
  have e2 : View.readAt (Elt F) (cM : Memref sig .tc .vmem S15x1x256 .f32).view (Rect.unit (s := S15x1x256) ![0, 0, 0] S15x1x256.size i3).toLoadRect (commV m c) = commV m c :=
    Memref.readAt_unit_zero (Elt F) cc0_scratch1 hz3 i3 (commV m c)
  rw [View.writes_singleton, e1, e2]
  exact Memref.write_access_unit_zero_univ (Elt F) cc0_stg1_0 hz2 i1 g1 _

/-- The fifteen lent shares and what was kept are the partial-result buffer whole again. -/
theorem acc_join_raw (c : Dev nD) (f : Buf (Elt F) ((c : Thread nD τ).loc cc0_scratch0)) :
    (iprop(((aM : Memref sig .tc .vmem S1x256 .f32).view.loc (c : Thread nD τ) ↦[(aM : Memref sig .tc .vmem S1x256 .f32).view.set]{shr 0} f) ∗ ((aM : Memref sig .tc .vmem S1x256 .f32).view.loc (c : Thread nD τ) ↦[(aM : Memref sig .tc .vmem S1x256 .f32).view.set]{shr 1} f) ∗ ((aM : Memref sig .tc .vmem S1x256 .f32).view.loc (c : Thread nD τ) ↦[(aM : Memref sig .tc .vmem S1x256 .f32).view.set]{shr 2} f) ∗ ((aM : Memref sig .tc .vmem S1x256 .f32).view.loc (c : Thread nD τ) ↦[(aM : Memref sig .tc .vmem S1x256 .f32).view.set]{shr 3} f) ∗ ((aM : Memref sig .tc .vmem S1x256 .f32).view.loc (c : Thread nD τ) ↦[(aM : Memref sig .tc .vmem S1x256 .f32).view.set]{shr 4} f) ∗ ((aM : Memref sig .tc .vmem S1x256 .f32).view.loc (c : Thread nD τ) ↦[(aM : Memref sig .tc .vmem S1x256 .f32).view.set]{shr 5} f) ∗ ((aM : Memref sig .tc .vmem S1x256 .f32).view.loc (c : Thread nD τ) ↦[(aM : Memref sig .tc .vmem S1x256 .f32).view.set]{shr 6} f) ∗ ((aM : Memref sig .tc .vmem S1x256 .f32).view.loc (c : Thread nD τ) ↦[(aM : Memref sig .tc .vmem S1x256 .f32).view.set]{shr 7} f) ∗ ((aM : Memref sig .tc .vmem S1x256 .f32).view.loc (c : Thread nD τ) ↦[(aM : Memref sig .tc .vmem S1x256 .f32).view.set]{shr 8} f) ∗ ((aM : Memref sig .tc .vmem S1x256 .f32).view.loc (c : Thread nD τ) ↦[(aM : Memref sig .tc .vmem S1x256 .f32).view.set]{shr 9} f) ∗ ((aM : Memref sig .tc .vmem S1x256 .f32).view.loc (c : Thread nD τ) ↦[(aM : Memref sig .tc .vmem S1x256 .f32).view.set]{shr 10} f) ∗ ((aM : Memref sig .tc .vmem S1x256 .f32).view.loc (c : Thread nD τ) ↦[(aM : Memref sig .tc .vmem S1x256 .f32).view.set]{shr 11} f) ∗ ((aM : Memref sig .tc .vmem S1x256 .f32).view.loc (c : Thread nD τ) ↦[(aM : Memref sig .tc .vmem S1x256 .f32).view.set]{shr 12} f) ∗ ((aM : Memref sig .tc .vmem S1x256 .f32).view.loc (c : Thread nD τ) ↦[(aM : Memref sig .tc .vmem S1x256 .f32).view.set]{shr 13} f) ∗ ((aM : Memref sig .tc .vmem S1x256 .f32).view.loc (c : Thread nD τ) ↦[(aM : Memref sig .tc .vmem S1x256 .f32).view.set]{shr 14} f) ∗ ((aM : Memref sig .tc .vmem S1x256 .f32).view.loc (c : Thread nD τ) ↦[(aM : Memref sig .tc .vmem S1x256 .f32).view.set]{rem (14 + 1)} f)) : sProp 𝕄)
      ⊢ (((c : Thread nD τ).loc cc0_scratch0) ↦{fullShare} f) := by
  rw [view_eq (F := F) c cc0_scratch0 f]; exact (Steps.acc_shares (F := F) c f).2

def bodyPre (c : Dev nD) : sProp 𝕄 :=
  iprop(Φ₀ m c
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xblk m c) ∗ stg c cc0_stg1_0 (outV m c))

attribute [local sl_canon] sig1_eq cpy1_eq sig2_eq cpy2_eq sig3_eq cpy3_eq sig4_eq cpy4_eq sig5_eq cpy5_eq sig6_eq cpy6_eq sig7_eq cpy7_eq sig8_eq cpy8_eq sig9_eq cpy9_eq sig10_eq cpy10_eq sig11_eq cpy11_eq sig12_eq cpy12_eq sig13_eq cpy13_eq sig14_eq cpy14_eq sig15_eq cpy15_eq
attribute [local sl_rounds] duties_bar duties_send duties_recv amount_bar amount_send amount_recv expect_bar expect_send expect_recv payload_send_lit0 payload_recv_lit0 payload_send_lit1 payload_recv_lit1 payload_send_lit2 payload_recv_lit2 payload_send_lit3 payload_recv_lit3 payload_send_lit4 payload_recv_lit4 payload_send_lit5 payload_recv_lit5 payload_send_lit6 payload_recv_lit6 payload_send_lit7 payload_recv_lit7 payload_send_lit8 payload_recv_lit8 payload_send_lit9 payload_recv_lit9 payload_send_lit10 payload_recv_lit10 payload_send_lit11 payload_recv_lit11 payload_send_lit12 payload_recv_lit12 payload_send_lit13 payload_recv_lit13 payload_send_lit14 payload_recv_lit14 payload_bar_lit0 payload_bar_lit1 payload_bar_lit2 payload_bar_lit3 payload_bar_lit4 payload_bar_lit5 payload_bar_lit6 payload_bar_lit7 payload_bar_lit8 payload_bar_lit9 payload_bar_lit10 payload_bar_lit11 payload_bar_lit12 payload_bar_lit13 payload_bar_lit14

set_option maxHeartbeats 4000000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre Φ₀ start ghost Sched.invs reacheds positions payToks scratch Sched.inv
  simp only [bigSep_fin15, val0, val1, val2, val3, val4, val5, val6, val7, val8, val9, val10, val11, val12, val13, val14, ps0, ps1, ps2, ps3, ps4, ps5, ps6, ps7, ps8, ps9, ps10, ps11, ps12, ps13, ps14, Nat.reduceAdd]
  iintro ⟨⟨⟨⟨⟨⟨⟨%κb, #HIb⟩, ⟨⟨%κs0, #HIs0⟩, ⟨%κs1, #HIs1⟩, ⟨%κs2, #HIs2⟩, ⟨%κs3, #HIs3⟩, ⟨%κs4, #HIs4⟩, ⟨%κs5, #HIs5⟩, ⟨%κs6, #HIs6⟩, ⟨%κs7, #HIs7⟩, ⟨%κs8, #HIs8⟩, ⟨%κs9, #HIs9⟩, ⟨%κs10, #HIs10⟩, ⟨%κs11, #HIs11⟩, ⟨%κs12, #HIs12⟩, ⟨%κs13, #HIs13⟩, ⟨%κs14, #HIs14⟩⟩, ⟨⟨%κr0, #HIr0⟩, ⟨%κr1, #HIr1⟩, ⟨%κr2, #HIr2⟩, ⟨%κr3, #HIr3⟩, ⟨%κr4, #HIr4⟩, ⟨%κr5, #HIr5⟩, ⟨%κr6, #HIr6⟩, ⟨%κr7, #HIr7⟩, ⟨%κr8, #HIr8⟩, ⟨%κr9, #HIr9⟩, ⟨%κr10, #HIr10⟩, ⟨%κr11, #HIr11⟩, ⟨%κr12, #HIr12⟩, ⟨%κr13, #HIr13⟩, ⟨%κr14, #HIr14⟩⟩, ⟨⟨%κpb0, #HIpb0⟩, ⟨%κpb1, #HIpb1⟩, ⟨%κpb2, #HIpb2⟩, ⟨%κpb3, #HIpb3⟩, ⟨%κpb4, #HIpb4⟩, ⟨%κpb5, #HIpb5⟩, ⟨%κpb6, #HIpb6⟩, ⟨%κpb7, #HIpb7⟩, ⟨%κpb8, #HIpb8⟩, ⟨%κpb9, #HIpb9⟩, ⟨%κpb10, #HIpb10⟩, ⟨%κpb11, #HIpb11⟩, ⟨%κpb12, #HIpb12⟩, ⟨%κpb13, #HIpb13⟩, ⟨%κpb14, #HIpb14⟩⟩, ⟨⟨%κpr0, #HIpr0⟩, ⟨%κpr1, #HIpr1⟩, ⟨%κpr2, #HIpr2⟩, ⟨%κpr3, #HIpr3⟩, ⟨%κpr4, #HIpr4⟩, ⟨%κpr5, #HIpr5⟩, ⟨%κpr6, #HIpr6⟩, ⟨%κpr7, #HIpr7⟩, ⟨%κpr8, #HIpr8⟩, ⟨%κpr9, #HIpr9⟩, ⟨%κpr10, #HIpr10⟩, ⟨%κpr11, #HIpr11⟩, ⟨%κpr12, #HIpr12⟩, ⟨%κpr13, #HIpr13⟩, ⟨%κpr14, #HIpr14⟩⟩⟩,
      ⟨⟨#Hrb0, #Hrb1, #Hrb2, #Hrb3, #Hrb4, #Hrb5, #Hrb6, #Hrb7, #Hrb8, #Hrb9, #Hrb10, #Hrb11, #Hrb12, #Hrb13, #Hrb14⟩, ⟨#Hrr0, #Hrr1, #Hrr2, #Hrr3, #Hrr4, #Hrr5, #Hrr6, #Hrr7, #Hrr8, #Hrr9, #Hrr10, #Hrr11, #Hrr12, #Hrr13, #Hrr14⟩, ⟨#Hrs0, #Hrs1, #Hrs2, #Hrs3, #Hrs4, #Hrs5, #Hrs6, #Hrs7, #Hrs8, #Hrs9, #Hrs10, #Hrs11, #Hrs12, #Hrs13, #Hrs14⟩⟩,
      ⟨Hab, ⟨Has0, Has1, Has2, Has3, Has4, Has5, Has6, Has7, Has8, Has9, Has10, Has11, Has12, Has13, Has14⟩, ⟨Har0, Har1, Har2, Har3, Har4, Har5, Har6, Har7, Har8, Har9, Har10, Har11, Har12, Har13, Har14⟩⟩,
      ⟨⟨Htb0, Htb1, Htb2, Htb3, Htb4, Htb5, Htb6, Htb7, Htb8, Htb9, Htb10, Htb11, Htb12, Htb13, Htb14⟩, ⟨Htr0, Htr1, Htr2, Htr3, Htr4, Htr5, Htr6, Htr7, Htr8, Htr9, Htr10, Htr11, Htr12, Htr13, Htr14⟩, ⟨Hts0, Hts1, Hts2, Hts3, Hts4, Hts5, Hts6, Hts7, Hts8, Hts9, Hts10, Hts11, Hts12, Hts13, Hts14⟩⟩⟩,
      Hcb, ⟨Hcr0, Hcr1, Hcr2, Hcr3, Hcr4, Hcr5, Hcr6, Hcr7, Hcr8, Hcr9, Hcr10, Hcr11, Hcr12, Hcr13, Hcr14⟩, #Hlev⟩, ⟨⟨%fa0, Hacc⟩, ⟨%fc0, Hcomm⟩⟩⟩,
    Ho, ⟨%d0, %g0, %hg0, Hx⟩, ⟨%d1, %g1, %hg1, Hout⟩⟩, Hk⟩
  unfold Dat.owesAt Pipeline.owesWithin
  icases Ho with ⟨%W, %hW, HO⟩
  rw [show (dats m ρ 0 c).owed t0_0.castSucc = O₀ c from rfl]
  simp only [O₀, Osg, Ocp, f15_0, f15_1, f15_2, f15_3, f15_4, f15_5, f15_6, f15_7, f15_8, f15_9, f15_10, f15_11, f15_12, f15_13, f15_14, Nat.reduceSub, zero_add]
  ihave Hsl := (comm_split (F := F) c fc0) $$ Hcomm
  icases Hsl with ⟨Hsl0, Hsl1, Hsl2, Hsl3, Hsl4, Hsl5, Hsl6, Hsl7, Hsl8, Hsl9, Hsl10, Hsl11, Hsl12, Hsl13, Hsl14⟩
  have hx : g0 = xblk m c := by rw [hg0]; unfold Dat.before; rw [if_pos (fetch0_0 t0_0)]; rfl
  subst hx
  ihave Hx := (Entails.of_eq (view_eq (F := F) c cc0_stg0_0 _)) $$ Hx
  ihave Hacc := (Entails.of_eq (view_eq (F := F) c cc0_scratch0 _)) $$ Hacc
  ihave Hout := (Entails.of_eq (view_eq (F := F) c cc0_stg1_0 _)) $$ Hout
  have hmw : (levAts L lv : sProp 𝕄) ⊢ MayWait (c : Thread nD τ) (.reg barS) () (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N + tallyAt (recvCell (off c 4) (11 : Fin 15)) () N + tallyAt (recvCell (off c 3) (12 : Fin 15)) () N + tallyAt (recvCell (off c 2) (13 : Fin 15)) () N + tallyAt (recvCell (off c 1) (14 : Fin 15)) () N) := by
    have h := Cred.mayWait_bar (F := F) c
    simpa only [Ocp, f15_0, f15_1, f15_2, f15_3, f15_4, f15_5, f15_6, f15_7, f15_8, f15_9, f15_10, f15_11, f15_12, f15_13, f15_14, Nat.reduceSub, zero_add] using h
  sl_exec
  -- the partial result as stored, lent in fifteen shares (a sixteenth kept for the device's own read)
  rw [acc_stored]
  ihave Hrem := (show ((((aM : Memref sig .tc .vmem S1x256 .f32).view.loc (c : Thread nD τ) ↦[(aM : Memref sig .tc .vmem S1x256 .f32).view.set]{fullShare} accV m c) : sProp 𝕄)) ⊢ accPts c (rem 0) (accV m c) from BI.Entails.refl _) $$ Hacc
  ihave Hq := (accPts_split (F := F) c 0 (accV m c)).1 $$ Hrem
  icases Hq with ⟨Hsh0, Hrem⟩
  ihave Hq := (accPts_split (F := F) c 1 (accV m c)).1 $$ Hrem
  icases Hq with ⟨Hsh1, Hrem⟩
  ihave Hq := (accPts_split (F := F) c 2 (accV m c)).1 $$ Hrem
  icases Hq with ⟨Hsh2, Hrem⟩
  ihave Hq := (accPts_split (F := F) c 3 (accV m c)).1 $$ Hrem
  icases Hq with ⟨Hsh3, Hrem⟩
  ihave Hq := (accPts_split (F := F) c 4 (accV m c)).1 $$ Hrem
  icases Hq with ⟨Hsh4, Hrem⟩
  ihave Hq := (accPts_split (F := F) c 5 (accV m c)).1 $$ Hrem
  icases Hq with ⟨Hsh5, Hrem⟩
  ihave Hq := (accPts_split (F := F) c 6 (accV m c)).1 $$ Hrem
  icases Hq with ⟨Hsh6, Hrem⟩
  ihave Hq := (accPts_split (F := F) c 7 (accV m c)).1 $$ Hrem
  icases Hq with ⟨Hsh7, Hrem⟩
  ihave Hq := (accPts_split (F := F) c 8 (accV m c)).1 $$ Hrem
  icases Hq with ⟨Hsh8, Hrem⟩
  ihave Hq := (accPts_split (F := F) c 9 (accV m c)).1 $$ Hrem
  icases Hq with ⟨Hsh9, Hrem⟩
  ihave Hq := (accPts_split (F := F) c 10 (accV m c)).1 $$ Hrem
  icases Hq with ⟨Hsh10, Hrem⟩
  ihave Hq := (accPts_split (F := F) c 11 (accV m c)).1 $$ Hrem
  icases Hq with ⟨Hsh11, Hrem⟩
  ihave Hq := (accPts_split (F := F) c 12 (accV m c)).1 $$ Hrem
  icases Hq with ⟨Hsh12, Hrem⟩
  ihave Hq := (accPts_split (F := F) c 13 (accV m c)).1 $$ Hrem
  icases Hq with ⟨Hsh13, Hrem⟩
  ihave Hq := (accPts_split (F := F) c 14 (accV m c)).1 $$ Hrem
  icases Hq with ⟨Hsh14, Hrem⟩
  -- the barrier round's payloads: the fifteen peers' slots this device's rows go into
  ihave Hp := (bar_payloads (F := F) m c) $$ Hab_pay1
  icases Hp with ⟨⟨%fp0, Hp0⟩, ⟨%fp1, Hp1⟩, ⟨%fp2, Hp2⟩, ⟨%fp3, Hp3⟩, ⟨%fp4, Hp4⟩, ⟨%fp5, Hp5⟩, ⟨%fp6, Hp6⟩, ⟨%fp7, Hp7⟩, ⟨%fp8, Hp8⟩, ⟨%fp9, Hp9⟩, ⟨%fp10, Hp10⟩, ⟨%fp11, Hp11⟩, ⟨%fp12, Hp12⟩, ⟨%fp13, Hp13⟩, ⟨%fp14, Hp14⟩⟩
  -- copy 1: the partial result to the device 1 places on, into its slot 14
  iapply (wp_copy_lit0 (F := F) m c _ (cpy1_eq c) κs0 κpr0 fp14 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N + tallyAt (recvCell (off c 4) (11 : Fin 15)) () N + tallyAt (recvCell (off c 3) (12 : Fin 15)) () N + tallyAt (recvCell (off c 2) (13 : Fin 15)) () N) _) $$ [Hsh0 Hp14 HO Hts0 Htr0]
  · isplitr; · iexact HIs0
    isplitr; · iexact HIpr0
    isplitl [Hsh0]; · iexact Hsh0
    isplitl [Hp14]; · iexact Hp14
    isplitl [HO]; · iexact HO
    isplitl [Hts0]; · iexact Hts0
    isplitr; · iexact Hrs0
    isplitl [Htr0]; · iexact Htr0
    iexact Hrr0
  iintro ⟨Hcs0, HO⟩
  sl_exec
  -- copy 2: the partial result to the device 2 places on, into its slot 13
  iapply (wp_copy_lit1 (F := F) m c _ (cpy2_eq c) κs1 κpr1 fp13 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N + tallyAt (recvCell (off c 4) (11 : Fin 15)) () N + tallyAt (recvCell (off c 3) (12 : Fin 15)) () N) _) $$ [Hsh1 Hp13 HO Hts1 Htr1]
  · isplitr; · iexact HIs1
    isplitr; · iexact HIpr1
    isplitl [Hsh1]; · iexact Hsh1
    isplitl [Hp13]; · iexact Hp13
    isplitl [HO]; · iexact HO
    isplitl [Hts1]; · iexact Hts1
    isplitr; · iexact Hrs1
    isplitl [Htr1]; · iexact Htr1
    iexact Hrr1
  iintro ⟨Hcs1, HO⟩
  sl_exec
  -- copy 3: the partial result to the device 3 places on, into its slot 12
  iapply (wp_copy_lit2 (F := F) m c _ (cpy3_eq c) κs2 κpr2 fp12 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N + tallyAt (recvCell (off c 4) (11 : Fin 15)) () N) _) $$ [Hsh2 Hp12 HO Hts2 Htr2]
  · isplitr; · iexact HIs2
    isplitr; · iexact HIpr2
    isplitl [Hsh2]; · iexact Hsh2
    isplitl [Hp12]; · iexact Hp12
    isplitl [HO]; · iexact HO
    isplitl [Hts2]; · iexact Hts2
    isplitr; · iexact Hrs2
    isplitl [Htr2]; · iexact Htr2
    iexact Hrr2
  iintro ⟨Hcs2, HO⟩
  sl_exec
  -- copy 4: the partial result to the device 4 places on, into its slot 11
  iapply (wp_copy_lit3 (F := F) m c _ (cpy4_eq c) κs3 κpr3 fp11 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N) _) $$ [Hsh3 Hp11 HO Hts3 Htr3]
  · isplitr; · iexact HIs3
    isplitr; · iexact HIpr3
    isplitl [Hsh3]; · iexact Hsh3
    isplitl [Hp11]; · iexact Hp11
    isplitl [HO]; · iexact HO
    isplitl [Hts3]; · iexact Hts3
    isplitr; · iexact Hrs3
    isplitl [Htr3]; · iexact Htr3
    iexact Hrr3
  iintro ⟨Hcs3, HO⟩
  sl_exec
  -- copy 5: the partial result to the device 5 places on, into its slot 10
  iapply (wp_copy_lit4 (F := F) m c _ (cpy5_eq c) κs4 κpr4 fp10 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N) _) $$ [Hsh4 Hp10 HO Hts4 Htr4]
  · isplitr; · iexact HIs4
    isplitr; · iexact HIpr4
    isplitl [Hsh4]; · iexact Hsh4
    isplitl [Hp10]; · iexact Hp10
    isplitl [HO]; · iexact HO
    isplitl [Hts4]; · iexact Hts4
    isplitr; · iexact Hrs4
    isplitl [Htr4]; · iexact Htr4
    iexact Hrr4
  iintro ⟨Hcs4, HO⟩
  sl_exec
  -- copy 6: the partial result to the device 6 places on, into its slot 9
  iapply (wp_copy_lit5 (F := F) m c _ (cpy6_eq c) κs5 κpr5 fp9 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N) _) $$ [Hsh5 Hp9 HO Hts5 Htr5]
  · isplitr; · iexact HIs5
    isplitr; · iexact HIpr5
    isplitl [Hsh5]; · iexact Hsh5
    isplitl [Hp9]; · iexact Hp9
    isplitl [HO]; · iexact HO
    isplitl [Hts5]; · iexact Hts5
    isplitr; · iexact Hrs5
    isplitl [Htr5]; · iexact Htr5
    iexact Hrr5
  iintro ⟨Hcs5, HO⟩
  sl_exec
  -- copy 7: the partial result to the device 7 places on, into its slot 8
  iapply (wp_copy_lit6 (F := F) m c _ (cpy7_eq c) κs6 κpr6 fp8 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N) _) $$ [Hsh6 Hp8 HO Hts6 Htr6]
  · isplitr; · iexact HIs6
    isplitr; · iexact HIpr6
    isplitl [Hsh6]; · iexact Hsh6
    isplitl [Hp8]; · iexact Hp8
    isplitl [HO]; · iexact HO
    isplitl [Hts6]; · iexact Hts6
    isplitr; · iexact Hrs6
    isplitl [Htr6]; · iexact Htr6
    iexact Hrr6
  iintro ⟨Hcs6, HO⟩
  sl_exec
  -- copy 8: the partial result to the device 8 places on, into its slot 7
  iapply (wp_copy_lit7 (F := F) m c _ (cpy8_eq c) κs7 κpr7 fp7 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N) _) $$ [Hsh7 Hp7 HO Hts7 Htr7]
  · isplitr; · iexact HIs7
    isplitr; · iexact HIpr7
    isplitl [Hsh7]; · iexact Hsh7
    isplitl [Hp7]; · iexact Hp7
    isplitl [HO]; · iexact HO
    isplitl [Hts7]; · iexact Hts7
    isplitr; · iexact Hrs7
    isplitl [Htr7]; · iexact Htr7
    iexact Hrr7
  iintro ⟨Hcs7, HO⟩
  sl_exec
  -- copy 9: the partial result to the device 9 places on, into its slot 6
  iapply (wp_copy_lit8 (F := F) m c _ (cpy9_eq c) κs8 κpr8 fp6 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N) _) $$ [Hsh8 Hp6 HO Hts8 Htr8]
  · isplitr; · iexact HIs8
    isplitr; · iexact HIpr8
    isplitl [Hsh8]; · iexact Hsh8
    isplitl [Hp6]; · iexact Hp6
    isplitl [HO]; · iexact HO
    isplitl [Hts8]; · iexact Hts8
    isplitr; · iexact Hrs8
    isplitl [Htr8]; · iexact Htr8
    iexact Hrr8
  iintro ⟨Hcs8, HO⟩
  sl_exec
  -- copy 10: the partial result to the device 10 places on, into its slot 5
  iapply (wp_copy_lit9 (F := F) m c _ (cpy10_eq c) κs9 κpr9 fp5 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N) _) $$ [Hsh9 Hp5 HO Hts9 Htr9]
  · isplitr; · iexact HIs9
    isplitr; · iexact HIpr9
    isplitl [Hsh9]; · iexact Hsh9
    isplitl [Hp5]; · iexact Hp5
    isplitl [HO]; · iexact HO
    isplitl [Hts9]; · iexact Hts9
    isplitr; · iexact Hrs9
    isplitl [Htr9]; · iexact Htr9
    iexact Hrr9
  iintro ⟨Hcs9, HO⟩
  sl_exec
  -- copy 11: the partial result to the device 11 places on, into its slot 4
  iapply (wp_copy_lit10 (F := F) m c _ (cpy11_eq c) κs10 κpr10 fp4 (tallyAt (recvCell (off c 15) (0 : Fin 15)) () N + tallyAt (recvCell (off c 14) (1 : Fin 15)) () N + tallyAt (recvCell (off c 13) (2 : Fin 15)) () N + tallyAt (recvCell (off c 12) (3 : Fin 15)) () N) _) $$ [Hsh10 Hp4 HO Hts10 Htr10]
  · isplitr; · iexact HIs10
    isplitr; · iexact HIpr10
    isplitl [Hsh10]; · iexact Hsh10
    isplitl [Hp4]; · iexact Hp4
    isplitl [HO]; · iexact HO
    isplitl [Hts10]; · iexact Hts10
    isplitr; · iexact Hrs10
    isplitl [Htr10]; · iexact Htr10
    iexact Hrr10
  iintro ⟨Hcs10, HO⟩
  sl_exec
  -- copy 12: the partial result to the device 12 places on, into its slot 3
  iapply (wp_copy_lit11 (F := F) m c _ (cpy12_eq c) κs11 κpr11 fp3 (tallyAt (recvCell (off c 15) (0 : Fin 15)) () N + tallyAt (recvCell (off c 14) (1 : Fin 15)) () N + tallyAt (recvCell (off c 13) (2 : Fin 15)) () N) _) $$ [Hsh11 Hp3 HO Hts11 Htr11]
  · isplitr; · iexact HIs11
    isplitr; · iexact HIpr11
    isplitl [Hsh11]; · iexact Hsh11
    isplitl [Hp3]; · iexact Hp3
    isplitl [HO]; · iexact HO
    isplitl [Hts11]; · iexact Hts11
    isplitr; · iexact Hrs11
    isplitl [Htr11]; · iexact Htr11
    iexact Hrr11
  iintro ⟨Hcs11, HO⟩
  sl_exec
  -- copy 13: the partial result to the device 13 places on, into its slot 2
  iapply (wp_copy_lit12 (F := F) m c _ (cpy13_eq c) κs12 κpr12 fp2 (tallyAt (recvCell (off c 15) (0 : Fin 15)) () N + tallyAt (recvCell (off c 14) (1 : Fin 15)) () N) _) $$ [Hsh12 Hp2 HO Hts12 Htr12]
  · isplitr; · iexact HIs12
    isplitr; · iexact HIpr12
    isplitl [Hsh12]; · iexact Hsh12
    isplitl [Hp2]; · iexact Hp2
    isplitl [HO]; · iexact HO
    isplitl [Hts12]; · iexact Hts12
    isplitr; · iexact Hrs12
    isplitl [Htr12]; · iexact Htr12
    iexact Hrr12
  iintro ⟨Hcs12, HO⟩
  sl_exec
  -- copy 14: the partial result to the device 14 places on, into its slot 1
  iapply (wp_copy_lit13 (F := F) m c _ (cpy14_eq c) κs13 κpr13 fp1 (tallyAt (recvCell (off c 15) (0 : Fin 15)) () N) _) $$ [Hsh13 Hp1 HO Hts13 Htr13]
  · isplitr; · iexact HIs13
    isplitr; · iexact HIpr13
    isplitl [Hsh13]; · iexact Hsh13
    isplitl [Hp1]; · iexact Hp1
    isplitl [HO]; · iexact HO
    isplitl [Hts13]; · iexact Hts13
    isplitr; · iexact Hrs13
    isplitl [Htr13]; · iexact Htr13
    iexact Hrr13
  iintro ⟨Hcs13, HO⟩
  sl_exec
  -- copy 15: the partial result to the device 15 places on, into its slot 0
  iapply (wp_copy_lit14 (F := F) m c _ (cpy15_eq c) κs14 κpr14 fp0 (0) _) $$ [Hsh14 Hp0 HO Hts14 Htr14]
  · isplitr; · iexact HIs14
    isplitr; · iexact HIpr14
    isplitl [Hsh14]; · iexact Hsh14
    isplitl [Hp0]; · iexact Hp0
    isplitl [HO]; · rw [zero_add]; iexact HO
    isplitl [Hts14]; · iexact Hts14
    isplitr; · iexact Hrs14
    isplitl [Htr14]; · iexact Htr14
    iexact Hrr14
  iintro ⟨Hcs14, HO⟩
  unfold accPts
  sl_exec
  -- the fifteen rows have landed: the receive buffer whole again, holding every peer's partial result
  ihave Hcomm := (comm_join_raw (F := F) c (commV m c)) $$ [Har0_pay1 Har1_pay1 Har2_pay1 Har3_pay1 Har4_pay1 Har5_pay1 Har6_pay1 Har7_pay1 Har8_pay1 Har9_pay1 Har10_pay1 Har11_pay1 Har12_pay1 Har13_pay1 Har14_pay1]
  · isplitl [Har0_pay1]; · iexact Har0_pay1
    isplitl [Har1_pay1]; · iexact Har1_pay1
    isplitl [Har2_pay1]; · iexact Har2_pay1
    isplitl [Har3_pay1]; · iexact Har3_pay1
    isplitl [Har4_pay1]; · iexact Har4_pay1
    isplitl [Har5_pay1]; · iexact Har5_pay1
    isplitl [Har6_pay1]; · iexact Har6_pay1
    isplitl [Har7_pay1]; · iexact Har7_pay1
    isplitl [Har8_pay1]; · iexact Har8_pay1
    isplitl [Har9_pay1]; · iexact Har9_pay1
    isplitl [Har10_pay1]; · iexact Har10_pay1
    isplitl [Har11_pay1]; · iexact Har11_pay1
    isplitl [Har12_pay1]; · iexact Har12_pay1
    isplitl [Har13_pay1]; · iexact Har13_pay1
    iexact Har14_pay1
  sl_exec
  -- the thirty own semaphores, their one round consumed, close: their counters at zero are the device's again
  imod (close_cell (F := F) m (sendCell c (0 : Fin 15)) κs0) $$ [Has0] with Hzs0
  · isplitr; · iexact HIs0
    iexact Has0
  imod (close_cell (F := F) m (sendCell c (1 : Fin 15)) κs1) $$ [Has1] with Hzs1
  · isplitr; · iexact HIs1
    iexact Has1
  imod (close_cell (F := F) m (sendCell c (2 : Fin 15)) κs2) $$ [Has2] with Hzs2
  · isplitr; · iexact HIs2
    iexact Has2
  imod (close_cell (F := F) m (sendCell c (3 : Fin 15)) κs3) $$ [Has3] with Hzs3
  · isplitr; · iexact HIs3
    iexact Has3
  imod (close_cell (F := F) m (sendCell c (4 : Fin 15)) κs4) $$ [Has4] with Hzs4
  · isplitr; · iexact HIs4
    iexact Has4
  imod (close_cell (F := F) m (sendCell c (5 : Fin 15)) κs5) $$ [Has5] with Hzs5
  · isplitr; · iexact HIs5
    iexact Has5
  imod (close_cell (F := F) m (sendCell c (6 : Fin 15)) κs6) $$ [Has6] with Hzs6
  · isplitr; · iexact HIs6
    iexact Has6
  imod (close_cell (F := F) m (sendCell c (7 : Fin 15)) κs7) $$ [Has7] with Hzs7
  · isplitr; · iexact HIs7
    iexact Has7
  imod (close_cell (F := F) m (sendCell c (8 : Fin 15)) κs8) $$ [Has8] with Hzs8
  · isplitr; · iexact HIs8
    iexact Has8
  imod (close_cell (F := F) m (sendCell c (9 : Fin 15)) κs9) $$ [Has9] with Hzs9
  · isplitr; · iexact HIs9
    iexact Has9
  imod (close_cell (F := F) m (sendCell c (10 : Fin 15)) κs10) $$ [Has10] with Hzs10
  · isplitr; · iexact HIs10
    iexact Has10
  imod (close_cell (F := F) m (sendCell c (11 : Fin 15)) κs11) $$ [Has11] with Hzs11
  · isplitr; · iexact HIs11
    iexact Has11
  imod (close_cell (F := F) m (sendCell c (12 : Fin 15)) κs12) $$ [Has12] with Hzs12
  · isplitr; · iexact HIs12
    iexact Has12
  imod (close_cell (F := F) m (sendCell c (13 : Fin 15)) κs13) $$ [Has13] with Hzs13
  · isplitr; · iexact HIs13
    iexact Has13
  imod (close_cell (F := F) m (sendCell c (14 : Fin 15)) κs14) $$ [Has14] with Hzs14
  · isplitr; · iexact HIs14
    iexact Has14
  imod (close_cell (F := F) m (recvCell c (0 : Fin 15)) κr0) $$ [Har0] with Hzr0
  · isplitr; · iexact HIr0
    iexact Har0
  imod (close_cell (F := F) m (recvCell c (1 : Fin 15)) κr1) $$ [Har1] with Hzr1
  · isplitr; · iexact HIr1
    iexact Har1
  imod (close_cell (F := F) m (recvCell c (2 : Fin 15)) κr2) $$ [Har2] with Hzr2
  · isplitr; · iexact HIr2
    iexact Har2
  imod (close_cell (F := F) m (recvCell c (3 : Fin 15)) κr3) $$ [Har3] with Hzr3
  · isplitr; · iexact HIr3
    iexact Har3
  imod (close_cell (F := F) m (recvCell c (4 : Fin 15)) κr4) $$ [Har4] with Hzr4
  · isplitr; · iexact HIr4
    iexact Har4
  imod (close_cell (F := F) m (recvCell c (5 : Fin 15)) κr5) $$ [Har5] with Hzr5
  · isplitr; · iexact HIr5
    iexact Har5
  imod (close_cell (F := F) m (recvCell c (6 : Fin 15)) κr6) $$ [Har6] with Hzr6
  · isplitr; · iexact HIr6
    iexact Har6
  imod (close_cell (F := F) m (recvCell c (7 : Fin 15)) κr7) $$ [Har7] with Hzr7
  · isplitr; · iexact HIr7
    iexact Har7
  imod (close_cell (F := F) m (recvCell c (8 : Fin 15)) κr8) $$ [Har8] with Hzr8
  · isplitr; · iexact HIr8
    iexact Har8
  imod (close_cell (F := F) m (recvCell c (9 : Fin 15)) κr9) $$ [Har9] with Hzr9
  · isplitr; · iexact HIr9
    iexact Har9
  imod (close_cell (F := F) m (recvCell c (10 : Fin 15)) κr10) $$ [Har10] with Hzr10
  · isplitr; · iexact HIr10
    iexact Har10
  imod (close_cell (F := F) m (recvCell c (11 : Fin 15)) κr11) $$ [Har11] with Hzr11
  · isplitr; · iexact HIr11
    iexact Har11
  imod (close_cell (F := F) m (recvCell c (12 : Fin 15)) κr12) $$ [Har12] with Hzr12
  · isplitr; · iexact HIr12
    iexact Har12
  imod (close_cell (F := F) m (recvCell c (13 : Fin 15)) κr13) $$ [Har13] with Hzr13
  · isplitr; · iexact HIr13
    iexact Har13
  imod (close_cell (F := F) m (recvCell c (14 : Fin 15)) κr14) $$ [Har14] with Hzr14
  · isplitr; · iexact HIr14
    iexact Har14
  -- what the body leaves: the result stored, the scratch buffers whole again
  rw [out_stored]
  ihave Hx := (Entails.of_eq (view_eq (F := F) c cc0_stg0_0 (xblk m c)).symm) $$ Hx
  ihave Hout := (Entails.of_eq (view_eq (F := F) c cc0_stg1_0 (outV m c)).symm) $$ Hout
  ihave Hcomm := (Entails.of_eq (view_eq (F := F) c cc0_scratch1 (commV m c)).symm) $$ Hcomm
  ihave Hacc := (acc_join_raw (F := F) c (accV m c)) $$ [Has0_pay1 Has1_pay1 Has2_pay1 Has3_pay1 Has4_pay1 Has5_pay1 Has6_pay1 Has7_pay1 Has8_pay1 Has9_pay1 Has10_pay1 Has11_pay1 Has12_pay1 Has13_pay1 Has14_pay1 Hrem]
  · isplitl [Has0_pay1]; · iexact Has0_pay1
    isplitl [Has1_pay1]; · iexact Has1_pay1
    isplitl [Has2_pay1]; · iexact Has2_pay1
    isplitl [Has3_pay1]; · iexact Has3_pay1
    isplitl [Has4_pay1]; · iexact Has4_pay1
    isplitl [Has5_pay1]; · iexact Has5_pay1
    isplitl [Has6_pay1]; · iexact Has6_pay1
    isplitl [Has7_pay1]; · iexact Has7_pay1
    isplitl [Has8_pay1]; · iexact Has8_pay1
    isplitl [Has9_pay1]; · iexact Has9_pay1
    isplitl [Has10_pay1]; · iexact Has10_pay1
    isplitl [Has11_pay1]; · iexact Has11_pay1
    isplitl [Has12_pay1]; · iexact Has12_pay1
    isplitl [Has13_pay1]; · iexact Has13_pay1
    isplitl [Has14_pay1]; · iexact Has14_pay1
    iexact Hrem
  rw [wp_ret]; imodintro
  iapply Hk
  unfold bodyPost Φ₁ scratch Dat.owesAt Pipeline.owesWithin
  rw [show (dats m ρ 0 c).owed t0_0.succ = 0 from rfl, bigSep_fin15, bigSep_fin15]
  isplitl [Hacc Hcomm Hzs0 Hzs1 Hzs2 Hzs3 Hzs4 Hzs5 Hzs6 Hzs7 Hzs8 Hzs9 Hzs10 Hzs11 Hzs12 Hzs13 Hzs14 Hzr0 Hzr1 Hzr2 Hzr3 Hzr4 Hzr5 Hzr6 Hzr7 Hzr8 Hzr9 Hzr10 Hzr11 Hzr12 Hzr13 Hzr14]
  · isplitl [Hacc Hcomm]
    · isplitl [Hacc]
      · iexists (accV m c); iexact Hacc
      · iexists (commV m c); iexact Hcomm
    isplitl [Hzs0 Hzs1 Hzs2 Hzs3 Hzs4 Hzs5 Hzs6 Hzs7 Hzs8 Hzs9 Hzs10 Hzs11 Hzs12 Hzs13 Hzs14]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzs6]; · iexact Hzs6
      isplitl [Hzs7]; · iexact Hzs7
      isplitl [Hzs8]; · iexact Hzs8
      isplitl [Hzs9]; · iexact Hzs9
      isplitl [Hzs10]; · iexact Hzs10
      isplitl [Hzs11]; · iexact Hzs11
      isplitl [Hzs12]; · iexact Hzs12
      isplitl [Hzs13]; · iexact Hzs13
      iexact Hzs14
    · isplitl [Hzr0]; · iexact Hzr0
      isplitl [Hzr1]; · iexact Hzr1
      isplitl [Hzr2]; · iexact Hzr2
      isplitl [Hzr3]; · iexact Hzr3
      isplitl [Hzr4]; · iexact Hzr4
      isplitl [Hzr5]; · iexact Hzr5
      isplitl [Hzr6]; · iexact Hzr6
      isplitl [Hzr7]; · iexact Hzr7
      isplitl [Hzr8]; · iexact Hzr8
      isplitl [Hzr9]; · iexact Hzr9
      isplitl [Hzr10]; · iexact Hzr10
      isplitl [Hzr11]; · iexact Hzr11
      isplitl [Hzr12]; · iexact Hzr12
      isplitl [Hzr13]; · iexact Hzr13
      iexact Hzr14
  isplitl [HO]
  · iexists _
    isplitr
    on_goal 2 => iexact HO
    ipureintro; exact fun _ _ => Or.inl trivial
  isplitl [Hx]
  · iexists _; isplitr; · (ipureintro; rfl)
    iexact Hx
  iexists _; isplitr; · (ipureintro; rfl)
  iexact Hout

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  iintro H
  iapply (sound_body m ρ c fun _ => bodyPost m ρ c)
  isplitl [H]; · iexact H
  iintro H; iexact H

/-- info: 'Cert.KernelIdeal.Body.body_obligation' depends on axioms: [propext, Classical.choice, Quot.sound] -/
#guard_msgs in #print axioms body_obligation

end Cert.KernelIdeal.Body

end
-- ==== Proof.KernelIdealLaunch.lean ====
/-
  The launch of the sixteen kernels.

  The protocol's ghost state is allocated for all devices at once (the barrier semaphores are the runtime's,
  not the kernel's own, and each is signalled by fifteen other devices): every semaphore's round state, its
  owner's position, and one token per duty. The tokens are then dealt to the devices that pay them: duty `j`
  of a barrier semaphore to the device `j + 1` places before its owner, a receive semaphore's to the device
  that copies into its slot, a send semaphore's stays. With each device's body proved, the launch theorem
  gives the run of the whole mesh.
-/
import proofs.«900922_g7700000000000923_dist_max_ax0_shard0_i_m512_n256_v7x_i16_bf16_1_alg».proof.Proof.KernelIdealSched
import proofs.«900922_g7700000000000923_dist_max_ax0_shard0_i_m512_n256_v7x_i16_bf16_1_alg».proof.Proof.KernelIdealCred
import proofs.«900922_g7700000000000923_dist_max_ax0_shard0_i_m512_n256_v7x_i16_bf16_1_alg».proof.Proof.LibDeal
import proofs.«900922_g7700000000000923_dist_max_ax0_shard0_i_m512_n256_v7x_i16_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Ring Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The thirty semaphores the kernel itself allocates: the fifteen send ones, then the fifteen receive ones. -/
abbrev osem : Fin 15 ⊕ Fin 15 → SemLoc sig
  | .inl k => .dma (sendS k)
  | .inr s => .dma (recvS s)

/-- A device's 31 semaphores: the barrier one, then its own thirty. -/
abbrev CK : Type := Unit ⊕ (Fin 15 ⊕ Fin 15)
abbrev csem : CK → SemLoc sig
  | .inl _ => .reg barS
  | .inr k => osem k
abbrev kcell (ck : Dev nD × CK) : GSem nD τ sig := ((ck.1 : Thread nD τ), csem ck.2)

theorem ownSemFacts : Pipeline.OwnSemFacts cfg0.spec osem := by decide

theorem share_eq (c : Dev nD) (w : Fin cfg0.W) : (dats (F := F) m ρ 0 c).share w = fullShare := by unfold Dat.share; split <;> rfl

theorem csem_injective : Function.Injective csem := by
  rintro (u | k | s) (u' | k' | s') h
  · rfl
  · exact absurd h (fun h' => by cases h')
  · exact absurd h (fun h' => by cases h')
  · exact absurd h (fun h' => by cases h')
  · exact congrArg Sum.inr (ownSemFacts.inj h)
  · exact congrArg Sum.inr (ownSemFacts.inj h)
  · exact absurd h (fun h' => by cases h')
  · exact congrArg Sum.inr (ownSemFacts.inj h)
  · exact congrArg Sum.inr (ownSemFacts.inj h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All the semaphores of the protocol: every device's 31. -/
def ringCells : Finset (GSem nD τ sig) := Finset.univ.map ⟨kcell, kcell_injective⟩

/-- The duties of a device's own semaphores: the barrier semaphore's fifteen, and the one of each of its thirty. -/
abbrev TK : Type := Fin 15 ⊕ (Fin 15 ⊕ Fin 15)
abbrev tokOf (cj : Dev nD × TK) : GSem nD τ sig × ℕ × Fin 15 := match cj.2 with
  | .inl j => (barCell cj.1, 0, j)
  | .inr k => (kcell (cj.1, .inr k), 0, 0)

theorem tokOf_injective : Function.Injective (tokOf : Dev nD × TK → GSem nD τ sig × ℕ × Fin 15) := by
  rintro ⟨c, j⟩ ⟨c', j'⟩ h
  have h1 : c = c' := by
    have := congrArg (fun x : GSem nD τ sig × ℕ × Fin 15 => x.1.1.1) h
    rcases j with j | k <;> rcases j' with j' | k' <;> exact this
  subst h1
  have h2 := congrArg (fun x : GSem nD τ sig × ℕ × Fin 15 => x.1.2) h
  have h3 := congrArg (fun x : GSem nD τ sig × ℕ × Fin 15 => x.2.2) h
  rcases j with j | k <;> rcases j' with j' | k'
  · have e : j = j' := h3
    rw [e]
  · have e := csem_injective (show csem (.inl ()) = csem (.inr k') from h2)
    cases e
  · have e := csem_injective (show csem (.inr k) = csem (.inl ()) from h2)
    cases e
  · have e := csem_injective (show csem (.inr k) = csem (.inr k') from h2)
    rw [Sum.inr.inj e]

def ringToks : Finset (GSem nD τ sig × ℕ × Fin 15) := Finset.univ.map ⟨tokOf, tokOf_injective⟩

/-- The launch element: the pipeline's, and the protocol's cells and tokens. -/
def u₀ : UU :=
  (initOf (Pipeline.cells cfgs cellOf_inj) (Pipeline.launchToks cfgs cellOf_inj), initOf ringCells ringToks)

/-- The duty tokens of device c's own semaphores, as minted. -/
def toks (c : Dev nD) : sProp 𝕄 :=
  iprop((bigSep Finset.univ fun j : Fin 15 => dutyTok ER (barCell c) 0 j)
    ∗ (bigSep Finset.univ fun k : Fin 15 => dutyTok ER (sendCell c k) 0 (0 : Fin 15))
    ∗ (bigSep Finset.univ fun s : Fin 15 => dutyTok ER (recvCell c s) 0 (0 : Fin 15)))

/-- What the launch element deals device c. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- A conjunction over a device's 31 semaphores, by kind. -/
theorem bigSep_CK (Φ : CK → sProp 𝕄) : bigSep Finset.univ Φ
    = iprop(Φ (.inl ()) ∗ (bigSep Finset.univ fun k : Fin 15 => Φ (.inr (.inl k))) ∗ bigSep Finset.univ fun s : Fin 15 => Φ (.inr (.inr s))) := by
  rw [bigSep_univ_sum, bigSep_univ_sum, bigSep_univ_of_subsingleton ()]
  rfl

/-- A conjunction over a device's 45 duties, by kind. -/
theorem bigSep_TK (Φ : TK → sProp 𝕄) : bigSep Finset.univ Φ
    = iprop((bigSep Finset.univ fun j : Fin 15 => Φ (.inl j)) ∗ (bigSep Finset.univ fun k : Fin 15 => Φ (.inr (.inl k))) ∗ bigSep Finset.univ fun s : Fin 15 => Φ (.inr (.inr s))) := by
  rw [bigSep_univ_sum, bigSep_univ_sum]
  rfl

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero become the invariants -/

/-- The send and the receive semaphores are the kernel's own thirty; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 15 => semVal (sendCell c k) 0) ∗ bigSep Finset.univ fun s : Fin 15 => semVal (recvCell c s) 0) := by
  unfold Pipeline.ownSems0; rw [bigSep_univ_sum]; rfl

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => Sched.inv m (kcell (c, k)))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => Sched.inv m (kcell (c, k)) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the invariants, the reached-facts and the tokens -/

/-- Every semaphore's invariant, and that round 0 of every semaphore is reached. -/
def records : sProp 𝕄 :=
  iprop((bigSep Finset.univ fun ck : Dev nD × CK => Sched.inv m (kcell ck))
    ∗ bigSep Finset.univ fun ck : Dev nD × CK => reached ER (kcell ck) 0)

instance records_persistent : BI.Persistent (records (F := F) m) := by unfold records; infer_instance

theorem inv_pick (ck : Dev nD × CK) :
    (bigSep Finset.univ fun ck : Dev nD × CK => (Sched.inv m (kcell ck) : sProp 𝕄)) ⊢ Sched.inv m (kcell ck) :=
  bigSep_elim (Finset.mem_univ ck)
theorem reached_pick (ck : Dev nD × CK) :
    (bigSep Finset.univ fun ck : Dev nD × CK => (reached ER (kcell ck) 0 : sProp 𝕄)) ⊢ reached ER (kcell ck) 0 :=
  bigSep_elim (Finset.mem_univ ck)

theorem inv_at (ck : Dev nD × CK) : records m ⊢ Sched.inv m (kcell ck) := by
  unfold records
  iintro ⟨HI, -⟩
  iapply (inv_pick m ck); iexact HI

theorem reached_at (ck : Dev nD × CK) : records (F := F) m ⊢ reached ER (kcell ck) 0 := by
  unfold records
  iintro ⟨-, HR⟩
  iapply (reached_pick (F := F) ck); iexact HR

theorem inv_bar (c : Dev nD) : records m ⊢ Sched.inv m (barCell c) := inv_at m (c, .inl ())
theorem inv_send (c : Dev nD) (k : Fin 15) : records m ⊢ Sched.inv m (sendCell c k) := inv_at m (c, .inr (.inl k))
theorem inv_recv (c : Dev nD) (s : Fin 15) : records m ⊢ Sched.inv m (recvCell c s) := inv_at m (c, .inr (.inr s))
theorem reached_bar (c : Dev nD) : records (F := F) m ⊢ reached ER (barCell c) 0 := reached_at m (c, .inl ())
theorem reached_send (c : Dev nD) (k : Fin 15) : records (F := F) m ⊢ reached ER (sendCell c k) 0 := reached_at m (c, .inr (.inl k))
theorem reached_recv (c : Dev nD) (s : Fin 15) : records (F := F) m ⊢ reached ER (recvCell c s) 0 := reached_at m (c, .inr (.inr s))

/-- The invariants a device opens are among all the invariants. -/
theorem records_invs (c : Dev nD) : records m ⊢ Sched.invs m c := by
  unfold Sched.invs
  iintro #H
  isplitr; · iapply (inv_bar m c); iexact H
  isplitr; · iapply (bigSep_intro_persistent (R := records m) fun k _ => inv_send m c k); iexact H
  isplitr; · iapply (bigSep_intro_persistent (R := records m) fun s _ => inv_recv m c s); iexact H
  isplitr; · iapply (bigSep_intro_persistent (R := records m) fun j _ => inv_bar m (off c (j.val + 1))); iexact H
  iapply (bigSep_intro_persistent (R := records m) fun j _ => inv_recv m (off c (j.val + 1)) (peerSlot j)); iexact H

/-- So are the reached-facts of the semaphores it pays into. -/
theorem records_reacheds (c : Dev nD) : records (F := F) m ⊢ reacheds c := by
  unfold Sched.reacheds
  iintro #H
  isplitr; · iapply (bigSep_intro_persistent (R := records m) fun j _ => reached_bar m (off c (j.val + 1))); iexact H
  isplitr; · iapply (bigSep_intro_persistent (R := records m) fun j _ => reached_recv m (off c (j.val + 1)) (peerSlot j)); iexact H
  iapply (bigSep_intro_persistent (R := records m) fun k _ => reached_send m c k); iexact H

theorem ghost_intro (c : Dev nD) : iprop(records m ∗ positions c ∗ payToks c) ⊢ ghost m c := by
  unfold Sched.ghost
  iintro ⟨#HR, Hpos, Htok⟩
  isplitr; · iapply (records_invs m c); iexact HR
  isplitr; · iapply (records_reacheds m c); iexact HR
  isplitl [Hpos]; · iexact Hpos
  iexact Htok

theorem peerSlot_peerSlot (j : Fin 15) : peerSlot (peerSlot j) = j :=
  Fin.ext (by show 14 - (14 - j.val) = j.val; have := j.isLt; omega)

/-- Slot 14 - j for j is a bijection of the fifteen slots, its own inverse. -/
def peerSlotEquiv : Fin 15 ≃ Fin 15 := ⟨peerSlot, peerSlot, peerSlot_peerSlot, peerSlot_peerSlot⟩

theorem off_fwd_back (j : Fin 15) (c : Dev nD) : off (off c (16 - (j.val + 1))) (j.val + 1) = c := by
  have := j.isLt
  rw [off_off, show 16 - (j.val + 1) + (j.val + 1) = 16 by omega, off_sixteen]

theorem off_back_fwd (j : Fin 15) (c : Dev nD) : off (off c (j.val + 1)) (16 - (j.val + 1)) = c :=
  off_back c (j.val + 1) (by have := j.isLt; omega)

/-- Duty j of a barrier semaphore goes to the device j + 1 places before its owner: -/
theorem deal_bar : (bigSep Finset.univ fun c : Dev nD => bigSep Finset.univ fun j : Fin 15 => (dutyTok ER (barCell c) 0 j : sProp 𝕄))
    = bigSep Finset.univ fun c : Dev nD => bigSep Finset.univ fun j : Fin 15 => dutyTok ER (barCell (off c (j.val + 1))) 0 j :=
  LibDeal.bigSep_deal_fn (fun (j : Fin 15) (c : Dev nD) => off c (j.val + 1)) (fun j c => off c (16 - (j.val + 1))) off_fwd_back off_back_fwd
    (fun (c : Dev nD) (j : Fin 15) => (dutyTok ER (barCell c) 0 j : sProp 𝕄))

/-- the duty of receive semaphore 14 - j likewise. -/
theorem deal_recv : (bigSep Finset.univ fun c : Dev nD => bigSep Finset.univ fun s : Fin 15 => (dutyTok ER (recvCell c s) 0 (0 : Fin 15) : sProp 𝕄))
    = bigSep Finset.univ fun c : Dev nD => bigSep Finset.univ fun j : Fin 15 => dutyTok ER (recvCell (off c (j.val + 1)) (peerSlot j)) 0 (0 : Fin 15) :=
  (bigSep_congr fun (c : Dev nD) _ => bigSep_univ_equiv peerSlotEquiv (fun s : Fin 15 => (dutyTok ER (recvCell c s) 0 (0 : Fin 15) : sProp 𝕄))).trans
    (LibDeal.bigSep_deal_fn (fun (j : Fin 15) (c : Dev nD) => off c (j.val + 1)) (fun j c => off c (16 - (j.val + 1))) off_fwd_back off_back_fwd
      (fun (c : Dev nD) (j : Fin 15) => (dutyTok ER (recvCell c (peerSlot j)) 0 (0 : Fin 15) : sProp 𝕄)))

/-- The minted tokens, dealt to the devices that pay them. -/
theorem toks_around : (bigSep Finset.univ fun c : Dev nD => (toks c : sProp 𝕄)) ⊢ bigSep Finset.univ fun c : Dev nD => payToks c := by
  unfold toks Sched.payToks
  rw [bigSep_sep', bigSep_sep', bigSep_sep', bigSep_sep', deal_bar, deal_recv]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => Sched.inv m (kcell (c, k)))
          ∗ (bigSep Finset.univ fun k : CK => iprop(atPos ER (kcell (c, k)) 0 ∅ 0 ∗ reached ER (kcell (c, k)) 0)) ∗ toks c) : sProp 𝕄)
      ⊢ bigSep Finset.univ (ghost (F := F) m) := by
  rw [bigSep_sep', bigSep_sep', ← bigSep_univ_prod (fun ck : Dev nD × CK => Sched.inv m (kcell ck)),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨#HI, ⟨Hat, #HR⟩, Htok⟩
  ihave Htk := (toks_around (F := F)) $$ Htok
  iapply (bigSep_with_persistent (R := records m) fun c _ => ghost_intro m c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(positions c ∗ payToks c) from Entails.of_eq (by unfold Sched.positions; rw [bigSep_CK])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost (F := F) m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (Cred.creds (F := F) c) $$ Hcr
  icases Hc with ⟨H1, HN⟩
  imodintro
  unfold Sched.start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Sched.Φ₀ Sched.scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Sched.Φ₁ Sched.scratch
  iintro ⟨Hr, HzS, HzV⟩
  isplitr; · iempintro
  isplitl [HzS HzV]
  · isplitl [HzS] <;> iassumption
  iexact Hr

/-! ## The run -/

set_option maxRecDepth 8000 in
/-- At the compiled mesh of sixteen devices, for any float values, from any memory with zero counters: given each
    device's body, every weakly fair execution of @main terminates, and every final state has each device's two
    arrays at the contents the proof data names. -/
theorem run_main (hbody : ∀ c : Dev nD, BodyObligation (dats (F := F) m ρ 0 c) (defs₀ (F := F)) 𝒱₀ () Set.univ) :
    θ_run defs (onTc (τ := τ) (main (F := F))) ⟨m, fun _ => 0, ρ⟩ (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := Cred.waits m ρ)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

end Cert.KernelIdeal.Launch

end
-- ==== Proof.KernelIdealFinal.lean ====
/-
  The arrays after the run: on every device the argument array is unchanged (the input window only reads
  it) and the result array holds what the body left in the output window's staging buffer, the device's
  result, written back whole at the one grid point.
-/
import proofs.«900922_g7700000000000923_dist_max_ax0_shard0_i_m512_n256_v7x_i16_bf16_1_alg».proof.Proof.KernelIdealSched
import Idealize.ShloMosaic.Lib.Pipeline.Value
import Idealize.ShloMosaic.Lib.Pipeline.Cells

noncomputable section

namespace Cert.KernelIdeal.Final

open Cert.KernelIdeal Cert.KernelIdeal.Gen Cert.KernelIdeal.Ring Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's block of `x` as its staging buffer holds it is its whole argument array (one grid point, the block the whole array). -/
theorem xblk_eq (c : Dev nD) : xblk m c = m ((c.tc : Thread nD τ).loc main_arg0) :=
  Memref.read_access_unit_zero (Elt F) main_arg0 (funext fun a => Nat.zero_mul _) _ (m ((c.tc : Thread nD τ).loc main_arg0))

/-- The argument array is an input window's: no point writes it, so it ends as it was launched. -/
theorem final_arg (c : Dev nD) : finalA m ρ c (0 : Fin 2) = m ((c.tc : Thread nD τ).loc main_arg0) :=
  (dats (F := F) m ρ 0 c).arrAt_in (0 : Fin 2) rfl _

/-- The result array is the output window's: the one grid point writes its block, the whole array, back
    from the staging buffer, so whatever the array held before, it ends holding what the body left there. -/
theorem final_res (c : Dev nD) : finalA m ρ c (1 : Fin 2) = outV m c := by
  have h := (dats (F := F) m ρ 0 c).arrAt_succ (1 : Fin 2) t0_0
  rw [if_pos (flush0_1 t0_0)] at h
  exact h.trans (Memref.write_access_unit_zero_univ (Elt F) main_v1 (funext fun a => Nat.zero_mul _) _ _ _)

/-- What the run's post says of the two arrays: the result array holds the device's result as a function of
    the sixteen argument arrays, and the argument array is unchanged. -/
theorem post_of_QC (r : PUnit × MemSt nD τ sig (Elt F)) (h : QC m ρ r) (c : Dev nD) :
    r.2.mem ((c.tc : Thread nD τ).loc main_v1) = outOf (fun d : Dev nD => m ((d.tc : Thread nD τ).loc main_arg0)) c
    ∧ r.2.mem ((c.tc : Thread nD τ).loc main_arg0) = m ((c.tc : Thread nD τ).loc main_arg0) := by
  refine ⟨?_, (h c (0 : Fin 2)).trans (final_arg m ρ c)⟩
  have e : (fun d : Dev nD => xblk m d) = fun d : Dev nD => m ((d.tc : Thread nD τ).loc main_arg0) := funext (xblk_eq m)
  have h1 := (h c (1 : Fin 2)).trans (final_res m ρ c)
  unfold outV at h1
  rw [e] at h1
  exact h1

/-- info: 'Cert.KernelIdeal.Final.xblk_eq' depends on axioms: [propext, Classical.choice, Quot.sound] -/
#guard_msgs in #print axioms xblk_eq

/-- info: 'Cert.KernelIdeal.Final.post_of_QC' depends on axioms: [propext, Classical.choice, Quot.sound] -/
#guard_msgs in #print axioms post_of_QC

end Cert.KernelIdeal.Final

end
-- ==== Proof.KernelIdealRun.lean ====
/-
  The run of the whole mesh. From any memory with every semaphore counter at zero, every weakly fair execution
  of the sixteen devices terminates, and in every final state each device's result array holds the device's
  result, the maximum of its own column maxima and of the fifteen rows received from the other devices, as a
  function of the sixteen argument arrays, and its argument array is unchanged: the launch of the sixteen
  bodies, read at the two arrays.
-/
import proofs.«900922_g7700000000000923_dist_max_ax0_shard0_i_m512_n256_v7x_i16_bf16_1_alg».proof.Proof.KernelIdealSched
import proofs.«900922_g7700000000000923_dist_max_ax0_shard0_i_m512_n256_v7x_i16_bf16_1_alg».proof.Proof.KernelIdealBody
import proofs.«900922_g7700000000000923_dist_max_ax0_shard0_i_m512_n256_v7x_i16_bf16_1_alg».proof.Proof.KernelIdealLaunch
import proofs.«900922_g7700000000000923_dist_max_ax0_shard0_i_m512_n256_v7x_i16_bf16_1_alg».proof.Proof.KernelIdealFinal

noncomputable section

namespace Cert.KernelIdeal.Run

open Cert.KernelIdeal Cert.KernelIdeal.Gen Cert.KernelIdeal.Ring Cert.KernelIdeal.Vals Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of @main on the sixteen devices terminates, nothing faulting, with each
    device's result array at the device's result of the sixteen argument arrays and its argument array
    unchanged. -/
theorem run_post : θ_run defs (onTc (τ := τ) (main (F := F))) ⟨m, fun _ => 0, ρ⟩ (fun r => ∀ c : Dev nD,
    r.2.mem ((c.tc : Thread nD τ).loc main_v1) = outOf (fun d : Dev nD => m ((d.tc : Thread nD τ).loc main_arg0)) c
    ∧ r.2.mem ((c.tc : Thread nD τ).loc main_arg0) = m ((c.tc : Thread nD τ).loc main_arg0)) :=
  (θ_run defs _ _).mono (fun r h c => Cert.KernelIdeal.Final.post_of_QC m ρ r h c)
    (Cert.KernelIdeal.Launch.run_main m ρ (Cert.KernelIdeal.Body.body_obligation m ρ))

end Cert.KernelIdeal.Run

end
-- ==== Proof.KernelRing.lean ====
/-
  The sixteen devices as a ring: `off c e` is the device `e` places after `c`. Every peer the kernel
  addresses is such a device: its `e`-th barrier signal goes to `off c e`, and its `d`-th remote copy goes to
  `off c d` (both for offsets 1 to 15), which is what the printed chains `(me + d) mod 16` compute on each
  of the sixteen device ids.
-/
import proofs.«900922_g7700000000000923_dist_max_ax0_shard0_i_m512_n256_v7x_i16_bf16_1_alg».proof.Proof.Gen.Kernel

namespace Cert.Kernel.Ring

open Cert.Kernel Cert.Kernel.Gen Idealize.ShloMosaic

/-- The device `e` places after `c` round the ring. -/
def off (c : Dev nD) (e : Nat) : Dev nD := ⟨(c.val + e) % 16, Nat.mod_lt _ (by decide)⟩

theorem off_val (c : Dev nD) (e : Nat) : (off c e).val = (c.val + e) % 16 := rfl

/-- Going `a` places and then `b` is going `a + b`. -/
theorem off_off (c : Dev nD) (a b : Nat) : off (off c a) b = off c (a + b) := by
  apply Fin.ext; simp only [off_val]; omega

/-- Sixteen places round is back home. -/
theorem off_sixteen (c : Dev nD) : off c 16 = c := by
  apply Fin.ext; have hc : c.val < 16 := c.isLt; simp only [off_val]; omega

theorem off_zero (c : Dev nD) : off c 0 = c := by
  apply Fin.ext; have hc : c.val < 16 := c.isLt; simp only [off_val]; omega

/-- Going `e` places and then `16 - e` is back home. -/
theorem off_back (c : Dev nD) (e : Nat) (he : e ≤ 16) : off (off c e) (16 - e) = c := by
  rw [off_off, show e + (16 - e) = 16 by omega, off_sixteen]

/-- Going `e` places is a bijection of the devices (its inverse: `16 - e mod 16` places). -/
def offEquiv (e : Nat) : Dev nD ≃ Dev nD where
  toFun c := off c e
  invFun c := off c (16 - e % 16)
  left_inv c := by apply Fin.ext; have hc : c.val < 16 := c.isLt; simp only [off_val]; omega
  right_inv c := by apply Fin.ext; have hc : c.val < 16 := c.isLt; simp only [off_val]; omega

/-- A device is never its own peer at an offset 1 to 15. -/
theorem off_ne (c : Dev nD) (e : Nat) (h0 : 0 < e) (h1 : e < 16) : off c e ≠ c := by
  intro h; have h' := congrArg Fin.val h; have hc : c.val < 16 := c.isLt; simp only [off_val] at h'; omega

/-- Two offsets below 16 reach the same device only if equal. -/
theorem off_inj (c : Dev nD) (a b : Nat) (ha : a < 16) (hb : b < 16) (h : off c a = off c b) : a = b := by
  have h' := congrArg Fin.val h; have hc : c.val < 16 := c.isLt; simp only [off_val] at h'; omega

/-! ## The printed device chains -/

theorem sig1_eq (c : Dev nD) : (⟨k0_dev1 c, k0_dev1_lt c⟩ : Dev nD) = off c 1 := by revert c; decide +kernel
theorem sig2_eq (c : Dev nD) : (⟨k0_dev2 c, k0_dev2_lt c⟩ : Dev nD) = off c 2 := by revert c; decide +kernel
theorem sig3_eq (c : Dev nD) : (⟨k0_dev3 c, k0_dev3_lt c⟩ : Dev nD) = off c 3 := by revert c; decide +kernel
theorem sig4_eq (c : Dev nD) : (⟨k0_dev4 c, k0_dev4_lt c⟩ : Dev nD) = off c 4 := by revert c; decide +kernel
theorem sig5_eq (c : Dev nD) : (⟨k0_dev5 c, k0_dev5_lt c⟩ : Dev nD) = off c 5 := by revert c; decide +kernel
theorem sig6_eq (c : Dev nD) : (⟨k0_dev6 c, k0_dev6_lt c⟩ : Dev nD) = off c 6 := by revert c; decide +kernel
theorem sig7_eq (c : Dev nD) : (⟨k0_dev7 c, k0_dev7_lt c⟩ : Dev nD) = off c 7 := by revert c; decide +kernel
theorem sig8_eq (c : Dev nD) : (⟨k0_dev8 c, k0_dev8_lt c⟩ : Dev nD) = off c 8 := by revert c; decide +kernel
theorem sig9_eq (c : Dev nD) : (⟨k0_dev9 c, k0_dev9_lt c⟩ : Dev nD) = off c 9 := by revert c; decide +kernel
theorem sig10_eq (c : Dev nD) : (⟨k0_dev10 c, k0_dev10_lt c⟩ : Dev nD) = off c 10 := by revert c; decide +kernel
theorem sig11_eq (c : Dev nD) : (⟨k0_dev11 c, k0_dev11_lt c⟩ : Dev nD) = off c 11 := by revert c; decide +kernel
theorem sig12_eq (c : Dev nD) : (⟨k0_dev12 c, k0_dev12_lt c⟩ : Dev nD) = off c 12 := by revert c; decide +kernel
theorem sig13_eq (c : Dev nD) : (⟨k0_dev13 c, k0_dev13_lt c⟩ : Dev nD) = off c 13 := by revert c; decide +kernel
theorem sig14_eq (c : Dev nD) : (⟨k0_dev14 c, k0_dev14_lt c⟩ : Dev nD) = off c 14 := by revert c; decide +kernel
theorem sig15_eq (c : Dev nD) : (⟨k0_dev15 c, k0_dev15_lt c⟩ : Dev nD) = off c 15 := by revert c; decide +kernel
theorem cpy1_eq (c : Dev nD) : (⟨k0_dev16 c, k0_dev16_lt c⟩ : Dev nD) = off c 1 := by revert c; decide +kernel
theorem cpy2_eq (c : Dev nD) : (⟨k0_dev17 c, k0_dev17_lt c⟩ : Dev nD) = off c 2 := by revert c; decide +kernel
theorem cpy3_eq (c : Dev nD) : (⟨k0_dev18 c, k0_dev18_lt c⟩ : Dev nD) = off c 3 := by revert c; decide +kernel
theorem cpy4_eq (c : Dev nD) : (⟨k0_dev19 c, k0_dev19_lt c⟩ : Dev nD) = off c 4 := by revert c; decide +kernel
theorem cpy5_eq (c : Dev nD) : (⟨k0_dev20 c, k0_dev20_lt c⟩ : Dev nD) = off c 5 := by revert c; decide +kernel
theorem cpy6_eq (c : Dev nD) : (⟨k0_dev21 c, k0_dev21_lt c⟩ : Dev nD) = off c 6 := by revert c; decide +kernel
theorem cpy7_eq (c : Dev nD) : (⟨k0_dev22 c, k0_dev22_lt c⟩ : Dev nD) = off c 7 := by revert c; decide +kernel
theorem cpy8_eq (c : Dev nD) : (⟨k0_dev23 c, k0_dev23_lt c⟩ : Dev nD) = off c 8 := by revert c; decide +kernel
theorem cpy9_eq (c : Dev nD) : (⟨k0_dev24 c, k0_dev24_lt c⟩ : Dev nD) = off c 9 := by revert c; decide +kernel
theorem cpy10_eq (c : Dev nD) : (⟨k0_dev25 c, k0_dev25_lt c⟩ : Dev nD) = off c 10 := by revert c; decide +kernel
theorem cpy11_eq (c : Dev nD) : (⟨k0_dev26 c, k0_dev26_lt c⟩ : Dev nD) = off c 11 := by revert c; decide +kernel
theorem cpy12_eq (c : Dev nD) : (⟨k0_dev27 c, k0_dev27_lt c⟩ : Dev nD) = off c 12 := by revert c; decide +kernel
theorem cpy13_eq (c : Dev nD) : (⟨k0_dev28 c, k0_dev28_lt c⟩ : Dev nD) = off c 13 := by revert c; decide +kernel
theorem cpy14_eq (c : Dev nD) : (⟨k0_dev29 c, k0_dev29_lt c⟩ : Dev nD) = off c 14 := by revert c; decide +kernel
theorem cpy15_eq (c : Dev nD) : (⟨k0_dev30 c, k0_dev30_lt c⟩ : Dev nD) = off c 15 := by revert c; decide +kernel

end Cert.Kernel.Ring
-- ==== Proof.KernelVals.lean ====
/-
  What the kernel computes, as pure functions of the sixteen devices' blocks of `x`: each device's partial
  result (the column maxima of its own 512 rows), what its receive buffer holds once every peer's partial
  result has landed (slot `s` holds that of the device `s + 1` places after it), and its result: the
  maximum of its own partial result and of the fifteen received ones.
-/
import proofs.«900922_g7700000000000923_dist_max_ax0_shard0_i_m512_n256_v7x_i16_bf16_1_alg».proof.Proof.Gen.Kernel.Skeleton
import proofs.«900922_g7700000000000923_dist_max_ax0_shard0_i_m512_n256_v7x_i16_bf16_1_alg».proof.Proof.KernelRing
import Idealize.ShloMosaic.Lib.ValueIdx

noncomputable section

namespace Cert.Kernel.Vals

open Cert.Kernel Cert.Kernel.Gen Cert.Kernel.Ring Idealize.ShloMosaic Idealize.ShloMosaic.ValueIdx

variable {F : FTy → Type} [FloatOps F]

/-- One device's partial result: the column maxima of its own 512 rows. -/
def accOf (x : Vec F S512x256 .f32) : Vec F S1x256 .f32 := k0_pay1 x

/-- A device's receive buffer once all fifteen rows have landed: slot `s` holds the partial result of the
    device `s + 1` places after it. -/
def commOf (a : Dev nD → Vec F S1x256 .f32) (c : Dev nD) : Vec F S15x1x256 .f32 :=
  fun i => a (off c ((i 0).val + 1)) (ix2 (i 1) (i 2))

/-- A device's result: the maximum of its own partial result and the fifteen received ones. -/
def outOf (X : Dev nD → Vec F S512x256 .f32) (c : Dev nD) : Vec F S1x256 .f32 :=
  k0_pay2 (accOf (X c)) (commOf (fun d => accOf (X d)) c)

end Cert.Kernel.Vals

end
-- ==== Proof.KernelSched.lean ====
/-
  The protocol of the sixteen-device maximum, as rounds of duties on semaphores.

  Every device owns 31 semaphores: the barrier semaphore, fifteen send semaphores and fifteen receive
  semaphores. Each has one round. Device `c`'s barrier semaphore is signalled one unit by each of the
  fifteen other devices: the signal numbered `j + 1` of the device `p` with `off p (j + 1) = c`, which
  hands `c` slot `j` of `p`'s receive buffer, the slot `c`'s own partial result is to be copied into.
  Send semaphore `k` of `c` is credited once, when copy `k + 1` has read `c`'s partial result, and hands
  back the share of it the copy was lent. Receive semaphore `s` of `c` is credited once, when the copy
  from the device `s + 1` places after `c` has landed in slot `s`, and hands `c` that slot holding that
  device's partial result.
-/
import proofs.«900922_g7700000000000923_dist_max_ax0_shard0_i_m512_n256_v7x_i16_bf16_1_alg».proof.Proof.KernelVals
import proofs.«900922_g7700000000000923_dist_max_ax0_shard0_i_m512_n256_v7x_i16_bf16_1_alg».proof.Proof.Gen.Kernel.Launch
import proofs.«900922_g7700000000000923_dist_max_ax0_shard0_i_m512_n256_v7x_i16_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Sched

open Cert.Kernel Cert.Kernel.Gen Cert.Kernel.Ring Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The memrefs and semaphores -/

abbrev xM : Memref sig .tc .vmem S512x256 .f32 := Memref.whole cc0_stg0_0
abbrev oM : Memref sig .tc .vmem S1x256 .f32 := Memref.whole cc0_stg1_0
abbrev aM : Memref sig .tc .vmem S1x256 .f32 := Memref.whole cc0_scratch0
abbrev cM : Memref sig .tc .vmem S15x1x256 .f32 := Memref.whole cc0_scratch1

theorem inbSlot (s : Fin 15) : ∀ a, (![s.val, 0, 0] : Fin 3 → Nat) a + S1x1x256.size a ≤ S15x1x256.size a := by
  intro a; have := s.isLt
  match a with
  | ⟨0, _⟩ => show s.val + 1 ≤ 15; omega
  | ⟨1, _⟩ => show 0 + 1 ≤ 1; omega
  | ⟨2, _⟩ => show 0 + 256 ≤ 256; omega

/-- Slot `s` of the receive buffer: row `s` of the [15, 1, 256] scratch, as a [1, 256] memref. -/
abbrev slotM (s : Fin 15) : Memref sig .tc .vmem S1x256 .f32 :=
  ((cM.slice (Rect.unit (s := S15x1x256) ![s.val, 0, 0] S1x1x256.size (inbSlot s)) (fun _ => rfl)).squeeze S1x256 Gen.squeezes_S1x1x256_S1x256)

theorem inbSem (k : Fin 15) : ∀ a, (![k.val] : Fin 1 → Nat) a + S1.size a ≤ S15.size a := by
  intro a; have := k.isLt
  match a with
  | ⟨0, _⟩ => show k.val + 1 ≤ 15; omega

/-- The runtime's barrier semaphore (unscoped), the fifteen send and the fifteen receive DMA semaphores (scoped). -/
abbrev barS : Sem sig := (SemArray.scalar (sig.barrier 0 rfl) : Sems sig S_).sem
abbrev sendS (k : Fin 15) : DmaSem sig := ((cc0_scratch2.slice (Rect.unit (s := S15) ![k.val] S1.size (inbSem k))).squeeze S_ Gen.squeezes_S1_S_).sem
abbrev recvS (s : Fin 15) : DmaSem sig := ((cc0_scratch3.slice (Rect.unit (s := S15) ![s.val] S1.size (inbSem s))).squeeze S_ Gen.squeezes_S1_S_).sem

abbrev barCell (c : Dev nD) : GSem nD τ sig := ((c : Thread nD τ), .reg barS)
abbrev sendCell (c : Dev nD) (k : Fin 15) : GSem nD τ sig := ((c : Thread nD τ), .dma (sendS k))
abbrev recvCell (c : Dev nD) (s : Fin 15) : GSem nD τ sig := ((c : Thread nD τ), .dma (recvS s))

theorem sendS_val (k : Fin 15) : (sendS k).val = 2 + k.val := by
  revert k; decide
theorem recvS_val (s : Fin 15) : (recvS s).val = 17 + s.val := by
  revert s; decide

/-- One row's transfer credit. -/
abbrev N : ℕ := (aM : Memref sig .tc .vmem S1x256 .f32).view.dmaCredit
theorem N_pos : 0 < N := View.dmaCredit_pos _ (by decide)

theorem slot_amount (s : Fin 15) : (slotM s : Memref sig .tc .vmem S1x256 .f32).view.amount (.dma (recvS s)) = N := rfl

/-! ## The shares of the partial result lent to the fifteen copies -/

/-- What is left of the full share after `k` copies have each been lent a share. -/
def rem : ℕ → PosShare TreeShare
  | 0 => fullShare
  | k + 1 => (rem k).right
/-- The share lent to copy `k + 1`. -/
def shr (k : ℕ) : PosShare TreeShare := (rem k).left

/-! ## Contents -/

/-- Device `c`'s block of `x`, as its staging buffer holds it. -/
def xblk (c : Dev nD) : (cc0_stg0_0 : Ref sig .tc).ty.Contents (Elt F) :=
  (win0_0.blk (0 : Fin 1)).view.read (Elt F) (m ((c : Thread nD τ).loc main_arg0))
/-- Its partial result, what its receive buffer ends holding, and its result. -/
def accV (c : Dev nD) : (cc0_scratch0 : Ref sig .tc).ty.Contents (Elt F) := accOf (xblk m c)
def commV (c : Dev nD) : (cc0_scratch1 : Ref sig .tc).ty.Contents (Elt F) := commOf (fun d => accOf (xblk m d)) c
def outV (c : Dev nD) : (cc0_stg1_0 : Ref sig .tc).ty.Contents (Elt F) := outOf (fun d => xblk m d) c

/-- The partial-result buffer of device `c` at share `q`; slot `s` of its receive buffer. -/
def accPts (c : Dev nD) (q : PosShare TreeShare) (f : Buf (Elt F) ((aM : Memref sig .tc .vmem S1x256 .f32).view.loc (c : Thread nD τ))) : sProp 𝕄 :=
  (aM : Memref sig .tc .vmem S1x256 .f32).view.loc (c : Thread nD τ) ↦[(aM : Memref sig .tc .vmem S1x256 .f32).view.set]{q} f
def slotPts (c : Dev nD) (s : Fin 15) (f : Buf (Elt F) ((slotM s : Memref sig .tc .vmem S1x256 .f32).view.loc (c : Thread nD τ))) : sProp 𝕄 :=
  (slotM s : Memref sig .tc .vmem S1x256 .f32).view.loc (c : Thread nD τ) ↦[(slotM s : Memref sig .tc .vmem S1x256 .f32).view.set]{fullShare} f

/-- The share left after `k` loans is the next loan and what is left after it. -/
theorem accPts_split (c : Dev nD) (k : ℕ) (f : Buf (Elt F) ((aM : Memref sig .tc .vmem S1x256 .f32).view.loc (c : Thread nD τ))) :
    (accPts c (rem k) f : sProp 𝕄) ⊣⊢ iprop(accPts c (shr k) f ∗ accPts c (rem (k + 1)) f) :=
  pointsTo_share (PosShare.mem_left_op_right (rem k))

/-! ## The schedule -/

/-- What a semaphore is in the protocol. -/
inductive Role where
  | bar | send (k : Fin 15) | recv (s : Fin 15) | other

def roleOf : SemLoc sig → Role
  | .reg s => if s = barS then .bar else .other
  | .dma q => if h : 2 ≤ q.val ∧ q.val < 17 then .send ⟨q.val - 2, by omega⟩
      else if h' : 17 ≤ q.val ∧ q.val < 32 then .recv ⟨q.val - 17, by omega⟩ else .other

theorem role_bar : roleOf (.reg barS) = .bar := by rw [roleOf, if_pos rfl]
theorem role_send (k : Fin 15) : roleOf (.dma (sendS k)) = .send k := by
  have h := sendS_val k; have hk := k.isLt
  rw [roleOf, dif_pos (show 2 ≤ (sendS k).val ∧ (sendS k).val < 17 by omega)]
  exact congrArg Role.send (Fin.ext (by show (sendS k).val - 2 = k.val; omega))
theorem role_recv (s : Fin 15) : roleOf (.dma (recvS s)) = .recv s := by
  have h := recvS_val s; have hs := s.isLt
  rw [roleOf, dif_neg (show ¬(2 ≤ (recvS s).val ∧ (recvS s).val < 17) by omega), dif_pos (show 17 ≤ (recvS s).val ∧ (recvS s).val < 32 by omega)]
  exact congrArg Role.recv (Fin.ext (by show (recvS s).val - 17 = s.val; omega))

/-- Signal `j + 1` of the device whose `(j + 1)`-th peer is `c` hands `c` that device's slot `j`. -/
def barPay (c : Dev nD) (j : Fin 15) : sProp 𝕄 := iprop(∃ f, slotPts (off c (15 - j.val)) j f)
def sendPay (c : Dev nD) (k : Fin 15) : sProp 𝕄 := accPts c (shr k.val) (accV m c)
def recvPay (c : Dev nD) (s : Fin 15) : sProp 𝕄 := slotPts c s (commV m c)

/-- One round: a barrier semaphore has fifteen duties of one unit; a send or receive semaphore one duty of a row's credit. -/
def sched : Rounds.Schedule (GSem nD τ sig) (Fin 15) 𝕄 where
  duties g r := if r = 0 ∧ g.1.2 = .tc then (match roleOf g.2 with | .bar => Finset.univ | .send _ => {0} | .recv _ => {0} | .other => ∅) else ∅
  unitless _ := False
  amount g _ _ := match roleOf g.2 with | .bar => 1 | _ => N
  payload g _ d := match roleOf g.2 with
    | .bar => barPay g.1.1 d
    | .send k => sendPay m g.1.1 k
    | .recv s => recvPay m g.1.1 s
    | .other => iprop(emp)
  amount_pos g _ _ _ := by
    cases roleOf g.2 <;> first | exact Nat.one_pos | exact N_pos

instance sched_payload_storable (g : GSem nD τ sig) (r : ℕ) (d : Fin 15) :
    BI.Storable (upEmb : UEmb _ 𝕄) ((sched (F := F) m).payload g r d) := by
  show BI.Storable upEmb (match roleOf g.2 with
    | .bar => barPay g.1.1 d | .send k => sendPay m g.1.1 k | .recv s => recvPay m g.1.1 s | .other => iprop(emp))
  unfold barPay sendPay recvPay accPts slotPts
  split <;> infer_instance

section Tables
variable (c : Dev nD)

theorem duties_bar : (sched (F := F) m).duties (barCell c) 0 = Finset.univ := by dsimp only [sched]; rw [if_pos ⟨rfl, rfl⟩, role_bar]
theorem duties_send (k : Fin 15) : (sched (F := F) m).duties (sendCell c k) 0 = {0} := by dsimp only [sched]; rw [if_pos ⟨rfl, rfl⟩, role_send]
theorem duties_recv (s : Fin 15) : (sched (F := F) m).duties (recvCell c s) 0 = {0} := by dsimp only [sched]; rw [if_pos ⟨rfl, rfl⟩, role_recv]
theorem duties_later (g : GSem nD τ sig) : ∀ r, 1 ≤ r → (sched (F := F) m).duties g r = ∅ :=
  fun r hr => by dsimp only [sched]; rw [if_neg fun h => by omega]

theorem amount_bar (d : Fin 15) : (sched (F := F) m).amount (barCell c) 0 d = 1 := by dsimp only [sched]; rw [role_bar]
theorem amount_send (k d : Fin 15) : (sched (F := F) m).amount (sendCell c k) 0 d = N := by dsimp only [sched]; rw [role_send]
theorem amount_recv (s d : Fin 15) : (sched (F := F) m).amount (recvCell c s) 0 d = N := by dsimp only [sched]; rw [role_recv]

theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send (k : Fin 15) : (sched (F := F) m).expect (sendCell c k) 0 = N := by
  unfold Schedule.expect Schedule.amountOf; rw [duties_send, Finset.sum_singleton, amount_send]
theorem expect_recv (s : Fin 15) : (sched (F := F) m).expect (recvCell c s) 0 = N := by
  unfold Schedule.expect Schedule.amountOf; rw [duties_recv, Finset.sum_singleton, amount_recv]

theorem payload_bar (j : Fin 15) : (sched (F := F) m).payload (barCell c) 0 j = barPay c j := by dsimp only [sched]; rw [role_bar]
theorem payload_send (k d : Fin 15) : (sched (F := F) m).payload (sendCell c k) 0 d = sendPay m c k := by dsimp only [sched]; rw [role_send]
theorem payload_recv (s d : Fin 15) : (sched (F := F) m).payload (recvCell c s) 0 d = recvPay m c s := by dsimp only [sched]; rw [role_recv]

/-- A whole round's payloads, no duty taken yet. -/
theorem rest_bar : bigSep ((sched (F := F) m).duties (barCell c) 0 \ ∅) (fun d => (sched (F := F) m).payload (barCell c) 0 d)
    = bigSep Finset.univ (fun j : Fin 15 => (barPay c j : sProp 𝕄)) := by
  rw [Finset.sdiff_empty, duties_bar]; exact bigSep_congr fun j _ => payload_bar m c j
theorem rest_send (k : Fin 15) : bigSep ((sched (F := F) m).duties (sendCell c k) 0 \ ∅) (fun d => (sched (F := F) m).payload (sendCell c k) 0 d) = sendPay m c k := by
  rw [Finset.sdiff_empty, duties_send, bigSep_singleton, payload_send]
theorem rest_recv (s : Fin 15) : bigSep ((sched (F := F) m).duties (recvCell c s) 0 \ ∅) (fun d => (sched (F := F) m).payload (recvCell c s) 0 d) = recvPay m c s := by
  rw [Finset.sdiff_empty, duties_recv, bigSep_singleton, payload_recv]

end Tables

/-! ## What each device owes at launch; the levels -/

/-- The slot index `n` as a `Fin 15` (for `n < 15` itself). -/
abbrev fin15 (n : ℕ) : Fin 15 := ⟨n % 15, Nat.mod_lt _ (by decide)⟩

/-- The copies' debts, stacked so that the copy issued first is the last summand: copy `d` (to the device `d`
    places on, into its slot `15 - d`) owes that slot's receive semaphore a row's credit. -/
def Ocp (c : Dev nD) : ℕ → CellTallies nD τ sig Unit
  | 0 => 0
  | n + 1 => Ocp c n + tallyAt (recvCell (off c (15 - n)) (fin15 n)) () N
/-- On top of them the signals' debts, the signal issued first last: signal `e` owes the barrier semaphore of the
    device `e` places on one unit. -/
def Osg (c : Dev nD) : ℕ → CellTallies nD τ sig Unit
  | 0 => Ocp c 15
  | n + 1 => Osg c n + tallyAt (barCell (off c (15 - n))) () 1
/-- All a device owes when the kernel starts. -/
def O₀ (c : Dev nD) : CellTallies nD τ sig Unit := Osg c 15

def L (g : GSem nD τ sig) : Finset Unit := if g.1.2 = .tc then {()} else ∅
/-- Barrier semaphores at level 1, receive semaphores at 2 (a device waits on its barrier still owing copies),
    everything else at 0. -/
def lv (g : GSem nD τ sig) (_ : Unit) : ℕ := match roleOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [role_bar]
theorem lv_send (c : Dev nD) (k : Fin 15) (u : Unit) : lv (sendCell c k) u = 0 := by dsimp only [lv]; rw [role_send]
theorem lv_recv (c : Dev nD) (s : Fin 15) (u : Unit) : lv (recvCell c s) u = 2 := by dsimp only [lv]; rw [role_recv]

/-! ## What a device's body starts from and what it leaves -/

/-- A semaphore's invariant, at whatever name the launch allocated it. -/
def inv (g : GSem nD τ sig) : sProp 𝕄 := iprop(∃ κ : ℕ, cellInv ER (sched m) κ g)

instance inv_persistent (g : GSem nD τ sig) : BI.Persistent (inv (F := F) m g) := by unfold inv; infer_instance

/-- The slot device `c`'s copy `j + 1` writes on the device `j + 1` places on: slot `14 - j`. -/
abbrev peerSlot (j : Fin 15) : Fin 15 := ⟨14 - j.val, by omega⟩

/-- The invariants device `c`'s body opens: its own 31 semaphores', and for each of its fifteen peers the
    peer's barrier semaphore's (it signals it) and one of the peer's receive semaphores' (its copy credits it). -/
def invs (c : Dev nD) : sProp 𝕄 :=
  iprop(inv m (barCell c) ∗ (bigSep Finset.univ fun k : Fin 15 => inv m (sendCell c k)) ∗ (bigSep Finset.univ fun s : Fin 15 => inv m (recvCell c s))
    ∗ (bigSep Finset.univ fun j : Fin 15 => inv m (barCell (off c (j.val + 1))))
    ∗ (bigSep Finset.univ fun j : Fin 15 => inv m (recvCell (off c (j.val + 1)) (peerSlot j))))

instance invs_persistent (c : Dev nD) : BI.Persistent (invs (F := F) m c) := by unfold invs; infer_instance

/-- That round 0 of every semaphore device `c` pays into is reached. -/
def reacheds (c : Dev nD) : sProp 𝕄 :=
  iprop((bigSep Finset.univ fun j : Fin 15 => reached ER (barCell (off c (j.val + 1))) 0)
    ∗ (bigSep Finset.univ fun j : Fin 15 => reached ER (recvCell (off c (j.val + 1)) (peerSlot j)) 0)
    ∗ (bigSep Finset.univ fun k : Fin 15 => reached ER (sendCell c k) 0))

instance reacheds_persistent (c : Dev nD) : BI.Persistent (reacheds (F := F) c) := by unfold reacheds; infer_instance

/-- Device `c`'s positions on its own 31 semaphores. -/
def positions (c : Dev nD) : sProp 𝕄 :=
  iprop(atPos ER (barCell c) 0 ∅ 0 ∗ (bigSep Finset.univ fun k : Fin 15 => atPos ER (sendCell c k) 0 ∅ 0)
    ∗ (bigSep Finset.univ fun s : Fin 15 => atPos ER (recvCell c s) 0 ∅ 0))

/-- The tokens of the duties device `c` pays: signal `j + 1` pays duty `j` of the barrier semaphore of the device
    `j + 1` places on; copy `j + 1` pays that device's receive semaphore `14 - j` and `c`'s own send semaphore `j`. -/
def payToks (c : Dev nD) : sProp 𝕄 :=
  iprop((bigSep Finset.univ fun j : Fin 15 => dutyTok ER (barCell (off c (j.val + 1))) 0 j)
    ∗ (bigSep Finset.univ fun j : Fin 15 => dutyTok ER (recvCell (off c (j.val + 1)) (peerSlot j)) 0 (0 : Fin 15))
    ∗ (bigSep Finset.univ fun k : Fin 15 => dutyTok ER (sendCell c k) 0 (0 : Fin 15)))

/-- The protocol's ghost state device `c` starts from. -/
def ghost (c : Dev nD) : sProp 𝕄 := iprop(invs m c ∗ reacheds c ∗ positions c ∗ payToks c)

/-- What device `c`'s body starts from besides its buffers: that, the credit of the fifteen units its barrier wait
    consumes and of the fifteen rows its receive waits consume, and the level facts. -/
def start (c : Dev nD) : sProp 𝕄 :=
  iprop(ghost m c ∗ cred (tallyAt (barCell c) () 15) ∗ (bigSep Finset.univ fun s : Fin 15 => cred (tallyAt (recvCell c s) () N)) ∗ levAts L lv)

/-- The two scratch buffers whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the point: the scratch buffers whole again, the thirty own semaphores at zero, closed (the barrier
    semaphore is the runtime's: nothing to hand back). -/
def Φ₁ (c : Dev nD) : sProp 𝕄 :=
  iprop(scratch c ∗ (bigSep Finset.univ fun k : Fin 15 => semVal (sendCell c k) 0) ∗ (bigSep Finset.univ fun s : Fin 15 => semVal (recvCell c s) 0))

/-- The pipeline's proof data: the input window holds the device's block, the output window ends holding its result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m c
    | ⟨1, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The final arrays -/

/-- The arrays after the run, as the proof data names them. -/
def finalA (c : Dev nD) (w : Fin cfg0.W) : Buf (Elt F) ((cfg0.win w).arr.view.loc (c : Thread nD τ)) := (dats m ρ 0 c).arrAt w cfg0.N

/-- Every device's two arrays end at those contents. -/
def QC : PUnit × MemSt nD τ sig (Elt F) → Prop := fun r =>
  ∀ c : Dev nD, ∀ w : Fin cfg0.W, r.2.mem ((cfg0.win w).arr.view.loc (c : Thread nD τ)) = finalA m ρ c w

end Cert.Kernel.Sched

end
-- ==== Proof.KernelCred.lean ====
/-
  The credit each device is dealt at launch, and why its waits are allowed.

  Summed over the sixteen devices, what they owe device `c`'s barrier semaphore is fifteen units (one from
  each other device) and what they owe each of its receive semaphores is one row's credit (from the one
  device that copies into that slot): that is the credit `c` starts with. A device waits on its barrier
  semaphore (level 1) while it still owes copies to receive semaphores (level 2), and on staging and receive
  semaphores while it owes nothing, so every wait is below everything the waiter owes.
-/
import proofs.«900922_g7700000000000923_dist_max_ax0_shard0_i_m512_n256_v7x_i16_bf16_1_alg».proof.Proof.KernelSched
import proofs.«900922_g7700000000000923_dist_max_ax0_shard0_i_m512_n256_v7x_i16_bf16_1_alg».proof.Proof.LibDeal

noncomputable section

namespace Cert.Kernel.Cred

open Cert.Kernel Cert.Kernel.Gen Cert.Kernel.Ring Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a device's debts lie

  Everything a device owes is owed to a receive semaphore (a copy's debt) or to a barrier semaphore (a signal's). -/

/-- A copy's debt lies on a receive semaphore. -/
theorem Ocp_pos {c : Dev nD} : ∀ {n : ℕ} {g : GSem nD τ sig} {u : Unit}, 0 < Ocp c n g u →
    ∃ k, k < n ∧ g = recvCell (off c (15 - k)) (fin15 k)
  | 0, _, _, h => absurd h (Nat.lt_irrefl 0)
  | n + 1, g, u, h => by
    rcases Pipeline.add_pos_cases (show 0 < (Ocp c n + tallyAt (recvCell (off c (15 - n)) (fin15 n)) () N) g u from h) with h1 | h2
    · obtain ⟨k, hk, e⟩ := Ocp_pos h1
      exact ⟨k, Nat.lt_succ_of_lt hk, e⟩
    · exact ⟨n, Nat.lt_succ_self n, (Pipeline.tallyAt_pos h2).1⟩

/-- With the signals' debts on top: a receive semaphore or a barrier semaphore. -/
theorem Osg_pos {c : Dev nD} : ∀ {n : ℕ} {g : GSem nD τ sig} {u : Unit}, 0 < Osg c n g u →
    (∃ k, k < 15 ∧ g = recvCell (off c (15 - k)) (fin15 k)) ∨ (∃ k, k < n ∧ g = barCell (off c (15 - k)))
  | 0, _, _, h => Or.inl (Ocp_pos h)
  | n + 1, g, u, h => by
    rcases Pipeline.add_pos_cases (show 0 < (Osg c n + tallyAt (barCell (off c (15 - n))) () 1) g u from h) with h1 | h2
    · rcases Osg_pos h1 with h' | ⟨k, hk, e⟩
      · exact Or.inl h'
      · exact Or.inr ⟨k, Nat.lt_succ_of_lt hk, e⟩
    · exact Or.inr ⟨n, Nat.lt_succ_self n, (Pipeline.tallyAt_pos h2).1⟩

/-- All a device owes at launch lies on receive semaphores and barrier semaphores. -/
theorem O₀_pos {c : Dev nD} {g : GSem nD τ sig} {u : Unit} (h : 0 < O₀ c g u) :
    (∃ (d : Dev nD) (s : Fin 15), g = recvCell d s) ∨ (∃ d : Dev nD, g = barCell d) := by
  rcases Osg_pos (show 0 < Osg c 15 g u from h) with ⟨k, _, e⟩ | ⟨k, _, e⟩
  · exact Or.inl ⟨_, _, e⟩
  · exact Or.inr ⟨_, e⟩

/-! ## The levels of the waits -/

/-- The two staging semaphores are neither barrier nor receive semaphores: level 0. -/
theorem lv_stage (t : Thread nD τ) (q : DmaSem sig) (hq : q.val < 2) (u : Unit) : lv (t, .dma q) u = 0 := by
  have hr : roleOf (.dma q : SemLoc sig) = .other := by
    rw [roleOf, dif_neg (by omega), dif_neg (by omega)]
  dsimp only [lv]; rw [hr]

/-- A wait on a staging semaphore is allowed owing everything owed at launch, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨d, s, rfl⟩ | ⟨d, rfl⟩
        · rw [L_tc]; exact Finset.mem_singleton_self _
        · rw [L_tc]; exact Finset.mem_singleton_self _)
      (fun p hp => by rw [Finset.mem_singleton.mp hp]; exact le_of_eq (lv_stage _ q hq ()))
      (fun g u hg => by
        rcases O₀_pos hg with ⟨d, s, rfl⟩ | ⟨d, rfl⟩
        · rw [lv_recv]; decide
        · rw [lv_bar]; decide)
  · rw [MayWait_zero]; iintro -; iempintro

/-! ## The credit dealt at launch

  Going a fixed number of places round the ring is a bijection of the devices, so when every device owes one
  tally to the same semaphore of the device that many places on, each device is dealt exactly that tally's
  credit on its own semaphore. The debts are stacked one such family at a time. -/

/-- Going `16 - e` places and then `e` is back home. -/
theorem off_there (c : Dev nD) (e : ℕ) (he : e ≤ 16) : off (off c (16 - e)) e = c := by
  rw [off_off, show 16 - e + e = 16 by omega, off_sixteen]

/-- The copies into slot `n`: each device is dealt a row's credit on its receive semaphore `n`. -/
theorem launch_cp (c : Dev nD) (n : ℕ) (hn : n < 15) :
    (Pipeline.launchCred (fun d => tallyAt (recvCell (off d (15 - n)) (fin15 n)) () N) c : sProp 𝕄)
      ⊢ cred (tallyAt (recvCell c (fin15 n)) () N) :=
  Pipeline.launchCred_tallyAt (.dma (recvS (fin15 n))) (fun d => off d (15 - n)) (fun d => off d (16 - (15 - n)))
    (fun d => off_there d (15 - n) (by omega)) (fun d => off_back d (15 - n) (by omega)) () N c

/-- The signals to the device `15 - n` places on: each device is dealt one unit on its barrier semaphore. -/
theorem launch_sg (c : Dev nD) (n : ℕ) (hn : n < 15) :
    (Pipeline.launchCred (fun d => tallyAt (barCell (off d (15 - n))) () 1) c : sProp 𝕄)
      ⊢ cred (tallyAt (barCell c) () 1) :=
  Pipeline.launchCred_tallyAt (.reg barS) (fun d => off d (15 - n)) (fun d => off d (16 - (15 - n)))
    (fun d => off_there d (15 - n) (by omega)) (fun d => off_back d (15 - n) (by omega)) () 1 c

/-- The first `n` families of copies deal each device a row's credit on its receive semaphores below `n`. -/
theorem launch_Ocp (c : Dev nD) : ∀ n : ℕ, n ≤ 15 →
    (Pipeline.launchCred (fun d => Ocp d n) c : sProp 𝕄)
      ⊢ bigSep (Finset.univ.filter fun s : Fin 15 => s.val < n) fun s => cred (tallyAt (recvCell c s) () N)
  | 0, _ => by
    rw [show (fun d : Dev nD => Ocp d 0) = fun _ => (0 : CellTallies nD τ sig Unit) from rfl, Pipeline.launchCred_zero,
      Finset.filter_false_of_mem (fun s _ => Nat.not_lt_zero _), bigSep_empty]
    exact Entails.of_eq rfl
  | n + 1, hn => by
    have ih := launch_Ocp c n (by omega)
    have hv : (fin15 n).val = n := Nat.mod_eq_of_lt (by omega)
    have hs : (Finset.univ.filter fun s : Fin 15 => s.val < n + 1)
        = insert (fin15 n) (Finset.univ.filter fun s : Fin 15 => s.val < n) := by
      ext s
      simp only [Finset.mem_filter, Finset.mem_univ, true_and, Finset.mem_insert]
      constructor
      · intro h
        by_cases e : s.val = n
        · exact Or.inl (Fin.ext (by rw [hv]; exact e))
        · exact Or.inr (by omega)
      · rintro (rfl | h)
        · omega
        · omega
    have hni : fin15 n ∉ Finset.univ.filter fun s : Fin 15 => s.val < n := by
      rw [Finset.mem_filter]; rintro ⟨_, h⟩; omega
    rw [show (fun d : Dev nD => Ocp d (n + 1)) = fun d => Ocp d n + tallyAt (recvCell (off d (15 - n)) (fin15 n)) () N from rfl,
      Pipeline.launchCred_add, hs,
      show bigSep (insert (fin15 n) (Finset.univ.filter fun s : Fin 15 => s.val < n)) (fun s => (cred (tallyAt (recvCell c s) () N) : sProp 𝕄))
        = iprop(cred (tallyAt (recvCell c (fin15 n)) () N) ∗ bigSep (Finset.univ.filter fun s : Fin 15 => s.val < n) fun s => cred (tallyAt (recvCell c s) () N))
        from bigSep_insert hni]
    iintro ⟨H1, H2⟩
    isplitl [H2]
    · iapply (launch_cp (F := F) c n (by omega)); iexact H2
    · iapply ih; iexact H1

/-- On top of the copies' credit, the first `n` families of signals deal each device `n` units on its barrier semaphore. -/
theorem launch_Osg (c : Dev nD) : ∀ n : ℕ, n ≤ 15 →
    (Pipeline.launchCred (fun d => Osg d n) c : sProp 𝕄)
      ⊢ iprop(Pipeline.launchCred (fun d => Ocp d 15) c ∗ cred (tallyAt (barCell c) () n))
  | 0, _ => by
    rw [show (fun d : Dev nD => Osg d 0) = fun d => Ocp d 15 from rfl, tallyAt_zero, cred_zero]
    iintro H
    isplitl [H]
    · iexact H
    · iempintro
  | n + 1, hn => by
    have ih := launch_Osg c n (by omega)
    rw [show (fun d : Dev nD => Osg d (n + 1)) = fun d => Osg d n + tallyAt (barCell (off d (15 - n))) () 1 from rfl,
      Pipeline.launchCred_add,
      show (tallyAt (barCell c) () (n + 1) : CellTallies nD τ sig Unit) = tallyAt (barCell c) () n + tallyAt (barCell c) () 1
        from (tallyAt_add _ _ _ _).symm]
    iintro ⟨H1, H2⟩
    ihave H1' := ih $$ H1
    icases H1' with ⟨Hc, Hb⟩
    isplitl [Hc]
    · iexact Hc
    · iapply (cred_add _ _).2
      isplitl [Hb]
      · iexact Hb
      · iapply (launch_sg (F := F) c n (by omega)); iexact H2

/-- The launch credit of device `c`: fifteen units on its barrier semaphore, a row's credit on each receive semaphore. -/
theorem creds (c : Dev nD) :
    (Pipeline.launchCred O₀ c : sProp 𝕄) ⊢ iprop(cred (tallyAt (barCell c) () 15) ∗ bigSep Finset.univ fun s : Fin 15 => cred (tallyAt (recvCell c s) () N)) := by
  have h15 : (Pipeline.launchCred (fun d => Ocp d 15) c : sProp 𝕄)
      ⊢ bigSep Finset.univ fun s : Fin 15 => cred (tallyAt (recvCell c s) () N) := by
    have h := launch_Ocp (F := F) c 15 le_rfl
    rwa [Finset.filter_true_of_mem (fun s _ => s.isLt)] at h
  refine (launch_Osg (F := F) c 15 le_rfl).trans ?_
  iintro ⟨H1, H2⟩
  isplitl [H2]
  · iexact H2
  · iapply h15; iexact H1

/-- At its barrier wait a device owes its fifteen copies only: receive semaphores, above its barrier semaphore. -/
theorem mayWait_bar (c : Dev nD) :
    (levAts L lv : sProp 𝕄) ⊢ MayWait (c : Thread nD τ) (.reg barS) () (Ocp c 15) :=
  MayOwe.of_cut (L := L) (lev := lv) 1
    (fun p hp => by rw [Finset.mem_singleton.mp hp, L_tc]; exact Finset.mem_singleton_self _)
    (fun g u hg => by obtain ⟨k, _, rfl⟩ := Ocp_pos hg; rw [L_tc]; exact Finset.mem_singleton_self _)
    (fun p hp => by rw [Finset.mem_singleton.mp hp]; exact le_of_eq (lv_bar c ()))
    (fun g u hg => by obtain ⟨k, _, rfl⟩ := Ocp_pos hg; rw [lv_recv]; decide)

/-- The pipeline's own waits on the staging semaphores are allowed, owing everything (before the body) or nothing (after). -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- info: 'Cert.Kernel.Cred.creds' depends on axioms: [propext, Classical.choice, Quot.sound] -/
#guard_msgs in #print axioms creds

/-- info: 'Cert.Kernel.Cred.mayWait_bar' depends on axioms: [propext, Classical.choice, Quot.sound] -/
#guard_msgs in #print axioms mayWait_bar

/-- info: 'Cert.Kernel.Cred.waits' depends on axioms: [propext, Classical.choice, Quot.sound] -/
#guard_msgs in #print axioms waits

end Cert.Kernel.Cred

end
-- ==== Proof.KernelSlots.lean ====
/-
  The receive buffer and its fifteen slots.

  Slot `s` is row `s` of the [15, 1, 256] buffer: the slots are pairwise disjoint and together are the whole
  buffer, so holding the buffer is holding its fifteen slots. A row copied into slot `s` of a device from
  the device `s + 1` places after it leaves, on that slot's elements, exactly what the buffer is to hold
  there in the end, whatever the slot held before.
-/
import proofs.«900922_g7700000000000923_dist_max_ax0_shard0_i_m512_n256_v7x_i16_bf16_1_alg».proof.Proof.KernelSched
import Idealize.ShloMosaic.Lib.Pipeline.Value
import Idealize.ShloMosaic.Lib.ValueLayout

noncomputable section

namespace Cert.Kernel.Slots

open Cert.Kernel Cert.Kernel.Gen Cert.Kernel.Ring Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## A row of the receive buffer, squeezed -/

/-- The elements under slot `s` are those of the rectangle that is row `s` of the buffer. -/
theorem slot_set (s : Fin 15) :
    (slotM s : Memref sig .tc .vmem S1x256 .f32).view.set
      = (Rect.unit (s := S15x1x256) ![s.val, 0, 0] S1x1x256.size (inbSlot s)).set :=
  (View.set_reshape _ _).trans (View.set_slice_whole _ _)

/-- An index of the receive buffer lies under slot `s` exactly when its leading coordinate is `s`. -/
theorem mem_slot (s : Fin 15) (i : S15x1x256.Idx) :
    i ∈ (slotM s : Memref sig .tc .vmem S1x256 .f32).view.set ↔ (i 0).val = s.val := by
  rw [slot_set, Rect.mem_set_unit]
  constructor
  · intro h
    have h0 := h 0
    have e0 : (![s.val, 0, 0] : Fin 3 → ℕ) 0 = s.val := rfl
    have e1 : S1x1x256.size 0 = 1 := rfl
    rw [e0, e1] at h0
    omega
  · intro h a
    match a with
    | ⟨0, _⟩ =>
      show s.val ≤ (i 0).val ∧ (i 0).val < s.val + 1
      omega
    | ⟨1, _⟩ =>
      show 0 ≤ (i 1).val ∧ (i 1).val < 0 + 1
      have := (i 1).isLt
      have e : S15x1x256.size 1 = 1 := rfl
      omega
    | ⟨2, _⟩ =>
      show 0 ≤ (i 2).val ∧ (i 2).val < 0 + 256
      have := (i 2).isLt
      have e : S15x1x256.size 2 = 256 := rfl
      omega

/-- Row `k` of a view of shape `[n, 1, b]`, taken as a rectangle and squeezed to `[1, b]`, places its index
    `(u, y)` where the view places `(k, u, y)`. -/
theorem emb_row_squeeze {κ : Kind} {sp : Space} {e : EltTy} {n b : ℕ} (v : View sig κ sp ⟨3, ![n, 1, b]⟩ e) (k : Fin n)
    (inb : ∀ a, (![k.val, 0, 0] : Fin 3 → ℕ) a + (![1, 1, b] : Fin 3 → ℕ) a ≤ (⟨3, ![n, 1, b]⟩ : Shape).size a)
    (h : (⟨2, ![1, b]⟩ : Shape).numel = (⟨3, ![1, 1, b]⟩ : Shape).numel) (u : Fin 1) (y : Fin b) :
    ((v.slice (Rect.unit (s := ⟨3, ![n, 1, b]⟩) ![k.val, 0, 0] ![1, 1, b] inb)).reshape ⟨2, ![1, b]⟩ h).emb (ix2 u y)
      = v.emb (ix3 k u y) := by
  show v.emb ((Rect.unit (s := ⟨3, ![n, 1, b]⟩) ![k.val, 0, 0] ![1, 1, b] inb).emb
      (Shape.reshapeEquiv (s := ⟨3, ![1, 1, b]⟩) (s' := ⟨2, ![1, b]⟩) h (ix2 u y))) = v.emb (ix3 k u y)
  rw [reshapeEquiv_ix2_1ab h u y]
  congr 1
  funext a
  match a with
  | ⟨0, _⟩ => exact Fin.ext (show k.val + 1 * 0 = k.val by omega)
  | ⟨1, _⟩ => exact Fin.ext (show 0 + 1 * u.val = u.val by omega)
  | ⟨2, _⟩ => exact Fin.ext (show 0 + 1 * y.val = y.val by omega)

/-- Where slot `s` places its index `(u, y)`: at `(s, u, y)`. -/
theorem slot_emb (s : Fin 15) (u : Fin 1) (y : Fin 256) :
    ((slotM s : Memref sig .tc .vmem S1x256 .f32).view.emb (ix2 u y) : S15x1x256.Idx) = ix3 s u y :=
  emb_row_squeeze (View.whole cc0_scratch1 : View sig .tc .vmem S15x1x256 .f32) s (inbSlot s) squeezes_S1x1x256_S1x256.numel_eq u y

/-- The receive buffer whole at contents `f` is its fifteen slots, each at `f`. -/
theorem comm_cut (c : Dev nD) (f : Buf (Elt F) ((c : Thread nD τ).loc cc0_scratch1)) :
    ((((c : Thread nD τ).loc cc0_scratch1) ↦{fullShare} f) : sProp 𝕄) = bigSep Finset.univ fun s : Fin 15 => slotPts c s f := by
  -- distinct slots share no element: their indices differ in the leading coordinate
  have hD : ∀ s ∈ (Finset.univ : Finset (Fin 15)), ∀ s' ∈ (Finset.univ : Finset (Fin 15)), s ≠ s' →
      Disjoint ((slotM s : Memref sig .tc .vmem S1x256 .f32).view.set : Finset (Idx ((c : Thread nD τ).loc cc0_scratch1)))
        (slotM s' : Memref sig .tc .vmem S1x256 .f32).view.set := by
    intro s _ s' _ hne
    refine Finset.disjoint_left.mpr fun i hi hi' => hne (Fin.ext ?_)
    rw [← (mem_slot s i).mp hi, (mem_slot s' i).mp hi']
  have key := pointsTo_biUnion (Ix := Unit) (Val := Elt F) (Name := ℕ) (U := UU) (Lvl := ℕ)
      (ℓ := (c : Thread nD τ).loc cc0_scratch1) (q := fullShare) (f := f) (Finset.univ : Finset (Fin 15))
      (fun s => ((slotM s : Memref sig .tc .vmem S1x256 .f32).view.set : Finset (Idx ((c : Thread nD τ).loc cc0_scratch1)))) hD
  refine Eq.trans (congrArg (fun I => ((((c : Thread nD τ).loc cc0_scratch1) ↦[I]{fullShare} f) : sProp 𝕄)) ?_) key
  -- every index lies in the slot its leading coordinate names
  refine (Finset.eq_univ_of_forall fun i => Finset.mem_biUnion.mpr ⟨⟨(i 0).val, (i 0).isLt⟩, Finset.mem_univ _, ?_⟩).symm
  exact (mem_slot _ i).mpr rfl

/-- The row of the device `s + 1` places after `c'`, copied whole into slot `s` of `c'` over any contents `fd`,
    leaves the slot holding what `c'`'s receive buffer ends holding there. -/
theorem landed_eq (c' : Dev nD) (s : Fin 15) (fd : Buf (Elt F) ((slotM s : Memref sig .tc .vmem S1x256 .f32).view.loc (c' : Thread nD τ))) :
    (((slotM s : Memref sig .tc .vmem S1x256 .f32).view.loc (c' : Thread nD τ) ↦[(slotM s : Memref sig .tc .vmem S1x256 .f32).view.set]{fullShare}
        ((slotM s : Memref sig .tc .vmem S1x256 .f32).view.write (Elt F) fd ((aM : Memref sig .tc .vmem S1x256 .f32).view.read (Elt F) (accV m (off c' (s.val + 1)))) Finset.univ)) : sProp 𝕄)
      = slotPts c' s (commV m c') := by
  unfold slotPts
  refine pointsTo_congr fun i hi => ?_
  obtain ⟨x, rfl⟩ := View.exists_emb_of_mem_set _ hi
  rw [View.write_emb_of_mem _ _ (Finset.mem_univ x)]
  refine (cast_eq _ _).trans ?_
  -- the row read whole is the partial result itself
  have hread : (aM : Memref sig .tc .vmem S1x256 .f32).view.read (Elt F) (accV m (off c' (s.val + 1))) = accV m (off c' (s.val + 1)) :=
    View.read_whole _ _
  rw [hread]
  -- the slot places `(u, y)` at `(s, u, y)`, where the buffer is to hold the device `s + 1` places on's value at `(u, y)`
  obtain ⟨u, y, rfl⟩ : ∃ u y, x = ix2 u y := ⟨x 0, x 1, eq_ix2 x⟩
  show accOf (xblk m (off c' (s.val + 1))) (ix2 u y)
      = commOf (fun d => accOf (xblk m d)) c' ((slotM s : Memref sig .tc .vmem S1x256 .f32).view.emb (ix2 u y))
  rw [slot_emb s u y]
  rfl

/-- info: 'Cert.Kernel.Slots.comm_cut' depends on axioms: [propext, Classical.choice, Quot.sound] -/
#guard_msgs in #print axioms comm_cut

/-- info: 'Cert.Kernel.Slots.landed_eq' depends on axioms: [propext, Classical.choice, Quot.sound] -/
#guard_msgs in #print axioms landed_eq

end Cert.Kernel.Slots

end
-- ==== Proof.KernelSteps.lean ====
/-
  One remote copy of a device's partial result into a peer's slot, as a step of the protocol.

  Copy `j + 1` of device `c` reads `c`'s partial result, of which it was lent a share, and writes slot `14 - j`
  of the device `j + 1` places on. When the partial result has been read, `c`'s send semaphore `j` is credited
  and the share comes back; when the row has landed, the peer's receive semaphore `14 - j` is credited and the
  peer is handed the slot, which then holds what its receive buffer is to hold there in the end: the partial
  result of the device `15 - j` places after the peer, which is `c`. The full share of the partial result
  divides into the fifteen shares lent to the copies and a rest.
-/
import proofs.«900922_g7700000000000923_dist_max_ax0_shard0_i_m512_n256_v7x_i16_bf16_1_alg».proof.Proof.KernelSched
import proofs.«900922_g7700000000000923_dist_max_ax0_shard0_i_m512_n256_v7x_i16_bf16_1_alg».proof.Proof.KernelSlots
import Idealize.ShloMosaic.Lib.Pipeline.Launch
import Idealize.ShloMosaic.Lib.Tactic

noncomputable section

namespace Cert.Kernel.Steps

open Cert.Kernel Cert.Kernel.Gen Cert.Kernel.Ring Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device reached from the peer `j + 1` places on by the offset of slot `14 - j` is the sender itself. -/
theorem off_peer (c : Dev nD) (j : Fin 15) : off (off c (j.val + 1)) ((peerSlot j).val + 1) = c := by
  have hj := j.isLt
  rw [off_off, show j.val + 1 + ((peerSlot j).val + 1) = 16 by show j.val + 1 + (14 - j.val + 1) = 16; omega, off_sixteen]

/-- Copy `j + 1` of device `c`, addressed to `n`, the device `j + 1` places on: from the two semaphores' invariants, the
    lent share of the partial result, the peer's slot at any contents, the copy's debt among what `c` owes and the two
    duties' tokens, it goes on owing the rest and holding the send semaphore's credit. -/
theorem wp_copy (c n : Dev nD) (j : Fin 15) (hn : n = off c (j.val + 1))
    {hsc : (slotM (peerSlot j) : Memref sig (Dev.tc n : Thread nD τ).2.kind .vmem S1x256 .f32).view.ref.isScScratch = false}
    {hsrc : (aM : Memref sig .tc .vmem S1x256 .f32).view.WordExact} {hdst : (slotM (peerSlot j) : Memref sig .tc .vmem S1x256 .f32).view.WordExact}
    {hsem : DmaTarget.Typed .vmem (.dma (recvS (peerSlot j))) (.remote (Dev.tc n : Thread nD τ) (slotM (peerSlot j) : Memref sig .tc .vmem S1x256 .f32) (.dma (sendS j)) hsc)}
    {α : Type} {Q : α → sProp 𝕄} {k : PUnit → Prog (TpuEff nD τ sig (Elt F) Λ₀ .tc) α} (κ₁ κ₂ : ℕ)
    (fn : Buf (Elt F) ((slotM (peerSlot j) : Memref sig .tc .vmem S1x256 .f32).view.loc (off c (j.val + 1) : Thread nD τ)))
    (O : CellTallies nD τ sig Unit) (W : Waits sig Unit) :
    iprop(cellInv ER (sched m) κ₁ (sendCell c j) ∗ cellInv ER (sched m) κ₂ (recvCell (off c (j.val + 1)) (peerSlot j))
        ∗ accPts c (shr j.val) (accV m c) ∗ slotPts (off c (j.val + 1)) (peerSlot j) fn
        ∗ owes (c : Thread nD τ) (O + tallyAt (recvCell (off c (j.val + 1)) (peerSlot j)) () N) W
        ∗ dutyTok ER (sendCell c j) 0 (0 : Fin 15) ∗ reached ER (sendCell c j) 0
        ∗ dutyTok ER (recvCell (off c (j.val + 1)) (peerSlot j)) 0 (0 : Fin 15) ∗ reached ER (recvCell (off c (j.val + 1)) (peerSlot j)) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (peerSlot j)) (.dma (sendS j)) hsc) (.dma (recvS (peerSlot j))) hsrc hdst hsem) k) Q) := by
  subst hn
  unfold accPts slotPts
  exact Rounds.wp_send_pointsTo 𝒱₀ ER (sched m) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () N (slot_amount _) (amount_send m c j 0) (amount_recv m _ _ 0) O rfl (W := W)
    (by rw [payload_send]; exact BI.Entails.refl _)
    (by
      rw [payload_recv]; unfold recvPay
      rw [← Slots.landed_eq m (off c (j.val + 1)) (peerSlot j) fn, off_peer])

/-- The full share of the partial result is the fifteen shares lent to the copies and what is left after them. -/
theorem acc_shares (c : Dev nD) (f : Buf (Elt F) ((aM : Memref sig .tc .vmem S1x256 .f32).view.loc (c : Thread nD τ))) :
    (accPts c fullShare f : sProp 𝕄) ⊣⊢ iprop(accPts c (shr 0) f ∗ accPts c (shr 1) f ∗ accPts c (shr 2) f ∗ accPts c (shr 3) f ∗ accPts c (shr 4) f ∗ accPts c (shr 5) f ∗ accPts c (shr 6) f ∗ accPts c (shr 7) f ∗ accPts c (shr 8) f ∗ accPts c (shr 9) f ∗ accPts c (shr 10) f ∗ accPts c (shr 11) f ∗ accPts c (shr 12) f ∗ accPts c (shr 13) f ∗ accPts c (shr 14) f ∗ accPts c (rem 15) f) :=
  (accPts_split c 0 f).trans (sep_congr_right ((accPts_split c 1 f).trans (sep_congr_right ((accPts_split c 2 f).trans (sep_congr_right ((accPts_split c 3 f).trans (sep_congr_right ((accPts_split c 4 f).trans (sep_congr_right ((accPts_split c 5 f).trans (sep_congr_right ((accPts_split c 6 f).trans (sep_congr_right ((accPts_split c 7 f).trans (sep_congr_right ((accPts_split c 8 f).trans (sep_congr_right ((accPts_split c 9 f).trans (sep_congr_right ((accPts_split c 10 f).trans (sep_congr_right ((accPts_split c 11 f).trans (sep_congr_right ((accPts_split c 12 f).trans (sep_congr_right ((accPts_split c 13 f).trans (sep_congr_right (accPts_split c 14 f))))))))))))))))))))))))))))

/-- info: 'Cert.Kernel.Steps.wp_copy' depends on axioms: [propext, Classical.choice, Quot.sound] -/
#guard_msgs in #print axioms wp_copy

/-- info: 'Cert.Kernel.Steps.acc_shares' depends on axioms: [propext, Classical.choice, Quot.sound] -/
#guard_msgs in #print axioms acc_shares

end Cert.Kernel.Steps

end
-- ==== Proof.KernelBody.lean ====
/-
  One device's body, from the protocol's ghost state to the end of the kernel.

  Device `c` cuts its receive buffer into its fifteen slots and signals each peer's barrier semaphore, handing
  the peer `j + 1` places on its slot `j` (the slot that peer's row is to land in). It stores its partial result,
  the column maxima of its block, and waits for the fifteen units of its own barrier semaphore, still owing its
  fifteen copies: the round's payloads are the fifteen peers' slots its own row goes into. The partial result is
  then lent in fifteen shares, one to each copy, a sixteenth kept to read it. Copy `j + 1` goes to the peer
  `j + 1` places on, into its slot `14 - j`: it pays the duty of that slot's receive semaphore, whose payload is the
  slot holding what that peer's receive buffer is to hold there (the row of the device `15 - j` places after that
  peer, which is `c`), and the duty of `c`'s send semaphore `j`, whose payload is the lent share. The fifteen
  receive waits bring the fifteen slots, each at what the receive buffer is to hold: joined, the buffer whole at
  every peer's partial result. The result is stored: the maximum of the own partial result and the fifteen
  received rows. The fifteen send waits bring the shares back, and the partial-result buffer is whole again. The
  thirty own semaphores, their one round consumed, close.
-/
import proofs.«900922_g7700000000000923_dist_max_ax0_shard0_i_m512_n256_v7x_i16_bf16_1_alg».proof.Proof.KernelSched
import proofs.«900922_g7700000000000923_dist_max_ax0_shard0_i_m512_n256_v7x_i16_bf16_1_alg».proof.Proof.KernelCred
import proofs.«900922_g7700000000000923_dist_max_ax0_shard0_i_m512_n256_v7x_i16_bf16_1_alg».proof.Proof.KernelSlots
import proofs.«900922_g7700000000000923_dist_max_ax0_shard0_i_m512_n256_v7x_i16_bf16_1_alg».proof.Proof.KernelSteps
import proofs.«900922_g7700000000000923_dist_max_ax0_shard0_i_m512_n256_v7x_i16_bf16_1_alg».proof.Proof.Gen.Kernel.Skeleton
import proofs.«900922_g7700000000000923_dist_max_ax0_shard0_i_m512_n256_v7x_i16_bf16_1_alg».proof.Proof.Gen.Kernel.Launch
import proofs.«900922_g7700000000000923_dist_max_ax0_shard0_i_m512_n256_v7x_i16_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Ring Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem val0 : (((0 : Fin 15) : Fin 15) : ℕ) = 0 := rfl
theorem val1 : (((1 : Fin 15) : Fin 15) : ℕ) = 1 := rfl
theorem val2 : (((2 : Fin 15) : Fin 15) : ℕ) = 2 := rfl
theorem val3 : (((3 : Fin 15) : Fin 15) : ℕ) = 3 := rfl
theorem val4 : (((4 : Fin 15) : Fin 15) : ℕ) = 4 := rfl
theorem val5 : (((5 : Fin 15) : Fin 15) : ℕ) = 5 := rfl
theorem val6 : (((6 : Fin 15) : Fin 15) : ℕ) = 6 := rfl
theorem val7 : (((7 : Fin 15) : Fin 15) : ℕ) = 7 := rfl
theorem val8 : (((8 : Fin 15) : Fin 15) : ℕ) = 8 := rfl
theorem val9 : (((9 : Fin 15) : Fin 15) : ℕ) = 9 := rfl
theorem val10 : (((10 : Fin 15) : Fin 15) : ℕ) = 10 := rfl
theorem val11 : (((11 : Fin 15) : Fin 15) : ℕ) = 11 := rfl
theorem val12 : (((12 : Fin 15) : Fin 15) : ℕ) = 12 := rfl
theorem val13 : (((13 : Fin 15) : Fin 15) : ℕ) = 13 := rfl
theorem val14 : (((14 : Fin 15) : Fin 15) : ℕ) = 14 := rfl
theorem ps0 : peerSlot (0 : Fin 15) = (14 : Fin 15) := rfl
theorem ps1 : peerSlot (1 : Fin 15) = (13 : Fin 15) := rfl
theorem ps2 : peerSlot (2 : Fin 15) = (12 : Fin 15) := rfl
theorem ps3 : peerSlot (3 : Fin 15) = (11 : Fin 15) := rfl
theorem ps4 : peerSlot (4 : Fin 15) = (10 : Fin 15) := rfl
theorem ps5 : peerSlot (5 : Fin 15) = (9 : Fin 15) := rfl
theorem ps6 : peerSlot (6 : Fin 15) = (8 : Fin 15) := rfl
theorem ps7 : peerSlot (7 : Fin 15) = (7 : Fin 15) := rfl
theorem ps8 : peerSlot (8 : Fin 15) = (6 : Fin 15) := rfl
theorem ps9 : peerSlot (9 : Fin 15) = (5 : Fin 15) := rfl
theorem ps10 : peerSlot (10 : Fin 15) = (4 : Fin 15) := rfl
theorem ps11 : peerSlot (11 : Fin 15) = (3 : Fin 15) := rfl
theorem ps12 : peerSlot (12 : Fin 15) = (2 : Fin 15) := rfl
theorem ps13 : peerSlot (13 : Fin 15) = (1 : Fin 15) := rfl
theorem ps14 : peerSlot (14 : Fin 15) = (0 : Fin 15) := rfl
theorem f15_0 : fin15 0 = (0 : Fin 15) := rfl
theorem f15_1 : fin15 1 = (1 : Fin 15) := rfl
theorem f15_2 : fin15 2 = (2 : Fin 15) := rfl
theorem f15_3 : fin15 3 = (3 : Fin 15) := rfl
theorem f15_4 : fin15 4 = (4 : Fin 15) := rfl
theorem f15_5 : fin15 5 = (5 : Fin 15) := rfl
theorem f15_6 : fin15 6 = (6 : Fin 15) := rfl
theorem f15_7 : fin15 7 = (7 : Fin 15) := rfl
theorem f15_8 : fin15 8 = (8 : Fin 15) := rfl
theorem f15_9 : fin15 9 = (9 : Fin 15) := rfl
theorem f15_10 : fin15 10 = (10 : Fin 15) := rfl
theorem f15_11 : fin15 11 = (11 : Fin 15) := rfl
theorem f15_12 : fin15 12 = (12 : Fin 15) := rfl
theorem f15_13 : fin15 13 = (13 : Fin 15) := rfl
theorem f15_14 : fin15 14 = (14 : Fin 15) := rfl
theorem payload_bar_lit0 (c : Dev nD) : (sched (F := F) m).payload (barCell (off c 1)) 0 (0 : Fin 15) = iprop(∃ f, slotPts c (0 : Fin 15) f) := by
  rw [payload_bar]; unfold barPay; rw [show off (off c 1) (15 - ((0 : Fin 15) : ℕ)) = c from off_back c 1 (by decide)]
theorem payload_bar_lit1 (c : Dev nD) : (sched (F := F) m).payload (barCell (off c 2)) 0 (1 : Fin 15) = iprop(∃ f, slotPts c (1 : Fin 15) f) := by
  rw [payload_bar]; unfold barPay; rw [show off (off c 2) (15 - ((1 : Fin 15) : ℕ)) = c from off_back c 2 (by decide)]
theorem payload_bar_lit2 (c : Dev nD) : (sched (F := F) m).payload (barCell (off c 3)) 0 (2 : Fin 15) = iprop(∃ f, slotPts c (2 : Fin 15) f) := by
  rw [payload_bar]; unfold barPay; rw [show off (off c 3) (15 - ((2 : Fin 15) : ℕ)) = c from off_back c 3 (by decide)]
theorem payload_bar_lit3 (c : Dev nD) : (sched (F := F) m).payload (barCell (off c 4)) 0 (3 : Fin 15) = iprop(∃ f, slotPts c (3 : Fin 15) f) := by
  rw [payload_bar]; unfold barPay; rw [show off (off c 4) (15 - ((3 : Fin 15) : ℕ)) = c from off_back c 4 (by decide)]
theorem payload_bar_lit4 (c : Dev nD) : (sched (F := F) m).payload (barCell (off c 5)) 0 (4 : Fin 15) = iprop(∃ f, slotPts c (4 : Fin 15) f) := by
  rw [payload_bar]; unfold barPay; rw [show off (off c 5) (15 - ((4 : Fin 15) : ℕ)) = c from off_back c 5 (by decide)]
theorem payload_bar_lit5 (c : Dev nD) : (sched (F := F) m).payload (barCell (off c 6)) 0 (5 : Fin 15) = iprop(∃ f, slotPts c (5 : Fin 15) f) := by
  rw [payload_bar]; unfold barPay; rw [show off (off c 6) (15 - ((5 : Fin 15) : ℕ)) = c from off_back c 6 (by decide)]
theorem payload_bar_lit6 (c : Dev nD) : (sched (F := F) m).payload (barCell (off c 7)) 0 (6 : Fin 15) = iprop(∃ f, slotPts c (6 : Fin 15) f) := by
  rw [payload_bar]; unfold barPay; rw [show off (off c 7) (15 - ((6 : Fin 15) : ℕ)) = c from off_back c 7 (by decide)]
theorem payload_bar_lit7 (c : Dev nD) : (sched (F := F) m).payload (barCell (off c 8)) 0 (7 : Fin 15) = iprop(∃ f, slotPts c (7 : Fin 15) f) := by
  rw [payload_bar]; unfold barPay; rw [show off (off c 8) (15 - ((7 : Fin 15) : ℕ)) = c from off_back c 8 (by decide)]
theorem payload_bar_lit8 (c : Dev nD) : (sched (F := F) m).payload (barCell (off c 9)) 0 (8 : Fin 15) = iprop(∃ f, slotPts c (8 : Fin 15) f) := by
  rw [payload_bar]; unfold barPay; rw [show off (off c 9) (15 - ((8 : Fin 15) : ℕ)) = c from off_back c 9 (by decide)]
theorem payload_bar_lit9 (c : Dev nD) : (sched (F := F) m).payload (barCell (off c 10)) 0 (9 : Fin 15) = iprop(∃ f, slotPts c (9 : Fin 15) f) := by
  rw [payload_bar]; unfold barPay; rw [show off (off c 10) (15 - ((9 : Fin 15) : ℕ)) = c from off_back c 10 (by decide)]
theorem payload_bar_lit10 (c : Dev nD) : (sched (F := F) m).payload (barCell (off c 11)) 0 (10 : Fin 15) = iprop(∃ f, slotPts c (10 : Fin 15) f) := by
  rw [payload_bar]; unfold barPay; rw [show off (off c 11) (15 - ((10 : Fin 15) : ℕ)) = c from off_back c 11 (by decide)]
theorem payload_bar_lit11 (c : Dev nD) : (sched (F := F) m).payload (barCell (off c 12)) 0 (11 : Fin 15) = iprop(∃ f, slotPts c (11 : Fin 15) f) := by
  rw [payload_bar]; unfold barPay; rw [show off (off c 12) (15 - ((11 : Fin 15) : ℕ)) = c from off_back c 12 (by decide)]
theorem payload_bar_lit12 (c : Dev nD) : (sched (F := F) m).payload (barCell (off c 13)) 0 (12 : Fin 15) = iprop(∃ f, slotPts c (12 : Fin 15) f) := by
  rw [payload_bar]; unfold barPay; rw [show off (off c 13) (15 - ((12 : Fin 15) : ℕ)) = c from off_back c 13 (by decide)]
theorem payload_bar_lit13 (c : Dev nD) : (sched (F := F) m).payload (barCell (off c 14)) 0 (13 : Fin 15) = iprop(∃ f, slotPts c (13 : Fin 15) f) := by
  rw [payload_bar]; unfold barPay; rw [show off (off c 14) (15 - ((13 : Fin 15) : ℕ)) = c from off_back c 14 (by decide)]
theorem payload_bar_lit14 (c : Dev nD) : (sched (F := F) m).payload (barCell (off c 15)) 0 (14 : Fin 15) = iprop(∃ f, slotPts c (14 : Fin 15) f) := by
  rw [payload_bar]; unfold barPay; rw [show off (off c 15) (15 - ((14 : Fin 15) : ℕ)) = c from off_back c 15 (by decide)]

theorem view_eq (c : Dev nD) (b : Ref sig .tc) (f : Buf (Elt F) (((c : Dev nD) : Thread nD τ).loc b)) :
    ((((c : Thread nD τ).loc b) ↦{fullShare} f) : sProp 𝕄)
      = ((Memref.whole b : Memref sig .tc _ _ _).view.loc (c : Thread nD τ) ↦[(Memref.whole b : Memref sig .tc _ _ _).view.set]{fullShare} f) := by
  rw [show (Memref.whole b : Memref sig .tc _ _ _).view.set = Finset.univ from View.set_whole _]

theorem hz2 : (![0, 0] : Fin 2 → Nat) = fun _ => 0 := funext fun a => by fin_cases a <;> rfl

/-- The stored partial result: the column maxima of the device's block. -/
theorem acc_stored (c : Dev nD) (fa0 : Buf (Elt F) ((c : Thread nD τ).loc cc0_scratch0))
    (i1 : ∀ a, (![0, 0] : Fin 2 → Nat) a + S1x256.size a ≤ S1x256.size a) (i2 : ∀ a, (![0, 0] : Fin 2 → Nat) a + S512x256.size a ≤ S512x256.size a) :
    (aM : Memref sig .tc .vmem S1x256 .f32).view.writes (Elt F) fa0
      [⟨Rect.unit (s := S1x256) ![0, 0] S1x256.size i1, k0_pay1 (View.readAt (Elt F) (xM : Memref sig .tc .vmem S512x256 .f32).view (Rect.unit (s := S512x256) ![0, 0] S512x256.size i2).toLoadRect (xblk m c))⟩]
      = accV m c := by
  have e1 : View.readAt (Elt F) (xM : Memref sig .tc .vmem S512x256 .f32).view (Rect.unit (s := S512x256) ![0, 0] S512x256.size i2).toLoadRect (xblk m c) = xblk m c :=
    Memref.readAt_unit_zero (Elt F) cc0_stg0_0 hz2 i2 (xblk m c)
  rw [View.writes_singleton, e1]
  exact Memref.write_access_unit_zero_univ (Elt F) cc0_scratch0 hz2 i1 fa0 _

theorem payload_send_lit0 (c : Dev nD) (d : Fin 15) : (sched (F := F) m).payload (sendCell c (0 : Fin 15)) 0 d
    = ((aM : Memref sig .tc .vmem S1x256 .f32).view.loc (c : Thread nD τ) ↦[(aM : Memref sig .tc .vmem S1x256 .f32).view.set]{shr 0} accV m c) := by
  rw [payload_send]; rfl
theorem payload_send_lit1 (c : Dev nD) (d : Fin 15) : (sched (F := F) m).payload (sendCell c (1 : Fin 15)) 0 d
    = ((aM : Memref sig .tc .vmem S1x256 .f32).view.loc (c : Thread nD τ) ↦[(aM : Memref sig .tc .vmem S1x256 .f32).view.set]{shr 1} accV m c) := by
  rw [payload_send]; rfl
theorem payload_send_lit2 (c : Dev nD) (d : Fin 15) : (sched (F := F) m).payload (sendCell c (2 : Fin 15)) 0 d
    = ((aM : Memref sig .tc .vmem S1x256 .f32).view.loc (c : Thread nD τ) ↦[(aM : Memref sig .tc .vmem S1x256 .f32).view.set]{shr 2} accV m c) := by
  rw [payload_send]; rfl
theorem payload_send_lit3 (c : Dev nD) (d : Fin 15) : (sched (F := F) m).payload (sendCell c (3 : Fin 15)) 0 d
    = ((aM : Memref sig .tc .vmem S1x256 .f32).view.loc (c : Thread nD τ) ↦[(aM : Memref sig .tc .vmem S1x256 .f32).view.set]{shr 3} accV m c) := by
  rw [payload_send]; rfl
theorem payload_send_lit4 (c : Dev nD) (d : Fin 15) : (sched (F := F) m).payload (sendCell c (4 : Fin 15)) 0 d
    = ((aM : Memref sig .tc .vmem S1x256 .f32).view.loc (c : Thread nD τ) ↦[(aM : Memref sig .tc .vmem S1x256 .f32).view.set]{shr 4} accV m c) := by
  rw [payload_send]; rfl
theorem payload_send_lit5 (c : Dev nD) (d : Fin 15) : (sched (F := F) m).payload (sendCell c (5 : Fin 15)) 0 d
    = ((aM : Memref sig .tc .vmem S1x256 .f32).view.loc (c : Thread nD τ) ↦[(aM : Memref sig .tc .vmem S1x256 .f32).view.set]{shr 5} accV m c) := by
  rw [payload_send]; rfl
theorem payload_send_lit6 (c : Dev nD) (d : Fin 15) : (sched (F := F) m).payload (sendCell c (6 : Fin 15)) 0 d
    = ((aM : Memref sig .tc .vmem S1x256 .f32).view.loc (c : Thread nD τ) ↦[(aM : Memref sig .tc .vmem S1x256 .f32).view.set]{shr 6} accV m c) := by
  rw [payload_send]; rfl
theorem payload_send_lit7 (c : Dev nD) (d : Fin 15) : (sched (F := F) m).payload (sendCell c (7 : Fin 15)) 0 d
    = ((aM : Memref sig .tc .vmem S1x256 .f32).view.loc (c : Thread nD τ) ↦[(aM : Memref sig .tc .vmem S1x256 .f32).view.set]{shr 7} accV m c) := by
  rw [payload_send]; rfl
theorem payload_send_lit8 (c : Dev nD) (d : Fin 15) : (sched (F := F) m).payload (sendCell c (8 : Fin 15)) 0 d
    = ((aM : Memref sig .tc .vmem S1x256 .f32).view.loc (c : Thread nD τ) ↦[(aM : Memref sig .tc .vmem S1x256 .f32).view.set]{shr 8} accV m c) := by
  rw [payload_send]; rfl
theorem payload_send_lit9 (c : Dev nD) (d : Fin 15) : (sched (F := F) m).payload (sendCell c (9 : Fin 15)) 0 d
    = ((aM : Memref sig .tc .vmem S1x256 .f32).view.loc (c : Thread nD τ) ↦[(aM : Memref sig .tc .vmem S1x256 .f32).view.set]{shr 9} accV m c) := by
  rw [payload_send]; rfl
theorem payload_send_lit10 (c : Dev nD) (d : Fin 15) : (sched (F := F) m).payload (sendCell c (10 : Fin 15)) 0 d
    = ((aM : Memref sig .tc .vmem S1x256 .f32).view.loc (c : Thread nD τ) ↦[(aM : Memref sig .tc .vmem S1x256 .f32).view.set]{shr 10} accV m c) := by
  rw [payload_send]; rfl
theorem payload_send_lit11 (c : Dev nD) (d : Fin 15) : (sched (F := F) m).payload (sendCell c (11 : Fin 15)) 0 d
    = ((aM : Memref sig .tc .vmem S1x256 .f32).view.loc (c : Thread nD τ) ↦[(aM : Memref sig .tc .vmem S1x256 .f32).view.set]{shr 11} accV m c) := by
  rw [payload_send]; rfl
theorem payload_send_lit12 (c : Dev nD) (d : Fin 15) : (sched (F := F) m).payload (sendCell c (12 : Fin 15)) 0 d
    = ((aM : Memref sig .tc .vmem S1x256 .f32).view.loc (c : Thread nD τ) ↦[(aM : Memref sig .tc .vmem S1x256 .f32).view.set]{shr 12} accV m c) := by
  rw [payload_send]; rfl
theorem payload_send_lit13 (c : Dev nD) (d : Fin 15) : (sched (F := F) m).payload (sendCell c (13 : Fin 15)) 0 d
    = ((aM : Memref sig .tc .vmem S1x256 .f32).view.loc (c : Thread nD τ) ↦[(aM : Memref sig .tc .vmem S1x256 .f32).view.set]{shr 13} accV m c) := by
  rw [payload_send]; rfl
theorem payload_send_lit14 (c : Dev nD) (d : Fin 15) : (sched (F := F) m).payload (sendCell c (14 : Fin 15)) 0 d
    = ((aM : Memref sig .tc .vmem S1x256 .f32).view.loc (c : Thread nD τ) ↦[(aM : Memref sig .tc .vmem S1x256 .f32).view.set]{shr 14} accV m c) := by
  rw [payload_send]; rfl
theorem payload_recv_lit0 (c : Dev nD) (d : Fin 15) : (sched (F := F) m).payload (recvCell c (0 : Fin 15)) 0 d
    = ((slotM (0 : Fin 15) : Memref sig .tc .vmem S1x256 .f32).view.loc (c : Thread nD τ) ↦[(slotM (0 : Fin 15) : Memref sig .tc .vmem S1x256 .f32).view.set]{fullShare} commV m c) := by
  rw [payload_recv]; rfl
theorem payload_recv_lit1 (c : Dev nD) (d : Fin 15) : (sched (F := F) m).payload (recvCell c (1 : Fin 15)) 0 d
    = ((slotM (1 : Fin 15) : Memref sig .tc .vmem S1x256 .f32).view.loc (c : Thread nD τ) ↦[(slotM (1 : Fin 15) : Memref sig .tc .vmem S1x256 .f32).view.set]{fullShare} commV m c) := by
  rw [payload_recv]; rfl
theorem payload_recv_lit2 (c : Dev nD) (d : Fin 15) : (sched (F := F) m).payload (recvCell c (2 : Fin 15)) 0 d
    = ((slotM (2 : Fin 15) : Memref sig .tc .vmem S1x256 .f32).view.loc (c : Thread nD τ) ↦[(slotM (2 : Fin 15) : Memref sig .tc .vmem S1x256 .f32).view.set]{fullShare} commV m c) := by
  rw [payload_recv]; rfl
theorem payload_recv_lit3 (c : Dev nD) (d : Fin 15) : (sched (F := F) m).payload (recvCell c (3 : Fin 15)) 0 d
    = ((slotM (3 : Fin 15) : Memref sig .tc .vmem S1x256 .f32).view.loc (c : Thread nD τ) ↦[(slotM (3 : Fin 15) : Memref sig .tc .vmem S1x256 .f32).view.set]{fullShare} commV m c) := by
  rw [payload_recv]; rfl
theorem payload_recv_lit4 (c : Dev nD) (d : Fin 15) : (sched (F := F) m).payload (recvCell c (4 : Fin 15)) 0 d
    = ((slotM (4 : Fin 15) : Memref sig .tc .vmem S1x256 .f32).view.loc (c : Thread nD τ) ↦[(slotM (4 : Fin 15) : Memref sig .tc .vmem S1x256 .f32).view.set]{fullShare} commV m c) := by
  rw [payload_recv]; rfl
theorem payload_recv_lit5 (c : Dev nD) (d : Fin 15) : (sched (F := F) m).payload (recvCell c (5 : Fin 15)) 0 d
    = ((slotM (5 : Fin 15) : Memref sig .tc .vmem S1x256 .f32).view.loc (c : Thread nD τ) ↦[(slotM (5 : Fin 15) : Memref sig .tc .vmem S1x256 .f32).view.set]{fullShare} commV m c) := by
  rw [payload_recv]; rfl
theorem payload_recv_lit6 (c : Dev nD) (d : Fin 15) : (sched (F := F) m).payload (recvCell c (6 : Fin 15)) 0 d
    = ((slotM (6 : Fin 15) : Memref sig .tc .vmem S1x256 .f32).view.loc (c : Thread nD τ) ↦[(slotM (6 : Fin 15) : Memref sig .tc .vmem S1x256 .f32).view.set]{fullShare} commV m c) := by
  rw [payload_recv]; rfl
theorem payload_recv_lit7 (c : Dev nD) (d : Fin 15) : (sched (F := F) m).payload (recvCell c (7 : Fin 15)) 0 d
    = ((slotM (7 : Fin 15) : Memref sig .tc .vmem S1x256 .f32).view.loc (c : Thread nD τ) ↦[(slotM (7 : Fin 15) : Memref sig .tc .vmem S1x256 .f32).view.set]{fullShare} commV m c) := by
  rw [payload_recv]; rfl
theorem payload_recv_lit8 (c : Dev nD) (d : Fin 15) : (sched (F := F) m).payload (recvCell c (8 : Fin 15)) 0 d
    = ((slotM (8 : Fin 15) : Memref sig .tc .vmem S1x256 .f32).view.loc (c : Thread nD τ) ↦[(slotM (8 : Fin 15) : Memref sig .tc .vmem S1x256 .f32).view.set]{fullShare} commV m c) := by
  rw [payload_recv]; rfl
theorem payload_recv_lit9 (c : Dev nD) (d : Fin 15) : (sched (F := F) m).payload (recvCell c (9 : Fin 15)) 0 d
    = ((slotM (9 : Fin 15) : Memref sig .tc .vmem S1x256 .f32).view.loc (c : Thread nD τ) ↦[(slotM (9 : Fin 15) : Memref sig .tc .vmem S1x256 .f32).view.set]{fullShare} commV m c) := by
  rw [payload_recv]; rfl
theorem payload_recv_lit10 (c : Dev nD) (d : Fin 15) : (sched (F := F) m).payload (recvCell c (10 : Fin 15)) 0 d
    = ((slotM (10 : Fin 15) : Memref sig .tc .vmem S1x256 .f32).view.loc (c : Thread nD τ) ↦[(slotM (10 : Fin 15) : Memref sig .tc .vmem S1x256 .f32).view.set]{fullShare} commV m c) := by
  rw [payload_recv]; rfl
theorem payload_recv_lit11 (c : Dev nD) (d : Fin 15) : (sched (F := F) m).payload (recvCell c (11 : Fin 15)) 0 d
    = ((slotM (11 : Fin 15) : Memref sig .tc .vmem S1x256 .f32).view.loc (c : Thread nD τ) ↦[(slotM (11 : Fin 15) : Memref sig .tc .vmem S1x256 .f32).view.set]{fullShare} commV m c) := by
  rw [payload_recv]; rfl
theorem payload_recv_lit12 (c : Dev nD) (d : Fin 15) : (sched (F := F) m).payload (recvCell c (12 : Fin 15)) 0 d
    = ((slotM (12 : Fin 15) : Memref sig .tc .vmem S1x256 .f32).view.loc (c : Thread nD τ) ↦[(slotM (12 : Fin 15) : Memref sig .tc .vmem S1x256 .f32).view.set]{fullShare} commV m c) := by
  rw [payload_recv]; rfl
theorem payload_recv_lit13 (c : Dev nD) (d : Fin 15) : (sched (F := F) m).payload (recvCell c (13 : Fin 15)) 0 d
    = ((slotM (13 : Fin 15) : Memref sig .tc .vmem S1x256 .f32).view.loc (c : Thread nD τ) ↦[(slotM (13 : Fin 15) : Memref sig .tc .vmem S1x256 .f32).view.set]{fullShare} commV m c) := by
  rw [payload_recv]; rfl
theorem payload_recv_lit14 (c : Dev nD) (d : Fin 15) : (sched (F := F) m).payload (recvCell c (14 : Fin 15)) 0 d
    = ((slotM (14 : Fin 15) : Memref sig .tc .vmem S1x256 .f32).view.loc (c : Thread nD τ) ↦[(slotM (14 : Fin 15) : Memref sig .tc .vmem S1x256 .f32).view.set]{fullShare} commV m c) := by
  rw [payload_recv]; rfl

/-- The receive buffer whole is its fifteen slots, listed. -/
theorem comm_split (c : Dev nD) (f : Buf (Elt F) ((c : Thread nD τ).loc cc0_scratch1)) :
    ((((c : Thread nD τ).loc cc0_scratch1) ↦{fullShare} f) : sProp 𝕄) ⊢ iprop(slotPts c (0 : Fin 15) f ∗ slotPts c (1 : Fin 15) f ∗ slotPts c (2 : Fin 15) f ∗ slotPts c (3 : Fin 15) f ∗ slotPts c (4 : Fin 15) f ∗ slotPts c (5 : Fin 15) f ∗ slotPts c (6 : Fin 15) f ∗ slotPts c (7 : Fin 15) f ∗ slotPts c (8 : Fin 15) f ∗ slotPts c (9 : Fin 15) f ∗ slotPts c (10 : Fin 15) f ∗ slotPts c (11 : Fin 15) f ∗ slotPts c (12 : Fin 15) f ∗ slotPts c (13 : Fin 15) f ∗ slotPts c (14 : Fin 15) f) := by
  rw [Slots.comm_cut, bigSep_fin15]

theorem comm_join (c : Dev nD) (f : Buf (Elt F) ((c : Thread nD τ).loc cc0_scratch1)) :
    (iprop(slotPts c (0 : Fin 15) f ∗ slotPts c (1 : Fin 15) f ∗ slotPts c (2 : Fin 15) f ∗ slotPts c (3 : Fin 15) f ∗ slotPts c (4 : Fin 15) f ∗ slotPts c (5 : Fin 15) f ∗ slotPts c (6 : Fin 15) f ∗ slotPts c (7 : Fin 15) f ∗ slotPts c (8 : Fin 15) f ∗ slotPts c (9 : Fin 15) f ∗ slotPts c (10 : Fin 15) f ∗ slotPts c (11 : Fin 15) f ∗ slotPts c (12 : Fin 15) f ∗ slotPts c (13 : Fin 15) f ∗ slotPts c (14 : Fin 15) f) : sProp 𝕄)
      ⊢ ((cM : Memref sig .tc .vmem S15x1x256 .f32).view.loc (c : Thread nD τ) ↦[(cM : Memref sig .tc .vmem S15x1x256 .f32).view.set]{fullShare} f) := by
  rw [← view_eq (F := F) c cc0_scratch1 f, Slots.comm_cut, bigSep_fin15]

/-- The barrier round's fifteen payloads, listed: slot `j` of the device `15 - j` places on. -/
theorem bar_payloads (c : Dev nD) :
    (bigSep Finset.univ (fun d : Fin 15 => (sched (F := F) m).payload (barCell c) 0 d) : sProp 𝕄)
      ⊢ iprop((∃ f, slotPts (off c 15) (0 : Fin 15) f) ∗ (∃ f, slotPts (off c 14) (1 : Fin 15) f) ∗ (∃ f, slotPts (off c 13) (2 : Fin 15) f) ∗ (∃ f, slotPts (off c 12) (3 : Fin 15) f) ∗ (∃ f, slotPts (off c 11) (4 : Fin 15) f) ∗ (∃ f, slotPts (off c 10) (5 : Fin 15) f) ∗ (∃ f, slotPts (off c 9) (6 : Fin 15) f) ∗ (∃ f, slotPts (off c 8) (7 : Fin 15) f) ∗ (∃ f, slotPts (off c 7) (8 : Fin 15) f) ∗ (∃ f, slotPts (off c 6) (9 : Fin 15) f) ∗ (∃ f, slotPts (off c 5) (10 : Fin 15) f) ∗ (∃ f, slotPts (off c 4) (11 : Fin 15) f) ∗ (∃ f, slotPts (off c 3) (12 : Fin 15) f) ∗ (∃ f, slotPts (off c 2) (13 : Fin 15) f) ∗ (∃ f, slotPts (off c 1) (14 : Fin 15) f)) := by
  rw [bigSep_congr (s := Finset.univ) fun j _ => payload_bar (F := F) m c j, bigSep_fin15]; exact BI.Entails.refl _

theorem wp_copy_lit0 (c n : Dev nD) (hn : n = off c 1)
    {hsc : (slotM (14 : Fin 15) : Memref sig (Dev.tc n : Thread nD τ).2.kind .vmem S1x256 .f32).view.ref.isScScratch = false}
    {hsrc : (aM : Memref sig .tc .vmem S1x256 .f32).view.WordExact} {hdst : (slotM (14 : Fin 15) : Memref sig .tc .vmem S1x256 .f32).view.WordExact}
    {hsem : DmaTarget.Typed .vmem (.dma (recvS (14 : Fin 15))) (.remote (Dev.tc n : Thread nD τ) (slotM (14 : Fin 15) : Memref sig .tc .vmem S1x256 .f32) (.dma (sendS (0 : Fin 15))) hsc)}
    {α : Type} {Q : α → sProp 𝕄} {k : PUnit → Prog (TpuEff nD τ sig (Elt F) Λ₀ .tc) α} (κ₁ κ₂ : ℕ)
    (fn : Buf (Elt F) ((slotM (14 : Fin 15) : Memref sig .tc .vmem S1x256 .f32).view.loc (off c 1 : Thread nD τ)))
    (O : CellTallies nD τ sig Unit) (W : Waits sig Unit) :
    iprop(cellInv ER (sched m) κ₁ (sendCell c (0 : Fin 15)) ∗ cellInv ER (sched m) κ₂ (recvCell (off c 1) (14 : Fin 15))
        ∗ accPts c (shr 0) (accV m c) ∗ slotPts (off c 1) (14 : Fin 15) fn
        ∗ owes (c : Thread nD τ) (O + tallyAt (recvCell (off c 1) (14 : Fin 15)) () N) W
        ∗ dutyTok ER (sendCell c (0 : Fin 15)) 0 (0 : Fin 15) ∗ reached ER (sendCell c (0 : Fin 15)) 0
        ∗ dutyTok ER (recvCell (off c 1) (14 : Fin 15)) 0 (0 : Fin 15) ∗ reached ER (recvCell (off c 1) (14 : Fin 15)) 0)
      ⊢ iprop(((cred (tallyAt (sendCell c (0 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (14 : Fin 15)) (.dma (sendS (0 : Fin 15))) hsc) (.dma (recvS (14 : Fin 15))) hsrc hdst hsem) k) Q) :=
  Steps.wp_copy (F := F) m c n (0 : Fin 15) hn κ₁ κ₂ fn O W

theorem wp_copy_lit1 (c n : Dev nD) (hn : n = off c 2)
    {hsc : (slotM (13 : Fin 15) : Memref sig (Dev.tc n : Thread nD τ).2.kind .vmem S1x256 .f32).view.ref.isScScratch = false}
    {hsrc : (aM : Memref sig .tc .vmem S1x256 .f32).view.WordExact} {hdst : (slotM (13 : Fin 15) : Memref sig .tc .vmem S1x256 .f32).view.WordExact}
    {hsem : DmaTarget.Typed .vmem (.dma (recvS (13 : Fin 15))) (.remote (Dev.tc n : Thread nD τ) (slotM (13 : Fin 15) : Memref sig .tc .vmem S1x256 .f32) (.dma (sendS (1 : Fin 15))) hsc)}
    {α : Type} {Q : α → sProp 𝕄} {k : PUnit → Prog (TpuEff nD τ sig (Elt F) Λ₀ .tc) α} (κ₁ κ₂ : ℕ)
    (fn : Buf (Elt F) ((slotM (13 : Fin 15) : Memref sig .tc .vmem S1x256 .f32).view.loc (off c 2 : Thread nD τ)))
    (O : CellTallies nD τ sig Unit) (W : Waits sig Unit) :
    iprop(cellInv ER (sched m) κ₁ (sendCell c (1 : Fin 15)) ∗ cellInv ER (sched m) κ₂ (recvCell (off c 2) (13 : Fin 15))
        ∗ accPts c (shr 1) (accV m c) ∗ slotPts (off c 2) (13 : Fin 15) fn
        ∗ owes (c : Thread nD τ) (O + tallyAt (recvCell (off c 2) (13 : Fin 15)) () N) W
        ∗ dutyTok ER (sendCell c (1 : Fin 15)) 0 (0 : Fin 15) ∗ reached ER (sendCell c (1 : Fin 15)) 0
        ∗ dutyTok ER (recvCell (off c 2) (13 : Fin 15)) 0 (0 : Fin 15) ∗ reached ER (recvCell (off c 2) (13 : Fin 15)) 0)
      ⊢ iprop(((cred (tallyAt (sendCell c (1 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (13 : Fin 15)) (.dma (sendS (1 : Fin 15))) hsc) (.dma (recvS (13 : Fin 15))) hsrc hdst hsem) k) Q) :=
  Steps.wp_copy (F := F) m c n (1 : Fin 15) hn κ₁ κ₂ fn O W

theorem wp_copy_lit2 (c n : Dev nD) (hn : n = off c 3)
    {hsc : (slotM (12 : Fin 15) : Memref sig (Dev.tc n : Thread nD τ).2.kind .vmem S1x256 .f32).view.ref.isScScratch = false}
    {hsrc : (aM : Memref sig .tc .vmem S1x256 .f32).view.WordExact} {hdst : (slotM (12 : Fin 15) : Memref sig .tc .vmem S1x256 .f32).view.WordExact}
    {hsem : DmaTarget.Typed .vmem (.dma (recvS (12 : Fin 15))) (.remote (Dev.tc n : Thread nD τ) (slotM (12 : Fin 15) : Memref sig .tc .vmem S1x256 .f32) (.dma (sendS (2 : Fin 15))) hsc)}
    {α : Type} {Q : α → sProp 𝕄} {k : PUnit → Prog (TpuEff nD τ sig (Elt F) Λ₀ .tc) α} (κ₁ κ₂ : ℕ)
    (fn : Buf (Elt F) ((slotM (12 : Fin 15) : Memref sig .tc .vmem S1x256 .f32).view.loc (off c 3 : Thread nD τ)))
    (O : CellTallies nD τ sig Unit) (W : Waits sig Unit) :
    iprop(cellInv ER (sched m) κ₁ (sendCell c (2 : Fin 15)) ∗ cellInv ER (sched m) κ₂ (recvCell (off c 3) (12 : Fin 15))
        ∗ accPts c (shr 2) (accV m c) ∗ slotPts (off c 3) (12 : Fin 15) fn
        ∗ owes (c : Thread nD τ) (O + tallyAt (recvCell (off c 3) (12 : Fin 15)) () N) W
        ∗ dutyTok ER (sendCell c (2 : Fin 15)) 0 (0 : Fin 15) ∗ reached ER (sendCell c (2 : Fin 15)) 0
        ∗ dutyTok ER (recvCell (off c 3) (12 : Fin 15)) 0 (0 : Fin 15) ∗ reached ER (recvCell (off c 3) (12 : Fin 15)) 0)
      ⊢ iprop(((cred (tallyAt (sendCell c (2 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (12 : Fin 15)) (.dma (sendS (2 : Fin 15))) hsc) (.dma (recvS (12 : Fin 15))) hsrc hdst hsem) k) Q) :=
  Steps.wp_copy (F := F) m c n (2 : Fin 15) hn κ₁ κ₂ fn O W

theorem wp_copy_lit3 (c n : Dev nD) (hn : n = off c 4)
    {hsc : (slotM (11 : Fin 15) : Memref sig (Dev.tc n : Thread nD τ).2.kind .vmem S1x256 .f32).view.ref.isScScratch = false}
    {hsrc : (aM : Memref sig .tc .vmem S1x256 .f32).view.WordExact} {hdst : (slotM (11 : Fin 15) : Memref sig .tc .vmem S1x256 .f32).view.WordExact}
    {hsem : DmaTarget.Typed .vmem (.dma (recvS (11 : Fin 15))) (.remote (Dev.tc n : Thread nD τ) (slotM (11 : Fin 15) : Memref sig .tc .vmem S1x256 .f32) (.dma (sendS (3 : Fin 15))) hsc)}
    {α : Type} {Q : α → sProp 𝕄} {k : PUnit → Prog (TpuEff nD τ sig (Elt F) Λ₀ .tc) α} (κ₁ κ₂ : ℕ)
    (fn : Buf (Elt F) ((slotM (11 : Fin 15) : Memref sig .tc .vmem S1x256 .f32).view.loc (off c 4 : Thread nD τ)))
    (O : CellTallies nD τ sig Unit) (W : Waits sig Unit) :
    iprop(cellInv ER (sched m) κ₁ (sendCell c (3 : Fin 15)) ∗ cellInv ER (sched m) κ₂ (recvCell (off c 4) (11 : Fin 15))
        ∗ accPts c (shr 3) (accV m c) ∗ slotPts (off c 4) (11 : Fin 15) fn
        ∗ owes (c : Thread nD τ) (O + tallyAt (recvCell (off c 4) (11 : Fin 15)) () N) W
        ∗ dutyTok ER (sendCell c (3 : Fin 15)) 0 (0 : Fin 15) ∗ reached ER (sendCell c (3 : Fin 15)) 0
        ∗ dutyTok ER (recvCell (off c 4) (11 : Fin 15)) 0 (0 : Fin 15) ∗ reached ER (recvCell (off c 4) (11 : Fin 15)) 0)
      ⊢ iprop(((cred (tallyAt (sendCell c (3 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (11 : Fin 15)) (.dma (sendS (3 : Fin 15))) hsc) (.dma (recvS (11 : Fin 15))) hsrc hdst hsem) k) Q) :=
  Steps.wp_copy (F := F) m c n (3 : Fin 15) hn κ₁ κ₂ fn O W

theorem wp_copy_lit4 (c n : Dev nD) (hn : n = off c 5)
    {hsc : (slotM (10 : Fin 15) : Memref sig (Dev.tc n : Thread nD τ).2.kind .vmem S1x256 .f32).view.ref.isScScratch = false}
    {hsrc : (aM : Memref sig .tc .vmem S1x256 .f32).view.WordExact} {hdst : (slotM (10 : Fin 15) : Memref sig .tc .vmem S1x256 .f32).view.WordExact}
    {hsem : DmaTarget.Typed .vmem (.dma (recvS (10 : Fin 15))) (.remote (Dev.tc n : Thread nD τ) (slotM (10 : Fin 15) : Memref sig .tc .vmem S1x256 .f32) (.dma (sendS (4 : Fin 15))) hsc)}
    {α : Type} {Q : α → sProp 𝕄} {k : PUnit → Prog (TpuEff nD τ sig (Elt F) Λ₀ .tc) α} (κ₁ κ₂ : ℕ)
    (fn : Buf (Elt F) ((slotM (10 : Fin 15) : Memref sig .tc .vmem S1x256 .f32).view.loc (off c 5 : Thread nD τ)))
    (O : CellTallies nD τ sig Unit) (W : Waits sig Unit) :
    iprop(cellInv ER (sched m) κ₁ (sendCell c (4 : Fin 15)) ∗ cellInv ER (sched m) κ₂ (recvCell (off c 5) (10 : Fin 15))
        ∗ accPts c (shr 4) (accV m c) ∗ slotPts (off c 5) (10 : Fin 15) fn
        ∗ owes (c : Thread nD τ) (O + tallyAt (recvCell (off c 5) (10 : Fin 15)) () N) W
        ∗ dutyTok ER (sendCell c (4 : Fin 15)) 0 (0 : Fin 15) ∗ reached ER (sendCell c (4 : Fin 15)) 0
        ∗ dutyTok ER (recvCell (off c 5) (10 : Fin 15)) 0 (0 : Fin 15) ∗ reached ER (recvCell (off c 5) (10 : Fin 15)) 0)
      ⊢ iprop(((cred (tallyAt (sendCell c (4 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (10 : Fin 15)) (.dma (sendS (4 : Fin 15))) hsc) (.dma (recvS (10 : Fin 15))) hsrc hdst hsem) k) Q) :=
  Steps.wp_copy (F := F) m c n (4 : Fin 15) hn κ₁ κ₂ fn O W

theorem wp_copy_lit5 (c n : Dev nD) (hn : n = off c 6)
    {hsc : (slotM (9 : Fin 15) : Memref sig (Dev.tc n : Thread nD τ).2.kind .vmem S1x256 .f32).view.ref.isScScratch = false}
    {hsrc : (aM : Memref sig .tc .vmem S1x256 .f32).view.WordExact} {hdst : (slotM (9 : Fin 15) : Memref sig .tc .vmem S1x256 .f32).view.WordExact}
    {hsem : DmaTarget.Typed .vmem (.dma (recvS (9 : Fin 15))) (.remote (Dev.tc n : Thread nD τ) (slotM (9 : Fin 15) : Memref sig .tc .vmem S1x256 .f32) (.dma (sendS (5 : Fin 15))) hsc)}
    {α : Type} {Q : α → sProp 𝕄} {k : PUnit → Prog (TpuEff nD τ sig (Elt F) Λ₀ .tc) α} (κ₁ κ₂ : ℕ)
    (fn : Buf (Elt F) ((slotM (9 : Fin 15) : Memref sig .tc .vmem S1x256 .f32).view.loc (off c 6 : Thread nD τ)))
    (O : CellTallies nD τ sig Unit) (W : Waits sig Unit) :
    iprop(cellInv ER (sched m) κ₁ (sendCell c (5 : Fin 15)) ∗ cellInv ER (sched m) κ₂ (recvCell (off c 6) (9 : Fin 15))
        ∗ accPts c (shr 5) (accV m c) ∗ slotPts (off c 6) (9 : Fin 15) fn
        ∗ owes (c : Thread nD τ) (O + tallyAt (recvCell (off c 6) (9 : Fin 15)) () N) W
        ∗ dutyTok ER (sendCell c (5 : Fin 15)) 0 (0 : Fin 15) ∗ reached ER (sendCell c (5 : Fin 15)) 0
        ∗ dutyTok ER (recvCell (off c 6) (9 : Fin 15)) 0 (0 : Fin 15) ∗ reached ER (recvCell (off c 6) (9 : Fin 15)) 0)
      ⊢ iprop(((cred (tallyAt (sendCell c (5 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (9 : Fin 15)) (.dma (sendS (5 : Fin 15))) hsc) (.dma (recvS (9 : Fin 15))) hsrc hdst hsem) k) Q) :=
  Steps.wp_copy (F := F) m c n (5 : Fin 15) hn κ₁ κ₂ fn O W

theorem wp_copy_lit6 (c n : Dev nD) (hn : n = off c 7)
    {hsc : (slotM (8 : Fin 15) : Memref sig (Dev.tc n : Thread nD τ).2.kind .vmem S1x256 .f32).view.ref.isScScratch = false}
    {hsrc : (aM : Memref sig .tc .vmem S1x256 .f32).view.WordExact} {hdst : (slotM (8 : Fin 15) : Memref sig .tc .vmem S1x256 .f32).view.WordExact}
    {hsem : DmaTarget.Typed .vmem (.dma (recvS (8 : Fin 15))) (.remote (Dev.tc n : Thread nD τ) (slotM (8 : Fin 15) : Memref sig .tc .vmem S1x256 .f32) (.dma (sendS (6 : Fin 15))) hsc)}
    {α : Type} {Q : α → sProp 𝕄} {k : PUnit → Prog (TpuEff nD τ sig (Elt F) Λ₀ .tc) α} (κ₁ κ₂ : ℕ)
    (fn : Buf (Elt F) ((slotM (8 : Fin 15) : Memref sig .tc .vmem S1x256 .f32).view.loc (off c 7 : Thread nD τ)))
    (O : CellTallies nD τ sig Unit) (W : Waits sig Unit) :
    iprop(cellInv ER (sched m) κ₁ (sendCell c (6 : Fin 15)) ∗ cellInv ER (sched m) κ₂ (recvCell (off c 7) (8 : Fin 15))
        ∗ accPts c (shr 6) (accV m c) ∗ slotPts (off c 7) (8 : Fin 15) fn
        ∗ owes (c : Thread nD τ) (O + tallyAt (recvCell (off c 7) (8 : Fin 15)) () N) W
        ∗ dutyTok ER (sendCell c (6 : Fin 15)) 0 (0 : Fin 15) ∗ reached ER (sendCell c (6 : Fin 15)) 0
        ∗ dutyTok ER (recvCell (off c 7) (8 : Fin 15)) 0 (0 : Fin 15) ∗ reached ER (recvCell (off c 7) (8 : Fin 15)) 0)
      ⊢ iprop(((cred (tallyAt (sendCell c (6 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (8 : Fin 15)) (.dma (sendS (6 : Fin 15))) hsc) (.dma (recvS (8 : Fin 15))) hsrc hdst hsem) k) Q) :=
  Steps.wp_copy (F := F) m c n (6 : Fin 15) hn κ₁ κ₂ fn O W

theorem wp_copy_lit7 (c n : Dev nD) (hn : n = off c 8)
    {hsc : (slotM (7 : Fin 15) : Memref sig (Dev.tc n : Thread nD τ).2.kind .vmem S1x256 .f32).view.ref.isScScratch = false}
    {hsrc : (aM : Memref sig .tc .vmem S1x256 .f32).view.WordExact} {hdst : (slotM (7 : Fin 15) : Memref sig .tc .vmem S1x256 .f32).view.WordExact}
    {hsem : DmaTarget.Typed .vmem (.dma (recvS (7 : Fin 15))) (.remote (Dev.tc n : Thread nD τ) (slotM (7 : Fin 15) : Memref sig .tc .vmem S1x256 .f32) (.dma (sendS (7 : Fin 15))) hsc)}
    {α : Type} {Q : α → sProp 𝕄} {k : PUnit → Prog (TpuEff nD τ sig (Elt F) Λ₀ .tc) α} (κ₁ κ₂ : ℕ)
    (fn : Buf (Elt F) ((slotM (7 : Fin 15) : Memref sig .tc .vmem S1x256 .f32).view.loc (off c 8 : Thread nD τ)))
    (O : CellTallies nD τ sig Unit) (W : Waits sig Unit) :
    iprop(cellInv ER (sched m) κ₁ (sendCell c (7 : Fin 15)) ∗ cellInv ER (sched m) κ₂ (recvCell (off c 8) (7 : Fin 15))
        ∗ accPts c (shr 7) (accV m c) ∗ slotPts (off c 8) (7 : Fin 15) fn
        ∗ owes (c : Thread nD τ) (O + tallyAt (recvCell (off c 8) (7 : Fin 15)) () N) W
        ∗ dutyTok ER (sendCell c (7 : Fin 15)) 0 (0 : Fin 15) ∗ reached ER (sendCell c (7 : Fin 15)) 0
        ∗ dutyTok ER (recvCell (off c 8) (7 : Fin 15)) 0 (0 : Fin 15) ∗ reached ER (recvCell (off c 8) (7 : Fin 15)) 0)
      ⊢ iprop(((cred (tallyAt (sendCell c (7 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (7 : Fin 15)) (.dma (sendS (7 : Fin 15))) hsc) (.dma (recvS (7 : Fin 15))) hsrc hdst hsem) k) Q) :=
  Steps.wp_copy (F := F) m c n (7 : Fin 15) hn κ₁ κ₂ fn O W

theorem wp_copy_lit8 (c n : Dev nD) (hn : n = off c 9)
    {hsc : (slotM (6 : Fin 15) : Memref sig (Dev.tc n : Thread nD τ).2.kind .vmem S1x256 .f32).view.ref.isScScratch = false}
    {hsrc : (aM : Memref sig .tc .vmem S1x256 .f32).view.WordExact} {hdst : (slotM (6 : Fin 15) : Memref sig .tc .vmem S1x256 .f32).view.WordExact}
    {hsem : DmaTarget.Typed .vmem (.dma (recvS (6 : Fin 15))) (.remote (Dev.tc n : Thread nD τ) (slotM (6 : Fin 15) : Memref sig .tc .vmem S1x256 .f32) (.dma (sendS (8 : Fin 15))) hsc)}
    {α : Type} {Q : α → sProp 𝕄} {k : PUnit → Prog (TpuEff nD τ sig (Elt F) Λ₀ .tc) α} (κ₁ κ₂ : ℕ)
    (fn : Buf (Elt F) ((slotM (6 : Fin 15) : Memref sig .tc .vmem S1x256 .f32).view.loc (off c 9 : Thread nD τ)))
    (O : CellTallies nD τ sig Unit) (W : Waits sig Unit) :
    iprop(cellInv ER (sched m) κ₁ (sendCell c (8 : Fin 15)) ∗ cellInv ER (sched m) κ₂ (recvCell (off c 9) (6 : Fin 15))
        ∗ accPts c (shr 8) (accV m c) ∗ slotPts (off c 9) (6 : Fin 15) fn
        ∗ owes (c : Thread nD τ) (O + tallyAt (recvCell (off c 9) (6 : Fin 15)) () N) W
        ∗ dutyTok ER (sendCell c (8 : Fin 15)) 0 (0 : Fin 15) ∗ reached ER (sendCell c (8 : Fin 15)) 0
        ∗ dutyTok ER (recvCell (off c 9) (6 : Fin 15)) 0 (0 : Fin 15) ∗ reached ER (recvCell (off c 9) (6 : Fin 15)) 0)
      ⊢ iprop(((cred (tallyAt (sendCell c (8 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (6 : Fin 15)) (.dma (sendS (8 : Fin 15))) hsc) (.dma (recvS (6 : Fin 15))) hsrc hdst hsem) k) Q) :=
  Steps.wp_copy (F := F) m c n (8 : Fin 15) hn κ₁ κ₂ fn O W

theorem wp_copy_lit9 (c n : Dev nD) (hn : n = off c 10)
    {hsc : (slotM (5 : Fin 15) : Memref sig (Dev.tc n : Thread nD τ).2.kind .vmem S1x256 .f32).view.ref.isScScratch = false}
    {hsrc : (aM : Memref sig .tc .vmem S1x256 .f32).view.WordExact} {hdst : (slotM (5 : Fin 15) : Memref sig .tc .vmem S1x256 .f32).view.WordExact}
    {hsem : DmaTarget.Typed .vmem (.dma (recvS (5 : Fin 15))) (.remote (Dev.tc n : Thread nD τ) (slotM (5 : Fin 15) : Memref sig .tc .vmem S1x256 .f32) (.dma (sendS (9 : Fin 15))) hsc)}
    {α : Type} {Q : α → sProp 𝕄} {k : PUnit → Prog (TpuEff nD τ sig (Elt F) Λ₀ .tc) α} (κ₁ κ₂ : ℕ)
    (fn : Buf (Elt F) ((slotM (5 : Fin 15) : Memref sig .tc .vmem S1x256 .f32).view.loc (off c 10 : Thread nD τ)))
    (O : CellTallies nD τ sig Unit) (W : Waits sig Unit) :
    iprop(cellInv ER (sched m) κ₁ (sendCell c (9 : Fin 15)) ∗ cellInv ER (sched m) κ₂ (recvCell (off c 10) (5 : Fin 15))
        ∗ accPts c (shr 9) (accV m c) ∗ slotPts (off c 10) (5 : Fin 15) fn
        ∗ owes (c : Thread nD τ) (O + tallyAt (recvCell (off c 10) (5 : Fin 15)) () N) W
        ∗ dutyTok ER (sendCell c (9 : Fin 15)) 0 (0 : Fin 15) ∗ reached ER (sendCell c (9 : Fin 15)) 0
        ∗ dutyTok ER (recvCell (off c 10) (5 : Fin 15)) 0 (0 : Fin 15) ∗ reached ER (recvCell (off c 10) (5 : Fin 15)) 0)
      ⊢ iprop(((cred (tallyAt (sendCell c (9 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (5 : Fin 15)) (.dma (sendS (9 : Fin 15))) hsc) (.dma (recvS (5 : Fin 15))) hsrc hdst hsem) k) Q) :=
  Steps.wp_copy (F := F) m c n (9 : Fin 15) hn κ₁ κ₂ fn O W

theorem wp_copy_lit10 (c n : Dev nD) (hn : n = off c 11)
    {hsc : (slotM (4 : Fin 15) : Memref sig (Dev.tc n : Thread nD τ).2.kind .vmem S1x256 .f32).view.ref.isScScratch = false}
    {hsrc : (aM : Memref sig .tc .vmem S1x256 .f32).view.WordExact} {hdst : (slotM (4 : Fin 15) : Memref sig .tc .vmem S1x256 .f32).view.WordExact}
    {hsem : DmaTarget.Typed .vmem (.dma (recvS (4 : Fin 15))) (.remote (Dev.tc n : Thread nD τ) (slotM (4 : Fin 15) : Memref sig .tc .vmem S1x256 .f32) (.dma (sendS (10 : Fin 15))) hsc)}
    {α : Type} {Q : α → sProp 𝕄} {k : PUnit → Prog (TpuEff nD τ sig (Elt F) Λ₀ .tc) α} (κ₁ κ₂ : ℕ)
    (fn : Buf (Elt F) ((slotM (4 : Fin 15) : Memref sig .tc .vmem S1x256 .f32).view.loc (off c 11 : Thread nD τ)))
    (O : CellTallies nD τ sig Unit) (W : Waits sig Unit) :
    iprop(cellInv ER (sched m) κ₁ (sendCell c (10 : Fin 15)) ∗ cellInv ER (sched m) κ₂ (recvCell (off c 11) (4 : Fin 15))
        ∗ accPts c (shr 10) (accV m c) ∗ slotPts (off c 11) (4 : Fin 15) fn
        ∗ owes (c : Thread nD τ) (O + tallyAt (recvCell (off c 11) (4 : Fin 15)) () N) W
        ∗ dutyTok ER (sendCell c (10 : Fin 15)) 0 (0 : Fin 15) ∗ reached ER (sendCell c (10 : Fin 15)) 0
        ∗ dutyTok ER (recvCell (off c 11) (4 : Fin 15)) 0 (0 : Fin 15) ∗ reached ER (recvCell (off c 11) (4 : Fin 15)) 0)
      ⊢ iprop(((cred (tallyAt (sendCell c (10 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (4 : Fin 15)) (.dma (sendS (10 : Fin 15))) hsc) (.dma (recvS (4 : Fin 15))) hsrc hdst hsem) k) Q) :=
  Steps.wp_copy (F := F) m c n (10 : Fin 15) hn κ₁ κ₂ fn O W

theorem wp_copy_lit11 (c n : Dev nD) (hn : n = off c 12)
    {hsc : (slotM (3 : Fin 15) : Memref sig (Dev.tc n : Thread nD τ).2.kind .vmem S1x256 .f32).view.ref.isScScratch = false}
    {hsrc : (aM : Memref sig .tc .vmem S1x256 .f32).view.WordExact} {hdst : (slotM (3 : Fin 15) : Memref sig .tc .vmem S1x256 .f32).view.WordExact}
    {hsem : DmaTarget.Typed .vmem (.dma (recvS (3 : Fin 15))) (.remote (Dev.tc n : Thread nD τ) (slotM (3 : Fin 15) : Memref sig .tc .vmem S1x256 .f32) (.dma (sendS (11 : Fin 15))) hsc)}
    {α : Type} {Q : α → sProp 𝕄} {k : PUnit → Prog (TpuEff nD τ sig (Elt F) Λ₀ .tc) α} (κ₁ κ₂ : ℕ)
    (fn : Buf (Elt F) ((slotM (3 : Fin 15) : Memref sig .tc .vmem S1x256 .f32).view.loc (off c 12 : Thread nD τ)))
    (O : CellTallies nD τ sig Unit) (W : Waits sig Unit) :
    iprop(cellInv ER (sched m) κ₁ (sendCell c (11 : Fin 15)) ∗ cellInv ER (sched m) κ₂ (recvCell (off c 12) (3 : Fin 15))
        ∗ accPts c (shr 11) (accV m c) ∗ slotPts (off c 12) (3 : Fin 15) fn
        ∗ owes (c : Thread nD τ) (O + tallyAt (recvCell (off c 12) (3 : Fin 15)) () N) W
        ∗ dutyTok ER (sendCell c (11 : Fin 15)) 0 (0 : Fin 15) ∗ reached ER (sendCell c (11 : Fin 15)) 0
        ∗ dutyTok ER (recvCell (off c 12) (3 : Fin 15)) 0 (0 : Fin 15) ∗ reached ER (recvCell (off c 12) (3 : Fin 15)) 0)
      ⊢ iprop(((cred (tallyAt (sendCell c (11 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (3 : Fin 15)) (.dma (sendS (11 : Fin 15))) hsc) (.dma (recvS (3 : Fin 15))) hsrc hdst hsem) k) Q) :=
  Steps.wp_copy (F := F) m c n (11 : Fin 15) hn κ₁ κ₂ fn O W

theorem wp_copy_lit12 (c n : Dev nD) (hn : n = off c 13)
    {hsc : (slotM (2 : Fin 15) : Memref sig (Dev.tc n : Thread nD τ).2.kind .vmem S1x256 .f32).view.ref.isScScratch = false}
    {hsrc : (aM : Memref sig .tc .vmem S1x256 .f32).view.WordExact} {hdst : (slotM (2 : Fin 15) : Memref sig .tc .vmem S1x256 .f32).view.WordExact}
    {hsem : DmaTarget.Typed .vmem (.dma (recvS (2 : Fin 15))) (.remote (Dev.tc n : Thread nD τ) (slotM (2 : Fin 15) : Memref sig .tc .vmem S1x256 .f32) (.dma (sendS (12 : Fin 15))) hsc)}
    {α : Type} {Q : α → sProp 𝕄} {k : PUnit → Prog (TpuEff nD τ sig (Elt F) Λ₀ .tc) α} (κ₁ κ₂ : ℕ)
    (fn : Buf (Elt F) ((slotM (2 : Fin 15) : Memref sig .tc .vmem S1x256 .f32).view.loc (off c 13 : Thread nD τ)))
    (O : CellTallies nD τ sig Unit) (W : Waits sig Unit) :
    iprop(cellInv ER (sched m) κ₁ (sendCell c (12 : Fin 15)) ∗ cellInv ER (sched m) κ₂ (recvCell (off c 13) (2 : Fin 15))
        ∗ accPts c (shr 12) (accV m c) ∗ slotPts (off c 13) (2 : Fin 15) fn
        ∗ owes (c : Thread nD τ) (O + tallyAt (recvCell (off c 13) (2 : Fin 15)) () N) W
        ∗ dutyTok ER (sendCell c (12 : Fin 15)) 0 (0 : Fin 15) ∗ reached ER (sendCell c (12 : Fin 15)) 0
        ∗ dutyTok ER (recvCell (off c 13) (2 : Fin 15)) 0 (0 : Fin 15) ∗ reached ER (recvCell (off c 13) (2 : Fin 15)) 0)
      ⊢ iprop(((cred (tallyAt (sendCell c (12 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (2 : Fin 15)) (.dma (sendS (12 : Fin 15))) hsc) (.dma (recvS (2 : Fin 15))) hsrc hdst hsem) k) Q) :=
  Steps.wp_copy (F := F) m c n (12 : Fin 15) hn κ₁ κ₂ fn O W

theorem wp_copy_lit13 (c n : Dev nD) (hn : n = off c 14)
    {hsc : (slotM (1 : Fin 15) : Memref sig (Dev.tc n : Thread nD τ).2.kind .vmem S1x256 .f32).view.ref.isScScratch = false}
    {hsrc : (aM : Memref sig .tc .vmem S1x256 .f32).view.WordExact} {hdst : (slotM (1 : Fin 15) : Memref sig .tc .vmem S1x256 .f32).view.WordExact}
    {hsem : DmaTarget.Typed .vmem (.dma (recvS (1 : Fin 15))) (.remote (Dev.tc n : Thread nD τ) (slotM (1 : Fin 15) : Memref sig .tc .vmem S1x256 .f32) (.dma (sendS (13 : Fin 15))) hsc)}
    {α : Type} {Q : α → sProp 𝕄} {k : PUnit → Prog (TpuEff nD τ sig (Elt F) Λ₀ .tc) α} (κ₁ κ₂ : ℕ)
    (fn : Buf (Elt F) ((slotM (1 : Fin 15) : Memref sig .tc .vmem S1x256 .f32).view.loc (off c 14 : Thread nD τ)))
    (O : CellTallies nD τ sig Unit) (W : Waits sig Unit) :
    iprop(cellInv ER (sched m) κ₁ (sendCell c (13 : Fin 15)) ∗ cellInv ER (sched m) κ₂ (recvCell (off c 14) (1 : Fin 15))
        ∗ accPts c (shr 13) (accV m c) ∗ slotPts (off c 14) (1 : Fin 15) fn
        ∗ owes (c : Thread nD τ) (O + tallyAt (recvCell (off c 14) (1 : Fin 15)) () N) W
        ∗ dutyTok ER (sendCell c (13 : Fin 15)) 0 (0 : Fin 15) ∗ reached ER (sendCell c (13 : Fin 15)) 0
        ∗ dutyTok ER (recvCell (off c 14) (1 : Fin 15)) 0 (0 : Fin 15) ∗ reached ER (recvCell (off c 14) (1 : Fin 15)) 0)
      ⊢ iprop(((cred (tallyAt (sendCell c (13 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (1 : Fin 15)) (.dma (sendS (13 : Fin 15))) hsc) (.dma (recvS (1 : Fin 15))) hsrc hdst hsem) k) Q) :=
  Steps.wp_copy (F := F) m c n (13 : Fin 15) hn κ₁ κ₂ fn O W

theorem wp_copy_lit14 (c n : Dev nD) (hn : n = off c 15)
    {hsc : (slotM (0 : Fin 15) : Memref sig (Dev.tc n : Thread nD τ).2.kind .vmem S1x256 .f32).view.ref.isScScratch = false}
    {hsrc : (aM : Memref sig .tc .vmem S1x256 .f32).view.WordExact} {hdst : (slotM (0 : Fin 15) : Memref sig .tc .vmem S1x256 .f32).view.WordExact}
    {hsem : DmaTarget.Typed .vmem (.dma (recvS (0 : Fin 15))) (.remote (Dev.tc n : Thread nD τ) (slotM (0 : Fin 15) : Memref sig .tc .vmem S1x256 .f32) (.dma (sendS (14 : Fin 15))) hsc)}
    {α : Type} {Q : α → sProp 𝕄} {k : PUnit → Prog (TpuEff nD τ sig (Elt F) Λ₀ .tc) α} (κ₁ κ₂ : ℕ)
    (fn : Buf (Elt F) ((slotM (0 : Fin 15) : Memref sig .tc .vmem S1x256 .f32).view.loc (off c 15 : Thread nD τ)))
    (O : CellTallies nD τ sig Unit) (W : Waits sig Unit) :
    iprop(cellInv ER (sched m) κ₁ (sendCell c (14 : Fin 15)) ∗ cellInv ER (sched m) κ₂ (recvCell (off c 15) (0 : Fin 15))
        ∗ accPts c (shr 14) (accV m c) ∗ slotPts (off c 15) (0 : Fin 15) fn
        ∗ owes (c : Thread nD τ) (O + tallyAt (recvCell (off c 15) (0 : Fin 15)) () N) W
        ∗ dutyTok ER (sendCell c (14 : Fin 15)) 0 (0 : Fin 15) ∗ reached ER (sendCell c (14 : Fin 15)) 0
        ∗ dutyTok ER (recvCell (off c 15) (0 : Fin 15)) 0 (0 : Fin 15) ∗ reached ER (recvCell (off c 15) (0 : Fin 15)) 0)
      ⊢ iprop(((cred (tallyAt (sendCell c (14 : Fin 15)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM (0 : Fin 15)) (.dma (sendS (14 : Fin 15))) hsc) (.dma (recvS (0 : Fin 15))) hsrc hdst hsem) k) Q) :=
  Steps.wp_copy (F := F) m c n (14 : Fin 15) hn κ₁ κ₂ fn O W

theorem comm_join_raw (c : Dev nD) (f : Buf (Elt F) ((c : Thread nD τ).loc cc0_scratch1)) :
    (iprop(((slotM (0 : Fin 15) : Memref sig .tc .vmem S1x256 .f32).view.loc (c : Thread nD τ) ↦[(slotM (0 : Fin 15) : Memref sig .tc .vmem S1x256 .f32).view.set]{fullShare} f) ∗ ((slotM (1 : Fin 15) : Memref sig .tc .vmem S1x256 .f32).view.loc (c : Thread nD τ) ↦[(slotM (1 : Fin 15) : Memref sig .tc .vmem S1x256 .f32).view.set]{fullShare} f) ∗ ((slotM (2 : Fin 15) : Memref sig .tc .vmem S1x256 .f32).view.loc (c : Thread nD τ) ↦[(slotM (2 : Fin 15) : Memref sig .tc .vmem S1x256 .f32).view.set]{fullShare} f) ∗ ((slotM (3 : Fin 15) : Memref sig .tc .vmem S1x256 .f32).view.loc (c : Thread nD τ) ↦[(slotM (3 : Fin 15) : Memref sig .tc .vmem S1x256 .f32).view.set]{fullShare} f) ∗ ((slotM (4 : Fin 15) : Memref sig .tc .vmem S1x256 .f32).view.loc (c : Thread nD τ) ↦[(slotM (4 : Fin 15) : Memref sig .tc .vmem S1x256 .f32).view.set]{fullShare} f) ∗ ((slotM (5 : Fin 15) : Memref sig .tc .vmem S1x256 .f32).view.loc (c : Thread nD τ) ↦[(slotM (5 : Fin 15) : Memref sig .tc .vmem S1x256 .f32).view.set]{fullShare} f) ∗ ((slotM (6 : Fin 15) : Memref sig .tc .vmem S1x256 .f32).view.loc (c : Thread nD τ) ↦[(slotM (6 : Fin 15) : Memref sig .tc .vmem S1x256 .f32).view.set]{fullShare} f) ∗ ((slotM (7 : Fin 15) : Memref sig .tc .vmem S1x256 .f32).view.loc (c : Thread nD τ) ↦[(slotM (7 : Fin 15) : Memref sig .tc .vmem S1x256 .f32).view.set]{fullShare} f) ∗ ((slotM (8 : Fin 15) : Memref sig .tc .vmem S1x256 .f32).view.loc (c : Thread nD τ) ↦[(slotM (8 : Fin 15) : Memref sig .tc .vmem S1x256 .f32).view.set]{fullShare} f) ∗ ((slotM (9 : Fin 15) : Memref sig .tc .vmem S1x256 .f32).view.loc (c : Thread nD τ) ↦[(slotM (9 : Fin 15) : Memref sig .tc .vmem S1x256 .f32).view.set]{fullShare} f) ∗ ((slotM (10 : Fin 15) : Memref sig .tc .vmem S1x256 .f32).view.loc (c : Thread nD τ) ↦[(slotM (10 : Fin 15) : Memref sig .tc .vmem S1x256 .f32).view.set]{fullShare} f) ∗ ((slotM (11 : Fin 15) : Memref sig .tc .vmem S1x256 .f32).view.loc (c : Thread nD τ) ↦[(slotM (11 : Fin 15) : Memref sig .tc .vmem S1x256 .f32).view.set]{fullShare} f) ∗ ((slotM (12 : Fin 15) : Memref sig .tc .vmem S1x256 .f32).view.loc (c : Thread nD τ) ↦[(slotM (12 : Fin 15) : Memref sig .tc .vmem S1x256 .f32).view.set]{fullShare} f) ∗ ((slotM (13 : Fin 15) : Memref sig .tc .vmem S1x256 .f32).view.loc (c : Thread nD τ) ↦[(slotM (13 : Fin 15) : Memref sig .tc .vmem S1x256 .f32).view.set]{fullShare} f) ∗ ((slotM (14 : Fin 15) : Memref sig .tc .vmem S1x256 .f32).view.loc (c : Thread nD τ) ↦[(slotM (14 : Fin 15) : Memref sig .tc .vmem S1x256 .f32).view.set]{fullShare} f)) : sProp 𝕄)
      ⊢ ((cM : Memref sig .tc .vmem S15x1x256 .f32).view.loc (c : Thread nD τ) ↦[(cM : Memref sig .tc .vmem S15x1x256 .f32).view.set]{fullShare} f) :=
  comm_join (F := F) c f

/-- A device's own send or receive semaphore, its one round consumed, closes: its counter at zero is the device's again. -/
theorem close_cell (g : GSem nD τ sig) (κ : ℕ) :
    iprop(cellInv ER (sched (F := F) m) κ g ∗ atPos ER g 1 ∅ 0) ⊢ (iprop(|={Set.univ}=> semVal g 0) : sProp 𝕄) :=
  Rounds.cell_close ER (sched m) (Set.mem_univ κ) (fun h => h) (R := 1) (duties_later m g)

theorem hz3 : (![0, 0, 0] : Fin 3 → Nat) = fun _ => 0 := funext fun a => by fin_cases a <;> rfl

/-- The stored result: the maximum of the device's partial result and of the fifteen received rows. -/
theorem out_stored (c : Dev nD) (g1 : Buf (Elt F) ((c : Thread nD τ).loc cc0_stg1_0))
    (i1 : ∀ a, (![0, 0] : Fin 2 → Nat) a + S1x256.size a ≤ S1x256.size a)
    (i3 : ∀ a, (![0, 0, 0] : Fin 3 → Nat) a + S15x1x256.size a ≤ S15x1x256.size a) :
    (oM : Memref sig .tc .vmem S1x256 .f32).view.writes (Elt F) g1
      [⟨Rect.unit (s := S1x256) ![0, 0] S1x256.size i1,
        k0_pay2 (View.readAt (Elt F) (aM : Memref sig .tc .vmem S1x256 .f32).view (Rect.unit (s := S1x256) ![0, 0] S1x256.size i1).toLoadRect (accV m c))
          (View.readAt (Elt F) (cM : Memref sig .tc .vmem S15x1x256 .f32).view (Rect.unit (s := S15x1x256) ![0, 0, 0] S15x1x256.size i3).toLoadRect (commV m c))⟩]
      = outV m c := by
  have e1 : View.readAt (Elt F) (aM : Memref sig .tc .vmem S1x256 .f32).view (Rect.unit (s := S1x256) ![0, 0] S1x256.size i1).toLoadRect (accV m c) = accV m c :=
    Memref.readAt_unit_zero (Elt F) cc0_scratch0 hz2 i1 (accV m c)
  have e2 : View.readAt (Elt F) (cM : Memref sig .tc .vmem S15x1x256 .f32).view (Rect.unit (s := S15x1x256) ![0, 0, 0] S15x1x256.size i3).toLoadRect (commV m c) = commV m c :=
    Memref.readAt_unit_zero (Elt F) cc0_scratch1 hz3 i3 (commV m c)
  rw [View.writes_singleton, e1, e2]
  exact Memref.write_access_unit_zero_univ (Elt F) cc0_stg1_0 hz2 i1 g1 _

/-- The fifteen lent shares and what was kept are the partial-result buffer whole again. -/
theorem acc_join_raw (c : Dev nD) (f : Buf (Elt F) ((c : Thread nD τ).loc cc0_scratch0)) :
    (iprop(((aM : Memref sig .tc .vmem S1x256 .f32).view.loc (c : Thread nD τ) ↦[(aM : Memref sig .tc .vmem S1x256 .f32).view.set]{shr 0} f) ∗ ((aM : Memref sig .tc .vmem S1x256 .f32).view.loc (c : Thread nD τ) ↦[(aM : Memref sig .tc .vmem S1x256 .f32).view.set]{shr 1} f) ∗ ((aM : Memref sig .tc .vmem S1x256 .f32).view.loc (c : Thread nD τ) ↦[(aM : Memref sig .tc .vmem S1x256 .f32).view.set]{shr 2} f) ∗ ((aM : Memref sig .tc .vmem S1x256 .f32).view.loc (c : Thread nD τ) ↦[(aM : Memref sig .tc .vmem S1x256 .f32).view.set]{shr 3} f) ∗ ((aM : Memref sig .tc .vmem S1x256 .f32).view.loc (c : Thread nD τ) ↦[(aM : Memref sig .tc .vmem S1x256 .f32).view.set]{shr 4} f) ∗ ((aM : Memref sig .tc .vmem S1x256 .f32).view.loc (c : Thread nD τ) ↦[(aM : Memref sig .tc .vmem S1x256 .f32).view.set]{shr 5} f) ∗ ((aM : Memref sig .tc .vmem S1x256 .f32).view.loc (c : Thread nD τ) ↦[(aM : Memref sig .tc .vmem S1x256 .f32).view.set]{shr 6} f) ∗ ((aM : Memref sig .tc .vmem S1x256 .f32).view.loc (c : Thread nD τ) ↦[(aM : Memref sig .tc .vmem S1x256 .f32).view.set]{shr 7} f) ∗ ((aM : Memref sig .tc .vmem S1x256 .f32).view.loc (c : Thread nD τ) ↦[(aM : Memref sig .tc .vmem S1x256 .f32).view.set]{shr 8} f) ∗ ((aM : Memref sig .tc .vmem S1x256 .f32).view.loc (c : Thread nD τ) ↦[(aM : Memref sig .tc .vmem S1x256 .f32).view.set]{shr 9} f) ∗ ((aM : Memref sig .tc .vmem S1x256 .f32).view.loc (c : Thread nD τ) ↦[(aM : Memref sig .tc .vmem S1x256 .f32).view.set]{shr 10} f) ∗ ((aM : Memref sig .tc .vmem S1x256 .f32).view.loc (c : Thread nD τ) ↦[(aM : Memref sig .tc .vmem S1x256 .f32).view.set]{shr 11} f) ∗ ((aM : Memref sig .tc .vmem S1x256 .f32).view.loc (c : Thread nD τ) ↦[(aM : Memref sig .tc .vmem S1x256 .f32).view.set]{shr 12} f) ∗ ((aM : Memref sig .tc .vmem S1x256 .f32).view.loc (c : Thread nD τ) ↦[(aM : Memref sig .tc .vmem S1x256 .f32).view.set]{shr 13} f) ∗ ((aM : Memref sig .tc .vmem S1x256 .f32).view.loc (c : Thread nD τ) ↦[(aM : Memref sig .tc .vmem S1x256 .f32).view.set]{shr 14} f) ∗ ((aM : Memref sig .tc .vmem S1x256 .f32).view.loc (c : Thread nD τ) ↦[(aM : Memref sig .tc .vmem S1x256 .f32).view.set]{rem (14 + 1)} f)) : sProp 𝕄)
      ⊢ (((c : Thread nD τ).loc cc0_scratch0) ↦{fullShare} f) := by
  rw [view_eq (F := F) c cc0_scratch0 f]; exact (Steps.acc_shares (F := F) c f).2

def bodyPre (c : Dev nD) : sProp 𝕄 :=
  iprop(Φ₀ m c
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xblk m c) ∗ stg c cc0_stg1_0 (outV m c))

attribute [local sl_canon] sig1_eq cpy1_eq sig2_eq cpy2_eq sig3_eq cpy3_eq sig4_eq cpy4_eq sig5_eq cpy5_eq sig6_eq cpy6_eq sig7_eq cpy7_eq sig8_eq cpy8_eq sig9_eq cpy9_eq sig10_eq cpy10_eq sig11_eq cpy11_eq sig12_eq cpy12_eq sig13_eq cpy13_eq sig14_eq cpy14_eq sig15_eq cpy15_eq
attribute [local sl_rounds] duties_bar duties_send duties_recv amount_bar amount_send amount_recv expect_bar expect_send expect_recv payload_send_lit0 payload_recv_lit0 payload_send_lit1 payload_recv_lit1 payload_send_lit2 payload_recv_lit2 payload_send_lit3 payload_recv_lit3 payload_send_lit4 payload_recv_lit4 payload_send_lit5 payload_recv_lit5 payload_send_lit6 payload_recv_lit6 payload_send_lit7 payload_recv_lit7 payload_send_lit8 payload_recv_lit8 payload_send_lit9 payload_recv_lit9 payload_send_lit10 payload_recv_lit10 payload_send_lit11 payload_recv_lit11 payload_send_lit12 payload_recv_lit12 payload_send_lit13 payload_recv_lit13 payload_send_lit14 payload_recv_lit14 payload_bar_lit0 payload_bar_lit1 payload_bar_lit2 payload_bar_lit3 payload_bar_lit4 payload_bar_lit5 payload_bar_lit6 payload_bar_lit7 payload_bar_lit8 payload_bar_lit9 payload_bar_lit10 payload_bar_lit11 payload_bar_lit12 payload_bar_lit13 payload_bar_lit14

set_option maxHeartbeats 4000000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre Φ₀ start ghost Sched.invs reacheds positions payToks scratch Sched.inv
  simp only [bigSep_fin15, val0, val1, val2, val3, val4, val5, val6, val7, val8, val9, val10, val11, val12, val13, val14, ps0, ps1, ps2, ps3, ps4, ps5, ps6, ps7, ps8, ps9, ps10, ps11, ps12, ps13, ps14, Nat.reduceAdd]
  iintro ⟨⟨⟨⟨⟨⟨⟨%κb, #HIb⟩, ⟨⟨%κs0, #HIs0⟩, ⟨%κs1, #HIs1⟩, ⟨%κs2, #HIs2⟩, ⟨%κs3, #HIs3⟩, ⟨%κs4, #HIs4⟩, ⟨%κs5, #HIs5⟩, ⟨%κs6, #HIs6⟩, ⟨%κs7, #HIs7⟩, ⟨%κs8, #HIs8⟩, ⟨%κs9, #HIs9⟩, ⟨%κs10, #HIs10⟩, ⟨%κs11, #HIs11⟩, ⟨%κs12, #HIs12⟩, ⟨%κs13, #HIs13⟩, ⟨%κs14, #HIs14⟩⟩, ⟨⟨%κr0, #HIr0⟩, ⟨%κr1, #HIr1⟩, ⟨%κr2, #HIr2⟩, ⟨%κr3, #HIr3⟩, ⟨%κr4, #HIr4⟩, ⟨%κr5, #HIr5⟩, ⟨%κr6, #HIr6⟩, ⟨%κr7, #HIr7⟩, ⟨%κr8, #HIr8⟩, ⟨%κr9, #HIr9⟩, ⟨%κr10, #HIr10⟩, ⟨%κr11, #HIr11⟩, ⟨%κr12, #HIr12⟩, ⟨%κr13, #HIr13⟩, ⟨%κr14, #HIr14⟩⟩, ⟨⟨%κpb0, #HIpb0⟩, ⟨%κpb1, #HIpb1⟩, ⟨%κpb2, #HIpb2⟩, ⟨%κpb3, #HIpb3⟩, ⟨%κpb4, #HIpb4⟩, ⟨%κpb5, #HIpb5⟩, ⟨%κpb6, #HIpb6⟩, ⟨%κpb7, #HIpb7⟩, ⟨%κpb8, #HIpb8⟩, ⟨%κpb9, #HIpb9⟩, ⟨%κpb10, #HIpb10⟩, ⟨%κpb11, #HIpb11⟩, ⟨%κpb12, #HIpb12⟩, ⟨%κpb13, #HIpb13⟩, ⟨%κpb14, #HIpb14⟩⟩, ⟨⟨%κpr0, #HIpr0⟩, ⟨%κpr1, #HIpr1⟩, ⟨%κpr2, #HIpr2⟩, ⟨%κpr3, #HIpr3⟩, ⟨%κpr4, #HIpr4⟩, ⟨%κpr5, #HIpr5⟩, ⟨%κpr6, #HIpr6⟩, ⟨%κpr7, #HIpr7⟩, ⟨%κpr8, #HIpr8⟩, ⟨%κpr9, #HIpr9⟩, ⟨%κpr10, #HIpr10⟩, ⟨%κpr11, #HIpr11⟩, ⟨%κpr12, #HIpr12⟩, ⟨%κpr13, #HIpr13⟩, ⟨%κpr14, #HIpr14⟩⟩⟩,
      ⟨⟨#Hrb0, #Hrb1, #Hrb2, #Hrb3, #Hrb4, #Hrb5, #Hrb6, #Hrb7, #Hrb8, #Hrb9, #Hrb10, #Hrb11, #Hrb12, #Hrb13, #Hrb14⟩, ⟨#Hrr0, #Hrr1, #Hrr2, #Hrr3, #Hrr4, #Hrr5, #Hrr6, #Hrr7, #Hrr8, #Hrr9, #Hrr10, #Hrr11, #Hrr12, #Hrr13, #Hrr14⟩, ⟨#Hrs0, #Hrs1, #Hrs2, #Hrs3, #Hrs4, #Hrs5, #Hrs6, #Hrs7, #Hrs8, #Hrs9, #Hrs10, #Hrs11, #Hrs12, #Hrs13, #Hrs14⟩⟩,
      ⟨Hab, ⟨Has0, Has1, Has2, Has3, Has4, Has5, Has6, Has7, Has8, Has9, Has10, Has11, Has12, Has13, Has14⟩, ⟨Har0, Har1, Har2, Har3, Har4, Har5, Har6, Har7, Har8, Har9, Har10, Har11, Har12, Har13, Har14⟩⟩,
      ⟨⟨Htb0, Htb1, Htb2, Htb3, Htb4, Htb5, Htb6, Htb7, Htb8, Htb9, Htb10, Htb11, Htb12, Htb13, Htb14⟩, ⟨Htr0, Htr1, Htr2, Htr3, Htr4, Htr5, Htr6, Htr7, Htr8, Htr9, Htr10, Htr11, Htr12, Htr13, Htr14⟩, ⟨Hts0, Hts1, Hts2, Hts3, Hts4, Hts5, Hts6, Hts7, Hts8, Hts9, Hts10, Hts11, Hts12, Hts13, Hts14⟩⟩⟩,
      Hcb, ⟨Hcr0, Hcr1, Hcr2, Hcr3, Hcr4, Hcr5, Hcr6, Hcr7, Hcr8, Hcr9, Hcr10, Hcr11, Hcr12, Hcr13, Hcr14⟩, #Hlev⟩, ⟨⟨%fa0, Hacc⟩, ⟨%fc0, Hcomm⟩⟩⟩,
    Ho, ⟨%d0, %g0, %hg0, Hx⟩, ⟨%d1, %g1, %hg1, Hout⟩⟩, Hk⟩
  unfold Dat.owesAt Pipeline.owesWithin
  icases Ho with ⟨%W, %hW, HO⟩
  rw [show (dats m ρ 0 c).owed t0_0.castSucc = O₀ c from rfl]
  simp only [O₀, Osg, Ocp, f15_0, f15_1, f15_2, f15_3, f15_4, f15_5, f15_6, f15_7, f15_8, f15_9, f15_10, f15_11, f15_12, f15_13, f15_14, Nat.reduceSub, zero_add]
  ihave Hsl := (comm_split (F := F) c fc0) $$ Hcomm
  icases Hsl with ⟨Hsl0, Hsl1, Hsl2, Hsl3, Hsl4, Hsl5, Hsl6, Hsl7, Hsl8, Hsl9, Hsl10, Hsl11, Hsl12, Hsl13, Hsl14⟩
  have hx : g0 = xblk m c := by rw [hg0]; unfold Dat.before; rw [if_pos (fetch0_0 t0_0)]; rfl
  subst hx
  ihave Hx := (Entails.of_eq (view_eq (F := F) c cc0_stg0_0 _)) $$ Hx
  ihave Hacc := (Entails.of_eq (view_eq (F := F) c cc0_scratch0 _)) $$ Hacc
  ihave Hout := (Entails.of_eq (view_eq (F := F) c cc0_stg1_0 _)) $$ Hout
  have hmw : (levAts L lv : sProp 𝕄) ⊢ MayWait (c : Thread nD τ) (.reg barS) () (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N + tallyAt (recvCell (off c 4) (11 : Fin 15)) () N + tallyAt (recvCell (off c 3) (12 : Fin 15)) () N + tallyAt (recvCell (off c 2) (13 : Fin 15)) () N + tallyAt (recvCell (off c 1) (14 : Fin 15)) () N) := by
    have h := Cred.mayWait_bar (F := F) c
    simpa only [Ocp, f15_0, f15_1, f15_2, f15_3, f15_4, f15_5, f15_6, f15_7, f15_8, f15_9, f15_10, f15_11, f15_12, f15_13, f15_14, Nat.reduceSub, zero_add] using h
  sl_exec
  -- the partial result as stored, lent in fifteen shares (a sixteenth kept for the device's own read)
  rw [acc_stored]
  ihave Hrem := (show ((((aM : Memref sig .tc .vmem S1x256 .f32).view.loc (c : Thread nD τ) ↦[(aM : Memref sig .tc .vmem S1x256 .f32).view.set]{fullShare} accV m c) : sProp 𝕄)) ⊢ accPts c (rem 0) (accV m c) from BI.Entails.refl _) $$ Hacc
  ihave Hq := (accPts_split (F := F) c 0 (accV m c)).1 $$ Hrem
  icases Hq with ⟨Hsh0, Hrem⟩
  ihave Hq := (accPts_split (F := F) c 1 (accV m c)).1 $$ Hrem
  icases Hq with ⟨Hsh1, Hrem⟩
  ihave Hq := (accPts_split (F := F) c 2 (accV m c)).1 $$ Hrem
  icases Hq with ⟨Hsh2, Hrem⟩
  ihave Hq := (accPts_split (F := F) c 3 (accV m c)).1 $$ Hrem
  icases Hq with ⟨Hsh3, Hrem⟩
  ihave Hq := (accPts_split (F := F) c 4 (accV m c)).1 $$ Hrem
  icases Hq with ⟨Hsh4, Hrem⟩
  ihave Hq := (accPts_split (F := F) c 5 (accV m c)).1 $$ Hrem
  icases Hq with ⟨Hsh5, Hrem⟩
  ihave Hq := (accPts_split (F := F) c 6 (accV m c)).1 $$ Hrem
  icases Hq with ⟨Hsh6, Hrem⟩
  ihave Hq := (accPts_split (F := F) c 7 (accV m c)).1 $$ Hrem
  icases Hq with ⟨Hsh7, Hrem⟩
  ihave Hq := (accPts_split (F := F) c 8 (accV m c)).1 $$ Hrem
  icases Hq with ⟨Hsh8, Hrem⟩
  ihave Hq := (accPts_split (F := F) c 9 (accV m c)).1 $$ Hrem
  icases Hq with ⟨Hsh9, Hrem⟩
  ihave Hq := (accPts_split (F := F) c 10 (accV m c)).1 $$ Hrem
  icases Hq with ⟨Hsh10, Hrem⟩
  ihave Hq := (accPts_split (F := F) c 11 (accV m c)).1 $$ Hrem
  icases Hq with ⟨Hsh11, Hrem⟩
  ihave Hq := (accPts_split (F := F) c 12 (accV m c)).1 $$ Hrem
  icases Hq with ⟨Hsh12, Hrem⟩
  ihave Hq := (accPts_split (F := F) c 13 (accV m c)).1 $$ Hrem
  icases Hq with ⟨Hsh13, Hrem⟩
  ihave Hq := (accPts_split (F := F) c 14 (accV m c)).1 $$ Hrem
  icases Hq with ⟨Hsh14, Hrem⟩
  -- the barrier round's payloads: the fifteen peers' slots this device's rows go into
  ihave Hp := (bar_payloads (F := F) m c) $$ Hab_pay1
  icases Hp with ⟨⟨%fp0, Hp0⟩, ⟨%fp1, Hp1⟩, ⟨%fp2, Hp2⟩, ⟨%fp3, Hp3⟩, ⟨%fp4, Hp4⟩, ⟨%fp5, Hp5⟩, ⟨%fp6, Hp6⟩, ⟨%fp7, Hp7⟩, ⟨%fp8, Hp8⟩, ⟨%fp9, Hp9⟩, ⟨%fp10, Hp10⟩, ⟨%fp11, Hp11⟩, ⟨%fp12, Hp12⟩, ⟨%fp13, Hp13⟩, ⟨%fp14, Hp14⟩⟩
  -- copy 1: the partial result to the device 1 places on, into its slot 14
  iapply (wp_copy_lit0 (F := F) m c _ (cpy1_eq c) κs0 κpr0 fp14 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N + tallyAt (recvCell (off c 4) (11 : Fin 15)) () N + tallyAt (recvCell (off c 3) (12 : Fin 15)) () N + tallyAt (recvCell (off c 2) (13 : Fin 15)) () N) _) $$ [Hsh0 Hp14 HO Hts0 Htr0]
  · isplitr; · iexact HIs0
    isplitr; · iexact HIpr0
    isplitl [Hsh0]; · iexact Hsh0
    isplitl [Hp14]; · iexact Hp14
    isplitl [HO]; · iexact HO
    isplitl [Hts0]; · iexact Hts0
    isplitr; · iexact Hrs0
    isplitl [Htr0]; · iexact Htr0
    iexact Hrr0
  iintro ⟨Hcs0, HO⟩
  sl_exec
  -- copy 2: the partial result to the device 2 places on, into its slot 13
  iapply (wp_copy_lit1 (F := F) m c _ (cpy2_eq c) κs1 κpr1 fp13 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N + tallyAt (recvCell (off c 4) (11 : Fin 15)) () N + tallyAt (recvCell (off c 3) (12 : Fin 15)) () N) _) $$ [Hsh1 Hp13 HO Hts1 Htr1]
  · isplitr; · iexact HIs1
    isplitr; · iexact HIpr1
    isplitl [Hsh1]; · iexact Hsh1
    isplitl [Hp13]; · iexact Hp13
    isplitl [HO]; · iexact HO
    isplitl [Hts1]; · iexact Hts1
    isplitr; · iexact Hrs1
    isplitl [Htr1]; · iexact Htr1
    iexact Hrr1
  iintro ⟨Hcs1, HO⟩
  sl_exec
  -- copy 3: the partial result to the device 3 places on, into its slot 12
  iapply (wp_copy_lit2 (F := F) m c _ (cpy3_eq c) κs2 κpr2 fp12 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N + tallyAt (recvCell (off c 4) (11 : Fin 15)) () N) _) $$ [Hsh2 Hp12 HO Hts2 Htr2]
  · isplitr; · iexact HIs2
    isplitr; · iexact HIpr2
    isplitl [Hsh2]; · iexact Hsh2
    isplitl [Hp12]; · iexact Hp12
    isplitl [HO]; · iexact HO
    isplitl [Hts2]; · iexact Hts2
    isplitr; · iexact Hrs2
    isplitl [Htr2]; · iexact Htr2
    iexact Hrr2
  iintro ⟨Hcs2, HO⟩
  sl_exec
  -- copy 4: the partial result to the device 4 places on, into its slot 11
  iapply (wp_copy_lit3 (F := F) m c _ (cpy4_eq c) κs3 κpr3 fp11 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N + tallyAt (recvCell (off c 5) (10 : Fin 15)) () N) _) $$ [Hsh3 Hp11 HO Hts3 Htr3]
  · isplitr; · iexact HIs3
    isplitr; · iexact HIpr3
    isplitl [Hsh3]; · iexact Hsh3
    isplitl [Hp11]; · iexact Hp11
    isplitl [HO]; · iexact HO
    isplitl [Hts3]; · iexact Hts3
    isplitr; · iexact Hrs3
    isplitl [Htr3]; · iexact Htr3
    iexact Hrr3
  iintro ⟨Hcs3, HO⟩
  sl_exec
  -- copy 5: the partial result to the device 5 places on, into its slot 10
  iapply (wp_copy_lit4 (F := F) m c _ (cpy5_eq c) κs4 κpr4 fp10 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N + tallyAt (recvCell (off c 6) (9 : Fin 15)) () N) _) $$ [Hsh4 Hp10 HO Hts4 Htr4]
  · isplitr; · iexact HIs4
    isplitr; · iexact HIpr4
    isplitl [Hsh4]; · iexact Hsh4
    isplitl [Hp10]; · iexact Hp10
    isplitl [HO]; · iexact HO
    isplitl [Hts4]; · iexact Hts4
    isplitr; · iexact Hrs4
    isplitl [Htr4]; · iexact Htr4
    iexact Hrr4
  iintro ⟨Hcs4, HO⟩
  sl_exec
  -- copy 6: the partial result to the device 6 places on, into its slot 9
  iapply (wp_copy_lit5 (F := F) m c _ (cpy6_eq c) κs5 κpr5 fp9 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N + tallyAt (recvCell (off c 7) (8 : Fin 15)) () N) _) $$ [Hsh5 Hp9 HO Hts5 Htr5]
  · isplitr; · iexact HIs5
    isplitr; · iexact HIpr5
    isplitl [Hsh5]; · iexact Hsh5
    isplitl [Hp9]; · iexact Hp9
    isplitl [HO]; · iexact HO
    isplitl [Hts5]; · iexact Hts5
    isplitr; · iexact Hrs5
    isplitl [Htr5]; · iexact Htr5
    iexact Hrr5
  iintro ⟨Hcs5, HO⟩
  sl_exec
  -- copy 7: the partial result to the device 7 places on, into its slot 8
  iapply (wp_copy_lit6 (F := F) m c _ (cpy7_eq c) κs6 κpr6 fp8 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N + tallyAt (recvCell (off c 8) (7 : Fin 15)) () N) _) $$ [Hsh6 Hp8 HO Hts6 Htr6]
  · isplitr; · iexact HIs6
    isplitr; · iexact HIpr6
    isplitl [Hsh6]; · iexact Hsh6
    isplitl [Hp8]; · iexact Hp8
    isplitl [HO]; · iexact HO
    isplitl [Hts6]; · iexact Hts6
    isplitr; · iexact Hrs6
    isplitl [Htr6]; · iexact Htr6
    iexact Hrr6
  iintro ⟨Hcs6, HO⟩
  sl_exec
  -- copy 8: the partial result to the device 8 places on, into its slot 7
  iapply (wp_copy_lit7 (F := F) m c _ (cpy8_eq c) κs7 κpr7 fp7 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N + tallyAt (recvCell (off c 9) (6 : Fin 15)) () N) _) $$ [Hsh7 Hp7 HO Hts7 Htr7]
  · isplitr; · iexact HIs7
    isplitr; · iexact HIpr7
    isplitl [Hsh7]; · iexact Hsh7
    isplitl [Hp7]; · iexact Hp7
    isplitl [HO]; · iexact HO
    isplitl [Hts7]; · iexact Hts7
    isplitr; · iexact Hrs7
    isplitl [Htr7]; · iexact Htr7
    iexact Hrr7
  iintro ⟨Hcs7, HO⟩
  sl_exec
  -- copy 9: the partial result to the device 9 places on, into its slot 6
  iapply (wp_copy_lit8 (F := F) m c _ (cpy9_eq c) κs8 κpr8 fp6 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N + tallyAt (recvCell (off c 10) (5 : Fin 15)) () N) _) $$ [Hsh8 Hp6 HO Hts8 Htr8]
  · isplitr; · iexact HIs8
    isplitr; · iexact HIpr8
    isplitl [Hsh8]; · iexact Hsh8
    isplitl [Hp6]; · iexact Hp6
    isplitl [HO]; · iexact HO
    isplitl [Hts8]; · iexact Hts8
    isplitr; · iexact Hrs8
    isplitl [Htr8]; · iexact Htr8
    iexact Hrr8
  iintro ⟨Hcs8, HO⟩
  sl_exec
  -- copy 10: the partial result to the device 10 places on, into its slot 5
  iapply (wp_copy_lit9 (F := F) m c _ (cpy10_eq c) κs9 κpr9 fp5 (tallyAt (recvCell (off c 15) (0 : Fin 15)) () N + tallyAt (recvCell (off c 14) (1 : Fin 15)) () N + tallyAt (recvCell (off c 13) (2 : Fin 15)) () N + tallyAt (recvCell (off c 12) (3 : Fin 15)) () N + tallyAt (recvCell (off c 11) (4 : Fin 15)) () N) _) $$ [Hsh9 Hp5 HO Hts9 Htr9]
  · isplitr; · iexact HIs9
    isplitr; · iexact HIpr9
    isplitl [Hsh9]; · iexact Hsh9
    isplitl [Hp5]; · iexact Hp5
    isplitl [HO]; · iexact HO
    isplitl [Hts9]; · iexact Hts9
    isplitr; · iexact Hrs9
    isplitl [Htr9]; · iexact Htr9
    iexact Hrr9
  iintro ⟨Hcs9, HO⟩
  sl_exec
  -- copy 11: the partial result to the device 11 places on, into its slot 4
  iapply (wp_copy_lit10 (F := F) m c _ (cpy11_eq c) κs10 κpr10 fp4 (tallyAt (recvCell (off c 15) (0 : Fin 15)) () N + tallyAt (recvCell (off c 14) (1 : Fin 15)) () N + tallyAt (recvCell (off c 13) (2 : Fin 15)) () N + tallyAt (recvCell (off c 12) (3 : Fin 15)) () N) _) $$ [Hsh10 Hp4 HO Hts10 Htr10]
  · isplitr; · iexact HIs10
    isplitr; · iexact HIpr10
    isplitl [Hsh10]; · iexact Hsh10
    isplitl [Hp4]; · iexact Hp4
    isplitl [HO]; · iexact HO
    isplitl [Hts10]; · iexact Hts10
    isplitr; · iexact Hrs10
    isplitl [Htr10]; · iexact Htr10
    iexact Hrr10
  iintro ⟨Hcs10, HO⟩
  sl_exec
  -- copy 12: the partial result to the device 12 places on, into its slot 3
  iapply (wp_copy_lit11 (F := F) m c _ (cpy12_eq c) κs11 κpr11 fp3 (tallyAt (recvCell (off c 15) (0 : Fin 15)) () N + tallyAt (recvCell (off c 14) (1 : Fin 15)) () N + tallyAt (recvCell (off c 13) (2 : Fin 15)) () N) _) $$ [Hsh11 Hp3 HO Hts11 Htr11]
  · isplitr; · iexact HIs11
    isplitr; · iexact HIpr11
    isplitl [Hsh11]; · iexact Hsh11
    isplitl [Hp3]; · iexact Hp3
    isplitl [HO]; · iexact HO
    isplitl [Hts11]; · iexact Hts11
    isplitr; · iexact Hrs11
    isplitl [Htr11]; · iexact Htr11
    iexact Hrr11
  iintro ⟨Hcs11, HO⟩
  sl_exec
  -- copy 13: the partial result to the device 13 places on, into its slot 2
  iapply (wp_copy_lit12 (F := F) m c _ (cpy13_eq c) κs12 κpr12 fp2 (tallyAt (recvCell (off c 15) (0 : Fin 15)) () N + tallyAt (recvCell (off c 14) (1 : Fin 15)) () N) _) $$ [Hsh12 Hp2 HO Hts12 Htr12]
  · isplitr; · iexact HIs12
    isplitr; · iexact HIpr12
    isplitl [Hsh12]; · iexact Hsh12
    isplitl [Hp2]; · iexact Hp2
    isplitl [HO]; · iexact HO
    isplitl [Hts12]; · iexact Hts12
    isplitr; · iexact Hrs12
    isplitl [Htr12]; · iexact Htr12
    iexact Hrr12
  iintro ⟨Hcs12, HO⟩
  sl_exec
  -- copy 14: the partial result to the device 14 places on, into its slot 1
  iapply (wp_copy_lit13 (F := F) m c _ (cpy14_eq c) κs13 κpr13 fp1 (tallyAt (recvCell (off c 15) (0 : Fin 15)) () N) _) $$ [Hsh13 Hp1 HO Hts13 Htr13]
  · isplitr; · iexact HIs13
    isplitr; · iexact HIpr13
    isplitl [Hsh13]; · iexact Hsh13
    isplitl [Hp1]; · iexact Hp1
    isplitl [HO]; · iexact HO
    isplitl [Hts13]; · iexact Hts13
    isplitr; · iexact Hrs13
    isplitl [Htr13]; · iexact Htr13
    iexact Hrr13
  iintro ⟨Hcs13, HO⟩
  sl_exec
  -- copy 15: the partial result to the device 15 places on, into its slot 0
  iapply (wp_copy_lit14 (F := F) m c _ (cpy15_eq c) κs14 κpr14 fp0 (0) _) $$ [Hsh14 Hp0 HO Hts14 Htr14]
  · isplitr; · iexact HIs14
    isplitr; · iexact HIpr14
    isplitl [Hsh14]; · iexact Hsh14
    isplitl [Hp0]; · iexact Hp0
    isplitl [HO]; · rw [zero_add]; iexact HO
    isplitl [Hts14]; · iexact Hts14
    isplitr; · iexact Hrs14
    isplitl [Htr14]; · iexact Htr14
    iexact Hrr14
  iintro ⟨Hcs14, HO⟩
  unfold accPts
  sl_exec
  -- the fifteen rows have landed: the receive buffer whole again, holding every peer's partial result
  ihave Hcomm := (comm_join_raw (F := F) c (commV m c)) $$ [Har0_pay1 Har1_pay1 Har2_pay1 Har3_pay1 Har4_pay1 Har5_pay1 Har6_pay1 Har7_pay1 Har8_pay1 Har9_pay1 Har10_pay1 Har11_pay1 Har12_pay1 Har13_pay1 Har14_pay1]
  · isplitl [Har0_pay1]; · iexact Har0_pay1
    isplitl [Har1_pay1]; · iexact Har1_pay1
    isplitl [Har2_pay1]; · iexact Har2_pay1
    isplitl [Har3_pay1]; · iexact Har3_pay1
    isplitl [Har4_pay1]; · iexact Har4_pay1
    isplitl [Har5_pay1]; · iexact Har5_pay1
    isplitl [Har6_pay1]; · iexact Har6_pay1
    isplitl [Har7_pay1]; · iexact Har7_pay1
    isplitl [Har8_pay1]; · iexact Har8_pay1
    isplitl [Har9_pay1]; · iexact Har9_pay1
    isplitl [Har10_pay1]; · iexact Har10_pay1
    isplitl [Har11_pay1]; · iexact Har11_pay1
    isplitl [Har12_pay1]; · iexact Har12_pay1
    isplitl [Har13_pay1]; · iexact Har13_pay1
    iexact Har14_pay1
  sl_exec
  -- the thirty own semaphores, their one round consumed, close: their counters at zero are the device's again
  imod (close_cell (F := F) m (sendCell c (0 : Fin 15)) κs0) $$ [Has0] with Hzs0
  · isplitr; · iexact HIs0
    iexact Has0
  imod (close_cell (F := F) m (sendCell c (1 : Fin 15)) κs1) $$ [Has1] with Hzs1
  · isplitr; · iexact HIs1
    iexact Has1
  imod (close_cell (F := F) m (sendCell c (2 : Fin 15)) κs2) $$ [Has2] with Hzs2
  · isplitr; · iexact HIs2
    iexact Has2
  imod (close_cell (F := F) m (sendCell c (3 : Fin 15)) κs3) $$ [Has3] with Hzs3
  · isplitr; · iexact HIs3
    iexact Has3
  imod (close_cell (F := F) m (sendCell c (4 : Fin 15)) κs4) $$ [Has4] with Hzs4
  · isplitr; · iexact HIs4
    iexact Has4
  imod (close_cell (F := F) m (sendCell c (5 : Fin 15)) κs5) $$ [Has5] with Hzs5
  · isplitr; · iexact HIs5
    iexact Has5
  imod (close_cell (F := F) m (sendCell c (6 : Fin 15)) κs6) $$ [Has6] with Hzs6
  · isplitr; · iexact HIs6
    iexact Has6
  imod (close_cell (F := F) m (sendCell c (7 : Fin 15)) κs7) $$ [Has7] with Hzs7
  · isplitr; · iexact HIs7
    iexact Has7
  imod (close_cell (F := F) m (sendCell c (8 : Fin 15)) κs8) $$ [Has8] with Hzs8
  · isplitr; · iexact HIs8
    iexact Has8
  imod (close_cell (F := F) m (sendCell c (9 : Fin 15)) κs9) $$ [Has9] with Hzs9
  · isplitr; · iexact HIs9
    iexact Has9
  imod (close_cell (F := F) m (sendCell c (10 : Fin 15)) κs10) $$ [Has10] with Hzs10
  · isplitr; · iexact HIs10
    iexact Has10
  imod (close_cell (F := F) m (sendCell c (11 : Fin 15)) κs11) $$ [Has11] with Hzs11
  · isplitr; · iexact HIs11
    iexact Has11
  imod (close_cell (F := F) m (sendCell c (12 : Fin 15)) κs12) $$ [Has12] with Hzs12
  · isplitr; · iexact HIs12
    iexact Has12
  imod (close_cell (F := F) m (sendCell c (13 : Fin 15)) κs13) $$ [Has13] with Hzs13
  · isplitr; · iexact HIs13
    iexact Has13
  imod (close_cell (F := F) m (sendCell c (14 : Fin 15)) κs14) $$ [Has14] with Hzs14
  · isplitr; · iexact HIs14
    iexact Has14
  imod (close_cell (F := F) m (recvCell c (0 : Fin 15)) κr0) $$ [Har0] with Hzr0
  · isplitr; · iexact HIr0
    iexact Har0
  imod (close_cell (F := F) m (recvCell c (1 : Fin 15)) κr1) $$ [Har1] with Hzr1
  · isplitr; · iexact HIr1
    iexact Har1
  imod (close_cell (F := F) m (recvCell c (2 : Fin 15)) κr2) $$ [Har2] with Hzr2
  · isplitr; · iexact HIr2
    iexact Har2
  imod (close_cell (F := F) m (recvCell c (3 : Fin 15)) κr3) $$ [Har3] with Hzr3
  · isplitr; · iexact HIr3
    iexact Har3
  imod (close_cell (F := F) m (recvCell c (4 : Fin 15)) κr4) $$ [Har4] with Hzr4
  · isplitr; · iexact HIr4
    iexact Har4
  imod (close_cell (F := F) m (recvCell c (5 : Fin 15)) κr5) $$ [Har5] with Hzr5
  · isplitr; · iexact HIr5
    iexact Har5
  imod (close_cell (F := F) m (recvCell c (6 : Fin 15)) κr6) $$ [Har6] with Hzr6
  · isplitr; · iexact HIr6
    iexact Har6
  imod (close_cell (F := F) m (recvCell c (7 : Fin 15)) κr7) $$ [Har7] with Hzr7
  · isplitr; · iexact HIr7
    iexact Har7
  imod (close_cell (F := F) m (recvCell c (8 : Fin 15)) κr8) $$ [Har8] with Hzr8
  · isplitr; · iexact HIr8
    iexact Har8
  imod (close_cell (F := F) m (recvCell c (9 : Fin 15)) κr9) $$ [Har9] with Hzr9
  · isplitr; · iexact HIr9
    iexact Har9
  imod (close_cell (F := F) m (recvCell c (10 : Fin 15)) κr10) $$ [Har10] with Hzr10
  · isplitr; · iexact HIr10
    iexact Har10
  imod (close_cell (F := F) m (recvCell c (11 : Fin 15)) κr11) $$ [Har11] with Hzr11
  · isplitr; · iexact HIr11
    iexact Har11
  imod (close_cell (F := F) m (recvCell c (12 : Fin 15)) κr12) $$ [Har12] with Hzr12
  · isplitr; · iexact HIr12
    iexact Har12
  imod (close_cell (F := F) m (recvCell c (13 : Fin 15)) κr13) $$ [Har13] with Hzr13
  · isplitr; · iexact HIr13
    iexact Har13
  imod (close_cell (F := F) m (recvCell c (14 : Fin 15)) κr14) $$ [Har14] with Hzr14
  · isplitr; · iexact HIr14
    iexact Har14
  -- what the body leaves: the result stored, the scratch buffers whole again
  rw [out_stored]
  ihave Hx := (Entails.of_eq (view_eq (F := F) c cc0_stg0_0 (xblk m c)).symm) $$ Hx
  ihave Hout := (Entails.of_eq (view_eq (F := F) c cc0_stg1_0 (outV m c)).symm) $$ Hout
  ihave Hcomm := (Entails.of_eq (view_eq (F := F) c cc0_scratch1 (commV m c)).symm) $$ Hcomm
  ihave Hacc := (acc_join_raw (F := F) c (accV m c)) $$ [Has0_pay1 Has1_pay1 Has2_pay1 Has3_pay1 Has4_pay1 Has5_pay1 Has6_pay1 Has7_pay1 Has8_pay1 Has9_pay1 Has10_pay1 Has11_pay1 Has12_pay1 Has13_pay1 Has14_pay1 Hrem]
  · isplitl [Has0_pay1]; · iexact Has0_pay1
    isplitl [Has1_pay1]; · iexact Has1_pay1
    isplitl [Has2_pay1]; · iexact Has2_pay1
    isplitl [Has3_pay1]; · iexact Has3_pay1
    isplitl [Has4_pay1]; · iexact Has4_pay1
    isplitl [Has5_pay1]; · iexact Has5_pay1
    isplitl [Has6_pay1]; · iexact Has6_pay1
    isplitl [Has7_pay1]; · iexact Has7_pay1
    isplitl [Has8_pay1]; · iexact Has8_pay1
    isplitl [Has9_pay1]; · iexact Has9_pay1
    isplitl [Has10_pay1]; · iexact Has10_pay1
    isplitl [Has11_pay1]; · iexact Has11_pay1
    isplitl [Has12_pay1]; · iexact Has12_pay1
    isplitl [Has13_pay1]; · iexact Has13_pay1
    isplitl [Has14_pay1]; · iexact Has14_pay1
    iexact Hrem
  rw [wp_ret]; imodintro
  iapply Hk
  unfold bodyPost Φ₁ scratch Dat.owesAt Pipeline.owesWithin
  rw [show (dats m ρ 0 c).owed t0_0.succ = 0 from rfl, bigSep_fin15, bigSep_fin15]
  isplitl [Hacc Hcomm Hzs0 Hzs1 Hzs2 Hzs3 Hzs4 Hzs5 Hzs6 Hzs7 Hzs8 Hzs9 Hzs10 Hzs11 Hzs12 Hzs13 Hzs14 Hzr0 Hzr1 Hzr2 Hzr3 Hzr4 Hzr5 Hzr6 Hzr7 Hzr8 Hzr9 Hzr10 Hzr11 Hzr12 Hzr13 Hzr14]
  · isplitl [Hacc Hcomm]
    · isplitl [Hacc]
      · iexists (accV m c); iexact Hacc
      · iexists (commV m c); iexact Hcomm
    isplitl [Hzs0 Hzs1 Hzs2 Hzs3 Hzs4 Hzs5 Hzs6 Hzs7 Hzs8 Hzs9 Hzs10 Hzs11 Hzs12 Hzs13 Hzs14]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzs6]; · iexact Hzs6
      isplitl [Hzs7]; · iexact Hzs7
      isplitl [Hzs8]; · iexact Hzs8
      isplitl [Hzs9]; · iexact Hzs9
      isplitl [Hzs10]; · iexact Hzs10
      isplitl [Hzs11]; · iexact Hzs11
      isplitl [Hzs12]; · iexact Hzs12
      isplitl [Hzs13]; · iexact Hzs13
      iexact Hzs14
    · isplitl [Hzr0]; · iexact Hzr0
      isplitl [Hzr1]; · iexact Hzr1
      isplitl [Hzr2]; · iexact Hzr2
      isplitl [Hzr3]; · iexact Hzr3
      isplitl [Hzr4]; · iexact Hzr4
      isplitl [Hzr5]; · iexact Hzr5
      isplitl [Hzr6]; · iexact Hzr6
      isplitl [Hzr7]; · iexact Hzr7
      isplitl [Hzr8]; · iexact Hzr8
      isplitl [Hzr9]; · iexact Hzr9
      isplitl [Hzr10]; · iexact Hzr10
      isplitl [Hzr11]; · iexact Hzr11
      isplitl [Hzr12]; · iexact Hzr12
      isplitl [Hzr13]; · iexact Hzr13
      iexact Hzr14
  isplitl [HO]
  · iexists _
    isplitr
    on_goal 2 => iexact HO
    ipureintro; exact fun _ _ => Or.inl trivial
  isplitl [Hx]
  · iexists _; isplitr; · (ipureintro; rfl)
    iexact Hx
  iexists _; isplitr; · (ipureintro; rfl)
  iexact Hout

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  iintro H
  iapply (sound_body m ρ c fun _ => bodyPost m ρ c)
  isplitl [H]; · iexact H
  iintro H; iexact H

/-- info: 'Cert.Kernel.Body.body_obligation' depends on axioms: [propext, Classical.choice, Quot.sound] -/
#guard_msgs in #print axioms body_obligation

end Cert.Kernel.Body

end
-- ==== Proof.KernelLaunch.lean ====
/-
  The launch of the sixteen kernels.

  The protocol's ghost state is allocated for all devices at once (the barrier semaphores are the runtime's,
  not the kernel's own, and each is signalled by fifteen other devices): every semaphore's round state, its
  owner's position, and one token per duty. The tokens are then dealt to the devices that pay them: duty `j`
  of a barrier semaphore to the device `j + 1` places before its owner, a receive semaphore's to the device
  that copies into its slot, a send semaphore's stays. With each device's body proved, the launch theorem
  gives the run of the whole mesh.
-/
import proofs.«900922_g7700000000000923_dist_max_ax0_shard0_i_m512_n256_v7x_i16_bf16_1_alg».proof.Proof.KernelSched
import proofs.«900922_g7700000000000923_dist_max_ax0_shard0_i_m512_n256_v7x_i16_bf16_1_alg».proof.Proof.KernelCred
import proofs.«900922_g7700000000000923_dist_max_ax0_shard0_i_m512_n256_v7x_i16_bf16_1_alg».proof.Proof.LibDeal
import proofs.«900922_g7700000000000923_dist_max_ax0_shard0_i_m512_n256_v7x_i16_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Ring Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The thirty semaphores the kernel itself allocates: the fifteen send ones, then the fifteen receive ones. -/
abbrev osem : Fin 15 ⊕ Fin 15 → SemLoc sig
  | .inl k => .dma (sendS k)
  | .inr s => .dma (recvS s)

/-- A device's 31 semaphores: the barrier one, then its own thirty. -/
abbrev CK : Type := Unit ⊕ (Fin 15 ⊕ Fin 15)
abbrev csem : CK → SemLoc sig
  | .inl _ => .reg barS
  | .inr k => osem k
abbrev kcell (ck : Dev nD × CK) : GSem nD τ sig := ((ck.1 : Thread nD τ), csem ck.2)

theorem ownSemFacts : Pipeline.OwnSemFacts cfg0.spec osem := by decide

theorem share_eq (c : Dev nD) (w : Fin cfg0.W) : (dats (F := F) m ρ 0 c).share w = fullShare := by unfold Dat.share; split <;> rfl

theorem csem_injective : Function.Injective csem := by
  rintro (u | k | s) (u' | k' | s') h
  · rfl
  · exact absurd h (fun h' => by cases h')
  · exact absurd h (fun h' => by cases h')
  · exact absurd h (fun h' => by cases h')
  · exact congrArg Sum.inr (ownSemFacts.inj h)
  · exact congrArg Sum.inr (ownSemFacts.inj h)
  · exact absurd h (fun h' => by cases h')
  · exact congrArg Sum.inr (ownSemFacts.inj h)
  · exact congrArg Sum.inr (ownSemFacts.inj h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All the semaphores of the protocol: every device's 31. -/
def ringCells : Finset (GSem nD τ sig) := Finset.univ.map ⟨kcell, kcell_injective⟩

/-- The duties of a device's own semaphores: the barrier semaphore's fifteen, and the one of each of its thirty. -/
abbrev TK : Type := Fin 15 ⊕ (Fin 15 ⊕ Fin 15)
abbrev tokOf (cj : Dev nD × TK) : GSem nD τ sig × ℕ × Fin 15 := match cj.2 with
  | .inl j => (barCell cj.1, 0, j)
  | .inr k => (kcell (cj.1, .inr k), 0, 0)

theorem tokOf_injective : Function.Injective (tokOf : Dev nD × TK → GSem nD τ sig × ℕ × Fin 15) := by
  rintro ⟨c, j⟩ ⟨c', j'⟩ h
  have h1 : c = c' := by
    have := congrArg (fun x : GSem nD τ sig × ℕ × Fin 15 => x.1.1.1) h
    rcases j with j | k <;> rcases j' with j' | k' <;> exact this
  subst h1
  have h2 := congrArg (fun x : GSem nD τ sig × ℕ × Fin 15 => x.1.2) h
  have h3 := congrArg (fun x : GSem nD τ sig × ℕ × Fin 15 => x.2.2) h
  rcases j with j | k <;> rcases j' with j' | k'
  · have e : j = j' := h3
    rw [e]
  · have e := csem_injective (show csem (.inl ()) = csem (.inr k') from h2)
    cases e
  · have e := csem_injective (show csem (.inr k) = csem (.inl ()) from h2)
    cases e
  · have e := csem_injective (show csem (.inr k) = csem (.inr k') from h2)
    rw [Sum.inr.inj e]

def ringToks : Finset (GSem nD τ sig × ℕ × Fin 15) := Finset.univ.map ⟨tokOf, tokOf_injective⟩

/-- The launch element: the pipeline's, and the protocol's cells and tokens. -/
def u₀ : UU :=
  (initOf (Pipeline.cells cfgs cellOf_inj) (Pipeline.launchToks cfgs cellOf_inj), initOf ringCells ringToks)

/-- The duty tokens of device c's own semaphores, as minted. -/
def toks (c : Dev nD) : sProp 𝕄 :=
  iprop((bigSep Finset.univ fun j : Fin 15 => dutyTok ER (barCell c) 0 j)
    ∗ (bigSep Finset.univ fun k : Fin 15 => dutyTok ER (sendCell c k) 0 (0 : Fin 15))
    ∗ (bigSep Finset.univ fun s : Fin 15 => dutyTok ER (recvCell c s) 0 (0 : Fin 15)))

/-- What the launch element deals device c. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- A conjunction over a device's 31 semaphores, by kind. -/
theorem bigSep_CK (Φ : CK → sProp 𝕄) : bigSep Finset.univ Φ
    = iprop(Φ (.inl ()) ∗ (bigSep Finset.univ fun k : Fin 15 => Φ (.inr (.inl k))) ∗ bigSep Finset.univ fun s : Fin 15 => Φ (.inr (.inr s))) := by
  rw [bigSep_univ_sum, bigSep_univ_sum, bigSep_univ_of_subsingleton ()]
  rfl

/-- A conjunction over a device's 45 duties, by kind. -/
theorem bigSep_TK (Φ : TK → sProp 𝕄) : bigSep Finset.univ Φ
    = iprop((bigSep Finset.univ fun j : Fin 15 => Φ (.inl j)) ∗ (bigSep Finset.univ fun k : Fin 15 => Φ (.inr (.inl k))) ∗ bigSep Finset.univ fun s : Fin 15 => Φ (.inr (.inr s))) := by
  rw [bigSep_univ_sum, bigSep_univ_sum]
  rfl

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero become the invariants -/

/-- The send and the receive semaphores are the kernel's own thirty; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 15 => semVal (sendCell c k) 0) ∗ bigSep Finset.univ fun s : Fin 15 => semVal (recvCell c s) 0) := by
  unfold Pipeline.ownSems0; rw [bigSep_univ_sum]; rfl

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => Sched.inv m (kcell (c, k)))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => Sched.inv m (kcell (c, k)) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the invariants, the reached-facts and the tokens -/

/-- Every semaphore's invariant, and that round 0 of every semaphore is reached. -/
def records : sProp 𝕄 :=
  iprop((bigSep Finset.univ fun ck : Dev nD × CK => Sched.inv m (kcell ck))
    ∗ bigSep Finset.univ fun ck : Dev nD × CK => reached ER (kcell ck) 0)

instance records_persistent : BI.Persistent (records (F := F) m) := by unfold records; infer_instance

theorem inv_pick (ck : Dev nD × CK) :
    (bigSep Finset.univ fun ck : Dev nD × CK => (Sched.inv m (kcell ck) : sProp 𝕄)) ⊢ Sched.inv m (kcell ck) :=
  bigSep_elim (Finset.mem_univ ck)
theorem reached_pick (ck : Dev nD × CK) :
    (bigSep Finset.univ fun ck : Dev nD × CK => (reached ER (kcell ck) 0 : sProp 𝕄)) ⊢ reached ER (kcell ck) 0 :=
  bigSep_elim (Finset.mem_univ ck)

theorem inv_at (ck : Dev nD × CK) : records m ⊢ Sched.inv m (kcell ck) := by
  unfold records
  iintro ⟨HI, -⟩
  iapply (inv_pick m ck); iexact HI

theorem reached_at (ck : Dev nD × CK) : records (F := F) m ⊢ reached ER (kcell ck) 0 := by
  unfold records
  iintro ⟨-, HR⟩
  iapply (reached_pick (F := F) ck); iexact HR

theorem inv_bar (c : Dev nD) : records m ⊢ Sched.inv m (barCell c) := inv_at m (c, .inl ())
theorem inv_send (c : Dev nD) (k : Fin 15) : records m ⊢ Sched.inv m (sendCell c k) := inv_at m (c, .inr (.inl k))
theorem inv_recv (c : Dev nD) (s : Fin 15) : records m ⊢ Sched.inv m (recvCell c s) := inv_at m (c, .inr (.inr s))
theorem reached_bar (c : Dev nD) : records (F := F) m ⊢ reached ER (barCell c) 0 := reached_at m (c, .inl ())
theorem reached_send (c : Dev nD) (k : Fin 15) : records (F := F) m ⊢ reached ER (sendCell c k) 0 := reached_at m (c, .inr (.inl k))
theorem reached_recv (c : Dev nD) (s : Fin 15) : records (F := F) m ⊢ reached ER (recvCell c s) 0 := reached_at m (c, .inr (.inr s))

/-- The invariants a device opens are among all the invariants. -/
theorem records_invs (c : Dev nD) : records m ⊢ Sched.invs m c := by
  unfold Sched.invs
  iintro #H
  isplitr; · iapply (inv_bar m c); iexact H
  isplitr; · iapply (bigSep_intro_persistent (R := records m) fun k _ => inv_send m c k); iexact H
  isplitr; · iapply (bigSep_intro_persistent (R := records m) fun s _ => inv_recv m c s); iexact H
  isplitr; · iapply (bigSep_intro_persistent (R := records m) fun j _ => inv_bar m (off c (j.val + 1))); iexact H
  iapply (bigSep_intro_persistent (R := records m) fun j _ => inv_recv m (off c (j.val + 1)) (peerSlot j)); iexact H

/-- So are the reached-facts of the semaphores it pays into. -/
theorem records_reacheds (c : Dev nD) : records (F := F) m ⊢ reacheds c := by
  unfold Sched.reacheds
  iintro #H
  isplitr; · iapply (bigSep_intro_persistent (R := records m) fun j _ => reached_bar m (off c (j.val + 1))); iexact H
  isplitr; · iapply (bigSep_intro_persistent (R := records m) fun j _ => reached_recv m (off c (j.val + 1)) (peerSlot j)); iexact H
  iapply (bigSep_intro_persistent (R := records m) fun k _ => reached_send m c k); iexact H

theorem ghost_intro (c : Dev nD) : iprop(records m ∗ positions c ∗ payToks c) ⊢ ghost m c := by
  unfold Sched.ghost
  iintro ⟨#HR, Hpos, Htok⟩
  isplitr; · iapply (records_invs m c); iexact HR
  isplitr; · iapply (records_reacheds m c); iexact HR
  isplitl [Hpos]; · iexact Hpos
  iexact Htok

theorem peerSlot_peerSlot (j : Fin 15) : peerSlot (peerSlot j) = j :=
  Fin.ext (by show 14 - (14 - j.val) = j.val; have := j.isLt; omega)

/-- Slot 14 - j for j is a bijection of the fifteen slots, its own inverse. -/
def peerSlotEquiv : Fin 15 ≃ Fin 15 := ⟨peerSlot, peerSlot, peerSlot_peerSlot, peerSlot_peerSlot⟩

theorem off_fwd_back (j : Fin 15) (c : Dev nD) : off (off c (16 - (j.val + 1))) (j.val + 1) = c := by
  have := j.isLt
  rw [off_off, show 16 - (j.val + 1) + (j.val + 1) = 16 by omega, off_sixteen]

theorem off_back_fwd (j : Fin 15) (c : Dev nD) : off (off c (j.val + 1)) (16 - (j.val + 1)) = c :=
  off_back c (j.val + 1) (by have := j.isLt; omega)

/-- Duty j of a barrier semaphore goes to the device j + 1 places before its owner: -/
theorem deal_bar : (bigSep Finset.univ fun c : Dev nD => bigSep Finset.univ fun j : Fin 15 => (dutyTok ER (barCell c) 0 j : sProp 𝕄))
    = bigSep Finset.univ fun c : Dev nD => bigSep Finset.univ fun j : Fin 15 => dutyTok ER (barCell (off c (j.val + 1))) 0 j :=
  LibDeal.bigSep_deal_fn (fun (j : Fin 15) (c : Dev nD) => off c (j.val + 1)) (fun j c => off c (16 - (j.val + 1))) off_fwd_back off_back_fwd
    (fun (c : Dev nD) (j : Fin 15) => (dutyTok ER (barCell c) 0 j : sProp 𝕄))

/-- the duty of receive semaphore 14 - j likewise. -/
theorem deal_recv : (bigSep Finset.univ fun c : Dev nD => bigSep Finset.univ fun s : Fin 15 => (dutyTok ER (recvCell c s) 0 (0 : Fin 15) : sProp 𝕄))
    = bigSep Finset.univ fun c : Dev nD => bigSep Finset.univ fun j : Fin 15 => dutyTok ER (recvCell (off c (j.val + 1)) (peerSlot j)) 0 (0 : Fin 15) :=
  (bigSep_congr fun (c : Dev nD) _ => bigSep_univ_equiv peerSlotEquiv (fun s : Fin 15 => (dutyTok ER (recvCell c s) 0 (0 : Fin 15) : sProp 𝕄))).trans
    (LibDeal.bigSep_deal_fn (fun (j : Fin 15) (c : Dev nD) => off c (j.val + 1)) (fun j c => off c (16 - (j.val + 1))) off_fwd_back off_back_fwd
      (fun (c : Dev nD) (j : Fin 15) => (dutyTok ER (recvCell c (peerSlot j)) 0 (0 : Fin 15) : sProp 𝕄)))

/-- The minted tokens, dealt to the devices that pay them. -/
theorem toks_around : (bigSep Finset.univ fun c : Dev nD => (toks c : sProp 𝕄)) ⊢ bigSep Finset.univ fun c : Dev nD => payToks c := by
  unfold toks Sched.payToks
  rw [bigSep_sep', bigSep_sep', bigSep_sep', bigSep_sep', deal_bar, deal_recv]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => Sched.inv m (kcell (c, k)))
          ∗ (bigSep Finset.univ fun k : CK => iprop(atPos ER (kcell (c, k)) 0 ∅ 0 ∗ reached ER (kcell (c, k)) 0)) ∗ toks c) : sProp 𝕄)
      ⊢ bigSep Finset.univ (ghost (F := F) m) := by
  rw [bigSep_sep', bigSep_sep', ← bigSep_univ_prod (fun ck : Dev nD × CK => Sched.inv m (kcell ck)),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨#HI, ⟨Hat, #HR⟩, Htok⟩
  ihave Htk := (toks_around (F := F)) $$ Htok
  iapply (bigSep_with_persistent (R := records m) fun c _ => ghost_intro m c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(positions c ∗ payToks c) from Entails.of_eq (by unfold Sched.positions; rw [bigSep_CK])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost (F := F) m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (Cred.creds (F := F) c) $$ Hcr
  icases Hc with ⟨H1, HN⟩
  imodintro
  unfold Sched.start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Sched.Φ₀ Sched.scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Sched.Φ₁ Sched.scratch
  iintro ⟨Hr, HzS, HzV⟩
  isplitr; · iempintro
  isplitl [HzS HzV]
  · isplitl [HzS] <;> iassumption
  iexact Hr

/-! ## The run -/

set_option maxRecDepth 8000 in
/-- At the compiled mesh of sixteen devices, for any float values, from any memory with zero counters: given each
    device's body, every weakly fair execution of @main terminates, and every final state has each device's two
    arrays at the contents the proof data names. -/
theorem run_main (hbody : ∀ c : Dev nD, BodyObligation (dats (F := F) m ρ 0 c) (defs₀ (F := F)) 𝒱₀ () Set.univ) :
    θ_run defs (onTc (τ := τ) (main (F := F))) ⟨m, fun _ => 0, ρ⟩ (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := Cred.waits m ρ)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Launch.run_main' depends on axioms: [propext, Classical.choice, Quot.sound] -/
#guard_msgs in #print axioms run_main

end Cert.Kernel.Launch

end
-- ==== Proof.KernelFinal.lean ====
/-
  The arrays after the run: on every device the argument array is unchanged (the input window only reads
  it) and the result array holds what the body left in the output window's staging buffer, the device's
  result, written back whole at the one grid point.
-/
import proofs.«900922_g7700000000000923_dist_max_ax0_shard0_i_m512_n256_v7x_i16_bf16_1_alg».proof.Proof.KernelSched
import Idealize.ShloMosaic.Lib.Pipeline.Value
import Idealize.ShloMosaic.Lib.Pipeline.Cells

noncomputable section

namespace Cert.Kernel.Final

open Cert.Kernel Cert.Kernel.Gen Cert.Kernel.Ring Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's block of `x` as its staging buffer holds it is its whole argument array (one grid point, the block the whole array). -/
theorem xblk_eq (c : Dev nD) : xblk m c = m ((c.tc : Thread nD τ).loc main_arg0) :=
  Memref.read_access_unit_zero (Elt F) main_arg0 (funext fun a => Nat.zero_mul _) _ (m ((c.tc : Thread nD τ).loc main_arg0))

/-- The argument array is an input window's: no point writes it, so it ends as it was launched. -/
theorem final_arg (c : Dev nD) : finalA m ρ c (0 : Fin 2) = m ((c.tc : Thread nD τ).loc main_arg0) :=
  (dats (F := F) m ρ 0 c).arrAt_in (0 : Fin 2) rfl _

/-- The result array is the output window's: the one grid point writes its block, the whole array, back
    from the staging buffer, so whatever the array held before, it ends holding what the body left there. -/
theorem final_res (c : Dev nD) : finalA m ρ c (1 : Fin 2) = outV m c := by
  have h := (dats (F := F) m ρ 0 c).arrAt_succ (1 : Fin 2) t0_0
  rw [if_pos (flush0_1 t0_0)] at h
  exact h.trans (Memref.write_access_unit_zero_univ (Elt F) main_v1 (funext fun a => Nat.zero_mul _) _ _ _)

/-- What the run's post says of the two arrays: the result array holds the device's result as a function of
    the sixteen argument arrays, and the argument array is unchanged. -/
theorem post_of_QC (r : PUnit × MemSt nD τ sig (Elt F)) (h : QC m ρ r) (c : Dev nD) :
    r.2.mem ((c.tc : Thread nD τ).loc main_v1) = outOf (fun d : Dev nD => m ((d.tc : Thread nD τ).loc main_arg0)) c
    ∧ r.2.mem ((c.tc : Thread nD τ).loc main_arg0) = m ((c.tc : Thread nD τ).loc main_arg0) := by
  refine ⟨?_, (h c (0 : Fin 2)).trans (final_arg m ρ c)⟩
  have e : (fun d : Dev nD => xblk m d) = fun d : Dev nD => m ((d.tc : Thread nD τ).loc main_arg0) := funext (xblk_eq m)
  have h1 := (h c (1 : Fin 2)).trans (final_res m ρ c)
  unfold outV at h1
  rw [e] at h1
  exact h1

/-- info: 'Cert.Kernel.Final.xblk_eq' depends on axioms: [propext, Classical.choice, Quot.sound] -/
#guard_msgs in #print axioms xblk_eq

/-- info: 'Cert.Kernel.Final.post_of_QC' depends on axioms: [propext, Classical.choice, Quot.sound] -/
#guard_msgs in #print axioms post_of_QC

end Cert.Kernel.Final

end
-- ==== Proof.KernelRun.lean ====
/-
  The run of the whole mesh. From any memory with every semaphore counter at zero, every weakly fair execution
  of the sixteen devices terminates, and in every final state each device's result array holds the device's
  result, the maximum of its own column maxima and of the fifteen rows received from the other devices, as a
  function of the sixteen argument arrays, and its argument array is unchanged: the launch of the sixteen
  bodies, read at the two arrays.
-/
import proofs.«900922_g7700000000000923_dist_max_ax0_shard0_i_m512_n256_v7x_i16_bf16_1_alg».proof.Proof.KernelSched
import proofs.«900922_g7700000000000923_dist_max_ax0_shard0_i_m512_n256_v7x_i16_bf16_1_alg».proof.Proof.KernelBody
import proofs.«900922_g7700000000000923_dist_max_ax0_shard0_i_m512_n256_v7x_i16_bf16_1_alg».proof.Proof.KernelLaunch
import proofs.«900922_g7700000000000923_dist_max_ax0_shard0_i_m512_n256_v7x_i16_bf16_1_alg».proof.Proof.KernelFinal

noncomputable section

namespace Cert.Kernel.Run

open Cert.Kernel Cert.Kernel.Gen Cert.Kernel.Ring Cert.Kernel.Vals Cert.Kernel.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of @main on the sixteen devices terminates, nothing faulting, with each
    device's result array at the device's result of the sixteen argument arrays and its argument array
    unchanged. -/
theorem run_post : θ_run defs (onTc (τ := τ) (main (F := F))) ⟨m, fun _ => 0, ρ⟩ (fun r => ∀ c : Dev nD,
    r.2.mem ((c.tc : Thread nD τ).loc main_v1) = outOf (fun d : Dev nD => m ((d.tc : Thread nD τ).loc main_arg0)) c
    ∧ r.2.mem ((c.tc : Thread nD τ).loc main_arg0) = m ((c.tc : Thread nD τ).loc main_arg0)) :=
  (θ_run defs _ _).mono (fun r h c => Cert.Kernel.Final.post_of_QC m ρ r h c)
    (Cert.Kernel.Launch.run_main m ρ (Cert.Kernel.Body.body_obligation m ρ))

end Cert.Kernel.Run

end
-- ==== Proof.RefSide.lean ====
/-
  The reference program's side: a column maximum over all 8192 rows of the whole array, computed on one
  device by a host reduction started from -∞ and reshaped to one row.
-/
import proofs.«900922_g7700000000000923_dist_max_ax0_shard0_i_m512_n256_v7x_i16_bf16_1_alg».proof.Defs
import proofs.«900922_g7700000000000923_dist_max_ax0_shard0_i_m512_n256_v7x_i16_bf16_1_alg».proof.Proof.Gen.ReferenceIdeal
import proofs.«900922_g7700000000000923_dist_max_ax0_shard0_i_m512_n256_v7x_i16_bf16_1_alg».proof.Proof.Gen.ReferenceIdeal.Run
import proofs.«900922_g7700000000000923_dist_max_ax0_shard0_i_m512_n256_v7x_i16_bf16_1_alg».proof.Proof.Gen.ReferenceIdeal.Read

noncomputable section

namespace Cert.RefSide

open Idealize.ShloMosaic Idealize.SL.Sem

end Cert.RefSide

end
-- ==== Proof.Value.lean ====
/-
  The value: on every device the kernel's result — the maximum of the device's own column maxima and of the
  fifteen rows it received, each the column maxima of another device's 512 rows — is the column maximum over
  all 8192 rows of the whole array, which is what the reference computes.
-/
import proofs.«900922_g7700000000000923_dist_max_ax0_shard0_i_m512_n256_v7x_i16_bf16_1_alg».proof.Proof.KernelIdealVals
import proofs.«900922_g7700000000000923_dist_max_ax0_shard0_i_m512_n256_v7x_i16_bf16_1_alg».proof.Proof.RefSide
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

namespace Cert.Value

open Idealize.ShloMosaic Idealize.ShloMosaic.ValueIdx Cert.KernelIdeal.Ring Cert.KernelIdeal.Vals

/-! ## Maxima from -∞

  Every reduction here is a fold of `max` started at -∞, the least extended real, so it is the least upper
  bound of the family it runs over: it is below `b` exactly when every member is, and every member is below it. -/

/-- The word `0xFF800000` is -∞, the least extended real. -/
theorem negInf_eq_bot : Ideal.ofBits .f32 0xFF800000#32 = (⊥ : EReal) := by
  simp [Ideal.ofBits, Ideal.ieee]

/-- The maximum from -∞ of a finite family is at most `b` exactly when every member is. -/
theorem foldMax_le_iff {n : Nat} (f : Fin n → EReal) (b : EReal) :
    (Finset.univ : Finset (Fin n)).fold max ⊥ f ≤ b ↔ ∀ k, f k ≤ b := by
  rw [Finset.fold_max_le]
  exact ⟨fun h k => h.2 k (Finset.mem_univ k), fun h => ⟨bot_le, fun k _ => h k⟩⟩

/-- Every member of a finite family is at most its maximum. -/
theorem le_foldMax {n : Nat} (f : Fin n → EReal) (k : Fin n) :
    f k ≤ (Finset.univ : Finset (Fin n)).fold max ⊥ f :=
  (Finset.le_fold_max (f k)).2 (Or.inr ⟨k, Finset.mem_univ k, le_rfl⟩)

/-! ## The three reductions read at a column -/

/-- Column `j` of a 512-row array with row `k` put back on the reduced axis is (k, j). -/
theorem lift_rows512 (h : (⟨2, ![512, 256]⟩ : Shape).Reduces [0] ⟨1, ![256]⟩) (j : Fin 256)
    (k : Fin ((⟨2, ![512, 256]⟩ : Shape).size 0)) :
    h.lift (ix1 j) k = ix2 (⟨k.val, k.isLt⟩ : Fin 512) j := by
  funext a
  match a with
  | ⟨0, _⟩ => rfl
  | ⟨1, _⟩ => rfl

/-- The column maxima of a device's 512 rows, at column `j`. -/
theorem colMax512_apply (x : FVec Ideal ⟨2, ![512, 256]⟩ .f32)
    (h : (⟨2, ![512, 256]⟩ : Shape).Reduces [0] ⟨1, ![256]⟩) (hφ : FKind.Formats .f32)
    (hacc : (0xFF800000#32 : BitVec 32) = FKind.maximumf.neutral .f32 hφ) (j : Fin 256) :
    multiReduction (F := Ideal) .maximumf [0] ⟨1, ![256]⟩ x 0xFF800000#32 h hφ hacc (ix1 j)
      = (Finset.univ : Finset (Fin 512)).fold max ⊥ (fun r => x (ix2 r j)) := by
  refine (Ideal.multiReduction_maximumf_single x _ h hφ hacc (ix1 j)).trans ?_
  have hf : (x ∘ h.lift (ix1 j)) = fun r : Fin 512 => x (ix2 r j) :=
    funext fun k => congrArg x (lift_rows512 h j k)
  have hb : FloatOps.ofBits (F := Ideal) .f32 0xFF800000#32 = (⊥ : EReal) := negInf_eq_bot
  rw [hb]
  exact congrArg (fun f => Finset.fold max (⊥ : EReal) f (Finset.univ : Finset (Fin 512))) hf

/-- A device's partial result at column `j`: the maximum of its 512 rows there. -/
theorem accOf_apply (x : Vec Ideal Cert.KernelIdeal.S512x256 .f32) (u : Fin 1) (j : Fin 256) :
    accOf (F := Ideal) x (ix2 u j)
      = (Finset.univ : Finset (Fin 512)).fold max ⊥ (fun r => x (ix2 r j)) := by
  unfold accOf Cert.KernelIdeal.Gen.k0_pay1
  simp only [shapeCast_self]
  rw [shapeCast_a_1a_apply]
  exact colMax512_apply x _ _ _ j

/-- Column (u, j) of the fifteen received rows with slot `k` put back on the reduced axis is (k, u, j). -/
theorem lift_slots15 (h : (⟨3, ![15, 1, 256]⟩ : Shape).Reduces [0] ⟨2, ![1, 256]⟩) (u : Fin 1) (j : Fin 256)
    (k : Fin ((⟨3, ![15, 1, 256]⟩ : Shape).size 0)) :
    h.lift (ix2 u j) k = ix3 (⟨k.val, k.isLt⟩ : Fin 15) u j := by
  funext a
  match a with
  | ⟨0, _⟩ => rfl
  | ⟨1, _⟩ => rfl
  | ⟨2, _⟩ => rfl

/-- The maximum over the fifteen received rows, at column `j`. -/
theorem slotMax15_apply (cm : FVec Ideal ⟨3, ![15, 1, 256]⟩ .f32)
    (h : (⟨3, ![15, 1, 256]⟩ : Shape).Reduces [0] ⟨2, ![1, 256]⟩) (hφ : FKind.Formats .f32)
    (hacc : (0xFF800000#32 : BitVec 32) = FKind.maximumf.neutral .f32 hφ) (u : Fin 1) (j : Fin 256) :
    multiReduction (F := Ideal) .maximumf [0] ⟨2, ![1, 256]⟩ cm 0xFF800000#32 h hφ hacc (ix2 u j)
      = (Finset.univ : Finset (Fin 15)).fold max ⊥ (fun s => cm (ix3 s u j)) := by
  refine (Ideal.multiReduction_maximumf_single cm _ h hφ hacc (ix2 u j)).trans ?_
  have hf : (cm ∘ h.lift (ix2 u j)) = fun s : Fin 15 => cm (ix3 s u j) :=
    funext fun k => congrArg cm (lift_slots15 h u j k)
  have hb : FloatOps.ofBits (F := Ideal) .f32 0xFF800000#32 = (⊥ : EReal) := negInf_eq_bot
  rw [hb]
  exact congrArg (fun f => Finset.fold max (⊥ : EReal) f (Finset.univ : Finset (Fin 15))) hf

/-- A device's result at column `j`: the maximum of the maximum of its own 512 rows there and of those of
    the fifteen devices after it round the ring. -/
theorem outOf_apply (X : Dev Cert.KernelIdeal.nD → Vec Ideal Cert.KernelIdeal.S512x256 .f32)
    (c : Dev Cert.KernelIdeal.nD) (u : Fin 1) (j : Fin 256) :
    outOf (F := Ideal) X c (ix2 u j)
      = max ((Finset.univ : Finset (Fin 512)).fold max ⊥ (fun r => X c (ix2 r j)))
          ((Finset.univ : Finset (Fin 15)).fold max ⊥ (fun s =>
            (Finset.univ : Finset (Fin 512)).fold max ⊥ (fun r => X (off c (s.val + 1)) (ix2 r j)))) := by
  unfold outOf Cert.KernelIdeal.Gen.k0_pay2
  rw [maximumf_apply, accOf_apply]
  refine congrArg (max _) ?_
  refine (slotMax15_apply _ _ _ _ u j).trans ?_
  refine congrArg (fun f => Finset.fold max (⊥ : EReal) f (Finset.univ : Finset (Fin 15))) (funext fun s => ?_)
  show accOf (F := Ideal) (X (off c (s.val + 1))) (ix2 u j) = _
  exact accOf_apply _ u j

/-! ## The reference read at a column -/

/-- Column `j` of the whole array with row `k` put back on the reduced axis is (k, j). -/
theorem lift_rows8192 (h : (⟨2, ![8192, 256]⟩ : Shape).Reduces [0] ⟨1, ![256]⟩) (j : Fin 256)
    (k : Fin ((⟨2, ![8192, 256]⟩ : Shape).size 0)) :
    h.lift (ix1 j) k = ix2 (⟨k.val, k.isLt⟩ : Fin 8192) j := by
  funext a
  match a with
  | ⟨0, _⟩ => rfl
  | ⟨1, _⟩ => rfl

/-- The host's reduction with a maximum body from -∞ over the 8192 rows, at column `j`. -/
theorem hostColMax8192_apply (W : FVec Ideal ⟨2, ![8192, 256]⟩ .f32)
    (h' : (⟨2, ![8192, 256]⟩ : Shape).ReducesTo [0] ⟨1, ![256]⟩) (hu : 0 < (⟨0, ![]⟩ : Shape).numel) (j : Fin 256) :
    Host.reduce (FloatOps.maximumf (F := Ideal) (φ := .f32)) W (constant (F := Ideal) ⟨0, ![]⟩ .f32 0xFF800000#32) h' hu (ix1 j)
      = (Finset.univ : Finset (Fin 8192)).fold max ⊥ (fun k => W (ix2 k j)) := by
  have h : (⟨2, ![8192, 256]⟩ : Shape).Reduces [0] ⟨1, ![256]⟩ := by decide
  refine (Host.reduce_eq_fold_single (FloatOps.maximumf (F := Ideal) (φ := .f32)) W _ h' h hu (ix1 j)).trans ?_
  have hf : (W ∘ h.lift (ix1 j)) = fun k : Fin 8192 => W (ix2 k j) :=
    funext fun k => congrArg W (lift_rows8192 h j k)
  have hb : constant (F := Ideal) ⟨0, ![]⟩ .f32 0xFF800000#32 (Shape.Idx.first hu) = (⊥ : EReal) := negInf_eq_bot
  rw [hb]
  exact congrArg (fun f => Finset.fold max (⊥ : EReal) f (Finset.univ : Finset (Fin 8192))) hf

/-- The reference's result at column `j`: the maximum of all 8192 rows there. -/
theorem ref_apply (W : (⟨Cert.ReferenceIdeal.S8192x256, .f32⟩ : BufTy).Contents (Elt Ideal)) (u : Fin 1) (j : Fin 256) :
    Cert.ReferenceIdeal.Read.val_main_v1 (F := Ideal) W (ix2 u j)
      = (Finset.univ : Finset (Fin 8192)).fold max ⊥ (fun k => W (ix2 k j)) := by
  have hi : Cert.ReferenceIdeal.Read.idx_main_v1 (ix2 u j) = ix1 j := by
    funext a
    match a with
    | ⟨0, _⟩ => rfl
  rw [Cert.ReferenceIdeal.Read.val_main_v1_apply, hi]
  exact hostColMax8192_apply W _ _ j

/-! ## The join: sixteen blocks of 512 rows are the 8192 rows -/

/-- Row `r` of device `d`'s block is row `512 d + r` of the whole array. -/
theorem block_row (W : (⟨Cert.ReferenceIdeal.S8192x256, .f32⟩ : BufTy).Contents (Elt Ideal))
    (X : Dev Cert.KernelIdeal.nD → Vec Ideal Cert.KernelIdeal.S512x256 .f32)
    (hX : ∀ c : Dev Cert.KernelIdeal.nD, X c = Layout.block ⟨2, ![512, 256]⟩ ⟨2, ![8192, 256]⟩ 0 16 c W)
    (d : Dev Cert.KernelIdeal.nD) (r : Fin 512) (j : Fin 256) (k : Fin 8192) (hk : k.val = d.val * 512 + r.val) :
    X d (ix2 r j) = W (ix2 k j) := by
  rw [hX d, Layout.block_apply]
  refine congrArg W (funext fun a => Fin.ext ?_)
  match a with
  | ⟨0, _⟩ => exact hk.symm
  | ⟨1, _⟩ => rfl

/-- Every device is `c` itself or one of the fifteen after it round the ring. -/
theorem dev_cases (c d : Dev Cert.KernelIdeal.nD) : d = c ∨ ∃ s : Fin 15, d = off c (s.val + 1) := by
  have hc : c.val < 16 := c.isLt
  have hd : d.val < 16 := d.isLt
  by_cases h : d = c
  · exact Or.inl h
  · have hne : d.val ≠ c.val := fun e => h (Fin.ext e)
    refine Or.inr ⟨⟨(d.val + 16 - c.val) % 16 - 1, by omega⟩, Fin.ext ?_⟩
    simp only [off_val]
    omega

/-- With every device's block of `x` its part of the whole array `W`, each device's result is the
    reference's result on `W`. -/
theorem out_eq_ref (W : (⟨Cert.ReferenceIdeal.S8192x256, .f32⟩ : BufTy).Contents (Elt Ideal))
    (X : Dev Cert.KernelIdeal.nD → Vec Ideal Cert.KernelIdeal.S512x256 .f32)
    (hX : ∀ c : Dev Cert.KernelIdeal.nD, X c = Layout.block ⟨2, ![512, 256]⟩ ⟨2, ![8192, 256]⟩ 0 16 c W)
    (c : Dev Cert.KernelIdeal.nD) :
    outOf (F := Ideal) X c = Cert.ReferenceIdeal.Read.val_main_v1 (F := Ideal) W := by
  funext i
  obtain ⟨u, j, rfl⟩ : ∃ (u : Fin 1) (j : Fin 256), i = ix2 u j := ⟨i 0, i 1, eq_ix2 i⟩
  rw [outOf_apply, ref_apply]
  -- a row of a block is a row of the whole array, so its entry is at most the whole array's maximum
  have hrow : ∀ (d : Dev Cert.KernelIdeal.nD) (r : Fin 512),
      X d (ix2 r j) ≤ (Finset.univ : Finset (Fin 8192)).fold max ⊥ (fun k => W (ix2 k j)) := by
    intro d r
    have hd : d.val < 16 := d.isLt
    rw [block_row W X hX d r j ⟨d.val * 512 + r.val, by omega⟩ rfl]
    exact le_foldMax (fun k : Fin 8192 => W (ix2 k j)) _
  apply le_antisymm
  · -- each block's maximum is at most the whole array's
    refine max_le ?_ ?_
    · exact (foldMax_le_iff _ _).2 fun r => hrow c r
    · exact (foldMax_le_iff _ _).2 fun s => (foldMax_le_iff _ _).2 fun r => hrow (off c (s.val + 1)) r
  · -- row `k` of the whole array is row `k mod 512` of block `k div 512`, which is `c`'s own or a received one
    refine (foldMax_le_iff _ _).2 fun k => ?_
    have hk : k.val < 8192 := k.isLt
    have hq : k.val / 512 < 16 := by omega
    have hW := block_row W X hX ⟨k.val / 512, hq⟩ ⟨k.val % 512, Nat.mod_lt _ (by omega)⟩ j k
      (by show k.val = k.val / 512 * 512 + k.val % 512; omega)
    rw [← hW]
    rcases dev_cases c ⟨k.val / 512, hq⟩ with h | ⟨s, h⟩
    · rw [h]
      exact le_max_of_le_left (le_foldMax (fun r : Fin 512 => X c (ix2 r j)) _)
    · rw [h]
      refine le_max_of_le_right (le_trans ?_ (le_foldMax (fun s : Fin 15 =>
        (Finset.univ : Finset (Fin 512)).fold max ⊥ (fun r => X (off c (s.val + 1)) (ix2 r j))) s))
      exact le_foldMax (fun r : Fin 512 => X (off c (s.val + 1)) (ix2 r j)) _

end Cert.Value

end
-- ==== Proof.lean ====
/-
  The proof of `Cert.Claim`: the five conjuncts, each from one run.

  The kernel, at either float instance, runs on sixteen devices: from any memory with every semaphore counter
  at zero every weakly fair execution terminates, and each device's result array ends holding the maximum of
  its own column maxima and of the fifteen rows the other devices sent it, a pure function of the sixteen
  argument arrays, each argument array unchanged. The two frames of the kernel are that run with the values
  dropped. The reference, on one device, runs to the column maxima of the whole 8192-row array from -∞, reshaped
  to one row, its argument unchanged; its frame is that run with the value dropped. The idealized kernel is the
  kernel's own text read over the extended reals, no operation rewritten, so the preservation conjunct is `True`. For the algebraic conjunct the common value is the reference's
  result on the whole array: when each device's argument array is its block of 512 rows of the whole array,
  the sixteen blocks' column maxima joined by maximum are the whole array's, so every device's result is that
  value, and the reference's run ends at it by definition.
-/
import proofs.«900922_g7700000000000923_dist_max_ax0_shard0_i_m512_n256_v7x_i16_bf16_1_alg».proof.Defs
import proofs.«900922_g7700000000000923_dist_max_ax0_shard0_i_m512_n256_v7x_i16_bf16_1_alg».proof.Proof.Gen.Kernel
import proofs.«900922_g7700000000000923_dist_max_ax0_shard0_i_m512_n256_v7x_i16_bf16_1_alg».proof.Proof.Gen.Kernel.Skeleton
import proofs.«900922_g7700000000000923_dist_max_ax0_shard0_i_m512_n256_v7x_i16_bf16_1_alg».proof.Proof.Gen.Kernel.Launch
import proofs.«900922_g7700000000000923_dist_max_ax0_shard0_i_m512_n256_v7x_i16_bf16_1_alg».proof.Proof.Gen.Kernel.Points
import proofs.«900922_g7700000000000923_dist_max_ax0_shard0_i_m512_n256_v7x_i16_bf16_1_alg».proof.Proof.Gen.Kernel.Frame
import proofs.«900922_g7700000000000923_dist_max_ax0_shard0_i_m512_n256_v7x_i16_bf16_1_alg».proof.Proof.Gen.KernelIdeal
import proofs.«900922_g7700000000000923_dist_max_ax0_shard0_i_m512_n256_v7x_i16_bf16_1_alg».proof.Proof.Gen.KernelIdeal.Skeleton
import proofs.«900922_g7700000000000923_dist_max_ax0_shard0_i_m512_n256_v7x_i16_bf16_1_alg».proof.Proof.Gen.KernelIdeal.Launch
import proofs.«900922_g7700000000000923_dist_max_ax0_shard0_i_m512_n256_v7x_i16_bf16_1_alg».proof.Proof.Gen.KernelIdeal.Points
import proofs.«900922_g7700000000000923_dist_max_ax0_shard0_i_m512_n256_v7x_i16_bf16_1_alg».proof.Proof.Gen.KernelIdeal.Frame
import proofs.«900922_g7700000000000923_dist_max_ax0_shard0_i_m512_n256_v7x_i16_bf16_1_alg».proof.Proof.Gen.ReferenceIdeal
import proofs.«900922_g7700000000000923_dist_max_ax0_shard0_i_m512_n256_v7x_i16_bf16_1_alg».proof.Proof.Gen.Pre_finite_inputs_Kernel
import proofs.«900922_g7700000000000923_dist_max_ax0_shard0_i_m512_n256_v7x_i16_bf16_1_alg».proof.Proof.Gen.Pre_finite_inputs_ReferenceIdeal
import proofs.«900922_g7700000000000923_dist_max_ax0_shard0_i_m512_n256_v7x_i16_bf16_1_alg».proof.Proof.KernelIdealRun
import proofs.«900922_g7700000000000923_dist_max_ax0_shard0_i_m512_n256_v7x_i16_bf16_1_alg».proof.Proof.KernelRun
import proofs.«900922_g7700000000000923_dist_max_ax0_shard0_i_m512_n256_v7x_i16_bf16_1_alg».proof.Proof.Value
import proofs.«900922_g7700000000000923_dist_max_ax0_shard0_i_m512_n256_v7x_i16_bf16_1_alg».proof.Proof.RefSide
import Idealize.ShloMosaic.Adequacy
import Idealize.ShloMosaic.Init

noncomputable section

namespace Cert.Proof

open Idealize.ShloMosaic Idealize.SL.Sem Cert.Kernel

/-- The kernel as printed runs and leaves every device's argument array unchanged: its run, the values dropped. -/
theorem kernel_frame : Cert.frame_Kernel := fun m g _ =>
  (θ_run (Cert.Kernel.defs (F := Bits)) _ _).mono (fun _ h c => (h c).2) (Cert.Kernel.Run.run_post (F := Bits) m g)

/-- The kernel over the extended reals runs and leaves every device's argument array unchanged: its run, the
    values dropped. -/
theorem ideal_frame : Cert.frame_KernelIdeal := fun m g _ =>
  (θ_run (Cert.KernelIdeal.defs (F := Ideal)) _ _).mono (fun _ h c => (h c).2) (Cert.KernelIdeal.Run.run_post (F := Ideal) m g)

/-- The reference runs and leaves its argument array unchanged: its run, the value dropped. -/
theorem reference_frame : Cert.frame_ReferenceIdeal := fun m g _ =>
  (θ_run (Cert.ReferenceIdeal.defs (F := Ideal)) _ _).mono (fun _ h c => (h c).2) (Cert.ReferenceIdeal.Value.run (F := Ideal) m g)

/-- The idealized kernel is the kernel's own text read over the extended reals: no operation was rewritten. -/
theorem ideal_preserves : Cert.preserves_Kernel_KernelIdeal := trivial

/-- With each device's argument array its block of 512 rows of the reference's whole array, both programs run,
    every device's result array and the reference's end at one value, the column maxima of the whole array,
    and all arguments end unchanged. -/
theorem ideal_algebraic : Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · -- each device's result, a function of the sixteen blocks, is the reference's value on the whole array
    exact (θ_run (Cert.KernelIdeal.defs (F := Ideal)) _ _).mono
      (fun _ h c => ⟨(h c).1.trans (Cert.Value.out_eq_ref _
          (fun d : Dev Cert.KernelIdeal.nD => m ((d.tc : Thread Cert.KernelIdeal.nD Cert.KernelIdeal.τ).loc Cert.KernelIdeal.main_arg0)) hagree c), (h c).2⟩)
      (Cert.KernelIdeal.Run.run_post (F := Ideal) m g)
  · -- the reference's run, read at its one device, ends at that value by definition
    exact (θ_run (Cert.ReferenceIdeal.defs (F := Ideal)) _ _).mono
      (fun _ h => ⟨(h 0).1.trans (Cert.ReferenceIdeal.Read.val_main_v1_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  kernel_frame, ideal_frame, reference_frame, ideal_preserves, ideal_algebraic⟩

end Cert.Proof

end
